-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x768 : Shape := ⟨3, ![4, 2048, 768]⟩
abbrev S2304x768 : Shape := ⟨2, ![2304, 768]⟩
abbrev S768x768 : Shape := ⟨2, ![768, 768]⟩
abbrev S_ : Shape := ⟨0, ![]⟩

class Facts : Prop where
  bcast_S_S4x2048x768 : S_.BroadcastsInDim S4x2048x768 (![] : Fin 0 → Fin S4x2048x768.rank)
  reducesTo_S4x2048x768_S_d0_1_2 : S4x2048x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S768x768 : S_.BroadcastsInDim S768x768 (![] : Fin 0 → Fin S768x768.rank)
  reducesTo_S768x768_S_d0_1 : S768x768.ReducesTo [0, 1] S_

variable [Facts]

def fn {F : FTy → Type} [FloatOps F] (main_arg0 : FVec F S4x2048x768 .f32) (main_arg1 : FVec F S2304x768 .f32) (main_arg2 : FVec F S768x768 .f32) : IVec S_ 1 :=
  let main_v0 : FVec F S4x2048x768 .f32 := Host.absf main_arg0
  let main_cst : FVec F S_ .f32 := constant S_ .f32 0x7F800000#32
  let main_v1 : FVec F S4x2048x768 .f32 := broadcastInDim S4x2048x768 ![] bcast_S_S4x2048x768 main_cst
  let main_v2 : IVec S4x2048x768 1 := cmpf .olt main_v0 main_v1
  let main_c : IVec S_ 1 := constantI S_ 1 1#1
  let main_v3 : IVec S_ 1 := (fun x v => Host.reduce IntOp.andi x v reducesTo_S4x2048x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S768x768 .f32 := Host.absf main_arg2
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  main_v13
-- ==== Kernel.lean ====
abbrev S4x2048x768 : Shape := ⟨3, ![4, 2048, 768]⟩
abbrev S2304x768 : Shape := ⟨2, ![2304, 768]⟩
abbrev S768x768 : Shape := ⟨2, ![768, 768]⟩
abbrev S10 : Shape := ⟨1, ![10]⟩
abbrev S8192x768 : Shape := ⟨2, ![8192, 768]⟩
abbrev S768x2304 : Shape := ⟨2, ![768, 2304]⟩
abbrev S8192x2304 : Shape := ⟨2, ![8192, 2304]⟩
abbrev S512x768 : Shape := ⟨2, ![512, 768]⟩
abbrev S512x2304 : Shape := ⟨2, ![512, 2304]⟩
abbrev S4x2048x2304 : Shape := ⟨3, ![4, 2048, 2304]⟩
abbrev S1x512x256 : Shape := ⟨3, ![1, 512, 256]⟩
abbrev S1 : Shape := ⟨1, ![1]⟩
abbrev S512x1 : Shape := ⟨2, ![512, 1]⟩
abbrev S512x256 : Shape := ⟨2, ![512, 256]⟩
abbrev S256x512 : Shape := ⟨2, ![256, 512]⟩
abbrev S512x512 : Shape := ⟨2, ![512, 512]⟩
abbrev S512 : Shape := ⟨1, ![512]⟩
abbrev S1024x768 : Shape := ⟨2, ![1024, 768]⟩

abbrev nBuf : Space → Nat
  | .hbm => 14
  | .vmem => 21
  | .smem => 2
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S8192x768, .f32⟩
  | .hbm, ⟨4, _⟩ => ⟨S768x2304, .f32⟩
  | .hbm, ⟨5, _⟩ => ⟨S768x2304, .bf16⟩
  | .hbm, ⟨6, _⟩ => ⟨S768x768, .f32⟩
  | .hbm, ⟨7, _⟩ => ⟨S768x768, .bf16⟩
  | .hbm, ⟨8, _⟩ => ⟨S8192x2304, .bf16⟩
  | .hbm, ⟨9, _⟩ => ⟨S4x2048x2304, .bf16⟩
  | .hbm, ⟨10, _⟩ => ⟨S4x2048x768, .bf16⟩
  | .hbm, ⟨11, _⟩ => ⟨S8192x768, .bf16⟩
  | .hbm, ⟨12, _⟩ => ⟨S8192x768, .f32⟩
  | .hbm, ⟨13, _⟩ => ⟨S4x2048x768, .f32⟩
  | .local _ .vmem, ⟨0, _⟩ => ⟨S512x768, .f32⟩
  | .local _ .vmem, ⟨1, _⟩ => ⟨S512x768, .f32⟩
  | .local _ .vmem, ⟨2, _⟩ => ⟨S768x2304, .bf16⟩
  | .local _ .vmem, ⟨3, _⟩ => ⟨S512x2304, .bf16⟩
  | .local _ .vmem, ⟨4, _⟩ => ⟨S512x2304, .bf16⟩
  | .local _ .vmem, ⟨5, _⟩ => ⟨S1x512x256, .bf16⟩
  | .local _ .vmem, ⟨6, _⟩ => ⟨S1x512x256, .bf16⟩
  | .local _ .vmem, ⟨7, _⟩ => ⟨S1x512x256, .bf16⟩
  | .local _ .vmem, ⟨8, _⟩ => ⟨S1x512x256, .bf16⟩
  | .local _ .vmem, ⟨9, _⟩ => ⟨S1x512x256, .bf16⟩
  | .local _ .vmem, ⟨10, _⟩ => ⟨S1x512x256, .bf16⟩
  | .local _ .vmem, ⟨11, _⟩ => ⟨S1x512x256, .bf16⟩
  | .local _ .vmem, ⟨12, _⟩ => ⟨S1x512x256, .bf16⟩
  | .local _ .vmem, ⟨13, _⟩ => ⟨S512x1, .f32⟩
  | .local _ .vmem, ⟨14, _⟩ => ⟨S512x1, .f32⟩
  | .local _ .vmem, ⟨15, _⟩ => ⟨S512x256, .f32⟩
  | .local _ .vmem, ⟨16, _⟩ => ⟨S1024x768, .bf16⟩
  | .local _ .vmem, ⟨17, _⟩ => ⟨S1024x768, .bf16⟩
  | .local _ .vmem, ⟨18, _⟩ => ⟨S768x768, .bf16⟩
  | .local _ .vmem, ⟨19, _⟩ => ⟨S1024x768, .f32⟩
  | .local _ .vmem, ⟨20, _⟩ => ⟨S1024x768, .f32⟩
  | .local _ .smem, ⟨0, _⟩ => ⟨S10, .i32⟩
  | .local _ .smem, ⟨1, _⟩ => ⟨S10, .i32⟩
  | _, _ => ⟨S4x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.smem, 0, rfl⟩
abbrev main_c_0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![12, 10], ![false, false]⟩

abbrev pre1 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k1_off1 (i : grid1.Coords) : Fin 1 → Nat :=
  let arg1 : BitVec 32 := BitVec.ofNat 32 (i 1).val
  let v17 : Index := Scalar.indexCast arg1
  ![v17.toNat]
def k1_cond2 (v1 : BitVec 32) (v3 : BitVec 32) : BitVec 1 :=
  let v57 : BitVec 1 := Scalar.cmpi .eq v3 v1
  let v58 : BitVec 32 := Scalar.extui v57
  let c0_i32_27 : BitVec 32 := 0#32
  let v59 : BitVec 1 := Scalar.cmpi .ne v58 c0_i32_27
  v59

def cc1_transform_0 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg1
  let v18 : BitVec 32 := pf.at 0 (Rect.unit (s := S10) ![v17.toNat] S1.size (k1_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v16.toNat, v18.toNat, v28.toNat]

def cc1_transform_1 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg1
  let v18 : BitVec 32 := pf.at 1 (Rect.unit (s := S10) ![v17.toNat] S1.size (k1_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c3_i32_10 : BitVec 32 := 3#32
  let v29 : BitVec 32 := Scalar.addi c3_i32_10 v28
  let c0_i32_11 : BitVec 32 := 0#32
  ![v16.toNat, v18.toNat, v29.toNat]

def cc1_transform_2 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg1
  let v18 : BitVec 32 := pf.at 1 (Rect.unit (s := S10) ![v17.toNat] S1.size (k1_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c6_i32 : BitVec 32 := 6#32
  let v29 : BitVec 32 := Scalar.addi c6_i32 v28
  let c0_i32_10 : BitVec 32 := 0#32
  ![v16.toNat, v18.toNat, v29.toNat]

def cc1_transform_3 (k1_off1_inb : ∀ i : grid1.Coords, ∀ a, (k1_off1 i) a + S1.size a ≤ S10.size a) (numel1_S1 : S1.numel = 1) (pf : pre1.Contents (Elt F)) (i : grid1.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg0 c3_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg0 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let v17 : Index := Scalar.indexCast arg1
  let v18 : BitVec 32 := pf.at 0 (Rect.unit (s := S10) ![v17.toNat] S1.size (k1_off1_inb i)) numel1_S1
  let c3_i32_4 : BitVec 32 := 3#32
  let c0_i32_5 : BitVec 32 := 0#32
  let v19 : BitVec 1 := Scalar.cmpi .eq c3_i32_4 c0_i32_5
  let c1_i32_6 : BitVec 32 := 1#32
  let v20 : BitVec 32 := Scalar.select v19 c1_i32_6 c3_i32_4
  let v21 : BitVec 32 := Scalar.remsi arg0 v20
  let c0_i32_7 : BitVec 32 := 0#32
  let v22 : BitVec 1 := Scalar.cmpi .ne v21 c0_i32_7
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let v26 : BitVec 1 := Scalar.andi v25 v22
  let v27 : BitVec 32 := Scalar.addi v21 v20
  let v28 : BitVec 32 := Scalar.select v26 v27 v21
  let c0_i32_10 : BitVec 32 := 0#32
  ![v16.toNat, v18.toNat, v28.toNat]

abbrev stage1_0 : Fin 2 → Memref sig .tc .vmem S1x512x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x512x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x768 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S768x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x768 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S4x2048x768_S8192x768 : S4x2048x768.ShapeCasts S8192x768
  transposes_S2304x768_S768x2304_1_0 : S2304x768.Transposes [1, 0] S768x2304
  bitsLt_bf16_f32 : FTy.bits .bf16 < FTy.bits .f32
  transposes_S768x768_S768x768_1_0 : S768x768.Transposes [1, 0] S768x768
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S768x2304_S768x2304_0_0 : ∀ a, (![0, 0] : Fin 2 → Nat) a + S768x2304.size a ≤ S768x2304.size a
  h_S768x2304 : 0 < S768x2304.numel
  shapeCasts_S768x2304_S768x2304 : S768x2304.ShapeCasts S768x2304
  inb_S512x2304_S512x2304_0_0 : ∀ a, (![0, 0] : Fin 2 → Nat) a + S512x2304.size a ≤ S512x2304.size a
  h_S512x2304 : 0 < S512x2304.numel
  packedbf16_S512x2304_S512x2304_0_0 : (Rect.unit (s := S512x2304) ![0, 0] S512x2304.size inb_S512x2304_S512x2304_0_0).PackedRows (EltTy.packing .bf16)
  shapeCasts_S8192x2304_S4x2048x2304 : S8192x2304.ShapeCasts S4x2048x2304
  numel1_S1 : S1.numel = 1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  transposes_S512x256_p1_0_S256x512 : S512x256.Transposes [1, 0] S256x512
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x256 : S512x1.Broadcasts S512x256
  shapeCasts_S512x256_S1x512x256 : S512x256.ShapeCasts S1x512x256
  packedbf16_S1x512x256_S1x512x256_0_0_0 : (Rect.unit (s := S1x512x256) ![0, 0, 0] S1x512x256.size inb_S1x512x256_S1x512x256_0_0_0).PackedRows (EltTy.packing .bf16)
  inb_S1024x768_S1024x768_0_0 : ∀ a, (![0, 0] : Fin 2 → Nat) a + S1024x768.size a ≤ S1024x768.size a
  h_S1024x768 : 0 < S1024x768.numel
  shapeCasts_S1024x768_S1024x768 : S1024x768.ShapeCasts S1024x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S8192x768_S4x2048x768 : S8192x768.ShapeCasts S4x2048x768
  dot_S512x768_S768x2304_S512x2304_1_0_0_1_n_n_wf : DotDims.WF S512x768 S768x2304 S512x2304 [1] [0] [0] [1] [] []
  dot_S512x256_S256x512_S512x512_1_0_0_1_n_n_wf : DotDims.WF S512x256 S256x512 S512x512 [1] [0] [0] [1] [] []
  dot_S512x512_S512x256_S512x256_1_0_0_1_n_n_wf : DotDims.WF S512x512 S512x256 S512x256 [1] [0] [0] [1] [] []
  dot_S1024x768_S768x768_S1024x768_1_0_0_1_n_n_wf : DotDims.WF S1024x768 S768x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S8192x768.size a
  hwx0_0 : ∀ i : grid0.Coords, EltTy.bits .f32 = 32 ∨ (Rect.block (s := S8192x768) S512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x2304.size a ≤ S768x2304.size a
  hwx0_1 : ∀ i : grid0.Coords, EltTy.bits .bf16 = 32 ∨ (Rect.block (s := S768x2304) S768x2304.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2304.size a ≤ S8192x2304.size a
  hwx0_2 : ∀ i : grid0.Coords, EltTy.bits .bf16 = 32 ∨ (Rect.block (s := S8192x2304) S512x2304.size (cc0_transform_2 i) (hinb0_2 i)).WholeWords (EltTy.packing .bf16)
  hrank1 : 0 < grid1.rank
  k1_off1_inb : ∀ i : grid1.Coords, ∀ a, (k1_off1 i) a + S1.size a ≤ S10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1 pf i = cc1_transform_0 k1_off1_inb numel1_S1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1 pf i = cc1_transform_1 k1_off1_inb numel1_S1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1 pf i = cc1_transform_2 k1_off1_inb numel1_S1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1 pf i = cc1_transform_3 k1_off1_inb numel1_S1 pf i'
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x768.size a ≤ S8192x768.size a
  hwx2_0 : ∀ i : grid2.Coords, EltTy.bits .bf16 = 32 ∨ (Rect.block (s := S8192x768) S1024x768.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S768x768.size a ≤ S768x768.size a
  hwx2_1 : ∀ i : grid2.Coords, EltTy.bits .bf16 = 32 ∨ (Rect.block (s := S768x768) S768x768.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x768.size a ≤ S8192x768.size a
  hwx2_2 : ∀ i : grid2.Coords, EltTy.bits .f32 = 32 ∨ (Rect.block (s := S8192x768) S1024x768.size (cc2_transform_2 i) (hinb2_2 i)).WholeWords (EltTy.packing .f32)

variable [Facts₀]

def dot_S512x768_S768x2304_S512x2304_1_0_0_1_n_n : DotDims S512x768 S768x2304 S512x2304 where
  lhsContracting := [1]
  rhsContracting := [0]
  lhsNonContracting := [0]
  rhsNonContracting := [1]
  lhsBatch := []
  rhsBatch := []
  wf := dot_S512x768_S768x2304_S512x2304_1_0_0_1_n_n_wf
def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf
def dot_S512x512_S512x256_S512x256_1_0_0_1_n_n : DotDims S512x512 S512x256 S512x256 where
  lhsContracting := [1]
  rhsContracting := [0]
  lhsNonContracting := [0]
  rhsNonContracting := [1]
  lhsBatch := []
  rhsBatch := []
  wf := dot_S512x512_S512x256_S512x256_1_0_0_1_n_n_wf
def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf

abbrev win0_0 : Pipeline.Window sig grid0 :=
  Pipeline.Window.ofSpec (Memref.whole main_v0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S768x2304.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S512x2304.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v6) S1x512x256.size reads1_0 false false 2 stage1_0 sem1_0 nbuf1_0 hstage1_0

abbrev spec1_1 : Pipeline.WinSpec sig grid1.rank :=
  Pipeline.WinSpec.ofSpec (Memref.whole main_v6) S1x512x256.size reads1_1 false false 2 stage1_1 sem1_1 nbuf1_1 hstage1_1

abbrev spec1_2 : Pipeline.WinSpec sig grid1.rank :=
  Pipeline.WinSpec.ofSpec (Memref.whole main_v6) S1x512x256.size reads1_2 false false 2 stage1_2 sem1_2 nbuf1_2 hstage1_2

abbrev spec1_3 : Pipeline.WinSpec sig grid1.rank :=
  Pipeline.WinSpec.ofSpec (Memref.whole main_v7) S1x512x256.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1 pf | 1 => cc1_transform_1 k1_off1_inb numel1_S1 pf | 2 => cc1_transform_2 k1_off1_inb numel1_S1 pf | 3 => cc1_transform_3 k1_off1_inb numel1_S1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1 pf i a + 1) * S1x512x256.size a ≤ S4x2048x2304.size a), EltTy.bits .bf16 = 32 ∨ (Rect.block (s := S4x2048x2304) S1x512x256.size (cc1_transform_0 k1_off1_inb numel1_S1 pf i) h).WholeWords (EltTy.packing .bf16)) ∧
  (∀ i : grid1.Coords, ∃ h : (∀ a, (cc1_transform_1 k1_off1_inb numel1_S1 pf i a + 1) * S1x512x256.size a ≤ S4x2048x2304.size a), EltTy.bits .bf16 = 32 ∨ (Rect.block (s := S4x2048x2304) S1x512x256.size (cc1_transform_1 k1_off1_inb numel1_S1 pf i) h).WholeWords (EltTy.packing .bf16)) ∧
  (∀ i : grid1.Coords, ∃ h : (∀ a, (cc1_transform_2 k1_off1_inb numel1_S1 pf i a + 1) * S1x512x256.size a ≤ S4x2048x2304.size a), EltTy.bits .bf16 = 32 ∨ (Rect.block (s := S4x2048x2304) S1x512x256.size (cc1_transform_2 k1_off1_inb numel1_S1 pf i) h).WholeWords (EltTy.packing .bf16)) ∧
  (∀ i : grid1.Coords, ∃ h : (∀ a, (cc1_transform_3 k1_off1_inb numel1_S1 pf i a + 1) * S1x512x256.size a ≤ S4x2048x768.size a), EltTy.bits .bf16 = 32 ∨ (Rect.block (s := S4x2048x768) S1x512x256.size (cc1_transform_3 k1_off1_inb numel1_S1 pf i) h).WholeWords (EltTy.packing .bf16))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 0 (k1_off1 i)) (pf.atD 1 (k1_off1 i)) == 1#1) | ⟨_ + 4, h⟩ => absurd h (Nat.not_lt.2 (Nat.le_add_left _ _))

abbrev win2_0 : Pipeline.Window sig grid2 :=
  Pipeline.Window.ofSpec (Memref.whole main_v8) S1024x768.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v4) S768x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x768.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where
  harr1 : ∀ w, (spec1 w).arr.IsWhole

variable [Facts]
-- ==== ReferenceIdeal.lean ====
abbrev S4x2048x768 : Shape := ⟨3, ![4, 2048, 768]⟩
abbrev S2304x768 : Shape := ⟨2, ![2304, 768]⟩
abbrev S768x768 : Shape := ⟨2, ![768, 768]⟩
abbrev S4x2048x2304 : Shape := ⟨3, ![4, 2048, 2304]⟩
abbrev S4x2048x3x256 : Shape := ⟨4, ![4, 2048, 3, 256]⟩
abbrev S4x3x2048x256 : Shape := ⟨4, ![4, 3, 2048, 256]⟩
abbrev S4x3x2048x2048 : Shape := ⟨4, ![4, 3, 2048, 2048]⟩
abbrev S_ : Shape := ⟨0, ![]⟩
abbrev S2048x2048 : Shape := ⟨2, ![2048, 2048]⟩
abbrev S1x1x2048x2048 : Shape := ⟨4, ![1, 1, 2048, 2048]⟩
abbrev S4x3x2048 : Shape := ⟨3, ![4, 3, 2048]⟩
abbrev S4x3x2048x1 : Shape := ⟨4, ![4, 3, 2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S4x2048x768, .f32⟩
  | .hbm, ⟨1, _⟩ => ⟨S2304x768, .f32⟩
  | .hbm, ⟨2, _⟩ => ⟨S768x768, .f32⟩
  | .hbm, ⟨3, _⟩ => ⟨S4x2048x2304, .f32⟩
  | .hbm, ⟨4, _⟩ => ⟨S4x2048x768, .f32⟩
  | .hbm, ⟨5, _⟩ => ⟨S4x2048x768, .f32⟩
  | .hbm, ⟨6, _⟩ => ⟨S4x2048x768, .f32⟩
  | .hbm, ⟨7, _⟩ => ⟨S4x2048x3x256, .f32⟩
  | .hbm, ⟨8, _⟩ => ⟨S4x3x2048x256, .f32⟩
  | .hbm, ⟨9, _⟩ => ⟨S4x2048x3x256, .f32⟩
  | .hbm, ⟨10, _⟩ => ⟨S4x3x2048x256, .f32⟩
  | .hbm, ⟨11, _⟩ => ⟨S4x2048x3x256, .f32⟩
  | .hbm, ⟨12, _⟩ => ⟨S4x3x2048x256, .f32⟩
  | .hbm, ⟨13, _⟩ => ⟨S4x3x2048x2048, .f32⟩
  | .hbm, ⟨14, _⟩ => ⟨S_, .f32⟩
  | .hbm, ⟨15, _⟩ => ⟨S4x3x2048x2048, .f32⟩
  | .hbm, ⟨16, _⟩ => ⟨S4x3x2048x2048, .f32⟩
  | .hbm, ⟨17, _⟩ => ⟨S_, .i1⟩
  | .hbm, ⟨18, _⟩ => ⟨S2048x2048, .i1⟩
  | .hbm, ⟨19, _⟩ => ⟨S2048x2048, .i32⟩
  | .hbm, ⟨20, _⟩ => ⟨S_, .i32⟩
  | .hbm, ⟨21, _⟩ => ⟨S2048x2048, .i32⟩
  | .hbm, ⟨22, _⟩ => ⟨S2048x2048, .i32⟩
  | .hbm, ⟨23, _⟩ => ⟨S2048x2048, .i32⟩
  | .hbm, ⟨24, _⟩ => ⟨S2048x2048, .i1⟩
  | .hbm, ⟨25, _⟩ => ⟨S_, .i1⟩
  | .hbm, ⟨26, _⟩ => ⟨S2048x2048, .i1⟩
  | .hbm, ⟨27, _⟩ => ⟨S2048x2048, .i1⟩
  | .hbm, ⟨28, _⟩ => ⟨S1x1x2048x2048, .i1⟩
  | .hbm, ⟨29, _⟩ => ⟨S_, .f32⟩
  | .hbm, ⟨30, _⟩ => ⟨S_, .f32⟩
  | .hbm, ⟨31, _⟩ => ⟨S4x3x2048x2048, .i1⟩
  | .hbm, ⟨32, _⟩ => ⟨S4x3x2048x2048, .f32⟩
  | .hbm, ⟨33, _⟩ => ⟨S4x3x2048x2048, .f32⟩
  | .hbm, ⟨34, _⟩ => ⟨S_, .f32⟩
  | .hbm, ⟨35, _⟩ => ⟨S4x3x2048, .f32⟩
  | .hbm, ⟨36, _⟩ => ⟨S_, .f32⟩
  | .hbm, ⟨37, _⟩ => ⟨S4x3x2048, .f32⟩
  | .hbm, ⟨38, _⟩ => ⟨S4x3x2048, .f32⟩
  | .hbm, ⟨39, _⟩ => ⟨S4x3x2048x1, .f32⟩
  | .hbm, ⟨40, _⟩ => ⟨S4x3x2048x2048, .f32⟩
  | .hbm, ⟨41, _⟩ => ⟨S4x3x2048x2048, .f32⟩
  | .hbm, ⟨42, _⟩ => ⟨S4x3x2048x2048, .f32⟩
  | .hbm, ⟨43, _⟩ => ⟨S_, .f32⟩
  | .hbm, ⟨44, _⟩ => ⟨S4x3x2048, .f32⟩
  | .hbm, ⟨45, _⟩ => ⟨S4x3x2048x1, .f32⟩
  | .hbm, ⟨46, _⟩ => ⟨S4x3x2048x2048, .f32⟩
  | .hbm, ⟨47, _⟩ => ⟨S4x3x2048x2048, .f32⟩
  | .hbm, ⟨48, _⟩ => ⟨S4x3x2048x256, .f32⟩
  | .hbm, ⟨49, _⟩ => ⟨S4x2048x3x256, .f32⟩
  | .hbm, ⟨50, _⟩ => ⟨S4x2048x768, .f32⟩
  | .hbm, ⟨51, _⟩ => ⟨S4x2048x768, .f32⟩
  | _, _ => ⟨S4x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_call0_v0 : Ref sig .tc := ⟨.hbm, 19, rfl⟩
abbrev main_call0_c : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_c_0 : Ref sig .tc := ⟨.hbm, 25, rfl⟩
abbrev main_call0_v5 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_v16 : Ref sig .tc := ⟨.hbm, 33, rfl⟩
abbrev main_cst_1 : Ref sig .tc := ⟨.hbm, 34, rfl⟩
abbrev main_v17 : Ref sig .tc := ⟨.hbm, 35, rfl⟩
abbrev main_cst_2 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]

class Facts₀ : Prop where
  slices_S4x2048x2304_S4x2048x768_0_0_0 : S4x2048x2304.Slices ![0, 0, 0] S4x2048x768
  slices_S4x2048x2304_S4x2048x768_0_0_768 : S4x2048x2304.Slices ![0, 0, 768] S4x2048x768
  slices_S4x2048x2304_S4x2048x768_0_0_1536 : S4x2048x2304.Slices ![0, 0, 1536] S4x2048x768
  shapeCasts_S4x2048x768_S4x2048x3x256 : S4x2048x768.ShapeCasts S4x2048x3x256
  transposes_S4x2048x3x256_S4x3x2048x256_0_2_1_3 : S4x2048x3x256.Transposes [0, 2, 1, 3] S4x3x2048x256
  bcast_S_S4x3x2048x2048 : S_.BroadcastsInDim S4x3x2048x2048 (![] : Fin 0 → Fin S4x3x2048x2048.rank)
  bcast_S_S2048x2048 : S_.BroadcastsInDim S2048x2048 (![] : Fin 0 → Fin S2048x2048.rank)
  bcast_S2048x2048_S1x1x2048x2048_2_3 : S2048x2048.BroadcastsInDim S1x1x2048x2048 (![2, 3] : Fin 2 → Fin S1x1x2048x2048.rank)
  bcast_S1x1x2048x2048_S4x3x2048x2048_0_1_2_3 : S1x1x2048x2048.BroadcastsInDim S4x3x2048x2048 (![0, 1, 2, 3] : Fin 4 → Fin S4x3x2048x2048.rank)
  reducesTo_S4x3x2048x2048_S4x3x2048_d3 : S4x3x2048x2048.ReducesTo [3] S4x3x2048
  h_S_ : 0 < S_.numel
  bcast_S_S4x3x2048 : S_.BroadcastsInDim S4x3x2048 (![] : Fin 0 → Fin S4x3x2048.rank)
  bcast_S4x3x2048_S4x3x2048x1_0_1_2 : S4x3x2048.BroadcastsInDim S4x3x2048x1 (![0, 1, 2] : Fin 3 → Fin S4x3x2048x1.rank)
  bcast_S4x3x2048x1_S4x3x2048x2048_0_1_2_3 : S4x3x2048x1.BroadcastsInDim S4x3x2048x2048 (![0, 1, 2, 3] : Fin 4 → Fin S4x3x2048x2048.rank)
  transposes_S4x3x2048x256_S4x2048x3x256_0_2_1_3 : S4x3x2048x256.Transposes [0, 2, 1, 3] S4x2048x3x256
  shapeCasts_S4x2048x3x256_S4x2048x768 : S4x2048x3x256.ShapeCasts S4x2048x768
  dot_S4x2048x768_S2304x768_S4x2048x2304_2_1_01_0_n_n_wf : DotDims.WF S4x2048x768 S2304x768 S4x2048x2304 [2] [1] [0, 1] [0] [] []
  dot_S4x3x2048x256_S4x3x2048x256_S4x3x2048x2048_3_3_2_2_01_01_wf : DotDims.WF S4x3x2048x256 S4x3x2048x256 S4x3x2048x2048 [3] [3] [2] [2] [0, 1] [0, 1]
  dot_S4x3x2048x2048_S4x3x2048x256_S4x3x2048x256_3_2_2_3_01_01_wf : DotDims.WF S4x3x2048x2048 S4x3x2048x256 S4x3x2048x256 [3] [2] [2] [3] [0, 1] [0, 1]
  dot_S4x2048x768_S768x768_S4x2048x768_2_1_01_0_n_n_wf : DotDims.WF S4x2048x768 S768x768 S4x2048x768 [2] [1] [0, 1] [0] [] []

variable [Facts₀]

def dot_S4x2048x768_S2304x768_S4x2048x2304_2_1_01_0_n_n : DotDims S4x2048x768 S2304x768 S4x2048x2304 where
  lhsContracting := [2]
  rhsContracting := [1]
  lhsNonContracting := [0, 1]
  rhsNonContracting := [0]
  lhsBatch := []
  rhsBatch := []
  wf := dot_S4x2048x768_S2304x768_S4x2048x2304_2_1_01_0_n_n_wf
def dot_S4x3x2048x256_S4x3x2048x256_S4x3x2048x2048_3_3_2_2_01_01 : DotDims S4x3x2048x256 S4x3x2048x256 S4x3x2048x2048 where
  lhsContracting := [3]
  rhsContracting := [3]
  lhsNonContracting := [2]
  rhsNonContracting := [2]
  lhsBatch := [0, 1]
  rhsBatch := [0, 1]
  wf := dot_S4x3x2048x256_S4x3x2048x256_S4x3x2048x2048_3_3_2_2_01_01_wf
def dot_S4x3x2048x2048_S4x3x2048x256_S4x3x2048x256_3_2_2_3_01_01 : DotDims S4x3x2048x2048 S4x3x2048x256 S4x3x2048x256 where
  lhsContracting := [3]
  rhsContracting := [2]
  lhsNonContracting := [2]
  rhsNonContracting := [3]
  lhsBatch := [0, 1]
  rhsBatch := [0, 1]
  wf := dot_S4x3x2048x2048_S4x3x2048x256_S4x3x2048x256_3_2_2_3_01_01_wf
def dot_S4x2048x768_S768x768_S4x2048x768_2_1_01_0_n_n : DotDims S4x2048x768 S768x768 S4x2048x768 where
  lhsContracting := [2]
  rhsContracting := [1]
  lhsNonContracting := [0, 1]
  rhsNonContracting := [0]
  lhsBatch := []
  rhsBatch := []
  wf := dot_S4x2048x768_S768x768_S4x2048x768_2_1_01_0_n_n_wf

class Facts : Prop extends Facts₀ where

variable [Facts]
-- ==== Proof.Region0.lean ====
/-
  Call 0 of the kernel, the projection X · W_qkvᵀ tiled over 16 row blocks of 512 rows: at every grid point the body
  loads its 512 × 768 block of X and the whole 768 × 2304 weight, multiplies them into a zero accumulator and stores the
  512 × 2304 product over its output block. Here: what the output block holds after the body as a function of the two
  input blocks (`out0_2`), the body's triple, the proof data of the pipeline at any entry contents `V` of the core's
  buffers, and the body obligation at every grid point. Nothing is carried between points and every window is live at
  every point, so the invariant is the class invariant `ΦA` (scoped rest and generator register, untouched).
-/
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X window's staging buffer holds the point's row block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point: fetched at the first, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rx0 : Rect S512x768 := Rect.unit (s := S512x768) ![0, 0] S512x768.size inb_S512x768_S512x768_0_0
abbrev rw0 : Rect S768x2304 := Rect.unit (s := S768x2304) ![0, 0] S768x2304.size inb_S768x2304_S768x2304_0_0
abbrev ro0 : Rect S512x2304 := Rect.unit (s := S512x2304) ![0, 0] S512x2304.size inb_S512x2304_S512x2304_0_0

/-- The output block after the body: its one store, the product of the two loaded blocks, over the whole buffer. -/
def out0_2 (x0 : Vec F S512x768 .f32) (x1 : Vec F S768x2304 .bf16) : Vec F S512x2304 .bf16 :=
  View.canon [⟨ro0, k0_pay1 (View.ld x0 rx0) (View.ld x1 rw0)⟩]

theorem cover0_2 (p0 : Vec F S512x2304 .bf16) (y : S512x2304.Idx) :
    ∃ pc ∈ ([⟨ro0, p0⟩] : List (View.Piece (Elt F) S512x2304 .bf16)), y ∈ pc.1.set :=
  View.cover_of_tiled [⟨ro0, p0⟩] S512x2304.size (by rfl) y

/-! ## The body's triple -/

set_option maxHeartbeats 1000000 in
/-- The body on whole staging memrefs: the inputs at `x0`, `x1`, the output at anything; it ends with the inputs as they
    were and the output at `out0_2 x0 x1`. -/
theorem sound_kernel0 (c : Dev nD) (E : Set ℕ) (i : grid0.Coords)
    (arg1 : Memref sig .tc .vmem S512x768 .f32) (harg1 : arg1.IsWhole) (arg2 : Memref sig .tc .vmem S768x2304 .bf16) (harg2 : arg2.IsWhole)
    (arg3 : Memref sig .tc .vmem S512x2304 .bf16) (harg3 : arg3.IsWhole)
    (x0 : Vec F S512x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of call 0 on core `c` at entry contents `V`: each input's buffer at its block after the body, the
    output's at the product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Region2.lean ====
/-
  Call 2 of the kernel, the output projection A · W_projᵀ tiled over 8 row blocks of 1024 rows: at every grid point the body
  loads its 1024 × 768 block of the attention output and the whole 768 × 768 weight, multiplies them into a zero accumulator
  and stores the 1024 × 768 product over its output block. Here: what the output block holds after the body as a function of the two
  input blocks (`out2_2`), the body's triple, the proof data of the pipeline at any entry contents `V` of the core's
  buffers, and the body obligation at every grid point. Nothing is carried between points and every window is live at
  every point, so the invariant is the class invariant `ΦA` (scoped rest and generator register, untouched).
-/
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention-output window's staging buffer holds the point's row block, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight at every point: fetched at the first, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev rx2 : Rect S1024x768 := Rect.unit (s := S1024x768) ![0, 0] S1024x768.size inb_S1024x768_S1024x768_0_0
abbrev rw2 : Rect S768x768 := Rect.unit (s := S768x768) ![0, 0] S768x768.size inb_S768x768_S768x768_0_0
abbrev ro2 : Rect S1024x768 := Rect.unit (s := S1024x768) ![0, 0] S1024x768.size inb_S1024x768_S1024x768_0_0

/-- The output block after the body: its one store, the product of the two loaded blocks, over the whole buffer. -/
def out2_2 (x0 : Vec F S1024x768 .bf16) (x1 : Vec F S768x768 .bf16) : Vec F S1024x768 .f32 :=
  View.canon [⟨ro2, k2_pay1 (View.ld x0 rx2) (View.ld x1 rw2)⟩]

theorem cover2_2 (p0 : Vec F S1024x768 .f32) (y : S1024x768.Idx) :
    ∃ pc ∈ ([⟨ro2, p0⟩] : List (View.Piece (Elt F) S1024x768 .f32)), y ∈ pc.1.set :=
  View.cover_of_tiled [⟨ro2, p0⟩] S1024x768.size (by rfl) y

/-! ## The body's triple -/

set_option maxHeartbeats 1000000 in
/-- The body on whole staging memrefs: the inputs at `x0`, `x1`, the output at anything; it ends with the inputs as they
    were and the output at `out2_2 x0 x1`. -/
theorem sound_kernel2 (c : Dev nD) (E : Set ℕ) (i : grid2.Coords)
    (arg1 : Memref sig .tc .vmem S1024x768 .bf16) (harg1 : arg1.IsWhole) (arg2 : Memref sig .tc .vmem S768x768 .bf16) (harg2 : arg2.IsWhole)
    (arg3 : Memref sig .tc .vmem S1024x768 .f32) (harg3 : arg3.IsWhole)
    (x0 : Vec F S1024x768 .bf16) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of call 2 on core `c` at entry contents `V`: each input's buffer at its block after the body, the
    output's at the product of the two input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.Region1Defs.lean ====
/-
  Call 1 of the kernel, causal attention over the triangular (query block, key block) pair axis: the three scratch
  buffers (running row maximum, running row sum of exponentials, running weighted sum of value rows) as a pure state,
  and one grid point's effect on it as a pure function of the blocks and table words the body reads there. The
  arithmetic is the skeleton's payloads: the masked scaled scores of the query block against the key block, the new
  row maximum, the rescaling factor exp(old maximum - new maximum), the block's exponentials, and the three updates.
-/
import proofs.«428345_j25692494364785_3_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F] [Named F]

/-- The scratch state between two grid points: row maxima `m`, row sums `l`, weighted value sums `a`. -/
structure Scr (F : FTy → Type) where
  m : Vec F S512x1 .f32
  l : Vec F S512x1 .f32
  a : Vec F S512x256 .f32

/-- What the first key block of a query block's run resets the scratch to: maxima -∞, sums zero. -/
def reset1 : Scr F := ⟨k1_pay5 (F := F), k1_pay6 (F := F), k1_pay7 (F := F)⟩

/-- One grid point's update of the scratch, from the pair's two table words (`w1` the query block's number, `w3` the key
    block's), the query, key and value blocks and the state `s` the point's arithmetic starts from (after the reset, if
    the point resets). -/
def step1 (w1 w3 : Elt F .i32) (q k v : Vec F S1x512x256 .bf16) (s : Scr F) : Scr F :=
  ⟨k1_pay3 (k1_pay10 w1 w3 q k s.m),
   k1_pay1 (k1_pay11 w1 w3 q k s.m) (k1_pay12 w1 w3 q k s.m) s.l,
   k1_pay2 (k1_pay8 v) (k1_pay11 w1 w3 q k s.m) (k1_pay12 w1 w3 q k s.m) s.a⟩

/-- What the diagonal pair stores into the output block: the weighted value sums over the row sums. -/
def outOf1 (s : Scr F) : Vec F S1x512x256 .bf16 := k1_pay4 s.a s.l

/-- The body's first decision at a point: the key block's table word is zero (the scratch is reset). -/
abbrev isFirst1 (w3 : Elt F .i32) : Prop := Scalar.cmpi .ne (Scalar.extui (Scalar.cmpi .eq w3 0#32)) 0#32 = 1#1

/-- The body's second decision: the pair is diagonal (the output block is stored). -/
abbrev isDiag1 (w1 w3 : Elt F .i32) : Prop := k1_cond2 w1 w3 = 1#1

end Cert.KernelIdeal.Hand

end
-- ==== Proof.Region1Body.lean ====
/-
  Call 1 of the kernel, causal attention over the triangular (query block, key block) pair axis: the body's triples.
  At a grid point the body reads the pair's two table words (the query block's number and the key block's), resets the
  three scratch buffers when the key block is the first of its query block's run, folds the key block into the running
  row maximum, row sum and weighted value sum, and at the diagonal pair stores the normalised sums over the output
  block. Two decisions, so four control paths; one triple per path, each stated over the pure state of the scratch
  (`Scr`, `step1`, `outOf1`) and the two words of the point read off the tables' contents.
-/
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import proofs.«428345_j25692494364785_3_alg».proof.Proof.Region1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The point's two table words -/

/-- The query block's number at point `i`: the first table's word at the point's offset. -/
abbrev word1_1 (tbl : pre1.Contents (Elt F)) (i : grid1.Coords) : Elt F .i32 := tbl.atD 0 (k1_off1 i)

/-- The key block's number at point `i`: the second table's word at the point's offset. -/
abbrev word1_3 (tbl : pre1.Contents (Elt F)) (i : grid1.Coords) : Elt F .i32 := tbl.atD 1 (k1_off1 i)

/-! ## The loaded words are the tables' words

A scalar load of one table word reads the table's contents under the one index of its unit rectangle; at the point's
offset, which lies inside the ten-word table, that is the word `atD` names. -/

/-- The point's offset lies inside the first table. -/
theorem k1_off1_in0 (i : grid1.Coords) :
    ∀ a : Fin (pre1.ref 0).ty.shape.rank, k1_off1 i a + 1 ≤ (pre1.ref 0).ty.shape.size a := by
  intro a
  have ha : a = (0 : Fin 1) := Subsingleton.elim (α := Fin 1) a 0
  rw [ha]; exact k1_off1_inb i 0

/-- The point's offset lies inside the second table. -/
theorem k1_off1_in1 (i : grid1.Coords) :
    ∀ a : Fin (pre1.ref 1).ty.shape.rank, k1_off1 i a + 1 ≤ (pre1.ref 1).ty.shape.size a := by
  intro a
  have ha : a = (0 : Fin 1) := Subsingleton.elim (α := Fin 1) a 0
  rw [ha]; exact k1_off1_inb i 0

/-- The first table's loaded word is the query block's number. -/
theorem word1_1_read (tbl : pre1.Contents (Elt F)) (i : grid1.Coords) :
    View.readAt (Elt F) (Memref.whole main_c : Memref sig .tc .smem S10 .i32).view
      (Rect.unit (s := S10) (k1_off1 i) S1.size (k1_off1_inb i)).toLoadRect (tbl 0)
      (Shape.Idx.first (numel1_S1.symm ▸ Nat.one_pos)) = word1_1 tbl i := by
  unfold word1_1 Pipeline.Prefetch.Contents.atD
  rw [dif_pos (k1_off1_in0 i)]
  rfl

/-- The second table's loaded word is the key block's number. -/
theorem word1_3_read (tbl : pre1.Contents (Elt F)) (i : grid1.Coords) :
    View.readAt (Elt F) (Memref.whole main_c_0 : Memref sig .tc .smem S10 .i32).view
      (Rect.unit (s := S10) (k1_off1 i) S1.size (k1_off1_inb i)).toLoadRect (tbl 1)
      (Shape.Idx.first (numel1_S1.symm ▸ Nat.one_pos)) = word1_3 tbl i := by
  unfold word1_3 Pipeline.Prefetch.Contents.atD
  rw [dif_pos (k1_off1_in1 i)]
  rfl

/-! ## Whole rectangles

Every load and store of the body goes through the unit rectangle at zero offsets of the buffer's own sizes. Through it a
load reads the contents as they are, a store leaves its payload whatever was stored before, and a load after such a
store reads that payload. -/

/-- The zero offsets of a shape of two axes. -/
theorem zero2 : (![0, 0] : Fin 2 → ℕ) = fun _ => 0 := by
  funext a; match a with
  | ⟨0, _⟩ => rfl
  | ⟨1, _⟩ => rfl

/-- The zero offsets of a shape of three axes. -/
theorem zero3 : (![0, 0, 0] : Fin 3 → ℕ) = fun _ => 0 := by
  funext a; match a with
  | ⟨0, _⟩ => rfl
  | ⟨1, _⟩ => rfl
  | ⟨2, _⟩ => rfl

/-- A load through the whole rectangle reads what the view reads. -/
theorem readAt_wholeRect {sp : Space} {S : Shape} {e : EltTy} (v : View sig .tc sp S e) {off : Fin S.rank → ℕ}
    (hz : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero hz inb _)

/-- A whole buffer after stores the last of which is through the whole rectangle holds that store's payload. -/
theorem whole_writes_cons (b : Ref sig .tc) {off : Fin b.ty.shape.rank → ℕ} (hz : off = fun _ => 0)
    (inb : ∀ a, off a + b.ty.shape.size a ≤ b.ty.shape.size a) (w : b.ty.shape.Idx → Elt F b.ty.elt)
    (L : List (View.Piece (Elt F) b.ty.shape b.ty.elt)) :
    (Memref.whole b : Memref sig .tc _ _ _).view.writes (Elt F) (Memref.whole b : Memref sig .tc _ _ _).view.junk
      (⟨Rect.unit off b.ty.shape.size inb, w⟩ :: L) = w := by
  have h := View.read_writes_junk_eq_canon (Val := Elt F) (Memref.whole b : Memref sig .tc _ _ _).view
    (⟨Rect.unit off b.ty.shape.size inb, w⟩ :: L)
  rw [View.canon_cons_unit_zero hz] at h
  exact h

/-- A load through the whole rectangle after such stores reads the last store's payload. -/
theorem whole_readCov_cons (b : Ref sig .tc) {off off' : Fin b.ty.shape.rank → ℕ} (hz : off = fun _ => 0) (hz' : off' = fun _ => 0)
    (inb : ∀ a, off a + b.ty.shape.size a ≤ b.ty.shape.size a) (inb' : ∀ a, off' a + b.ty.shape.size a ≤ b.ty.shape.size a)
    (w : b.ty.shape.Idx → Elt F b.ty.elt) (L : List (View.Piece (Elt F) b.ty.shape b.ty.elt)) :
    (Memref.whole b : Memref sig .tc _ _ _).view.readCov (⟨Rect.unit off b.ty.shape.size inb, w⟩ :: L)
      (Rect.unit off' b.ty.shape.size inb').toLoadRect = w := by
  rw [View.readCov_eq_canon', View.canon_cons_unit_zero hz]
  exact View.ld_unit_zero hz' inb' w

/-! ## The update, field by field

`step1` unfolded at each field of the state, and the congruences of the three payloads that read the words, the query and
key blocks and the running maximum: the body's values are compared with them argument by argument. -/

theorem step1_m (w1 w3 : Elt F .i32) (q k v : Vec F S1x512x256 .bf16) (s : Scr F) :
    (step1 w1 w3 q k v s).m = k1_pay3 (k1_pay10 w1 w3 q k s.m) := rfl

theorem step1_l (w1 w3 : Elt F .i32) (q k v : Vec F S1x512x256 .bf16) (s : Scr F) :
    (step1 w1 w3 q k v s).l = k1_pay1 (k1_pay11 w1 w3 q k s.m) (k1_pay12 w1 w3 q k s.m) s.l := rfl

theorem step1_a (w1 w3 : Elt F .i32) (q k v : Vec F S1x512x256 .bf16) (s : Scr F) :
    (step1 w1 w3 q k v s).a = k1_pay2 (k1_pay8 v) (k1_pay11 w1 w3 q k s.m) (k1_pay12 w1 w3 q k s.m) s.a := rfl

theorem k1_pay10_congr {w1 w1' w3 w3' : Elt F .i32} {q q' k k' : Vec F S1x512x256 .bf16} {m m' : Vec F S512x1 .f32}
    (h1 : w1 = w1') (h3 : w3 = w3') (hq : q = q') (hk : k = k') (hm : m = m') :
    k1_pay10 w1 w3 q k m = k1_pay10 w1' w3' q' k' m' := by subst h1 h3 hq hk hm; rfl

theorem k1_pay11_congr {w1 w1' w3 w3' : Elt F .i32} {q q' k k' : Vec F S1x512x256 .bf16} {m m' : Vec F S512x1 .f32}
    (h1 : w1 = w1') (h3 : w3 = w3') (hq : q = q') (hk : k = k') (hm : m = m') :
    k1_pay11 w1 w3 q k m = k1_pay11 w1' w3' q' k' m' := by subst h1 h3 hq hk hm; rfl

theorem k1_pay12_congr {w1 w1' w3 w3' : Elt F .i32} {q q' k k' : Vec F S1x512x256 .bf16} {m m' : Vec F S512x1 .f32}
    (h1 : w1 = w1') (h3 : w3 = w3') (hq : q = q') (hk : k = k') (hm : m = m') :
    k1_pay12 w1 w3 q k m = k1_pay12 w1' w3' q' k' m' := by subst h1 h3 hq hk hm; rfl

set_option maxHeartbeats 4000000 in
/-- PATH A, the first key block of its run at a diagonal pair: the scratch is reset, the block folded into the reset
    state, and the output block stored from the result. -/
theorem sound_kernel1_A (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (K : PUnit → sProp 𝕄)
    (h1 : isFirst1 (word1_3 tbl i)) (h2 : isDiag1 (word1_1 tbl i) (word1_3 tbl i)) :
    iprop(owns (c : Thread nD τ) arg4 fullShare q ∗ owns (c : Thread nD τ) arg5 fullShare k ∗ owns (c : Thread nD τ) arg6 fullShare v
        ∗ (∃ d, owns (c : Thread nD τ) arg7 fullShare d)
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare (outOf1 (step1 (word1_1 tbl i) (word1_3 tbl i) q k v reset1))
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v reset1).m
            ∗ owns (c : Thread nD τ) (Memref.whole cc1_scratch1) fullShare (step1 (word1_1 tbl i) (word1_3 tbl i) q k v reset1).l
            ∗ owns (c : Thread nD τ) (Memref.whole cc1_scratch2) fullShare (step1 (word1_1 tbl i) (word1_3 tbl i) q k v reset1).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%d7, %f7, -, H7⟩, HT0, HT1, HS0, HS1, HS2, Hk⟩
  subst hf4; subst hf5; subst hf6
  sl_exec!
  sl_step
  iapply Hk
  -- the run's values: the two words and the three blocks
  have hw1 : sound_kernel1_A.sl.r i tbl = word1_1 tbl i := word1_1_read tbl i
  have hw3 : sound_kernel1_A.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- after the reset each scratch reads back what the reset stored
  have hM0 : sound_kernel1_A.sl.v28 (F := F) = (reset1 : Scr F).m := whole_readCov_cons cc1_scratch0 zero2 zero2 _ _ _ _
  have hL0 : sound_kernel1_A.sl.v37 (F := F) = (reset1 : Scr F).l := whole_readCov_cons cc1_scratch1 zero2 zero2 _ _ _ _
  have hA0 : sound_kernel1_A.sl.v45 (F := F) = (reset1 : Scr F).a := whole_readCov_cons cc1_scratch2 zero2 zero2 _ _ _ _
  -- the value block, the new maximum, the rescaling factor and the block's exponentials
  have hr2 : sound_kernel1_A.sl.r_2 c arg6 f6 = k1_pay8 (arg6.view.read (Elt F) f6) := congrArg (k1_pay8 (F := F)) hv
  have hr3 : sound_kernel1_A.sl.r_3 c i tbl arg4 arg5 f4 f5
      = k1_pay10 (word1_1 tbl i) (word1_3 tbl i) (arg4.view.read (Elt F) f4) (arg5.view.read (Elt F) f5) (reset1 : Scr F).m :=
    k1_pay10_congr hw1 hw3 hq hk hM0
  have hr4 : sound_kernel1_A.sl.r_4 c i tbl arg4 arg5 f4 f5
      = k1_pay11 (word1_1 tbl i) (word1_3 tbl i) (arg4.view.read (Elt F) f4) (arg5.view.read (Elt F) f5) (reset1 : Scr F).m :=
    k1_pay11_congr hw1 hw3 hq hk hM0
  have hr5 : sound_kernel1_A.sl.r_5 c i tbl arg4 arg5 f4 f5
      = k1_pay12 (word1_1 tbl i) (word1_3 tbl i) (arg4.view.read (Elt F) f4) (arg5.view.read (Elt F) f5) (reset1 : Scr F).m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_A.sl.HS0_2 c i tbl arg4 arg5 f4 f5) = (step1 (word1_1 tbl i) (word1_3 tbl i) (arg4.view.read (Elt F) f4) (arg5.view.read (Elt F) f5) (arg6.view.read (Elt F) f6) (reset1 : Scr F)).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_A.sl.HS1_2 c i tbl arg4 arg5 f4 f5) = (step1 (word1_1 tbl i) (word1_3 tbl i) (arg4.view.read (Elt F) f4) (arg5.view.read (Elt F) f5) (arg6.view.read (Elt F) f6) (reset1 : Scr F)).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_A.sl.HS2_2 c i tbl arg4 arg5 arg6 f4 f5 f6) = (step1 (word1_1 tbl i) (word1_3 tbl i) (arg4.view.read (Elt F) f4) (arg5.view.read (Elt F) f5) (arg6.view.read (Elt F) f6) (reset1 : Scr F)).a :=
    (whole_writes_cons cc1_scratch2 zero2 _ _ _).trans ((congr (congr (congr (congrArg (k1_pay2 (F := F)) hr2) hr4) hr5) hA0).trans (step1_a _ _ _ _ _ _).symm)
  -- the two scratch buffers the diagonal pair reads back hold the updated sums, and the output block their quotient
  have hv60 : sound_kernel1_A.sl.v60 c i tbl arg4 arg5 arg6 f4 f5 f6 = (step1 (word1_1 tbl i) (word1_3 tbl i) (arg4.view.read (Elt F) f4) (arg5.view.read (Elt F) f5) (arg6.view.read (Elt F) f6) (reset1 : Scr F)).a :=
    (whole_readCov_cons cc1_scratch2 zero2 zero2 _ _ _ _).trans ((congr (congr (congr (congrArg (k1_pay2 (F := F)) hr2) hr4) hr5) hA0).trans (step1_a _ _ _ _ _ _).symm)
  have hv61 : sound_kernel1_A.sl.v61 c i tbl arg4 arg5 f4 f5 = (step1 (word1_1 tbl i) (word1_3 tbl i) (arg4.view.read (Elt F) f4) (arg5.view.read (Elt F) f5) (arg6.view.read (Elt F) f6) (reset1 : Scr F)).l :=
    (whole_readCov_cons cc1_scratch1 zero2 zero2 _ _ _ _).trans ((congr (congr (congrArg (k1_pay1 (F := F)) hr4) hr5) hL0).trans (step1_l _ _ _ _ _ _).symm)
  have e7 : arg7.view.read (Elt F) (arg7.view.writes (Elt F) arg7.view.junk (sound_kernel1_A.sl.H7_1 c i tbl arg4 arg5 arg6 f4 f5 f6)) = outOf1 (step1 (word1_1 tbl i) (word1_3 tbl i) (arg4.view.read (Elt F) f4) (arg5.view.read (Elt F) f5) (arg6.view.read (Elt F) f6) (reset1 : Scr F)) :=
    (View.read_writes_junk_eq_canon _ _).trans
      ((View.canon_unit_zero zero3 _ _).trans (congr (congrArg (k1_pay4 (F := F)) hv60) hv61))
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; · ipureintro; exact e7
    iexact H7
  isplitl [HT0]; · iexact HT0
  isplitl [HT1]; · iexact HT1
  isplitl [HS0]; · iexact HS0
  isplitl [HS1]; · iexact HS1
  iexact HS2

set_option maxHeartbeats 4000000 in
/-- PATH B, the first key block of its run at an off-diagonal pair: the scratch is reset and the block folded into the
    reset state; the output block is left as found. -/
theorem sound_kernel1_B (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (y : Vec F S1x512x256 .bf16) (K : PUnit → sProp 𝕄)
    (h1 : isFirst1 (word1_3 tbl i)) (h2 : ¬ isDiag1 (word1_1 tbl i) (word1_3 tbl i)) :
    iprop(owns (c : Thread nD τ) arg4 fullShare q ∗ owns (c : Thread nD τ) arg5 fullShare k ∗ owns (c : Thread nD τ) arg6 fullShare v
        ∗ owns (c : Thread nD τ) arg7 fullShare y
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare y
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v reset1).m
            ∗ owns (c : Thread nD τ) (Memref.whole cc1_scratch1) fullShare (step1 (word1_1 tbl i) (word1_3 tbl i) q k v reset1).l
            ∗ owns (c : Thread nD τ) (Memref.whole cc1_scratch2) fullShare (step1 (word1_1 tbl i) (word1_3 tbl i) q k v reset1).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%f7, %hf7, H7⟩, HT0, HT1, HS0, HS1, HS2, Hk⟩
  subst hf4; subst hf5; subst hf6
  sl_exec!
  sl_step
  iapply Hk
  -- the run's values: the two words and the three blocks
  have hw1 : sound_kernel1_B.sl.r i tbl = word1_1 tbl i := word1_1_read tbl i
  have hw3 : sound_kernel1_B.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- after the reset each scratch reads back what the reset stored
  have hM0 : sound_kernel1_B.sl.v28 (F := F) = (reset1 : Scr F).m := whole_readCov_cons cc1_scratch0 zero2 zero2 _ _ _ _
  have hL0 : sound_kernel1_B.sl.v37 (F := F) = (reset1 : Scr F).l := whole_readCov_cons cc1_scratch1 zero2 zero2 _ _ _ _
  have hA0 : sound_kernel1_B.sl.v45 (F := F) = (reset1 : Scr F).a := whole_readCov_cons cc1_scratch2 zero2 zero2 _ _ _ _
  -- the value block, the new maximum, the rescaling factor and the block's exponentials
  have hr2 : sound_kernel1_B.sl.r_2 c arg6 f6 = k1_pay8 (arg6.view.read (Elt F) f6) := congrArg (k1_pay8 (F := F)) hv
  have hr3 : sound_kernel1_B.sl.r_3 c i tbl arg4 arg5 f4 f5
      = k1_pay10 (word1_1 tbl i) (word1_3 tbl i) (arg4.view.read (Elt F) f4) (arg5.view.read (Elt F) f5) (reset1 : Scr F).m :=
    k1_pay10_congr hw1 hw3 hq hk hM0
  have hr4 : sound_kernel1_B.sl.r_4 c i tbl arg4 arg5 f4 f5
      = k1_pay11 (word1_1 tbl i) (word1_3 tbl i) (arg4.view.read (Elt F) f4) (arg5.view.read (Elt F) f5) (reset1 : Scr F).m :=
    k1_pay11_congr hw1 hw3 hq hk hM0
  have hr5 : sound_kernel1_B.sl.r_5 c i tbl arg4 arg5 f4 f5
      = k1_pay12 (word1_1 tbl i) (word1_3 tbl i) (arg4.view.read (Elt F) f4) (arg5.view.read (Elt F) f5) (reset1 : Scr F).m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_B.sl.HS0_2 c i tbl arg4 arg5 f4 f5) = (step1 (word1_1 tbl i) (word1_3 tbl i) (arg4.view.read (Elt F) f4) (arg5.view.read (Elt F) f5) (arg6.view.read (Elt F) f6) (reset1 : Scr F)).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_B.sl.HS1_2 c i tbl arg4 arg5 f4 f5) = (step1 (word1_1 tbl i) (word1_3 tbl i) (arg4.view.read (Elt F) f4) (arg5.view.read (Elt F) f5) (arg6.view.read (Elt F) f6) (reset1 : Scr F)).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_B.sl.HS2_2 c i tbl arg4 arg5 arg6 f4 f5 f6) = (step1 (word1_1 tbl i) (word1_3 tbl i) (arg4.view.read (Elt F) f4) (arg5.view.read (Elt F) f5) (arg6.view.read (Elt F) f6) (reset1 : Scr F)).a :=
    (whole_writes_cons cc1_scratch2 zero2 _ _ _).trans ((congr (congr (congr (congrArg (k1_pay2 (F := F)) hr2) hr4) hr5) hA0).trans (step1_a _ _ _ _ _ _).symm)
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; exact hf7
    iexact H7
  isplitl [HT0]; · iexact HT0
  isplitl [HT1]; · iexact HT1
  isplitl [HS0]; · iexact HS0
  isplitl [HS1]; · iexact HS1
  iexact HS2

set_option maxHeartbeats 4000000 in
/-- PATH C, a later key block at a diagonal pair: the block is folded into the state found, and the output block stored
    from the result. -/
theorem sound_kernel1_C (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (K : PUnit → sProp 𝕄)
    (h1 : ¬ isFirst1 (word1_3 tbl i)) (h2 : isDiag1 (word1_1 tbl i) (word1_3 tbl i)) :
    iprop(owns (c : Thread nD τ) arg4 fullShare q ∗ owns (c : Thread nD τ) arg5 fullShare k ∗ owns (c : Thread nD τ) arg6 fullShare v
        ∗ (∃ d, owns (c : Thread nD τ) arg7 fullShare d)
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare (outOf1 (step1 (word1_1 tbl i) (word1_3 tbl i) q k v s0))
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v s0).m
            ∗ owns (c : Thread nD τ) (Memref.whole cc1_scratch1) fullShare (step1 (word1_1 tbl i) (word1_3 tbl i) q k v s0).l
            ∗ owns (c : Thread nD τ) (Memref.whole cc1_scratch2) fullShare (step1 (word1_1 tbl i) (word1_3 tbl i) q k v s0).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%d7, %f7, -, H7⟩, HT0, HT1, HS0, HS1, HS2, Hk⟩
  subst hf4; subst hf5; subst hf6
  sl_exec!
  sl_step
  iapply Hk
  -- the run's values: the two words and the three blocks
  have hw1 : sound_kernel1_C.sl.r i tbl = word1_1 tbl i := word1_1_read tbl i
  have hw3 : sound_kernel1_C.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- with no reset each scratch reads the state found
  have hM0 : View.readAt (Elt F) (Memref.whole cc1_scratch0).view
      (Rect.unit (s := S512x1) ![0, 0] S512x1.size inb_S512x1_S512x1_0_0).toLoadRect s0.m = s0.m :=
    readAt_wholeRect (Memref.whole cc1_scratch0).view zero2 _ s0.m
  have hL0 : View.readAt (Elt F) (Memref.whole cc1_scratch1).view
      (Rect.unit (s := S512x1) ![0, 0] S512x1.size inb_S512x1_S512x1_0_0).toLoadRect s0.l = s0.l :=
    readAt_wholeRect (Memref.whole cc1_scratch1).view zero2 _ s0.l
  have hA0 : View.readAt (Elt F) (Memref.whole cc1_scratch2).view
      (Rect.unit (s := S512x256) ![0, 0] S512x256.size inb_S512x256_S512x256_0_0).toLoadRect s0.a = s0.a :=
    readAt_wholeRect (Memref.whole cc1_scratch2).view zero2 _ s0.a
  -- the value block, the new maximum, the rescaling factor and the block's exponentials
  have hr2 : sound_kernel1_C.sl.r_2 c arg6 f6 = k1_pay8 (arg6.view.read (Elt F) f6) := congrArg (k1_pay8 (F := F)) hv
  have hr3 : sound_kernel1_C.sl.r_3 c i tbl arg4 arg5 s0 f4 f5
      = k1_pay10 (word1_1 tbl i) (word1_3 tbl i) (arg4.view.read (Elt F) f4) (arg5.view.read (Elt F) f5) s0.m :=
    k1_pay10_congr hw1 hw3 hq hk hM0
  have hr4 : sound_kernel1_C.sl.r_4 c i tbl arg4 arg5 s0 f4 f5
      = k1_pay11 (word1_1 tbl i) (word1_3 tbl i) (arg4.view.read (Elt F) f4) (arg5.view.read (Elt F) f5) s0.m :=
    k1_pay11_congr hw1 hw3 hq hk hM0
  have hr5 : sound_kernel1_C.sl.r_5 c i tbl arg4 arg5 s0 f4 f5
      = k1_pay12 (word1_1 tbl i) (word1_3 tbl i) (arg4.view.read (Elt F) f4) (arg5.view.read (Elt F) f5) s0.m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_C.sl.HS0_1 c i tbl arg4 arg5 s0 f4 f5) = (step1 (word1_1 tbl i) (word1_3 tbl i) (arg4.view.read (Elt F) f4) (arg5.view.read (Elt F) f5) (arg6.view.read (Elt F) f6) s0).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_C.sl.HS1_1 c i tbl arg4 arg5 s0 f4 f5) = (step1 (word1_1 tbl i) (word1_3 tbl i) (arg4.view.read (Elt F) f4) (arg5.view.read (Elt F) f5) (arg6.view.read (Elt F) f6) s0).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_C.sl.HS2_1 c i tbl arg4 arg5 arg6 s0 f4 f5 f6) = (step1 (word1_1 tbl i) (word1_3 tbl i) (arg4.view.read (Elt F) f4) (arg5.view.read (Elt F) f5) (arg6.view.read (Elt F) f6) s0).a :=
    (whole_writes_cons cc1_scratch2 zero2 _ _ _).trans ((congr (congr (congr (congrArg (k1_pay2 (F := F)) hr2) hr4) hr5) hA0).trans (step1_a _ _ _ _ _ _).symm)
  -- the two scratch buffers the diagonal pair reads back hold the updated sums, and the output block their quotient
  have hv60 : sound_kernel1_C.sl.v60 c i tbl arg4 arg5 arg6 s0 f4 f5 f6 = (step1 (word1_1 tbl i) (word1_3 tbl i) (arg4.view.read (Elt F) f4) (arg5.view.read (Elt F) f5) (arg6.view.read (Elt F) f6) s0).a :=
    (whole_readCov_cons cc1_scratch2 zero2 zero2 _ _ _ _).trans ((congr (congr (congr (congrArg (k1_pay2 (F := F)) hr2) hr4) hr5) hA0).trans (step1_a _ _ _ _ _ _).symm)
  have hv61 : sound_kernel1_C.sl.v61 c i tbl arg4 arg5 s0 f4 f5 = (step1 (word1_1 tbl i) (word1_3 tbl i) (arg4.view.read (Elt F) f4) (arg5.view.read (Elt F) f5) (arg6.view.read (Elt F) f6) s0).l :=
    (whole_readCov_cons cc1_scratch1 zero2 zero2 _ _ _ _).trans ((congr (congr (congrArg (k1_pay1 (F := F)) hr4) hr5) hL0).trans (step1_l _ _ _ _ _ _).symm)
  have e7 : arg7.view.read (Elt F) (arg7.view.writes (Elt F) arg7.view.junk (sound_kernel1_C.sl.H7_1 c i tbl arg4 arg5 arg6 s0 f4 f5 f6)) = outOf1 (step1 (word1_1 tbl i) (word1_3 tbl i) (arg4.view.read (Elt F) f4) (arg5.view.read (Elt F) f5) (arg6.view.read (Elt F) f6) s0) :=
    (View.read_writes_junk_eq_canon _ _).trans
      ((View.canon_unit_zero zero3 _ _).trans (congr (congrArg (k1_pay4 (F := F)) hv60) hv61))
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; · ipureintro; exact e7
    iexact H7
  isplitl [HT0]; · iexact HT0
  isplitl [HT1]; · iexact HT1
  isplitl [HS0]; · iexact HS0
  isplitl [HS1]; · iexact HS1
  iexact HS2

set_option maxHeartbeats 4000000 in
/-- PATH D, a later key block at an off-diagonal pair: the block is folded into the state found; the output block is left
    as found. -/
theorem sound_kernel1_D (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (y : Vec F S1x512x256 .bf16) (K : PUnit → sProp 𝕄)
    (h1 : ¬ isFirst1 (word1_3 tbl i)) (h2 : ¬ isDiag1 (word1_1 tbl i) (word1_3 tbl i)) :
    iprop(owns (c : Thread nD τ) arg4 fullShare q ∗ owns (c : Thread nD τ) arg5 fullShare k ∗ owns (c : Thread nD τ) arg6 fullShare v
        ∗ owns (c : Thread nD τ) arg7 fullShare y
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare y
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v s0).m
            ∗ owns (c : Thread nD τ) (Memref.whole cc1_scratch1) fullShare (step1 (word1_1 tbl i) (word1_3 tbl i) q k v s0).l
            ∗ owns (c : Thread nD τ) (Memref.whole cc1_scratch2) fullShare (step1 (word1_1 tbl i) (word1_3 tbl i) q k v s0).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%f7, %hf7, H7⟩, HT0, HT1, HS0, HS1, HS2, Hk⟩
  subst hf4; subst hf5; subst hf6
  sl_exec!
  sl_step
  iapply Hk
  -- the run's values: the two words and the three blocks
  have hw1 : sound_kernel1_D.sl.r i tbl = word1_1 tbl i := word1_1_read tbl i
  have hw3 : sound_kernel1_D.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- with no reset each scratch reads the state found
  have hM0 : View.readAt (Elt F) (Memref.whole cc1_scratch0).view
      (Rect.unit (s := S512x1) ![0, 0] S512x1.size inb_S512x1_S512x1_0_0).toLoadRect s0.m = s0.m :=
    readAt_wholeRect (Memref.whole cc1_scratch0).view zero2 _ s0.m
  have hL0 : View.readAt (Elt F) (Memref.whole cc1_scratch1).view
      (Rect.unit (s := S512x1) ![0, 0] S512x1.size inb_S512x1_S512x1_0_0).toLoadRect s0.l = s0.l :=
    readAt_wholeRect (Memref.whole cc1_scratch1).view zero2 _ s0.l
  have hA0 : View.readAt (Elt F) (Memref.whole cc1_scratch2).view
      (Rect.unit (s := S512x256) ![0, 0] S512x256.size inb_S512x256_S512x256_0_0).toLoadRect s0.a = s0.a :=
    readAt_wholeRect (Memref.whole cc1_scratch2).view zero2 _ s0.a
  -- the value block, the new maximum, the rescaling factor and the block's exponentials
  have hr2 : sound_kernel1_D.sl.r_2 c arg6 f6 = k1_pay8 (arg6.view.read (Elt F) f6) := congrArg (k1_pay8 (F := F)) hv
  have hr3 : sound_kernel1_D.sl.r_3 c i tbl arg4 arg5 s0 f4 f5
      = k1_pay10 (word1_1 tbl i) (word1_3 tbl i) (arg4.view.read (Elt F) f4) (arg5.view.read (Elt F) f5) s0.m :=
    k1_pay10_congr hw1 hw3 hq hk hM0
  have hr4 : sound_kernel1_D.sl.r_4 c i tbl arg4 arg5 s0 f4 f5
      = k1_pay11 (word1_1 tbl i) (word1_3 tbl i) (arg4.view.read (Elt F) f4) (arg5.view.read (Elt F) f5) s0.m :=
    k1_pay11_congr hw1 hw3 hq hk hM0
  have hr5 : sound_kernel1_D.sl.r_5 c i tbl arg4 arg5 s0 f4 f5
      = k1_pay12 (word1_1 tbl i) (word1_3 tbl i) (arg4.view.read (Elt F) f4) (arg5.view.read (Elt F) f5) s0.m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_D.sl.HS0_1 c i tbl arg4 arg5 s0 f4 f5) = (step1 (word1_1 tbl i) (word1_3 tbl i) (arg4.view.read (Elt F) f4) (arg5.view.read (Elt F) f5) (arg6.view.read (Elt F) f6) s0).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_D.sl.HS1_1 c i tbl arg4 arg5 s0 f4 f5) = (step1 (word1_1 tbl i) (word1_3 tbl i) (arg4.view.read (Elt F) f4) (arg5.view.read (Elt F) f5) (arg6.view.read (Elt F) f6) s0).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_D.sl.HS2_1 c i tbl arg4 arg5 arg6 s0 f4 f5 f6) = (step1 (word1_1 tbl i) (word1_3 tbl i) (arg4.view.read (Elt F) f4) (arg5.view.read (Elt F) f5) (arg6.view.read (Elt F) f6) s0).a :=
    (whole_writes_cons cc1_scratch2 zero2 _ _ _).trans ((congr (congr (congr (congrArg (k1_pay2 (F := F)) hr2) hr4) hr5) hA0).trans (step1_a _ _ _ _ _ _).symm)
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; exact hf7
    iexact H7
  isplitl [HT0]; · iexact HT0
  isplitl [HT1]; · iexact HT1
  isplitl [HS0]; · iexact HS0
  isplitl [HS1]; · iexact HS1
  iexact HS2

end Cert.KernelIdeal.Hand

end
-- ==== Proof.Region1Dat.lean ====
/-
  Call 1 of the kernel (causal attention over the triangular pair axis) as a pipeline with proof data.
  The two prefetched tables hold, pair by pair, the query block's number and the key block's number; the pairs of one
  query block are consecutive, its first pair has key block 0 (the scratch is reset there) and its last is diagonal
  (the output block is stored there, and only there: the output window is idle at every other pair). Between two
  points the three scratch buffers hold the online state of the query block under way: `scrAt1 n` is the state after
  the first `n` points, by recursion — each point steps the state it finds, or the reset state when its key block is 0.
  The invariant between points is that state in the scratch buffers, the tables, and what the body never touches.
  The three input windows read ONE array (the packed projection), each holding a third share of it.
  The side condition and the schedule at the tables (where the output block is written back, which pair comes first)
  are decided over the grid's 120 points; an input window's buffer holds its block at every point; the body obligation
  follows path by path (first or later key block, diagonal pair or not) from the body's four triples, the tables'
  shares split in halves around the body and the rest of the invariant framed.
-/
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«428345_j25692494364785_3_alg».proof.Proof.Region1Defs
import proofs.«428345_j25692494364785_3_alg».proof.Proof.Region1Body
import Idealize.ShloMosaic.Lib.Pipeline.TableIdle
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables -/

/-- The two tables' contents: the literal tables @main writes before the first call. -/
def tbl1 : pre1.Contents (Elt F) := fun k => match k with
  | ⟨0, _⟩ => fun i => lit0 (S10.rowMajor i)
  | ⟨1, _⟩ => fun i => lit1 (S10.rowMajor i)

/-- The tables hold integer words only, so nothing decided of them depends on the carrier of the floats: the side
    condition is decided at the real carrier, -/
theorem ok1_closed : ok1 (tbl1 (F := Idealize.ShloMosaic.Ideal)) := by decide +kernel

/-- At these contents every block the index maps name lies inside its array (at any carrier: the statement unfolds to
    the one decided above). -/
theorem ok1_tbl1 : ok1 (tbl1 (F := F)) := ok1_closed

/-- The admissible contents the region runs the pipeline at. -/
def adm1 : (pcfg1 (F := F)).Adm := ⟨tbl1, ok1_tbl1⟩

/-- The pipeline at them. -/
abbrev cfgA : Pipeline.Cfg sig Λ₀ := cfg1 (adm1 (F := F))

/-- The point's two table words: the query block's number and the key block's. -/
abbrev wq1 (t : Fin (cfgA (F := F)).N) : Elt F .i32 := (tbl1 (F := F)).atD 0 (k1_off1 ((cfgA (F := F)).grid.coords t))
abbrev wk1 (t : Fin (cfgA (F := F)).N) : Elt F .i32 := (tbl1 (F := F)).atD 1 (k1_off1 ((cfgA (F := F)).grid.coords t))

variable (V : (c : Dev nD) → (b : Ref sig .tc) → Buf (Elt F) ((c : Thread nD τ).loc b))

/-! ## The windows' blocks -/

/-- Window `w`'s block at point `t`, read off its array as the region finds it. -/
def iblk1 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec1 w))

/-! ## The scratch between points -/

/-- The scratch after the first `n` points. -/
def scrAt1 (c : Dev nD) : ℕ → Scr F
  | 0 => reset1
  | n + 1 =>
    if h : n < (cfgA (F := F)).N then
      step1 (wq1 ⟨n, h⟩) (wk1 ⟨n, h⟩) (iblk1 V c 0 ⟨n, h⟩) (iblk1 V c 1 ⟨n, h⟩) (iblk1 V c 2 ⟨n, h⟩)
        (if isFirst1 (wk1 (F := F) ⟨n, h⟩) then reset1 else scrAt1 c n)
    else scrAt1 c n

/-- The scoped buffers the body of call 1 never touches, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The invariant before point `t`: the scratch at some state, which past the first point is the trajectory's; the
    tables; the untouched scoped buffers; the generator register. -/
def Φ1 (c : Dev nD) (t : Fin ((cfgA (F := F)).N + 1)) : sProp 𝕄 :=
  iprop(∃ s : Scr F, ⌜t.val ≠ 0 → s = scrAt1 V c t.val⌝
    ∗ owns (c : Thread nD τ) (Memref.whole cc1_scratch0) fullShare s.m
    ∗ owns (c : Thread nD τ) (Memref.whole cc1_scratch1) fullShare s.l
    ∗ owns (c : Thread nD τ) (Memref.whole cc1_scratch2) fullShare s.a
    ∗ Pipeline.prefHeld (Ix := Unit) (Name := ℕ) (U := UR sig nD τ) (Lvl := ℕ) pre1 c (fun _ => fullShare) (tbl1 (F := F))
    ∗ rest1 c ∗ ∃ r, prngReg c r)

/-! ## The pipeline's proof data -/

/-- The proof data of call 1 on core `c` at entry contents `V`: each input's buffer at its block after the body, the
    output's — where a diagonal pair stores it — at the quotient of the state the point leaves; the three input windows
    share their one array in thirds. -/
def dat1 (c : Dev nD) : Dat τ (Elt F) Unit ℕ (UR sig nD τ) ℕ (cfgA (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf1 (scrAt1 V c (t.val + 1))
  Φ t := Φ1 V c t
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfgA (F := F)).W) : (dat1 V c).A w = V c (Pipeline.arrRef spec1 w) := by
  dsimp only [dat1]

/-! ## The schedule at the tables

Decided at the real carrier over the 120 points, and read at any carrier by unfolding: the words are integers. -/

/-- The output window is written back exactly at the diagonal pairs. -/
theorem flush3_closed : ∀ t : Fin grid1.N,
    ((cfgA (F := Idealize.ShloMosaic.Ideal)).win 3).flush t = true ↔ isDiag1 (F := Idealize.ShloMosaic.Ideal) (wq1 t) (wk1 t) := by
  decide +kernel

/-- The first point's key block is the first of its run. -/
theorem first0_closed : ∀ t : Fin grid1.N, t.val = 0 → isFirst1 (F := Idealize.ShloMosaic.Ideal) (wk1 t) := by
  decide +kernel

theorem flush3_iff (t : Fin (cfgA (F := F)).N) : ((cfgA (F := F)).win 3).flush t = true ↔ isDiag1 (wq1 t) (wk1 t) :=
  flush3_closed t

theorem first0 (t : Fin (cfgA (F := F)).N) : t.val = 0 → isFirst1 (wk1 t) := first0_closed t

/-- A point that does not reset the scratch is not the first. -/
theorem pos_of_not_first (t : Fin (cfgA (F := F)).N) (h : ¬ isFirst1 (wk1 t)) : t.val ≠ 0 := fun e => h (first0 t e)

/-- The output window is idle exactly off the diagonal: the printed idle table at the point's two words. -/
theorem idle3_eq (t : Fin (cfgA (F := F)).N) :
    (cfgA (F := F)).idle 3 ((cfgA (F := F)).grid.coords t) = !(k1_cond2 (wq1 t) (wk1 t) == 1#1) := rfl

theorem idle3_diag (t : Fin (cfgA (F := F)).N) (h : isDiag1 (wq1 t) (wk1 t)) :
    (cfgA (F := F)).idle 3 ((cfgA (F := F)).grid.coords t) = false := by
  rw [idle3_eq, show k1_cond2 (wq1 t) (wk1 t) = 1#1 from h]; rfl

theorem idle3_off (t : Fin (cfgA (F := F)).N) (h : ¬ isDiag1 (wq1 t) (wk1 t)) :
    (cfgA (F := F)).idle 3 ((cfgA (F := F)).grid.coords t) = true := by
  rw [idle3_eq, Bool.not_eq_true', beq_eq_false_iff_ne]; exact h

theorem flush3_off (t : Fin (cfgA (F := F)).N) (h : ¬ isDiag1 (wq1 t) (wk1 t)) : ((cfgA (F := F)).win 3).flush t = false := by
  rw [← Bool.not_eq_true]; exact fun hf => h ((flush3_iff t).mp hf)

/-! ## What the body finds in the input windows -/

theorem after1_0 (c : Dev nD) (t : Fin (cfgA (F := F)).N) : (dat1 V c).after 0 t = iblk1 V c 0 t := by dsimp only [dat1]; rfl
theorem after1_1 (c : Dev nD) (t : Fin (cfgA (F := F)).N) : (dat1 V c).after 1 t = iblk1 V c 1 t := by dsimp only [dat1]; rfl
theorem after1_2 (c : Dev nD) (t : Fin (cfgA (F := F)).N) : (dat1 V c).after 2 t = iblk1 V c 2 t := by dsimp only [dat1]; rfl
theorem after1_3 (c : Dev nD) (t : Fin (cfgA (F := F)).N) : (dat1 V c).after 3 t = outOf1 (scrAt1 V c (t.val + 1)) := by dsimp only [dat1]; rfl

/-- The query window's staging buffer holds the point's block, fetched there or not: an input is never idle and the
    body leaves its block in place. -/
theorem before1_0_of {c : Dev nD} (dat : Dat τ (Elt F) Unit ℕ (UR sig nD τ) ℕ (cfgA (F := F)) c) (hA : dat.A 0 = V c (Pipeline.arrRef spec1 0))
    (hafter : ∀ t, dat.after 0 t = iblk1 V c 0 t) (t : Fin (cfgA (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's likewise. -/
theorem before1_1_of {c : Dev nD} (dat : Dat τ (Elt F) Unit ℕ (UR sig nD τ) ℕ (cfgA (F := F)) c) (hA : dat.A 1 = V c (Pipeline.arrRef spec1 1))
    (hafter : ∀ t, dat.after 1 t = iblk1 V c 1 t) (t : Fin (cfgA (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's likewise. -/
theorem before1_2_of {c : Dev nD} (dat : Dat τ (Elt F) Unit ℕ (UR sig nD τ) ℕ (cfgA (F := F)) c) (hA : dat.A 2 = V c (Pipeline.arrRef spec1 2))
    (hafter : ∀ t, dat.after 2 t = iblk1 V c 2 t) (t : Fin (cfgA (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfgA (F := F)).N) (d) : (dat1 V c).before 0 t d = iblk1 V c 0 t :=
  before1_0_of V (dat1 V c) (A_eq1 V c 0) (after1_0 V c) t d
theorem before1_1 (c : Dev nD) (t : Fin (cfgA (F := F)).N) (d) : (dat1 V c).before 1 t d = iblk1 V c 1 t :=
  before1_1_of V (dat1 V c) (A_eq1 V c 1) (after1_1 V c) t d
theorem before1_2 (c : Dev nD) (t : Fin (cfgA (F := F)).N) (d) : (dat1 V c).before 2 t d = iblk1 V c 2 t :=
  before1_2_of V (dat1 V c) (A_eq1 V c 2) (after1_2 V c) t d

/-! ## The invariant, opened -/

/-- What the invariant holds at scratch state `s`: the three scratch buffers at it, the tables, the untouched rest. -/
def inv1 (c : Dev nD) (s : Scr F) : sProp 𝕄 :=
  iprop(owns (c : Thread nD τ) (Memref.whole cc1_scratch0) fullShare s.m
    ∗ owns (c : Thread nD τ) (Memref.whole cc1_scratch1) fullShare s.l
    ∗ owns (c : Thread nD τ) (Memref.whole cc1_scratch2) fullShare s.a
    ∗ Pipeline.prefHeld (Ix := Unit) (Name := ℕ) (U := UR sig nD τ) (Lvl := ℕ) pre1 c (fun _ => fullShare) (tbl1 (F := F))
    ∗ rest1 c ∗ ∃ r, prngReg c r)

theorem Φ1_eq (c : Dev nD) (t : Fin ((cfgA (F := F)).N + 1)) :
    Φ1 V c t = iprop(∃ s : Scr F, ⌜t.val ≠ 0 → s = scrAt1 V c t.val⌝ ∗ inv1 c s) := by
  unfold Φ1 inv1; rfl

/-- Past the first point the invariant's state is the trajectory's. -/
theorem Φ1_of_pos (c : Dev nD) (t : Fin ((cfgA (F := F)).N + 1)) (h : t.val ≠ 0) : Φ1 V c t = inv1 c (scrAt1 V c t.val) := by
  rw [Φ1_eq]; exact exists_held h (scrAt1 V c t.val) (fun s => inv1 c s)

theorem Φ_at (c : Dev nD) (t : Fin ((cfgA (F := F)).N + 1)) : (dat1 V c).Φ t = Φ1 V c t := by dsimp only [dat1]

/-- The trajectory's step at point `t`. -/
theorem scrAt1_succ (c : Dev nD) (t : Fin (cfgA (F := F)).N) :
    scrAt1 V c (t.val + 1) = step1 (wq1 t) (wk1 t) (iblk1 V c 0 t) (iblk1 V c 1 t) (iblk1 V c 2 t)
      (if isFirst1 (wk1 (F := F) t) then reset1 else scrAt1 V c t.val) := by
  rw [scrAt1, dif_pos t.isLt]

theorem scrAt1_succ_first (c : Dev nD) (t : Fin (cfgA (F := F)).N) (h : isFirst1 (wk1 t)) :
    scrAt1 V c (t.val + 1) = step1 (wq1 t) (wk1 t) (iblk1 V c 0 t) (iblk1 V c 1 t) (iblk1 V c 2 t) reset1 := by
  rw [scrAt1_succ, if_pos h]

theorem scrAt1_succ_later (c : Dev nD) (t : Fin (cfgA (F := F)).N) (h : ¬ isFirst1 (wk1 t)) :
    scrAt1 V c (t.val + 1) = step1 (wq1 t) (wk1 t) (iblk1 V c 0 t) (iblk1 V c 1 t) (iblk1 V c 2 t) (scrAt1 V c t.val) := by
  rw [scrAt1_succ, if_neg h]

/-- The tables, one by one. -/
theorem prefHeld1_eq (c : Dev nD) (q : PosShare TreeShare) (tbl : pre1.Contents (Elt F)) :
    (Pipeline.prefHeld (Ix := Unit) (Name := ℕ) (U := UR sig nD τ) (Lvl := ℕ) pre1 c (fun _ => q) tbl : sProp 𝕄)
      = iprop((((c : Thread nD τ).loc (pre1.ref 0)) ↦{q} tbl 0) ∗ (((c : Thread nD τ).loc (pre1.ref 1)) ↦{q} tbl 1)) := by
  unfold Pipeline.prefHeld
  exact bigSep_univ_eq_bigSepL [(0 : Fin 2), (1 : Fin 2)] (by decide) (by decide) _

/-- The tables' full shares as a left half kept and the two right halves the body reads through. -/
theorem prefHeld1_halves (c : Dev nD) (tbl : pre1.Contents (Elt F)) :
    (Pipeline.prefHeld (Ix := Unit) (Name := ℕ) (U := UR sig nD τ) (Lvl := ℕ) pre1 c (fun _ => fullShare) tbl : sProp 𝕄)
      = iprop(Pipeline.prefHeld (Ix := Unit) (Name := ℕ) (U := UR sig nD τ) (Lvl := ℕ) pre1 c (fun _ => fullShare.left) tbl
          ∗ (((c : Thread nD τ).loc (pre1.ref 0)) ↦{fullShare.right} tbl 0) ∗ (((c : Thread nD τ).loc (pre1.ref 1)) ↦{fullShare.right} tbl 1)) := by
  rw [← prefHeld1_eq]
  exact BI.equiv_iff.mp ⟨(Pipeline.prefHeld_share pre1 c (PosShare.mem_left_op_right fullShare) tbl).mp,
    (Pipeline.prefHeld_share pre1 c (PosShare.mem_left_op_right fullShare) tbl).mpr⟩

/-! ## The body at a point -/

/-- The current staging memref of each window at point `t`. -/
abbrev st1_0 (t : Fin (cfgA (F := F)).N) := ((cfgA (F := F)).win 0).stage ((cfgA (F := F)).slots t 0)
abbrev st1_1 (t : Fin (cfgA (F := F)).N) := ((cfgA (F := F)).win 1).stage ((cfgA (F := F)).slots t 1)
abbrev st1_2 (t : Fin (cfgA (F := F)).N) := ((cfgA (F := F)).win 2).stage ((cfgA (F := F)).slots t 2)
abbrev st1_3 (t : Fin (cfgA (F := F)).N) := ((cfgA (F := F)).win 3).stage ((cfgA (F := F)).slots t 3)

/-- The kernel body at point `t`, on what the pipeline calls it with. -/
abbrev bodyAt1 (t : Fin (cfgA (F := F)).N) : Prog (TpuEff nD τ sig (Elt F) Λ₀ .tc) PUnit :=
  cc1__attn_kernel ((cfgA (F := F)).grid.coords t) (Memref.whole main_c) (Memref.isWhole_whole _) (Memref.whole main_c_0) (Memref.isWhole_whole _)
    (st1_0 t) (hstage1_0 (((cfgA (F := F)).slots t 0).cast nbuf1_0)) (st1_1 t) (hstage1_1 (((cfgA (F := F)).slots t 1).cast nbuf1_1))
    (st1_2 t) (hstage1_2 (((cfgA (F := F)).slots t 2).cast nbuf1_2)) (st1_3 t) (hstage1_3 (((cfgA (F := F)).slots t 3).cast nbuf1_3))
    (Memref.whole cc1_scratch0) (Memref.isWhole_whole _) (Memref.whole cc1_scratch1) (Memref.isWhole_whole _)
    (Memref.whole cc1_scratch2) (Memref.isWhole_whole _)

/-! ## One step of the body, over the invariant's resources

The four paths' triples have one shape: the three input buffers at their blocks, the output buffer at something
(`Y`), the tables' right halves and the scratch at a state go in; the same come out with the scratch at the stepped
state and the output buffer at something (`Y₁`, weakened here to `Y'`). Around any such triple the rest of the
invariant and a frame pass unchanged. -/

theorem step1_gen (c : Dev nD) (t : Fin (cfgA (F := F)).N) (s s1 : Scr F) (R Y Y₁ Y' : sProp 𝕄) (hY : Y₁ ⊢ Y')
    (T : ∀ K : PUnit → sProp 𝕄,
      iprop(owns (c : Thread nD τ) (st1_0 t) fullShare (iblk1 V c 0 t) ∗ owns (c : Thread nD τ) (st1_1 t) fullShare (iblk1 V c 1 t)
          ∗ owns (c : Thread nD τ) (st1_2 t) fullShare (iblk1 V c 2 t) ∗ Y
          ∗ ((c : Thread nD τ).loc (pre1.ref 0) ↦{fullShare.right} (tbl1 (F := F)) 0) ∗ ((c : Thread nD τ).loc (pre1.ref 1) ↦{fullShare.right} (tbl1 (F := F)) 1)
          ∗ owns (c : Thread nD τ) (Memref.whole cc1_scratch0) fullShare s.m ∗ owns (c : Thread nD τ) (Memref.whole cc1_scratch1) fullShare s.l
          ∗ owns (c : Thread nD τ) (Memref.whole cc1_scratch2) fullShare s.a
          ∗ (iprop(owns (c : Thread nD τ) (st1_0 t) fullShare (iblk1 V c 0 t) ∗ owns (c : Thread nD τ) (st1_1 t) fullShare (iblk1 V c 1 t)
              ∗ owns (c : Thread nD τ) (st1_2 t) fullShare (iblk1 V c 2 t) ∗ Y₁
              ∗ ((c : Thread nD τ).loc (pre1.ref 0) ↦{fullShare.right} (tbl1 (F := F)) 0) ∗ ((c : Thread nD τ).loc (pre1.ref 1) ↦{fullShare.right} (tbl1 (F := F)) 1)
              ∗ owns (c : Thread nD τ) (Memref.whole cc1_scratch0) fullShare s1.m ∗ owns (c : Thread nD τ) (Memref.whole cc1_scratch1) fullShare s1.l
              ∗ owns (c : Thread nD τ) (Memref.whole cc1_scratch2) fullShare s1.a) -∗ K ⟨⟩))
        ⊢ wp frame (wpE (defs₀ (F := F)) Variants.none c none) Set.univ (bodyAt1 t) K) :
    iprop(inv1 c s ∗ R ∗ owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ Y)
      ⊢ wp frame (wpE (defs₀ (F := F)) Variants.none c none) Set.univ (bodyAt1 t) (fun _ =>
          iprop(inv1 c s1 ∗ R ∗ owns (c : Thread nD τ) (st1_0 t) fullShare (iblk1 V c 0 t) ∗ owns (c : Thread nD τ) (st1_1 t) fullShare (iblk1 V c 1 t)
            ∗ owns (c : Thread nD τ) (st1_2 t) fullShare (iblk1 V c 2 t) ∗ Y')) := by
  unfold inv1
  rw [prefHeld1_halves]
  iintro ⟨⟨Hm, Hl, Ha, ⟨HTl, HT0, HT1⟩, Hrest, Hp⟩, HR, H0, H1, H2, HY⟩
  iapply (T _)
  isplitl [H0]; · iexact H0
  isplitl [H1]; · iexact H1
  isplitl [H2]; · iexact H2
  isplitl [HY]; · iexact HY
  isplitl [HT0]; · iexact HT0
  isplitl [HT1]; · iexact HT1
  isplitl [Hm]; · iexact Hm
  isplitl [Hl]; · iexact Hl
  isplitl [Ha]; · iexact Ha
  iintro ⟨H0, H1, H2, HY, HT0, HT1, Hm, Hl, Ha⟩
  isplitl [Hm Hl Ha HTl HT0 HT1 Hrest Hp]
  · isplitl [Hm]; · iexact Hm
    isplitl [Hl]; · iexact Hl
    isplitl [Ha]; · iexact Ha
    isplitl [HTl HT0 HT1]
    · isplitl [HTl]; · iexact HTl
      isplitl [HT0]; · iexact HT0
      iexact HT1
    isplitl [Hrest]; · iexact Hrest
    iexact Hp
  isplitl [HR]; · iexact HR
  isplitl [H0]; · iexact H0
  isplitl [H1]; · iexact H1
  isplitl [H2]; · iexact H2
  iapply hY; iexact HY

/-! ## The body obligation at a point, path by path -/

/-- What the body is handed at point `t`. -/
def bodyPre1 (c : Dev nD) (t : Fin (cfgA (F := F)).N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it leaves at a diagonal point: the output buffer at the stored block. -/
def bodyPostD1 (c : Dev nD) (t : Fin (cfgA (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- What it leaves at an off-diagonal point: the output buffer as found. -/
def bodyPostO1 (c : Dev nD) (t : Fin (cfgA (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (∃ d, owns (c : Thread nD τ) (st1_3 t) fullShare ((dat1 V c).before 3 t d)))

/-- The point's obligation on path A, the first key block of its run at a diagonal pair. -/
theorem sound_body1_A (c : Dev nD) (t : Fin (cfgA (F := F)).N) (h1 : isFirst1 (wk1 t)) (h2 : isDiag1 (wq1 t) (wk1 t)) :
    bodyPre1 V c t ⊢ wp frame (wpE (defs₀ (F := F)) Variants.none c none) Set.univ (bodyAt1 t) (fun _ => bodyPostD1 V c t) := by
  unfold bodyPre1 bodyPostD1
  simp only [before1_0, before1_1, before1_2]
  rw [show (dat1 V c).owesAt () t.succ = (dat1 V c).owesAt () t.castSucc from rfl, after1_0, after1_1, after1_2, after1_3,
    Φ_at, Φ_at, Φ1_of_pos V c t.succ (Nat.succ_ne_zero _), show t.succ.val = t.val + 1 from rfl, scrAt1_succ_first V c t h1, Φ1_eq]
  iintro ⟨⟨%s, %hs, HI⟩, Ho, ⟨%d0, H0⟩, ⟨%d1, H1⟩, ⟨%d2, H2⟩, ⟨%d3, H3⟩⟩
  iapply (step1_gen V c t s (step1 (wq1 t) (wk1 t) (iblk1 V c 0 t) (iblk1 V c 1 t) (iblk1 V c 2 t) reset1)
    ((dat1 V c).owesAt () t.castSucc) iprop(∃ d, owns (c : Thread nD τ) (st1_3 t) fullShare d)
    (owns (c : Thread nD τ) (st1_3 t) fullShare (outOf1 (step1 (wq1 t) (wk1 t) (iblk1 V c 0 t) (iblk1 V c 1 t) (iblk1 V c 2 t) reset1)))
    (owns (c : Thread nD τ) (st1_3 t) fullShare (outOf1 (step1 (wq1 t) (wk1 t) (iblk1 V c 0 t) (iblk1 V c 1 t) (iblk1 V c 2 t) reset1))) .rfl
    (fun K => sound_kernel1_A c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) s K h1 h2))
  isplitl [HI]; · iexact HI
  isplitl [Ho]; · iexact Ho
  isplitl [H0]; · iexact H0
  isplitl [H1]; · iexact H1
  isplitl [H2]; · iexact H2
  iexists _; iexact H3

/-- The point's obligation on path B, the first key block of its run at an off-diagonal pair. -/
theorem sound_body1_B (c : Dev nD) (t : Fin (cfgA (F := F)).N) (h1 : isFirst1 (wk1 t)) (h2 : ¬ isDiag1 (wq1 t) (wk1 t)) :
    bodyPre1 V c t ⊢ wp frame (wpE (defs₀ (F := F)) Variants.none c none) Set.univ (bodyAt1 t) (fun _ => bodyPostO1 V c t) := by
  unfold bodyPre1 bodyPostO1
  simp only [before1_0, before1_1, before1_2]
  rw [show (dat1 V c).owesAt () t.succ = (dat1 V c).owesAt () t.castSucc from rfl, after1_0, after1_1, after1_2,
    Φ_at, Φ_at, Φ1_of_pos V c t.succ (Nat.succ_ne_zero _), show t.succ.val = t.val + 1 from rfl, scrAt1_succ_first V c t h1, Φ1_eq]
  iintro ⟨⟨%s, %hs, HI⟩, Ho, ⟨%d0, H0⟩, ⟨%d1, H1⟩, ⟨%d2, H2⟩, ⟨%d3, H3⟩⟩
  iapply (step1_gen V c t s (step1 (wq1 t) (wk1 t) (iblk1 V c 0 t) (iblk1 V c 1 t) (iblk1 V c 2 t) reset1)
    ((dat1 V c).owesAt () t.castSucc) (owns (c : Thread nD τ) (st1_3 t) fullShare ((dat1 V c).before 3 t d3))
    (owns (c : Thread nD τ) (st1_3 t) fullShare ((dat1 V c).before 3 t d3))
    iprop(∃ d, owns (c : Thread nD τ) (st1_3 t) fullShare ((dat1 V c).before 3 t d)) (by iintro H; iexists d3; iexact H)
    (fun K => sound_kernel1_B c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) s ((dat1 V c).before 3 t d3) K h1 h2))
  isplitl [HI]; · iexact HI
  isplitl [Ho]; · iexact Ho
  isplitl [H0]; · iexact H0
  isplitl [H1]; · iexact H1
  isplitl [H2]; · iexact H2
  iexact H3

/-- The point's obligation on path C, a later key block at a diagonal pair. -/
theorem sound_body1_C (c : Dev nD) (t : Fin (cfgA (F := F)).N) (h1 : ¬ isFirst1 (wk1 t)) (h2 : isDiag1 (wq1 t) (wk1 t)) :
    bodyPre1 V c t ⊢ wp frame (wpE (defs₀ (F := F)) Variants.none c none) Set.univ (bodyAt1 t) (fun _ => bodyPostD1 V c t) := by
  unfold bodyPre1 bodyPostD1
  simp only [before1_0, before1_1, before1_2]
  rw [show (dat1 V c).owesAt () t.succ = (dat1 V c).owesAt () t.castSucc from rfl, after1_0, after1_1, after1_2, after1_3,
    Φ_at, Φ_at, Φ1_of_pos V c t.succ (Nat.succ_ne_zero _), Φ1_of_pos V c t.castSucc (pos_of_not_first t h1), show t.succ.val = t.val + 1 from rfl, show t.castSucc.val = t.val from rfl, scrAt1_succ_later V c t h1]
  iintro ⟨HI, Ho, ⟨%d0, H0⟩, ⟨%d1, H1⟩, ⟨%d2, H2⟩, ⟨%d3, H3⟩⟩
  iapply (step1_gen V c t (scrAt1 V c t.val) (step1 (wq1 t) (wk1 t) (iblk1 V c 0 t) (iblk1 V c 1 t) (iblk1 V c 2 t) (scrAt1 V c t.val))
    ((dat1 V c).owesAt () t.castSucc) iprop(∃ d, owns (c : Thread nD τ) (st1_3 t) fullShare d)
    (owns (c : Thread nD τ) (st1_3 t) fullShare (outOf1 (step1 (wq1 t) (wk1 t) (iblk1 V c 0 t) (iblk1 V c 1 t) (iblk1 V c 2 t) (scrAt1 V c t.val))))
    (owns (c : Thread nD τ) (st1_3 t) fullShare (outOf1 (step1 (wq1 t) (wk1 t) (iblk1 V c 0 t) (iblk1 V c 1 t) (iblk1 V c 2 t) (scrAt1 V c t.val)))) .rfl
    (fun K => sound_kernel1_C c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) (scrAt1 V c t.val) K h1 h2))
  isplitl [HI]; · iexact HI
  isplitl [Ho]; · iexact Ho
  isplitl [H0]; · iexact H0
  isplitl [H1]; · iexact H1
  isplitl [H2]; · iexact H2
  iexists _; iexact H3

/-- The point's obligation on path D, a later key block at an off-diagonal pair. -/
theorem sound_body1_D (c : Dev nD) (t : Fin (cfgA (F := F)).N) (h1 : ¬ isFirst1 (wk1 t)) (h2 : ¬ isDiag1 (wq1 t) (wk1 t)) :
    bodyPre1 V c t ⊢ wp frame (wpE (defs₀ (F := F)) Variants.none c none) Set.univ (bodyAt1 t) (fun _ => bodyPostO1 V c t) := by
  unfold bodyPre1 bodyPostO1
  simp only [before1_0, before1_1, before1_2]
  rw [show (dat1 V c).owesAt () t.succ = (dat1 V c).owesAt () t.castSucc from rfl, after1_0, after1_1, after1_2,
    Φ_at, Φ_at, Φ1_of_pos V c t.succ (Nat.succ_ne_zero _), Φ1_of_pos V c t.castSucc (pos_of_not_first t h1), show t.succ.val = t.val + 1 from rfl, show t.castSucc.val = t.val from rfl, scrAt1_succ_later V c t h1]
  iintro ⟨HI, Ho, ⟨%d0, H0⟩, ⟨%d1, H1⟩, ⟨%d2, H2⟩, ⟨%d3, H3⟩⟩
  iapply (step1_gen V c t (scrAt1 V c t.val) (step1 (wq1 t) (wk1 t) (iblk1 V c 0 t) (iblk1 V c 1 t) (iblk1 V c 2 t) (scrAt1 V c t.val))
    ((dat1 V c).owesAt () t.castSucc) (owns (c : Thread nD τ) (st1_3 t) fullShare ((dat1 V c).before 3 t d3))
    (owns (c : Thread nD τ) (st1_3 t) fullShare ((dat1 V c).before 3 t d3))
    iprop(∃ d, owns (c : Thread nD τ) (st1_3 t) fullShare ((dat1 V c).before 3 t d)) (by iintro H; iexists d3; iexact H)
    (fun K => sound_kernel1_D c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) (scrAt1 V c t.val) ((dat1 V c).before 3 t d3) K h1 h2))
  isplitl [HI]; · iexact HI
  isplitl [Ho]; · iexact Ho
  isplitl [H0]; · iexact H0
  isplitl [H1]; · iexact H1
  isplitl [H2]; · iexact H2
  iexact H3

/-! ## The body obligation at a point -/

/-- What the output window's buffer holds after the body at a diagonal point: the stored block. -/
theorem leaves3_diag (c : Dev nD) (t : Fin (cfgA (F := F)).N) (h : isDiag1 (wq1 t) (wk1 t)) :
    (dat1 V c).leavesExact 3 t = owns (c : Thread nD τ) (st1_3 t) fullShare ((dat1 V c).after 3 t) := by
  unfold Dat.leavesExact; rw [idle3_diag t h]

/-- At an off-diagonal point, idle for the window and not written back: what the body found. -/
theorem leaves3_off (c : Dev nD) (t : Fin (cfgA (F := F)).N) (h : ¬ isDiag1 (wq1 t) (wk1 t)) :
    (dat1 V c).leavesExact 3 t = iprop(∃ d, owns (c : Thread nD τ) (st1_3 t) fullShare ((dat1 V c).before 3 t d)) :=
  (dat1 V c).leavesExact_idle 3 t (idle3_off t h) (flush3_off t h)

/-- What the body leaves at point `t`, the output window's buffer by the cases of the obligation. -/
def bodyPost1 (c : Dev nD) (t : Fin (cfgA (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

theorem sound_body1 (c : Dev nD) (t : Fin (cfgA (F := F)).N) :
    bodyPre1 V c t ⊢ wp frame (wpE (defs₀ (F := F)) Variants.none c none) Set.univ (bodyAt1 t) (fun _ => bodyPost1 V c t) := by
  unfold bodyPost1
  by_cases hD : isDiag1 (wq1 t) (wk1 t)
  · rw [leaves3_diag V c t hD]
    by_cases hF : isFirst1 (wk1 t)
    · exact sound_body1_A V c t hF hD
    · exact sound_body1_C V c t hF hD
  · rw [leaves3_off V c t hD]
    by_cases hF : isFirst1 (wk1 t)
    · exact sound_body1_B V c t hF hD
    · exact sound_body1_D V c t hF hD

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.SegDefs.lean ====
/-
  @main of the kernel between its items: the contents of the core's buffers at every boundary between two items, as a
  chain from the launch memory (a host stretch rewrites what its operations write; a call leaves its output array at what
  its pipeline's write-backs fold to), the tables' admissible contents per pipeline, and every pipeline's proof data at
  its call's entry contents.
-/
import proofs.«428345_j25692494364785_3_alg».proof.Proof.Region0
import proofs.«428345_j25692494364785_3_alg».proof.Proof.Region2
import proofs.«428345_j25692494364785_3_alg».proof.Proof.Region1Dat
import proofs.«428345_j25692494364785_3_alg».proof.Proof.Gen.KernelIdeal.Regions
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The tables' admissible contents, per pipeline -/

/-- Calls 0 and 2 prefetch no table; call 1 runs at the two literal tables. -/
abbrev adm : (p : Fin 3) → (pcfgs (F := F) p).Adm
  | ⟨0, _⟩ => cfg0.toPCfg_adm
  | ⟨1, _⟩ => adm1
  | ⟨2, _⟩ => cfg2.toPCfg_adm
  | ⟨_ + 3, h⟩ => absurd h (Nat.not_lt.2 (Nat.le_add_left _ _))

variable (m : (ℓ : Loc nD τ sig) → Buf (Elt F) ℓ)

/-! ## The buffers' contents at each boundary -/

/-- After the first host stretch: call 0's entry. -/
def B1 (c : Dev nD) : Valuation τ sig (Elt F) := StableHlo.after hostOps0 (fun b => m (c, b))
/-- What call 0 leaves in its output array: its pipeline's write-backs folded over the entry contents. -/
def out0 (c : Dev nD) : Buf (Elt F) ((c : Thread nD τ).loc main_v5) := (dat0 (fun c b => B1 m c b) c).arrAt 2 cfg0.N
/-- After call 0. -/
def B2 (c : Dev nD) : Valuation τ sig (Elt F) := Function.update (B1 m c) main_v5 (out0 m c)
/-- After the reshape of the projection: call 1's entry. -/
def B3 (c : Dev nD) : Valuation τ sig (Elt F) := StableHlo.after hostOps1 (B2 m c)
/-- What call 1 leaves in its output array. -/
def out1 (c : Dev nD) : Buf (Elt F) ((c : Thread nD τ).loc main_v7) := (dat1 (fun c b => B3 m c b) c).arrAt 3 (cfgA (F := F)).N
/-- After call 1. -/
def B4 (c : Dev nD) : Valuation τ sig (Elt F) := Function.update (B3 m c) main_v7 (out1 m c)
/-- After the reshape of the attention output: call 2's entry. -/
def B5 (c : Dev nD) : Valuation τ sig (Elt F) := StableHlo.after hostOps2 (B4 m c)
/-- What call 2 leaves in its output array. -/
def out2 (c : Dev nD) : Buf (Elt F) ((c : Thread nD τ).loc main_v9) := (dat2 (fun c b => B5 m c b) c).arrAt 2 cfg2.N
/-- After call 2. -/
def B6 (c : Dev nD) : Valuation τ sig (Elt F) := Function.update (B5 m c) main_v9 (out2 m c)
/-- After the last reshape: the return. -/
def B7 (c : Dev nD) : Valuation τ sig (Elt F) := StableHlo.after hostOps3 (B6 m c)

/-- What the calls leave in their output arrays, as the generated boundary contents take it. -/
def outs : Outs (F := F) := fun _ r c =>
  if h : r = main_v5 then h ▸ out0 m c
  else if h : r = main_v7 then h ▸ out1 m c
  else if h : r = main_v9 then h ▸ out2 m c
  else m ((c : Thread nD τ).loc r)

theorem outs_v5 (J : ℕ) (c : Dev nD) : outs m J main_v5 c = out0 m c := by
  unfold outs; rw [dif_pos rfl]
theorem outs_v7 (J : ℕ) (c : Dev nD) : outs m J main_v7 c = out1 m c := by
  unfold outs; rw [dif_neg (by decide), dif_pos rfl]
theorem outs_v9 (J : ℕ) (c : Dev nD) : outs m J main_v9 c = out2 m c := by
  unfold outs; rw [dif_neg (by decide), dif_neg (by decide), dif_pos rfl]

/-- The generated boundary contents at these outputs are the chain's. -/
theorem V1_eq (c : Dev nD) : V1 m c = B1 m c := rfl
theorem V2_eq (c : Dev nD) : V2 m (outs m) c = B2 m c := by
  unfold V2 B2; rw [outs_v5, V1_eq]
theorem V3_eq (c : Dev nD) : V3 m (outs m) c = B3 m c := by
  unfold V3 B3; rw [V2_eq]
theorem V4_eq (c : Dev nD) : V4 m (outs m) c = B4 m c := by
  unfold V4 B4; rw [outs_v7, V3_eq]
theorem V5_eq (c : Dev nD) : V5 m (outs m) c = B5 m c := by
  unfold V5 B5; rw [V4_eq]
theorem V6_eq (c : Dev nD) : V6 m (outs m) c = B6 m c := by
  unfold V6 B6; rw [outs_v9, V5_eq]
theorem V7_eq (c : Dev nD) : V7 m (outs m) c = B7 m c := by
  unfold V7 B7; rw [V6_eq]

/-! ## The proof data family -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (fun c b => B1 m c b) c
  | ⟨1, _⟩ => fun c => dat1 (fun c b => B3 m c b) c
  | ⟨2, _⟩ => fun c => dat2 (fun c b => B5 m c b) c
  | ⟨_ + 3, h⟩ => absurd h (Nat.not_lt.2 (Nat.le_add_left _ _))

end Cert.KernelIdeal.Hand

end
-- ==== Proof.Reg1InOut.lean ====
/-
  Call 1 of the kernel: what the region hands the pipeline's invariant at its first point and takes back at its last.
  The invariant holds the three scratch buffers at some state, the two tables, the scoped buffers the body never
  touches and the generator register. Of the core's thirteen scoped buffers that are no staging buffer of this call,
  three are the scratch buffers and ten are the untouched ones: entering, whatever the three hold is taken as the
  state (nothing is claimed of it before the first point); leaving, the state is forgotten.
-/
import proofs.«428345_j25692494364785_3_alg».proof.Proof.Region1Dat
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«428345_j25692494364785_3_alg».proof.Proof.Region1Defs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- ENTRY: the generator register, the tables and the thirteen scoped buffers make the invariant at the first point,
    the state being whatever the three scratch buffers hold. -/
theorem hin1 (c : Dev nD) :
    iprop((∃ r, prngReg c r) ∗ Pipeline.prefHeld (Ix := Unit) (Name := ℕ) (U := UR sig nD τ) (Lvl := ℕ) pre1 c (fun _ => fullShare) (tbl1 (F := F))
        ∗ Pipeline.scopedRest (Ix := Unit) (Name := ℕ) (U := UR sig nD τ) (Lvl := ℕ) (Val := Elt F) spec1 c)
      ⊢ (Φ1 V c 0 : sProp 𝕄) := by
  rw [scopedRest1_eq c]
  unfold Φ1 rest1
  simp only [owns_whole]
  iintro ⟨Hr, Hp, H1, H2, H3, H4, H5, ⟨%fm, Hm⟩, ⟨%fl, Hl⟩, ⟨%fa, Ha⟩, H9, H10, H11, H12, H13⟩
  iexists (⟨fm, fl, fa⟩ : Scr F)
  isplitr; · ipureintro; exact fun h => absurd rfl h
  isplitl [Hm]; · iexact Hm
  isplitl [Hl]; · iexact Hl
  isplitl [Ha]; · iexact Ha
  isplitl [Hp]; · iexact Hp
  isplitr [Hr]
  · isplitl [H1]; · iexact H1
    isplitl [H2]; · iexact H2
    isplitl [H3]; · iexact H3
    isplitl [H4]; · iexact H4
    isplitl [H5]; · iexact H5
    isplitl [H9]; · iexact H9
    isplitl [H10]; · iexact H10
    isplitl [H11]; · iexact H11
    isplitl [H12]; · iexact H12
    iexact H13
  iexact Hr

/-- EXIT: the invariant at the last point gives back the generator register, the tables, no semaphore, and the thirteen
    scoped buffers, the scratch buffers at whatever state they ended in. -/
theorem hout1 (c : Dev nD) :
    (Φ1 V c (Fin.last (cfgA (F := F)).N) : sProp 𝕄)
      ⊢ iprop(((∃ r, prngReg c r) ∗ Pipeline.prefHeld (Ix := Unit) (Name := ℕ) (U := UR sig nD τ) (Lvl := ℕ) pre1 c (fun _ => fullShare) (tbl1 (F := F)))
          ∗ Pipeline.ownSems0 (fun k : PEmpty => k.elim) c
          ∗ Pipeline.scopedRest (Ix := Unit) (Name := ℕ) (U := UR sig nD τ) (Lvl := ℕ) (Val := Elt F) spec1 c) := by
  rw [Pipeline.ownSems0_none, scopedRest1_eq c]
  unfold Φ1 rest1
  simp only [owns_whole]
  iintro ⟨%s, -, Hm, Hl, Ha, Hp, ⟨H1, H2, H3, H4, H5, H9, H10, H11, H12, H13⟩, Hr⟩
  isplitl [Hr Hp]
  · isplitl [Hr]; · iexact Hr
    iexact Hp
  isplitr; · iempintro
  isplitl [H1]; · iexact H1
  isplitl [H2]; · iexact H2
  isplitl [H3]; · iexact H3
  isplitl [H4]; · iexact H4
  isplitl [H5]; · iexact H5
  isplitl [Hm]; · iexists _; iexact Hm
  isplitl [Hl]; · iexists _; iexact Hl
  isplitl [Ha]; · iexists _; iexact Ha
  isplitl [H9]; · iexact H9
  isplitl [H10]; · iexact H10
  isplitl [H11]; · iexact H11
  isplitl [H12]; · iexact H12
  iexact H13

end Cert.KernelIdeal.Hand

end
-- ==== Proof.Segs.lean ====
/-
  @main of the kernel as the segments of one run: three host stretches' worth of reshapes and format changes around the
  three calls. Here: the contents of the core's buffers at every boundary between two items, as a chain from the launch
  memory (a host stretch rewrites what its operations write; a call leaves its output array at what its pipeline's
  write-backs fold to); every pipeline's proof data at its call's entry contents; each call as a segment record over the
  thread state "every unscoped buffer at the boundary's contents, the generator register at some state, nothing owed";
  and the run, whose final memory holds the result array at the last boundary's contents and every argument as launched.
-/
import proofs.«428345_j25692494364785_3_alg».proof.Proof.SegDefs
import proofs.«428345_j25692494364785_3_alg».proof.Proof.Reg1InOut
import proofs.«428345_j25692494364785_3_alg».proof.Proof.Region0
import proofs.«428345_j25692494364785_3_alg».proof.Proof.Region2
import proofs.«428345_j25692494364785_3_alg».proof.Proof.Region1Dat
import proofs.«428345_j25692494364785_3_alg».proof.Proof.Gen.KernelIdeal.Regions
import proofs.«428345_j25692494364785_3_alg».proof.Proof.Gen.KernelIdeal.Launch
import proofs.«428345_j25692494364785_3_alg».proof.Proof.Gen.KernelIdeal.Skeleton
import proofs.«428345_j25692494364785_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-- The boundary contents read at the TensorCore's references: what a call's proof data take. -/
abbrev BV1 : (c : Dev nD) → (b : Ref sig .tc) → Buf (Elt F) ((c : Thread nD τ).loc b) := fun c b => B1 m c b
abbrev BV2 : (c : Dev nD) → (b : Ref sig .tc) → Buf (Elt F) ((c : Thread nD τ).loc b) := fun c b => B2 m c b
abbrev BV3 : (c : Dev nD) → (b : Ref sig .tc) → Buf (Elt F) ((c : Thread nD τ).loc b) := fun c b => B3 m c b
abbrev BV4 : (c : Dev nD) → (b : Ref sig .tc) → Buf (Elt F) ((c : Thread nD τ).loc b) := fun c b => B4 m c b
abbrev BV5 : (c : Dev nD) → (b : Ref sig .tc) → Buf (Elt F) ((c : Thread nD τ).loc b) := fun c b => B5 m c b
abbrev BV6 : (c : Dev nD) → (b : Ref sig .tc) → Buf (Elt F) ((c : Thread nD τ).loc b) := fun c b => B6 m c b

/-! ## Calls 0 and 2: what their arrays hold at the exit -/

/-- At call 0's exit each input array holds what it held at entry (an input is never written back; the output's
    buffer is another) and the output array what the write-backs fold to. -/
theorem hF0 (c : Dev nD) : ∀ w : Fin cfg0.W, (pdats m 0 c).arrAt w cfg0.N = BV2 m c (Pipeline.arrRef spec0 w)
  | ⟨0, _⟩ => ((pdats m 0 c).arrAt_in 0 rfl _).trans ((A_eq0 (BV1 m) c 0).trans
      (Function.update_of_ne (StableHlo.devRef_ne_of_ne (by decide)) _ _).symm)
  | ⟨1, _⟩ => ((pdats m 0 c).arrAt_in 1 rfl _).trans ((A_eq0 (BV1 m) c 1).trans
      (Function.update_of_ne (StableHlo.devRef_ne_of_ne (by decide)) _ _).symm)
  | ⟨2, _⟩ => by
    show (pdats m 0 c).arrAt 2 cfg0.N = Function.update (B1 m c) (Proc.devRef .tc main_v5) (out0 m c) (Proc.devRef .tc main_v5)
    rw [Function.update_self]; rfl
  | ⟨_ + 3, h⟩ => absurd h (Nat.not_lt.2 (Nat.le_add_left _ _))
/-- Every buffer that is no array of call 0 holds at its exit what it held at entry. -/
theorem hrest0 (c : Dev nD) : ∀ b, b ∉ Finset.univ.image (Pipeline.arrRef spec0) → BV2 m c b = BV1 m c b :=
  fun b hb => Function.update_of_ne (StableHlo.devRef_ne_of_ne fun e =>
    hb (Finset.mem_image.mpr ⟨2, Finset.mem_univ _, e.symm⟩)) _ _

theorem hF2 (c : Dev nD) : ∀ w : Fin cfg2.W, (pdats m 2 c).arrAt w cfg2.N = BV6 m c (Pipeline.arrRef spec2 w)
  | ⟨0, _⟩ => ((pdats m 2 c).arrAt_in 0 rfl _).trans ((A_eq2 (BV5 m) c 0).trans
      (Function.update_of_ne (StableHlo.devRef_ne_of_ne (by decide)) _ _).symm)
  | ⟨1, _⟩ => ((pdats m 2 c).arrAt_in 1 rfl _).trans ((A_eq2 (BV5 m) c 1).trans
      (Function.update_of_ne (StableHlo.devRef_ne_of_ne (by decide)) _ _).symm)
  | ⟨2, _⟩ => by
    show (pdats m 2 c).arrAt 2 cfg2.N = Function.update (B5 m c) (Proc.devRef .tc main_v9) (out2 m c) (Proc.devRef .tc main_v9)
    rw [Function.update_self]; rfl
  | ⟨_ + 3, h⟩ => absurd h (Nat.not_lt.2 (Nat.le_add_left _ _))
theorem hrest2 (c : Dev nD) : ∀ b, b ∉ Finset.univ.image (Pipeline.arrRef spec2) → BV6 m c b = BV5 m c b :=
  fun b hb => Function.update_of_ne (StableHlo.devRef_ne_of_ne fun e =>
    hb (Finset.mem_image.mpr ⟨2, Finset.mem_univ _, e.symm⟩)) _ _

/-! ## Calls 0 and 2 as segments -/

set_option backward.isDefEq.respectTransparency.types false in
/-- Call 0 over the thread state: entered from every unscoped buffer at `B1`, left at `B2`. Its arrays are split out of
    the unscoped buffers and put back at the exit contents; the generator register goes into the class invariant and
    comes out; nothing is owed; the kernel has no semaphore of its own. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (BV1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (BV1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (BV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m) ((pdats m 0 c).share_full fun _ => rfl)
      (BV1 m c) (BV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `B5`, left at `B6`, as call 0. -/
def reg2 : Pipeline.RegionSeg (pcfgs (F := F)) adm (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (BV5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (BV5 m c)
  hentry c := by
    rw [Pipeline.ownSems0_none]
    have hsplit := Pipeline.arrays_of_unscopedBufs (p := 2) (pcfgs (F := F)) adm (pdats m) (launch2 (F := F)).win (launch2 (F := F)).arr_whole c
      ((pdats m 2 c).share_full fun _ => rfl) (BV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m) ((pdats m 2 c).share_full fun _ => rfl)
      (BV5 m c) (BV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- A host stretch as a segment: its operations over the unscoped references from the contents `W`, `R` riding along;
    it ends with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments reach the last boundary as launched: no host stretch writes one, no call's output is one. -/
theorem B7_main_arg0 (c : Dev nD) : B7 m c main_arg0 = m ((c : Thread nD τ).loc main_arg0) :=
  (congrFun (V7_eq m c) _).symm.trans (V7_main_arg0 m (outs m) c)
theorem B7_main_arg1 (c : Dev nD) : B7 m c main_arg1 = m ((c : Thread nD τ).loc main_arg1) :=
  (congrFun (V7_eq m c) _).symm.trans (V7_main_arg1 m (outs m) c)
theorem B7_main_arg2 (c : Dev nD) : B7 m c main_arg2 = m ((c : Thread nD τ).loc main_arg2) :=
  (congrFun (V7_eq m c) _).symm.trans (V7_main_arg2 m (outs m) c)

section Run

variable (R1 : Pipeline.RegionSeg (pcfgs (F := F)) adm (pdats m) () defs₀ 𝒱₀ L lv 1)

/-- @main's seven segments in order, call 1's record a parameter. -/
abbrev segsOf : List (Pipeline.Seg (pcfgs (F := F)) adm (pdats m) () defs₀ 𝒱₀ L lv) :=
  [ .host (hseg hostOps0 hostOps0_sub hostOps0_fresh (fun c b => m (c, b))),
    .region (reg0 m),
    .host (hseg hostOps1 hostOps1_sub hostOps1_fresh (B2 m)),
    .region R1,
    .host (hseg hostOps2 hostOps2_sub hostOps2_fresh (B4 m)),
    .region (reg2 m),
    .host (hseg hostOps3 hostOps3_sub hostOps3_fresh (B6 m)) ]

/-- @main is the run of the segments. -/
theorem main_run (c : Dev nD) : main (F := F) c = Pipeline.Seg.run (segsOf m R1) :=
  main_segs adm (pdats m) () 𝒱₀ L lv _ _ _ _ (reg0 m) R1 (reg2 m) rfl rfl rfl rfl c

set_option backward.isDefEq.respectTransparency.types false in
/-- THE RUN, given call 1's record entered from the buffers at `B3` and left at `B4`: from any memory with zero
    counters every weakly fair execution of @main terminates, and every final memory holds the result array at the
    last boundary's contents and each argument as launched. -/
theorem run_cond (ρ : Dev nD → PrngReg)
    (hpre1 : ∀ c : Dev nD, iprop(StableHlo.held (c : Thread nD τ) (Pipeline.ucRefs τ sig) (B3 m c) ∗ R c) ⊢ R1.pre c)
    (hpost1 : ∀ c : Dev nD, R1.post c ⊢ iprop(StableHlo.held (c : Thread nD τ) (Pipeline.ucRefs τ sig) (B4 m c) ∗ R c)) :
    θ_run defs (onTc (τ := τ) (main (F := F))) ⟨m, fun _ => 0, ρ⟩ (fun r => ∀ c : Dev nD,
      r.2.mem ((c.tc : Thread nD τ).loc main_v10) = B7 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () (cellOf_inj adm) emb₁ defs₀ 𝒱₀ L lv m ρ main (segsOf m R1)
    (fun c Q => by rw [main_run m R1 c])
    (by simp only [segsOf, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (B7 m c) ∗ ∃ r, prngReg c r))
    (hch := ⟨fun _ => .rfl, fun _ => .rfl, fun _ => .rfl, hpre1, hpost1, fun _ => .rfl, fun _ => .rfl, fun c => by
      show iprop(StableHlo.held (c : Thread nD τ) (Pipeline.ucRefs τ sig) (B7 m c)
        ∗ (∃ r, prngReg c r) ∗ ∃ W, owes (c : Thread nD τ) (0 : CellTallies nD τ sig Unit) W) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨h c _ (mem_uc main_v10 (by decide)),
       (h c _ (mem_uc main_arg0 (by decide))).trans (B7_main_arg0 m c),
       (h c _ (mem_uc main_arg1 (by decide))).trans (B7_main_arg1 m c),
       (h c _ (mem_uc main_arg2 (by decide))).trans (B7_main_arg2 m c)⟩)

end Run

/-! ## Call 1: its arrays, tables and bypassed buffers carved out of the unscoped buffers -/

/-- The core's sixteen unscoped buffers, one by one, at contents `V`. -/
theorem unscopedBufs_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_v6) ↦{fullShare} V main_v6) ∗ (((c : Thread nD τ).loc main_v7) ↦{fullShare} V main_v7)
        ∗ (((c : Thread nD τ).loc main_c) ↦{fullShare} V main_c) ∗ (((c : Thread nD τ).loc main_c_0) ↦{fullShare} V main_c_0)
        ∗ (((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_v0) ↦{fullShare} V main_v0)
        ∗ (((c : Thread nD τ).loc main_v1) ↦{fullShare} V main_v1) ∗ (((c : Thread nD τ).loc main_v2) ↦{fullShare} V main_v2)
        ∗ (((c : Thread nD τ).loc main_v3) ↦{fullShare} V main_v3) ∗ (((c : Thread nD τ).loc main_v4) ↦{fullShare} V main_v4)
        ∗ (((c : Thread nD τ).loc main_v5) ↦{fullShare} V main_v5) ∗ (((c : Thread nD τ).loc main_v8) ↦{fullShare} V main_v8)
        ∗ (((c : Thread nD τ).loc main_v9) ↦{fullShare} V main_v9) ∗ (((c : Thread nD τ).loc main_v10) ↦{fullShare} V main_v10)) := by
  unfold unscopedBufs
  exact bigSep_eq_bigSepL_of_eq [main_v6, main_v7, main_c, main_c_0, main_arg0, main_arg1, main_arg2, main_v0, main_v1, main_v2,
    main_v3, main_v4, main_v5, main_v8, main_v9, main_v10] (by decide) (by decide) _

/-- The two tables, one by one. -/
theorem prefHeld1_tables_eq (c : Dev nD) (q : PosShare TreeShare) (T : pre1.Contents (Elt F)) :
    (Pipeline.prefHeld (Ix := Unit) (Name := ℕ) (U := UR sig nD τ) (Lvl := ℕ) pre1 c (fun _ => q) T : sProp 𝕄)
      = iprop((((c : Thread nD τ).loc main_c) ↦{q} T 0) ∗ (((c : Thread nD τ).loc main_c_0) ↦{q} T 1)) := by
  unfold Pipeline.prefHeld
  exact bigSep_univ_eq_bigSepL [(0 : Fin 2), (1 : Fin 2)] (by decide) (by decide) _

/-- A window's array of call 1 is a whole buffer: its elements are all of the buffer's. -/
theorem arr_pt1 (c : Dev nD) (w : Fin (cfgA (F := F)).W) (q : PosShare TreeShare)
    (Fw : Buf (Elt F) (((cfgA (F := F)).win w).arr.view.loc (c : Thread nD τ))) :
    ((((cfgA (F := F)).win w).arr.view.loc (c : Thread nD τ)) ↦[((cfgA (F := F)).win w).arr.view.set]{q} Fw : sProp 𝕄)
      = ((((cfgA (F := F)).win w).arr.view.loc (c : Thread nD τ)) ↦{q} Fw) := by
  rw [Memref.IsWhole.set_eq_univ (m := ((cfgA (F := F)).win w).arr) (arr_whole1 w)]

variable (V : (c : Dev nD) → (b : Ref sig .tc) → Buf (Elt F) ((c : Thread nD τ).loc b)) in
/-- Call 1's arrays: the three input windows hold their one array, the packed projection, in thirds; the output window
    holds its array whole. -/
theorem arrays1_eq (c : Dev nD) (Fs : (w : Fin (cfgA (F := F)).W) → Buf (Elt F) (((cfgA (F := F)).win w).arr.view.loc (c : Thread nD τ))) :
    ((dat1 V c).arrays Fs : sProp 𝕄)
      = iprop((((c : Thread nD τ).loc main_v6) ↦{fullShare.left} Fs 0) ∗ (((c : Thread nD τ).loc main_v6) ↦{fullShare.right.left} Fs 1)
        ∗ (((c : Thread nD τ).loc main_v6) ↦{fullShare.right.right} Fs 2) ∗ (((c : Thread nD τ).loc main_v7) ↦{fullShare} Fs 3)) := by
  unfold Dat.arrays
  rw [bigSep_W1, arr_pt1, arr_pt1, arr_pt1, arr_pt1]
  rfl

/-! ## Call 1: the tables and the arrays at the boundaries -/

/-- The two tables reach call 1 as the first host stretch writes them: no later operation and no call writes one. -/
theorem B3_main_c (c : Dev nD) : B3 m c main_c = tbl1 (F := F) 0 := by
  have h3 : B3 m c main_c = B2 m c main_c := StableHlo.after_of_writes_sub hostOps1 _ hostOps1_writes (by decide)
  have h2 : B2 m c main_c = B1 m c main_c := Function.update_of_ne (StableHlo.devRef_ne_of_ne (by decide)) _ _
  rw [h3, h2]; unfold B1; after_results; rfl
theorem B3_main_c_0 (c : Dev nD) : B3 m c main_c_0 = tbl1 (F := F) 1 := by
  have h3 : B3 m c main_c_0 = B2 m c main_c_0 := StableHlo.after_of_writes_sub hostOps1 _ hostOps1_writes (by decide)
  have h2 : B2 m c main_c_0 = B1 m c main_c_0 := Function.update_of_ne (StableHlo.devRef_ne_of_ne (by decide)) _ _
  rw [h3, h2]; unfold B1; after_results; rfl

/-- Call 1 changes its output array only. -/
theorem B4_of_ne (c : Dev nD) (r : Ref sig .tc) (h : r ≠ main_v7) : B4 m c r = B3 m c r :=
  Function.update_of_ne (StableHlo.devRef_ne_of_ne h) _ _
theorem B4_main_v7 (c : Dev nD) : B4 m c main_v7 = out1 m c := by
  show Function.update (B3 m c) (Proc.devRef .tc main_v7) (out1 m c) (Proc.devRef .tc main_v7) = _
  rw [Function.update_self]

/-- At call 1's exit each input window's array holds what it held at entry, the output's what the write-backs fold to. -/
theorem hF1 (c : Dev nD) : ∀ w : Fin (cfgA (F := F)).W, (dat1 (BV3 m) c).arrAt w (cfgA (F := F)).N = BV4 m c (Pipeline.arrRef spec1 w)
  | ⟨0, _⟩ => ((dat1 (BV3 m) c).arrAt_in 0 rfl _).trans ((A_eq1 (BV3 m) c 0).trans (B4_of_ne m c main_v6 (by decide)).symm)
  | ⟨1, _⟩ => ((dat1 (BV3 m) c).arrAt_in 1 rfl _).trans ((A_eq1 (BV3 m) c 1).trans (B4_of_ne m c main_v6 (by decide)).symm)
  | ⟨2, _⟩ => ((dat1 (BV3 m) c).arrAt_in 2 rfl _).trans ((A_eq1 (BV3 m) c 2).trans (B4_of_ne m c main_v6 (by decide)).symm)
  | ⟨3, _⟩ => (B4_main_v7 m c).symm
  | ⟨_ + 4, h⟩ => absurd h (Nat.not_lt.2 (Nat.le_add_left _ _))

/-! ## Call 1: entry and exit -/

/-- ENTRY. The unscoped buffers at `B3` are: the packed projection, whose full share splits into the three windows'
    thirds, and the output array — together call 1's arrays at their entry contents —; the two tables at the literal
    contents; and the twelve buffers that bypass the call. The dues, none, are the pipeline's first tallies. -/
theorem hentry1 (c : Dev nD) :
    (iprop(StableHlo.held (c : Thread nD τ) (Pipeline.ucRefs τ sig) (B3 m c) ∗ R c) : sProp 𝕄)
      ⊢ iprop((dat1 (BV3 m) c).arrays ((dat1 (BV3 m) c).arrAt · 0)
          ∗ Pipeline.prefHeld (Ix := Unit) (Name := ℕ) (U := UR sig nD τ) (Lvl := ℕ) pre1 c (fun _ => fullShare) (tbl1 (F := F))
          ∗ (dat1 (BV3 m) c).owesAt () 0 ∗ (∃ r, prngReg c r)
          ∗ Pipeline.unscopedRestP (Ix := Unit) (Name := ℕ) (U := UR sig nD τ) (Lvl := ℕ) pre1 spec1 c (BV3 m c)) := by
  rw [← Pipeline.unscopedBufs_held (Ix := Unit) (Name := ℕ) (U := UR sig nD τ) (Lvl := ℕ) c (B3 m c), unscopedBufs_eq, arrays1_eq,
    prefHeld1_tables_eq, unscopedRestP1_eq, ← B3_main_c m c, ← B3_main_c_0 m c]
  iintro ⟨⟨H6, H7, Hc, Hc0, Ha0, Ha1, Ha2, H0, H1, H2, H3, H4, H5, H8, H9, H10⟩, Hp, HO⟩
  ihave H6' := (pointsTo_share (PosShare.mem_left_op_right fullShare)).1 $$ H6
  icases H6' with ⟨H6l, H6r⟩
  ihave H6r' := (pointsTo_share (PosShare.mem_left_op_right fullShare.right)).1 $$ H6r
  icases H6r' with ⟨H6rl, H6rr⟩
  isplitl [H6l H6rl H6rr H7]
  · isplitl [H6l]; · iexact H6l
    isplitl [H6rl]; · iexact H6rl
    isplitl [H6rr]; · iexact H6rr
    iexact H7
  isplitl [Hc Hc0]
  · isplitl [Hc]; · iexact Hc
    iexact Hc0
  isplitl [HO]
  · unfold Pipeline.Dat.owesAt Pipeline.owesWithin
    icases HO with ⟨%W, HO⟩; iexists W; isplitr; · ipureintro; exact fun _ _ => Or.inl trivial
    iexact HO
  isplitl [Hp]; · iexact Hp
  isplitl [Ha0]; · iexact Ha0
  isplitl [Ha1]; · iexact Ha1
  isplitl [Ha2]; · iexact Ha2
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iexact H10

/-- An input window's array of call 1 is never written back: it holds the packed projection as entered. -/
theorem arrAt1_in0 (c : Dev nD) (n : ℕ) : (dat1 (BV3 m) c).arrAt 0 n = B3 m c main_v6 :=
  ((dat1 (BV3 m) c).arrAt_in 0 rfl _).trans (A_eq1 (BV3 m) c 0)
theorem arrAt1_in1 (c : Dev nD) (n : ℕ) : (dat1 (BV3 m) c).arrAt 1 n = B3 m c main_v6 :=
  ((dat1 (BV3 m) c).arrAt_in 1 rfl _).trans (A_eq1 (BV3 m) c 1)
theorem arrAt1_in2 (c : Dev nD) (n : ℕ) : (dat1 (BV3 m) c).arrAt 2 n = B3 m c main_v6 :=
  ((dat1 (BV3 m) c).arrAt_in 2 rfl _).trans (A_eq1 (BV3 m) c 2)
theorem arrAt1_out (c : Dev nD) : (dat1 (BV3 m) c).arrAt 3 (cfgA (F := F)).N = out1 m c := rfl

/-- EXIT. The three thirds of the packed projection join back into its full share at the entry contents; with the
    output array at what the write-backs fold to, the two tables and the twelve bypassed buffers they are the unscoped
    buffers at `B4`, which differs from `B3` at the output array only. -/
theorem hexit1 (c : Dev nD) :
    (iprop((dat1 (BV3 m) c).arrays ((dat1 (BV3 m) c).arrAt · (cfgA (F := F)).N)
          ∗ (dat1 (BV3 m) c).owesAt () (Fin.last (cfgA (F := F)).N)
          ∗ ((∃ r, prngReg c r) ∗ Pipeline.prefHeld (Ix := Unit) (Name := ℕ) (U := UR sig nD τ) (Lvl := ℕ) pre1 c (fun _ => fullShare) (tbl1 (F := F)))
          ∗ Pipeline.unscopedRestP (Ix := Unit) (Name := ℕ) (U := UR sig nD τ) (Lvl := ℕ) pre1 spec1 c (BV3 m c)) : sProp 𝕄)
      ⊢ iprop(StableHlo.held (c : Thread nD τ) (Pipeline.ucRefs τ sig) (B4 m c) ∗ R c) := by
  rw [← Pipeline.unscopedBufs_held (Ix := Unit) (Name := ℕ) (U := UR sig nD τ) (Lvl := ℕ) c (B4 m c), unscopedBufs_eq, arrays1_eq,
    prefHeld1_tables_eq, unscopedRestP1_eq, arrAt1_in0, arrAt1_in1, arrAt1_in2, arrAt1_out,
    B4_main_v7, B4_of_ne m c main_v6 (by decide), B4_of_ne m c main_c (by decide), B4_of_ne m c main_c_0 (by decide),
    B4_of_ne m c main_arg0 (by decide), B4_of_ne m c main_arg1 (by decide), B4_of_ne m c main_arg2 (by decide),
    B4_of_ne m c main_v0 (by decide), B4_of_ne m c main_v1 (by decide), B4_of_ne m c main_v2 (by decide),
    B4_of_ne m c main_v3 (by decide), B4_of_ne m c main_v4 (by decide), B4_of_ne m c main_v5 (by decide),
    B4_of_ne m c main_v8 (by decide), B4_of_ne m c main_v9 (by decide), B4_of_ne m c main_v10 (by decide),
    ← B3_main_c m c, ← B3_main_c_0 m c]
  iintro ⟨⟨H6l, H6rl, H6rr, H7⟩, HO, ⟨Hp, Hc, Hc0⟩, Ha0, Ha1, Ha2, H0, H1, H2, H3, H4, H5, H8, H9, H10⟩
  ihave H6r := (pointsTo_share (PosShare.mem_left_op_right fullShare.right)).2 $$ [H6rl H6rr]
  · isplitl [H6rl]; · iexact H6rl
    iexact H6rr
  ihave H6 := (pointsTo_share (PosShare.mem_left_op_right fullShare)).2 $$ [H6l H6r]
  · isplitl [H6l]; · iexact H6l
    iexact H6r
  isplitr [Hp HO]
  · isplitl [H6]; · iexact H6
    isplitl [H7]; · iexact H7
    isplitl [Hc]; · iexact Hc
    isplitl [Hc0]; · iexact Hc0
    isplitl [Ha0]; · iexact Ha0
    isplitl [Ha1]; · iexact Ha1
    isplitl [Ha2]; · iexact Ha2
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    iexact H10
  isplitl [Hp]; · iexact Hp
  unfold Pipeline.Dat.owesAt Pipeline.owesWithin
  icases HO with ⟨%W, -, HO⟩; iexists W; iexact HO

/-! ## Call 1 as a segment, and the run -/

set_option backward.isDefEq.respectTransparency.types false in
/-- Call 1 over the thread state: entered from every unscoped buffer at `B3`, left at `B4`. The generator register goes
    into the invariant and comes back beside the tables; the tables are held whole throughout; nothing is owed; the
    kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (BV3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 (F := F)))
  Z c := Pipeline.unscopedRestP (Ix := Unit) (Name := ℕ) (U := UR sig nD τ) (Lvl := ℕ) pre1 spec1 c (BV3 m c)
  hentry c := by
    iintro ⟨Hpre, -, -⟩
    imodintro
    iapply (hentry1 m c)
    iexact Hpre
  hin c := hin1 (BV3 m) c
  hout c := hout1 (BV3 m) c
  hexit c := by
    iintro H
    imodintro
    iapply (hexit1 m c)
    iexact H

/-- THE RUN: from any memory with zero counters every weakly fair execution of @main terminates, and every final memory
    holds the result array at the last boundary's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v10) = B7 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m (reg1 m) ρ (fun _ => .rfl) (fun _ => .rfl)

end Cert.KernelIdeal.Hand

end
-- ==== Proof.KRegion0.lean ====
/-
  Call 0 of the kernel, the projection X · W_qkvᵀ tiled over 16 row blocks of 512 rows: at every grid point the body
  loads its 512 × 768 block of X and the whole 768 × 2304 weight, multiplies them into a zero accumulator and stores the
  512 × 2304 product over its output block. Here: what the output block holds after the body as a function of the two
  input blocks (`out0_2`), the body's triple, the proof data of the pipeline at any entry contents `V` of the core's
  buffers, and the body obligation at every grid point. Nothing is carried between points and every window is live at
  every point, so the invariant is the class invariant `ΦA` (scoped rest and generator register, untouched).
-/
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The X window's staging buffer holds the point's row block, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight at every point: fetched at the first, its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev rx0 : Rect S512x768 := Rect.unit (s := S512x768) ![0, 0] S512x768.size inb_S512x768_S512x768_0_0
abbrev rw0 : Rect S768x2304 := Rect.unit (s := S768x2304) ![0, 0] S768x2304.size inb_S768x2304_S768x2304_0_0
abbrev ro0 : Rect S512x2304 := Rect.unit (s := S512x2304) ![0, 0] S512x2304.size inb_S512x2304_S512x2304_0_0

/-- The output block after the body: its one store, the product of the two loaded blocks, over the whole buffer. -/
def out0_2 (x0 : Vec F S512x768 .f32) (x1 : Vec F S768x2304 .bf16) : Vec F S512x2304 .bf16 :=
  View.canon [⟨ro0, k0_pay1 (View.ld x0 rx0) (View.ld x1 rw0)⟩]

theorem cover0_2 (p0 : Vec F S512x2304 .bf16) (y : S512x2304.Idx) :
    ∃ pc ∈ ([⟨ro0, p0⟩] : List (View.Piece (Elt F) S512x2304 .bf16)), y ∈ pc.1.set :=
  View.cover_of_tiled [⟨ro0, p0⟩] S512x2304.size (by rfl) y

/-! ## The body's triple -/

set_option maxHeartbeats 1000000 in
/-- The body on whole staging memrefs: the inputs at `x0`, `x1`, the output at anything; it ends with the inputs as they
    were and the output at `out0_2 x0 x1`. -/
theorem sound_kernel0 (c : Dev nD) (E : Set ℕ) (i : grid0.Coords)
    (arg1 : Memref sig .tc .vmem S512x768 .f32) (harg1 : arg1.IsWhole) (arg2 : Memref sig .tc .vmem S768x2304 .bf16) (harg2 : arg2.IsWhole)
    (arg3 : Memref sig .tc .vmem S512x2304 .bf16) (harg3 : arg3.IsWhole)
    (x0 : Vec F S512x768 .f32) (x1 : Vec F S768x2304 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of call 0 on core `c` at entry contents `V`: each input's buffer at its block after the body, the
    output's at the product of the two input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion2.lean ====
/-
  Call 2 of the kernel, the output projection A · W_projᵀ tiled over 8 row blocks of 1024 rows: at every grid point the body
  loads its 1024 × 768 block of the attention output and the whole 768 × 768 weight, multiplies them into a zero accumulator
  and stores the 1024 × 768 product over its output block. Here: what the output block holds after the body as a function of the two
  input blocks (`out2_2`), the body's triple, the proof data of the pipeline at any entry contents `V` of the core's
  buffers, and the body obligation at every grid point. Nothing is carried between points and every window is live at
  every point, so the invariant is the class invariant `ΦA` (scoped rest and generator register, untouched).
-/
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The attention-output window's staging buffer holds the point's row block, fetched there or not. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The weight window's staging buffer holds the whole weight at every point: fetched at the first, its index never moves. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses -/

abbrev rx2 : Rect S1024x768 := Rect.unit (s := S1024x768) ![0, 0] S1024x768.size inb_S1024x768_S1024x768_0_0
abbrev rw2 : Rect S768x768 := Rect.unit (s := S768x768) ![0, 0] S768x768.size inb_S768x768_S768x768_0_0
abbrev ro2 : Rect S1024x768 := Rect.unit (s := S1024x768) ![0, 0] S1024x768.size inb_S1024x768_S1024x768_0_0

/-- The output block after the body: its one store, the product of the two loaded blocks, over the whole buffer. -/
def out2_2 (x0 : Vec F S1024x768 .bf16) (x1 : Vec F S768x768 .bf16) : Vec F S1024x768 .f32 :=
  View.canon [⟨ro2, k2_pay1 (View.ld x0 rx2) (View.ld x1 rw2)⟩]

theorem cover2_2 (p0 : Vec F S1024x768 .f32) (y : S1024x768.Idx) :
    ∃ pc ∈ ([⟨ro2, p0⟩] : List (View.Piece (Elt F) S1024x768 .f32)), y ∈ pc.1.set :=
  View.cover_of_tiled [⟨ro2, p0⟩] S1024x768.size (by rfl) y

/-! ## The body's triple -/

set_option maxHeartbeats 1000000 in
/-- The body on whole staging memrefs: the inputs at `x0`, `x1`, the output at anything; it ends with the inputs as they
    were and the output at `out2_2 x0 x1`. -/
theorem sound_kernel2 (c : Dev nD) (E : Set ℕ) (i : grid2.Coords)
    (arg1 : Memref sig .tc .vmem S1024x768 .bf16) (harg1 : arg1.IsWhole) (arg2 : Memref sig .tc .vmem S768x768 .bf16) (harg2 : arg2.IsWhole)
    (arg3 : Memref sig .tc .vmem S1024x768 .f32) (harg3 : arg3.IsWhole)
    (x0 : Vec F S1024x768 .bf16) (x1 : Vec F S768x768 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out2_2 x0 x1)) -∗ K ⟨⟩))
      ⊢ wp frame (wpE (defs₀ (F := F)) Variants.none c none) E (cc2__matmul_kernel i arg1 harg1 arg2 harg2 arg3 harg3) K := by
  simp only [cc2__matmul_kernel_eq_skeleton]; unfold cc2__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-! ## The pipeline's proof data -/

/-- The proof data of call 2 on core `c` at entry contents `V`: each input's buffer at its block after the body, the
    output's at the product of the two input blocks; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KRegion1Defs.lean ====
/-
  Call 1 of the kernel, causal attention over the triangular (query block, key block) pair axis: the three scratch
  buffers (running row maximum, running row sum of exponentials, running weighted sum of value rows) as a pure state,
  and one grid point's effect on it as a pure function of the blocks and table words the body reads there. The
  arithmetic is the skeleton's payloads: the masked scaled scores of the query block against the key block, the new
  row maximum, the rescaling factor exp(old maximum - new maximum), the block's exponentials, and the three updates.
-/
import proofs.«428345_j25692494364785_3_alg».proof.Proof.Gen.Kernel.Skeleton

noncomputable section

namespace Cert.Kernel.Hand

open Cert.Kernel Cert.Kernel.Gen
open Idealize.ShloMosaic Idealize.SL.Sem

variable {F : FTy → Type} [FloatOps F]

/-- The scratch state between two grid points: row maxima `m`, row sums `l`, weighted value sums `a`. -/
structure Scr (F : FTy → Type) where
  m : Vec F S512x1 .f32
  l : Vec F S512x1 .f32
  a : Vec F S512x256 .f32

/-- What the first key block of a query block's run resets the scratch to: maxima -∞, sums zero. -/
def reset1 : Scr F := ⟨k1_pay5 (F := F), k1_pay6 (F := F), k1_pay7 (F := F)⟩

/-- One grid point's update of the scratch, from the pair's two table words (`w1` the query block's number, `w3` the key
    block's), the query, key and value blocks and the state `s` the point's arithmetic starts from (after the reset, if
    the point resets). -/
def step1 (w1 w3 : Elt F .i32) (q k v : Vec F S1x512x256 .bf16) (s : Scr F) : Scr F :=
  ⟨k1_pay3 (k1_pay10 w1 w3 q k s.m),
   k1_pay1 (k1_pay11 w1 w3 q k s.m) (k1_pay12 w1 w3 q k s.m) s.l,
   k1_pay2 (k1_pay8 v) (k1_pay11 w1 w3 q k s.m) (k1_pay12 w1 w3 q k s.m) s.a⟩

/-- What the diagonal pair stores into the output block: the weighted value sums over the row sums. -/
def outOf1 (s : Scr F) : Vec F S1x512x256 .bf16 := k1_pay4 s.a s.l

/-- The body's first decision at a point: the key block's table word is zero (the scratch is reset). -/
abbrev isFirst1 (w3 : Elt F .i32) : Prop := Scalar.cmpi .ne (Scalar.extui (Scalar.cmpi .eq w3 0#32)) 0#32 = 1#1

/-- The body's second decision: the pair is diagonal (the output block is stored). -/
abbrev isDiag1 (w1 w3 : Elt F .i32) : Prop := k1_cond2 w1 w3 = 1#1

end Cert.Kernel.Hand

end
-- ==== Proof.KRegion1Body.lean ====
/-
  Call 1 of the kernel, causal attention over the triangular (query block, key block) pair axis: the body's triples.
  At a grid point the body reads the pair's two table words (the query block's number and the key block's), resets the
  three scratch buffers when the key block is the first of its query block's run, folds the key block into the running
  row maximum, row sum and weighted value sum, and at the diagonal pair stores the normalised sums over the output
  block. Two decisions, so four control paths; one triple per path, each stated over the pure state of the scratch
  (`Scr`, `step1`, `outOf1`) and the two words of the point read off the tables' contents.
-/
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import proofs.«428345_j25692494364785_3_alg».proof.Proof.KRegion1Defs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The point's two table words -/

/-- The query block's number at point `i`: the first table's word at the point's offset. -/
abbrev word1_1 (tbl : pre1.Contents (Elt F)) (i : grid1.Coords) : Elt F .i32 := tbl.atD 0 (k1_off1 i)

/-- The key block's number at point `i`: the second table's word at the point's offset. -/
abbrev word1_3 (tbl : pre1.Contents (Elt F)) (i : grid1.Coords) : Elt F .i32 := tbl.atD 1 (k1_off1 i)

/-! ## The loaded words are the tables' words

A scalar load of one table word reads the table's contents under the one index of its unit rectangle; at the point's
offset, which lies inside the ten-word table, that is the word `atD` names. -/

/-- The point's offset lies inside the first table. -/
theorem k1_off1_in0 (i : grid1.Coords) :
    ∀ a : Fin (pre1.ref 0).ty.shape.rank, k1_off1 i a + 1 ≤ (pre1.ref 0).ty.shape.size a := by
  intro a
  have ha : a = (0 : Fin 1) := Subsingleton.elim (α := Fin 1) a 0
  rw [ha]; exact k1_off1_inb i 0

/-- The point's offset lies inside the second table. -/
theorem k1_off1_in1 (i : grid1.Coords) :
    ∀ a : Fin (pre1.ref 1).ty.shape.rank, k1_off1 i a + 1 ≤ (pre1.ref 1).ty.shape.size a := by
  intro a
  have ha : a = (0 : Fin 1) := Subsingleton.elim (α := Fin 1) a 0
  rw [ha]; exact k1_off1_inb i 0

/-- The first table's loaded word is the query block's number. -/
theorem word1_1_read (tbl : pre1.Contents (Elt F)) (i : grid1.Coords) :
    View.readAt (Elt F) (Memref.whole main_c : Memref sig .tc .smem S10 .i32).view
      (Rect.unit (s := S10) (k1_off1 i) S1.size (k1_off1_inb i)).toLoadRect (tbl 0)
      (Shape.Idx.first (numel1_S1.symm ▸ Nat.one_pos)) = word1_1 tbl i := by
  unfold word1_1 Pipeline.Prefetch.Contents.atD
  rw [dif_pos (k1_off1_in0 i)]
  rfl

/-- The second table's loaded word is the key block's number. -/
theorem word1_3_read (tbl : pre1.Contents (Elt F)) (i : grid1.Coords) :
    View.readAt (Elt F) (Memref.whole main_c_0 : Memref sig .tc .smem S10 .i32).view
      (Rect.unit (s := S10) (k1_off1 i) S1.size (k1_off1_inb i)).toLoadRect (tbl 1)
      (Shape.Idx.first (numel1_S1.symm ▸ Nat.one_pos)) = word1_3 tbl i := by
  unfold word1_3 Pipeline.Prefetch.Contents.atD
  rw [dif_pos (k1_off1_in1 i)]
  rfl

/-! ## Whole rectangles

Every load and store of the body goes through the unit rectangle at zero offsets of the buffer's own sizes. Through it a
load reads the contents as they are, a store leaves its payload whatever was stored before, and a load after such a
store reads that payload. -/

/-- The zero offsets of a shape of two axes. -/
theorem zero2 : (![0, 0] : Fin 2 → ℕ) = fun _ => 0 := by
  funext a; match a with
  | ⟨0, _⟩ => rfl
  | ⟨1, _⟩ => rfl

/-- The zero offsets of a shape of three axes. -/
theorem zero3 : (![0, 0, 0] : Fin 3 → ℕ) = fun _ => 0 := by
  funext a; match a with
  | ⟨0, _⟩ => rfl
  | ⟨1, _⟩ => rfl
  | ⟨2, _⟩ => rfl

/-- A load through the whole rectangle reads what the view reads. -/
theorem readAt_wholeRect {sp : Space} {S : Shape} {e : EltTy} (v : View sig .tc sp S e) {off : Fin S.rank → ℕ}
    (hz : off = fun _ => 0) (inb : ∀ a, off a + S.size a ≤ S.size a) (f : v.ty.Contents (Elt F)) :
    v.readAt (Elt F) (Rect.unit off S.size inb).toLoadRect f = v.read (Elt F) f :=
  (View.readAt_eq_ld v f _).trans (View.ld_unit_zero hz inb _)

/-- A whole buffer after stores the last of which is through the whole rectangle holds that store's payload. -/
theorem whole_writes_cons (b : Ref sig .tc) {off : Fin b.ty.shape.rank → ℕ} (hz : off = fun _ => 0)
    (inb : ∀ a, off a + b.ty.shape.size a ≤ b.ty.shape.size a) (w : b.ty.shape.Idx → Elt F b.ty.elt)
    (L : List (View.Piece (Elt F) b.ty.shape b.ty.elt)) :
    (Memref.whole b : Memref sig .tc _ _ _).view.writes (Elt F) (Memref.whole b : Memref sig .tc _ _ _).view.junk
      (⟨Rect.unit off b.ty.shape.size inb, w⟩ :: L) = w := by
  have h := View.read_writes_junk_eq_canon (Val := Elt F) (Memref.whole b : Memref sig .tc _ _ _).view
    (⟨Rect.unit off b.ty.shape.size inb, w⟩ :: L)
  rw [View.canon_cons_unit_zero hz] at h
  exact h

/-- A load through the whole rectangle after such stores reads the last store's payload. -/
theorem whole_readCov_cons (b : Ref sig .tc) {off off' : Fin b.ty.shape.rank → ℕ} (hz : off = fun _ => 0) (hz' : off' = fun _ => 0)
    (inb : ∀ a, off a + b.ty.shape.size a ≤ b.ty.shape.size a) (inb' : ∀ a, off' a + b.ty.shape.size a ≤ b.ty.shape.size a)
    (w : b.ty.shape.Idx → Elt F b.ty.elt) (L : List (View.Piece (Elt F) b.ty.shape b.ty.elt)) :
    (Memref.whole b : Memref sig .tc _ _ _).view.readCov (⟨Rect.unit off b.ty.shape.size inb, w⟩ :: L)
      (Rect.unit off' b.ty.shape.size inb').toLoadRect = w := by
  rw [View.readCov_eq_canon', View.canon_cons_unit_zero hz]
  exact View.ld_unit_zero hz' inb' w

/-! ## The update, field by field

`step1` unfolded at each field of the state, and the congruences of the three payloads that read the words, the query and
key blocks and the running maximum: the body's values are compared with them argument by argument. -/

theorem step1_m (w1 w3 : Elt F .i32) (q k v : Vec F S1x512x256 .bf16) (s : Scr F) :
    (step1 w1 w3 q k v s).m = k1_pay3 (k1_pay10 w1 w3 q k s.m) := rfl

theorem step1_l (w1 w3 : Elt F .i32) (q k v : Vec F S1x512x256 .bf16) (s : Scr F) :
    (step1 w1 w3 q k v s).l = k1_pay1 (k1_pay11 w1 w3 q k s.m) (k1_pay12 w1 w3 q k s.m) s.l := rfl

theorem step1_a (w1 w3 : Elt F .i32) (q k v : Vec F S1x512x256 .bf16) (s : Scr F) :
    (step1 w1 w3 q k v s).a = k1_pay2 (k1_pay8 v) (k1_pay11 w1 w3 q k s.m) (k1_pay12 w1 w3 q k s.m) s.a := rfl

theorem k1_pay10_congr {w1 w1' w3 w3' : Elt F .i32} {q q' k k' : Vec F S1x512x256 .bf16} {m m' : Vec F S512x1 .f32}
    (h1 : w1 = w1') (h3 : w3 = w3') (hq : q = q') (hk : k = k') (hm : m = m') :
    k1_pay10 w1 w3 q k m = k1_pay10 w1' w3' q' k' m' := by subst h1 h3 hq hk hm; rfl

theorem k1_pay11_congr {w1 w1' w3 w3' : Elt F .i32} {q q' k k' : Vec F S1x512x256 .bf16} {m m' : Vec F S512x1 .f32}
    (h1 : w1 = w1') (h3 : w3 = w3') (hq : q = q') (hk : k = k') (hm : m = m') :
    k1_pay11 w1 w3 q k m = k1_pay11 w1' w3' q' k' m' := by subst h1 h3 hq hk hm; rfl

theorem k1_pay12_congr {w1 w1' w3 w3' : Elt F .i32} {q q' k k' : Vec F S1x512x256 .bf16} {m m' : Vec F S512x1 .f32}
    (h1 : w1 = w1') (h3 : w3 = w3') (hq : q = q') (hk : k = k') (hm : m = m') :
    k1_pay12 w1 w3 q k m = k1_pay12 w1' w3' q' k' m' := by subst h1 h3 hq hk hm; rfl

set_option maxHeartbeats 4000000 in
/-- PATH A, the first key block of its run at a diagonal pair: the scratch is reset, the block folded into the reset
    state, and the output block stored from the result. -/
theorem sound_kernel1_A (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (K : PUnit → sProp 𝕄)
    (h1 : isFirst1 (word1_3 tbl i)) (h2 : isDiag1 (word1_1 tbl i) (word1_3 tbl i)) :
    iprop(owns (c : Thread nD τ) arg4 fullShare q ∗ owns (c : Thread nD τ) arg5 fullShare k ∗ owns (c : Thread nD τ) arg6 fullShare v
        ∗ (∃ d, owns (c : Thread nD τ) arg7 fullShare d)
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare (outOf1 (step1 (word1_1 tbl i) (word1_3 tbl i) q k v reset1))
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v reset1).m
            ∗ owns (c : Thread nD τ) (Memref.whole cc1_scratch1) fullShare (step1 (word1_1 tbl i) (word1_3 tbl i) q k v reset1).l
            ∗ owns (c : Thread nD τ) (Memref.whole cc1_scratch2) fullShare (step1 (word1_1 tbl i) (word1_3 tbl i) q k v reset1).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%d7, %f7, -, H7⟩, HT0, HT1, HS0, HS1, HS2, Hk⟩
  subst hf4; subst hf5; subst hf6
  sl_exec!
  sl_step
  iapply Hk
  -- the run's values: the two words and the three blocks
  have hw1 : sound_kernel1_A.sl.r i tbl = word1_1 tbl i := word1_1_read tbl i
  have hw3 : sound_kernel1_A.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- after the reset each scratch reads back what the reset stored
  have hM0 : sound_kernel1_A.sl.v28 (F := F) = (reset1 : Scr F).m := whole_readCov_cons cc1_scratch0 zero2 zero2 _ _ _ _
  have hL0 : sound_kernel1_A.sl.v37 (F := F) = (reset1 : Scr F).l := whole_readCov_cons cc1_scratch1 zero2 zero2 _ _ _ _
  have hA0 : sound_kernel1_A.sl.v45 (F := F) = (reset1 : Scr F).a := whole_readCov_cons cc1_scratch2 zero2 zero2 _ _ _ _
  -- the value block, the new maximum, the rescaling factor and the block's exponentials
  have hr2 : sound_kernel1_A.sl.r_2 c arg6 f6 = k1_pay8 (arg6.view.read (Elt F) f6) := congrArg (k1_pay8 (F := F)) hv
  have hr3 : sound_kernel1_A.sl.r_3 c i tbl arg4 arg5 f4 f5
      = k1_pay10 (word1_1 tbl i) (word1_3 tbl i) (arg4.view.read (Elt F) f4) (arg5.view.read (Elt F) f5) (reset1 : Scr F).m :=
    k1_pay10_congr hw1 hw3 hq hk hM0
  have hr4 : sound_kernel1_A.sl.r_4 c i tbl arg4 arg5 f4 f5
      = k1_pay11 (word1_1 tbl i) (word1_3 tbl i) (arg4.view.read (Elt F) f4) (arg5.view.read (Elt F) f5) (reset1 : Scr F).m :=
    k1_pay11_congr hw1 hw3 hq hk hM0
  have hr5 : sound_kernel1_A.sl.r_5 c i tbl arg4 arg5 f4 f5
      = k1_pay12 (word1_1 tbl i) (word1_3 tbl i) (arg4.view.read (Elt F) f4) (arg5.view.read (Elt F) f5) (reset1 : Scr F).m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_A.sl.HS0_2 c i tbl arg4 arg5 f4 f5) = (step1 (word1_1 tbl i) (word1_3 tbl i) (arg4.view.read (Elt F) f4) (arg5.view.read (Elt F) f5) (arg6.view.read (Elt F) f6) (reset1 : Scr F)).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_A.sl.HS1_2 c i tbl arg4 arg5 f4 f5) = (step1 (word1_1 tbl i) (word1_3 tbl i) (arg4.view.read (Elt F) f4) (arg5.view.read (Elt F) f5) (arg6.view.read (Elt F) f6) (reset1 : Scr F)).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_A.sl.HS2_2 c i tbl arg4 arg5 arg6 f4 f5 f6) = (step1 (word1_1 tbl i) (word1_3 tbl i) (arg4.view.read (Elt F) f4) (arg5.view.read (Elt F) f5) (arg6.view.read (Elt F) f6) (reset1 : Scr F)).a :=
    (whole_writes_cons cc1_scratch2 zero2 _ _ _).trans ((congr (congr (congr (congrArg (k1_pay2 (F := F)) hr2) hr4) hr5) hA0).trans (step1_a _ _ _ _ _ _).symm)
  -- the two scratch buffers the diagonal pair reads back hold the updated sums, and the output block their quotient
  have hv60 : sound_kernel1_A.sl.v60 c i tbl arg4 arg5 arg6 f4 f5 f6 = (step1 (word1_1 tbl i) (word1_3 tbl i) (arg4.view.read (Elt F) f4) (arg5.view.read (Elt F) f5) (arg6.view.read (Elt F) f6) (reset1 : Scr F)).a :=
    (whole_readCov_cons cc1_scratch2 zero2 zero2 _ _ _ _).trans ((congr (congr (congr (congrArg (k1_pay2 (F := F)) hr2) hr4) hr5) hA0).trans (step1_a _ _ _ _ _ _).symm)
  have hv61 : sound_kernel1_A.sl.v61 c i tbl arg4 arg5 f4 f5 = (step1 (word1_1 tbl i) (word1_3 tbl i) (arg4.view.read (Elt F) f4) (arg5.view.read (Elt F) f5) (arg6.view.read (Elt F) f6) (reset1 : Scr F)).l :=
    (whole_readCov_cons cc1_scratch1 zero2 zero2 _ _ _ _).trans ((congr (congr (congrArg (k1_pay1 (F := F)) hr4) hr5) hL0).trans (step1_l _ _ _ _ _ _).symm)
  have e7 : arg7.view.read (Elt F) (arg7.view.writes (Elt F) arg7.view.junk (sound_kernel1_A.sl.H7_1 c i tbl arg4 arg5 arg6 f4 f5 f6)) = outOf1 (step1 (word1_1 tbl i) (word1_3 tbl i) (arg4.view.read (Elt F) f4) (arg5.view.read (Elt F) f5) (arg6.view.read (Elt F) f6) (reset1 : Scr F)) :=
    (View.read_writes_junk_eq_canon _ _).trans
      ((View.canon_unit_zero zero3 _ _).trans (congr (congrArg (k1_pay4 (F := F)) hv60) hv61))
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; · ipureintro; exact e7
    iexact H7
  isplitl [HT0]; · iexact HT0
  isplitl [HT1]; · iexact HT1
  isplitl [HS0]; · iexact HS0
  isplitl [HS1]; · iexact HS1
  iexact HS2

set_option maxHeartbeats 4000000 in
/-- PATH B, the first key block of its run at an off-diagonal pair: the scratch is reset and the block folded into the
    reset state; the output block is left as found. -/
theorem sound_kernel1_B (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (y : Vec F S1x512x256 .bf16) (K : PUnit → sProp 𝕄)
    (h1 : isFirst1 (word1_3 tbl i)) (h2 : ¬ isDiag1 (word1_1 tbl i) (word1_3 tbl i)) :
    iprop(owns (c : Thread nD τ) arg4 fullShare q ∗ owns (c : Thread nD τ) arg5 fullShare k ∗ owns (c : Thread nD τ) arg6 fullShare v
        ∗ owns (c : Thread nD τ) arg7 fullShare y
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare y
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v reset1).m
            ∗ owns (c : Thread nD τ) (Memref.whole cc1_scratch1) fullShare (step1 (word1_1 tbl i) (word1_3 tbl i) q k v reset1).l
            ∗ owns (c : Thread nD τ) (Memref.whole cc1_scratch2) fullShare (step1 (word1_1 tbl i) (word1_3 tbl i) q k v reset1).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%f7, %hf7, H7⟩, HT0, HT1, HS0, HS1, HS2, Hk⟩
  subst hf4; subst hf5; subst hf6
  sl_exec!
  sl_step
  iapply Hk
  -- the run's values: the two words and the three blocks
  have hw1 : sound_kernel1_B.sl.r i tbl = word1_1 tbl i := word1_1_read tbl i
  have hw3 : sound_kernel1_B.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- after the reset each scratch reads back what the reset stored
  have hM0 : sound_kernel1_B.sl.v28 (F := F) = (reset1 : Scr F).m := whole_readCov_cons cc1_scratch0 zero2 zero2 _ _ _ _
  have hL0 : sound_kernel1_B.sl.v37 (F := F) = (reset1 : Scr F).l := whole_readCov_cons cc1_scratch1 zero2 zero2 _ _ _ _
  have hA0 : sound_kernel1_B.sl.v45 (F := F) = (reset1 : Scr F).a := whole_readCov_cons cc1_scratch2 zero2 zero2 _ _ _ _
  -- the value block, the new maximum, the rescaling factor and the block's exponentials
  have hr2 : sound_kernel1_B.sl.r_2 c arg6 f6 = k1_pay8 (arg6.view.read (Elt F) f6) := congrArg (k1_pay8 (F := F)) hv
  have hr3 : sound_kernel1_B.sl.r_3 c i tbl arg4 arg5 f4 f5
      = k1_pay10 (word1_1 tbl i) (word1_3 tbl i) (arg4.view.read (Elt F) f4) (arg5.view.read (Elt F) f5) (reset1 : Scr F).m :=
    k1_pay10_congr hw1 hw3 hq hk hM0
  have hr4 : sound_kernel1_B.sl.r_4 c i tbl arg4 arg5 f4 f5
      = k1_pay11 (word1_1 tbl i) (word1_3 tbl i) (arg4.view.read (Elt F) f4) (arg5.view.read (Elt F) f5) (reset1 : Scr F).m :=
    k1_pay11_congr hw1 hw3 hq hk hM0
  have hr5 : sound_kernel1_B.sl.r_5 c i tbl arg4 arg5 f4 f5
      = k1_pay12 (word1_1 tbl i) (word1_3 tbl i) (arg4.view.read (Elt F) f4) (arg5.view.read (Elt F) f5) (reset1 : Scr F).m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_B.sl.HS0_2 c i tbl arg4 arg5 f4 f5) = (step1 (word1_1 tbl i) (word1_3 tbl i) (arg4.view.read (Elt F) f4) (arg5.view.read (Elt F) f5) (arg6.view.read (Elt F) f6) (reset1 : Scr F)).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_B.sl.HS1_2 c i tbl arg4 arg5 f4 f5) = (step1 (word1_1 tbl i) (word1_3 tbl i) (arg4.view.read (Elt F) f4) (arg5.view.read (Elt F) f5) (arg6.view.read (Elt F) f6) (reset1 : Scr F)).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_B.sl.HS2_2 c i tbl arg4 arg5 arg6 f4 f5 f6) = (step1 (word1_1 tbl i) (word1_3 tbl i) (arg4.view.read (Elt F) f4) (arg5.view.read (Elt F) f5) (arg6.view.read (Elt F) f6) (reset1 : Scr F)).a :=
    (whole_writes_cons cc1_scratch2 zero2 _ _ _).trans ((congr (congr (congr (congrArg (k1_pay2 (F := F)) hr2) hr4) hr5) hA0).trans (step1_a _ _ _ _ _ _).symm)
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; exact hf7
    iexact H7
  isplitl [HT0]; · iexact HT0
  isplitl [HT1]; · iexact HT1
  isplitl [HS0]; · iexact HS0
  isplitl [HS1]; · iexact HS1
  iexact HS2

set_option maxHeartbeats 4000000 in
/-- PATH C, a later key block at a diagonal pair: the block is folded into the state found, and the output block stored
    from the result. -/
theorem sound_kernel1_C (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (K : PUnit → sProp 𝕄)
    (h1 : ¬ isFirst1 (word1_3 tbl i)) (h2 : isDiag1 (word1_1 tbl i) (word1_3 tbl i)) :
    iprop(owns (c : Thread nD τ) arg4 fullShare q ∗ owns (c : Thread nD τ) arg5 fullShare k ∗ owns (c : Thread nD τ) arg6 fullShare v
        ∗ (∃ d, owns (c : Thread nD τ) arg7 fullShare d)
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare (outOf1 (step1 (word1_1 tbl i) (word1_3 tbl i) q k v s0))
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v s0).m
            ∗ owns (c : Thread nD τ) (Memref.whole cc1_scratch1) fullShare (step1 (word1_1 tbl i) (word1_3 tbl i) q k v s0).l
            ∗ owns (c : Thread nD τ) (Memref.whole cc1_scratch2) fullShare (step1 (word1_1 tbl i) (word1_3 tbl i) q k v s0).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%d7, %f7, -, H7⟩, HT0, HT1, HS0, HS1, HS2, Hk⟩
  subst hf4; subst hf5; subst hf6
  sl_exec!
  sl_step
  iapply Hk
  -- the run's values: the two words and the three blocks
  have hw1 : sound_kernel1_C.sl.r i tbl = word1_1 tbl i := word1_1_read tbl i
  have hw3 : sound_kernel1_C.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- with no reset each scratch reads the state found
  have hM0 : View.readAt (Elt F) (Memref.whole cc1_scratch0).view
      (Rect.unit (s := S512x1) ![0, 0] S512x1.size inb_S512x1_S512x1_0_0).toLoadRect s0.m = s0.m :=
    readAt_wholeRect (Memref.whole cc1_scratch0).view zero2 _ s0.m
  have hL0 : View.readAt (Elt F) (Memref.whole cc1_scratch1).view
      (Rect.unit (s := S512x1) ![0, 0] S512x1.size inb_S512x1_S512x1_0_0).toLoadRect s0.l = s0.l :=
    readAt_wholeRect (Memref.whole cc1_scratch1).view zero2 _ s0.l
  have hA0 : View.readAt (Elt F) (Memref.whole cc1_scratch2).view
      (Rect.unit (s := S512x256) ![0, 0] S512x256.size inb_S512x256_S512x256_0_0).toLoadRect s0.a = s0.a :=
    readAt_wholeRect (Memref.whole cc1_scratch2).view zero2 _ s0.a
  -- the value block, the new maximum, the rescaling factor and the block's exponentials
  have hr2 : sound_kernel1_C.sl.r_2 c arg6 f6 = k1_pay8 (arg6.view.read (Elt F) f6) := congrArg (k1_pay8 (F := F)) hv
  have hr3 : sound_kernel1_C.sl.r_3 c i tbl arg4 arg5 s0 f4 f5
      = k1_pay10 (word1_1 tbl i) (word1_3 tbl i) (arg4.view.read (Elt F) f4) (arg5.view.read (Elt F) f5) s0.m :=
    k1_pay10_congr hw1 hw3 hq hk hM0
  have hr4 : sound_kernel1_C.sl.r_4 c i tbl arg4 arg5 s0 f4 f5
      = k1_pay11 (word1_1 tbl i) (word1_3 tbl i) (arg4.view.read (Elt F) f4) (arg5.view.read (Elt F) f5) s0.m :=
    k1_pay11_congr hw1 hw3 hq hk hM0
  have hr5 : sound_kernel1_C.sl.r_5 c i tbl arg4 arg5 s0 f4 f5
      = k1_pay12 (word1_1 tbl i) (word1_3 tbl i) (arg4.view.read (Elt F) f4) (arg5.view.read (Elt F) f5) s0.m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_C.sl.HS0_1 c i tbl arg4 arg5 s0 f4 f5) = (step1 (word1_1 tbl i) (word1_3 tbl i) (arg4.view.read (Elt F) f4) (arg5.view.read (Elt F) f5) (arg6.view.read (Elt F) f6) s0).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_C.sl.HS1_1 c i tbl arg4 arg5 s0 f4 f5) = (step1 (word1_1 tbl i) (word1_3 tbl i) (arg4.view.read (Elt F) f4) (arg5.view.read (Elt F) f5) (arg6.view.read (Elt F) f6) s0).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_C.sl.HS2_1 c i tbl arg4 arg5 arg6 s0 f4 f5 f6) = (step1 (word1_1 tbl i) (word1_3 tbl i) (arg4.view.read (Elt F) f4) (arg5.view.read (Elt F) f5) (arg6.view.read (Elt F) f6) s0).a :=
    (whole_writes_cons cc1_scratch2 zero2 _ _ _).trans ((congr (congr (congr (congrArg (k1_pay2 (F := F)) hr2) hr4) hr5) hA0).trans (step1_a _ _ _ _ _ _).symm)
  -- the two scratch buffers the diagonal pair reads back hold the updated sums, and the output block their quotient
  have hv60 : sound_kernel1_C.sl.v60 c i tbl arg4 arg5 arg6 s0 f4 f5 f6 = (step1 (word1_1 tbl i) (word1_3 tbl i) (arg4.view.read (Elt F) f4) (arg5.view.read (Elt F) f5) (arg6.view.read (Elt F) f6) s0).a :=
    (whole_readCov_cons cc1_scratch2 zero2 zero2 _ _ _ _).trans ((congr (congr (congr (congrArg (k1_pay2 (F := F)) hr2) hr4) hr5) hA0).trans (step1_a _ _ _ _ _ _).symm)
  have hv61 : sound_kernel1_C.sl.v61 c i tbl arg4 arg5 s0 f4 f5 = (step1 (word1_1 tbl i) (word1_3 tbl i) (arg4.view.read (Elt F) f4) (arg5.view.read (Elt F) f5) (arg6.view.read (Elt F) f6) s0).l :=
    (whole_readCov_cons cc1_scratch1 zero2 zero2 _ _ _ _).trans ((congr (congr (congrArg (k1_pay1 (F := F)) hr4) hr5) hL0).trans (step1_l _ _ _ _ _ _).symm)
  have e7 : arg7.view.read (Elt F) (arg7.view.writes (Elt F) arg7.view.junk (sound_kernel1_C.sl.H7_1 c i tbl arg4 arg5 arg6 s0 f4 f5 f6)) = outOf1 (step1 (word1_1 tbl i) (word1_3 tbl i) (arg4.view.read (Elt F) f4) (arg5.view.read (Elt F) f5) (arg6.view.read (Elt F) f6) s0) :=
    (View.read_writes_junk_eq_canon _ _).trans
      ((View.canon_unit_zero zero3 _ _).trans (congr (congrArg (k1_pay4 (F := F)) hv60) hv61))
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr; · ipureintro; exact e7
    iexact H7
  isplitl [HT0]; · iexact HT0
  isplitl [HT1]; · iexact HT1
  isplitl [HS0]; · iexact HS0
  isplitl [HS1]; · iexact HS1
  iexact HS2

set_option maxHeartbeats 4000000 in
/-- PATH D, a later key block at an off-diagonal pair: the block is folded into the state found; the output block is left
    as found. -/
theorem sound_kernel1_D (c : Dev nD) (E : Set ℕ) (i : grid1.Coords) (tbl : pre1.Contents (Elt F))
    (arg4 : Memref sig .tc .vmem S1x512x256 .bf16) (harg4 : arg4.IsWhole) (arg5 : Memref sig .tc .vmem S1x512x256 .bf16) (harg5 : arg5.IsWhole)
    (arg6 : Memref sig .tc .vmem S1x512x256 .bf16) (harg6 : arg6.IsWhole) (arg7 : Memref sig .tc .vmem S1x512x256 .bf16) (harg7 : arg7.IsWhole)
    (q k v : Vec F S1x512x256 .bf16) (s0 : Scr F) (y : Vec F S1x512x256 .bf16) (K : PUnit → sProp 𝕄)
    (h1 : ¬ isFirst1 (word1_3 tbl i)) (h2 : ¬ isDiag1 (word1_1 tbl i) (word1_3 tbl i)) :
    iprop(owns (c : Thread nD τ) arg4 fullShare q ∗ owns (c : Thread nD τ) arg5 fullShare k ∗ owns (c : Thread nD τ) arg6 fullShare v
        ∗ owns (c : Thread nD τ) arg7 fullShare y
        ∗ ((c : Thread nD τ).loc (pre1.ref 0) ↦{fullShare.right} tbl 0) ∗ ((c : Thread nD τ).loc (pre1.ref 1) ↦{fullShare.right} tbl 1)
        ∗ owns (c : Thread nD τ) (Memref.whole cc1_scratch0) fullShare s0.m ∗ owns (c : Thread nD τ) (Memref.whole cc1_scratch1) fullShare s0.l
        ∗ owns (c : Thread nD τ) (Memref.whole cc1_scratch2) fullShare s0.a
        ∗ (iprop(owns (c : Thread nD τ) arg4 fullShare q ∗ owns (c : Thread nD τ) arg5 fullShare k ∗ owns (c : Thread nD τ) arg6 fullShare v
            ∗ owns (c : Thread nD τ) arg7 fullShare y
            ∗ ((c : Thread nD τ).loc (pre1.ref 0) ↦{fullShare.right} tbl 0) ∗ ((c : Thread nD τ).loc (pre1.ref 1) ↦{fullShare.right} tbl 1)
            ∗ owns (c : Thread nD τ) (Memref.whole cc1_scratch0) fullShare (step1 (word1_1 tbl i) (word1_3 tbl i) q k v s0).m
            ∗ owns (c : Thread nD τ) (Memref.whole cc1_scratch1) fullShare (step1 (word1_1 tbl i) (word1_3 tbl i) q k v s0).l
            ∗ owns (c : Thread nD τ) (Memref.whole cc1_scratch2) fullShare (step1 (word1_1 tbl i) (word1_3 tbl i) q k v s0).a) -∗ K ⟨⟩))
      ⊢ wp frame (wpE (defs₀ (F := F)) Variants.none c none) E
          (cc1__attn_kernel i (Memref.whole main_c) (Memref.isWhole_whole _) (Memref.whole main_c_0) (Memref.isWhole_whole _)
            arg4 harg4 arg5 harg5 arg6 harg6 arg7 harg7
            (Memref.whole cc1_scratch0) (Memref.isWhole_whole _) (Memref.whole cc1_scratch1) (Memref.isWhole_whole _)
            (Memref.whole cc1_scratch2) (Memref.isWhole_whole _)) K := by
  simp only [cc1__attn_kernel_eq_skeleton]; unfold cc1__attn_kernel_skel
  simp only [owns_whole]
  have eT0 : ((c : Thread nD τ).loc (pre1.ref 0) ↦{fullShare.right} tbl 0 : sProp 𝕄)
      = ((Memref.whole main_c).view.loc (c : Thread nD τ) ↦{fullShare.right} tbl 0) := rfl
  have eT1 : ((c : Thread nD τ).loc (pre1.ref 1) ↦{fullShare.right} tbl 1 : sProp 𝕄)
      = ((Memref.whole main_c_0).view.loc (c : Thread nD τ) ↦{fullShare.right} tbl 1) := rfl
  have eS0 : ∀ x : Vec F S512x1 .f32, ((c : Thread nD τ).loc cc1_scratch0 ↦{fullShare} x : sProp 𝕄)
      = ((Memref.whole cc1_scratch0).view.loc (c : Thread nD τ) ↦{fullShare} x) := fun _ => rfl
  have eS1 : ∀ x : Vec F S512x1 .f32, ((c : Thread nD τ).loc cc1_scratch1 ↦{fullShare} x : sProp 𝕄)
      = ((Memref.whole cc1_scratch1).view.loc (c : Thread nD τ) ↦{fullShare} x) := fun _ => rfl
  have eS2 : ∀ x : Vec F S512x256 .f32, ((c : Thread nD τ).loc cc1_scratch2 ↦{fullShare} x : sProp 𝕄)
      = ((Memref.whole cc1_scratch2).view.loc (c : Thread nD τ) ↦{fullShare} x) := fun _ => rfl
  simp only [eS0, eS1, eS2]; rw [eT0, eT1]
  rw [← word1_3_read tbl i] at h1
  rw [← word1_1_read tbl i, ← word1_3_read tbl i] at h2
  unfold owns
  iintro ⟨⟨%f4, %hf4, H4⟩, ⟨%f5, %hf5, H5⟩, ⟨%f6, %hf6, H6⟩, ⟨%f7, %hf7, H7⟩, HT0, HT1, HS0, HS1, HS2, Hk⟩
  subst hf4; subst hf5; subst hf6
  sl_exec!
  sl_step
  iapply Hk
  -- the run's values: the two words and the three blocks
  have hw1 : sound_kernel1_D.sl.r i tbl = word1_1 tbl i := word1_1_read tbl i
  have hw3 : sound_kernel1_D.sl.r_1 i tbl = word1_3 tbl i := word1_3_read tbl i
  have hq : View.readAt (Elt F) arg4.view (Rect.unit (s := S1x512x256) ![0, 0, 0] S1x512x256.size inb_S1x512x256_S1x512x256_0_0_0).toLoadRect f4 = arg4.view.read (Elt F) f4 := readAt_wholeRect arg4.view zero3 _ f4
  have hk : View.readAt (Elt F) arg5.view (Rect.unit (s := S1x512x256) ![0, 0, 0] S1x512x256.size inb_S1x512x256_S1x512x256_0_0_0).toLoadRect f5 = arg5.view.read (Elt F) f5 := readAt_wholeRect arg5.view zero3 _ f5
  have hv : View.readAt (Elt F) arg6.view (Rect.unit (s := S1x512x256) ![0, 0, 0] S1x512x256.size inb_S1x512x256_S1x512x256_0_0_0).toLoadRect f6 = arg6.view.read (Elt F) f6 := readAt_wholeRect arg6.view zero3 _ f6
  -- with no reset each scratch reads the state found
  have hM0 : View.readAt (Elt F) (Memref.whole cc1_scratch0).view
      (Rect.unit (s := S512x1) ![0, 0] S512x1.size inb_S512x1_S512x1_0_0).toLoadRect s0.m = s0.m :=
    readAt_wholeRect (Memref.whole cc1_scratch0).view zero2 _ s0.m
  have hL0 : View.readAt (Elt F) (Memref.whole cc1_scratch1).view
      (Rect.unit (s := S512x1) ![0, 0] S512x1.size inb_S512x1_S512x1_0_0).toLoadRect s0.l = s0.l :=
    readAt_wholeRect (Memref.whole cc1_scratch1).view zero2 _ s0.l
  have hA0 : View.readAt (Elt F) (Memref.whole cc1_scratch2).view
      (Rect.unit (s := S512x256) ![0, 0] S512x256.size inb_S512x256_S512x256_0_0).toLoadRect s0.a = s0.a :=
    readAt_wholeRect (Memref.whole cc1_scratch2).view zero2 _ s0.a
  -- the value block, the new maximum, the rescaling factor and the block's exponentials
  have hr2 : sound_kernel1_D.sl.r_2 c arg6 f6 = k1_pay8 (arg6.view.read (Elt F) f6) := congrArg (k1_pay8 (F := F)) hv
  have hr3 : sound_kernel1_D.sl.r_3 c i tbl arg4 arg5 s0 f4 f5
      = k1_pay10 (word1_1 tbl i) (word1_3 tbl i) (arg4.view.read (Elt F) f4) (arg5.view.read (Elt F) f5) s0.m :=
    k1_pay10_congr hw1 hw3 hq hk hM0
  have hr4 : sound_kernel1_D.sl.r_4 c i tbl arg4 arg5 s0 f4 f5
      = k1_pay11 (word1_1 tbl i) (word1_3 tbl i) (arg4.view.read (Elt F) f4) (arg5.view.read (Elt F) f5) s0.m :=
    k1_pay11_congr hw1 hw3 hq hk hM0
  have hr5 : sound_kernel1_D.sl.r_5 c i tbl arg4 arg5 s0 f4 f5
      = k1_pay12 (word1_1 tbl i) (word1_3 tbl i) (arg4.view.read (Elt F) f4) (arg5.view.read (Elt F) f5) s0.m :=
    k1_pay12_congr hw1 hw3 hq hk hM0
  -- what the three scratch buffers hold at the end: the last store's payload, which is the updated state
  have e0 : (Memref.whole cc1_scratch0).view.writes (Elt F) (Memref.whole cc1_scratch0).view.junk
      (sound_kernel1_D.sl.HS0_1 c i tbl arg4 arg5 s0 f4 f5) = (step1 (word1_1 tbl i) (word1_3 tbl i) (arg4.view.read (Elt F) f4) (arg5.view.read (Elt F) f5) (arg6.view.read (Elt F) f6) s0).m :=
    (whole_writes_cons cc1_scratch0 zero2 _ _ _).trans ((congrArg (k1_pay3 (F := F)) hr3).trans (step1_m _ _ _ _ _ _).symm)
  have e1 : (Memref.whole cc1_scratch1).view.writes (Elt F) (Memref.whole cc1_scratch1).view.junk
      (sound_kernel1_D.sl.HS1_1 c i tbl arg4 arg5 s0 f4 f5) = (step1 (word1_1 tbl i) (word1_3 tbl i) (arg4.view.read (Elt F) f4) (arg5.view.read (Elt F) f5) (arg6.view.read (Elt F) f6) s0).l :=
    (whole_writes_cons cc1_scratch1 zero2 _ _ _).trans ((congr (congr (congrArg (k1_pay1 (F := F)) hr4) hr5) hL0).trans (step1_l _ _ _ _ _ _).symm)
  have e2 : (Memref.whole cc1_scratch2).view.writes (Elt F) (Memref.whole cc1_scratch2).view.junk
      (sound_kernel1_D.sl.HS2_1 c i tbl arg4 arg5 arg6 s0 f4 f5 f6) = (step1 (word1_1 tbl i) (word1_3 tbl i) (arg4.view.read (Elt F) f4) (arg5.view.read (Elt F) f5) (arg6.view.read (Elt F) f6) s0).a :=
    (whole_writes_cons cc1_scratch2 zero2 _ _ _).trans ((congr (congr (congr (congrArg (k1_pay2 (F := F)) hr2) hr4) hr5) hA0).trans (step1_a _ _ _ _ _ _).symm)
  rw [e0, e1, e2]
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; exact hf7
    iexact H7
  isplitl [HT0]; · iexact HT0
  isplitl [HT1]; · iexact HT1
  isplitl [HS0]; · iexact HS0
  isplitl [HS1]; · iexact HS1
  iexact HS2

end Cert.Kernel.Hand

end
-- ==== Proof.KRegion1Dat.lean ====
/-
  Call 1 of the kernel (causal attention over the triangular pair axis) as a pipeline with proof data.
  The two prefetched tables hold, pair by pair, the query block's number and the key block's number; the pairs of one
  query block are consecutive, its first pair has key block 0 (the scratch is reset there) and its last is diagonal
  (the output block is stored there, and only there: the output window is idle at every other pair). Between two
  points the three scratch buffers hold the online state of the query block under way: `scrAt1 n` is the state after
  the first `n` points, by recursion — each point steps the state it finds, or the reset state when its key block is 0.
  The invariant between points is that state in the scratch buffers, the tables, and what the body never touches.
  The three input windows read ONE array (the packed projection), each holding a third share of it.
  The side condition and the schedule at the tables (where the output block is written back, which pair comes first)
  are decided over the grid's 120 points; an input window's buffer holds its block at every point; the body obligation
  follows path by path (first or later key block, diagonal pair or not) from the body's four triples, the tables'
  shares split in halves around the body and the rest of the invariant framed.
-/
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«428345_j25692494364785_3_alg».proof.Proof.KRegion1Defs
import proofs.«428345_j25692494364785_3_alg».proof.Proof.KRegion1Body
import Idealize.ShloMosaic.Lib.Pipeline.TableIdle
import Idealize.ShloMosaic.PureOps.Ideal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables -/

/-- The two tables' contents: the literal tables @main writes before the first call. -/
def tbl1 : pre1.Contents (Elt F) := fun k => match k with
  | ⟨0, _⟩ => fun i => lit0 (S10.rowMajor i)
  | ⟨1, _⟩ => fun i => lit1 (S10.rowMajor i)

/-- The tables hold integer words only, so nothing decided of them depends on the carrier of the floats: the side
    condition is decided at the real carrier, -/
theorem ok1_closed : ok1 (tbl1 (F := Idealize.ShloMosaic.Ideal)) := by decide +kernel

/-- At these contents every block the index maps name lies inside its array (at any carrier: the statement unfolds to
    the one decided above). -/
theorem ok1_tbl1 : ok1 (tbl1 (F := F)) := ok1_closed

/-- The admissible contents the region runs the pipeline at. -/
def adm1 : (pcfg1 (F := F)).Adm := ⟨tbl1, ok1_tbl1⟩

/-- The pipeline at them. -/
abbrev cfgA : Pipeline.Cfg sig Λ₀ := cfg1 (adm1 (F := F))

/-- The point's two table words: the query block's number and the key block's. -/
abbrev wq1 (t : Fin (cfgA (F := F)).N) : Elt F .i32 := (tbl1 (F := F)).atD 0 (k1_off1 ((cfgA (F := F)).grid.coords t))
abbrev wk1 (t : Fin (cfgA (F := F)).N) : Elt F .i32 := (tbl1 (F := F)).atD 1 (k1_off1 ((cfgA (F := F)).grid.coords t))

variable (V : (c : Dev nD) → (b : Ref sig .tc) → Buf (Elt F) ((c : Thread nD τ).loc b))

/-! ## The windows' blocks -/

/-- Window `w`'s block at point `t`, read off its array as the region finds it. -/
def iblk1 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec1 w))

/-! ## The scratch between points -/

/-- The scratch after the first `n` points. -/
def scrAt1 (c : Dev nD) : ℕ → Scr F
  | 0 => reset1
  | n + 1 =>
    if h : n < (cfgA (F := F)).N then
      step1 (wq1 ⟨n, h⟩) (wk1 ⟨n, h⟩) (iblk1 V c 0 ⟨n, h⟩) (iblk1 V c 1 ⟨n, h⟩) (iblk1 V c 2 ⟨n, h⟩)
        (if isFirst1 (wk1 (F := F) ⟨n, h⟩) then reset1 else scrAt1 c n)
    else scrAt1 c n

/-- The scoped buffers the body of call 1 never touches, each whole at some contents. -/
def rest1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg0_1), ((c : Thread nD τ).loc cc2_stg0_1) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg2_1), ((c : Thread nD τ).loc cc2_stg2_1) ↦{fullShare} f))

/-- The invariant before point `t`: the scratch at some state, which past the first point is the trajectory's; the
    tables; the untouched scoped buffers; the generator register. -/
def Φ1 (c : Dev nD) (t : Fin ((cfgA (F := F)).N + 1)) : sProp 𝕄 :=
  iprop(∃ s : Scr F, ⌜t.val ≠ 0 → s = scrAt1 V c t.val⌝
    ∗ owns (c : Thread nD τ) (Memref.whole cc1_scratch0) fullShare s.m
    ∗ owns (c : Thread nD τ) (Memref.whole cc1_scratch1) fullShare s.l
    ∗ owns (c : Thread nD τ) (Memref.whole cc1_scratch2) fullShare s.a
    ∗ Pipeline.prefHeld (Ix := Unit) (Name := ℕ) (U := UR sig nD τ) (Lvl := ℕ) pre1 c (fun _ => fullShare) (tbl1 (F := F))
    ∗ rest1 c ∗ ∃ r, prngReg c r)

/-! ## The pipeline's proof data -/

/-- The proof data of call 1 on core `c` at entry contents `V`: each input's buffer at its block after the body, the
    output's — where a diagonal pair stores it — at the quotient of the state the point leaves; the three input windows
    share their one array in thirds. -/
def dat1 (c : Dev nD) : Dat τ (Elt F) Unit ℕ (UR sig nD τ) ℕ (cfgA (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outOf1 (scrAt1 V c (t.val + 1))
  Φ t := Φ1 V c t
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfgA (F := F)).W) : (dat1 V c).A w = V c (Pipeline.arrRef spec1 w) := by
  dsimp only [dat1]

/-! ## The schedule at the tables

Decided at the real carrier over the 120 points, and read at any carrier by unfolding: the words are integers. -/

/-- The output window is written back exactly at the diagonal pairs. -/
theorem flush3_closed : ∀ t : Fin grid1.N,
    ((cfgA (F := Idealize.ShloMosaic.Ideal)).win 3).flush t = true ↔ isDiag1 (F := Idealize.ShloMosaic.Ideal) (wq1 t) (wk1 t) := by
  decide +kernel

/-- The first point's key block is the first of its run. -/
theorem first0_closed : ∀ t : Fin grid1.N, t.val = 0 → isFirst1 (F := Idealize.ShloMosaic.Ideal) (wk1 t) := by
  decide +kernel

theorem flush3_iff (t : Fin (cfgA (F := F)).N) : ((cfgA (F := F)).win 3).flush t = true ↔ isDiag1 (wq1 t) (wk1 t) :=
  flush3_closed t

theorem first0 (t : Fin (cfgA (F := F)).N) : t.val = 0 → isFirst1 (wk1 t) := first0_closed t

/-- A point that does not reset the scratch is not the first. -/
theorem pos_of_not_first (t : Fin (cfgA (F := F)).N) (h : ¬ isFirst1 (wk1 t)) : t.val ≠ 0 := fun e => h (first0 t e)

/-- The output window is idle exactly off the diagonal: the printed idle table at the point's two words. -/
theorem idle3_eq (t : Fin (cfgA (F := F)).N) :
    (cfgA (F := F)).idle 3 ((cfgA (F := F)).grid.coords t) = !(k1_cond2 (wq1 t) (wk1 t) == 1#1) := rfl

theorem idle3_diag (t : Fin (cfgA (F := F)).N) (h : isDiag1 (wq1 t) (wk1 t)) :
    (cfgA (F := F)).idle 3 ((cfgA (F := F)).grid.coords t) = false := by
  rw [idle3_eq, show k1_cond2 (wq1 t) (wk1 t) = 1#1 from h]; rfl

theorem idle3_off (t : Fin (cfgA (F := F)).N) (h : ¬ isDiag1 (wq1 t) (wk1 t)) :
    (cfgA (F := F)).idle 3 ((cfgA (F := F)).grid.coords t) = true := by
  rw [idle3_eq, Bool.not_eq_true', beq_eq_false_iff_ne]; exact h

theorem flush3_off (t : Fin (cfgA (F := F)).N) (h : ¬ isDiag1 (wq1 t) (wk1 t)) : ((cfgA (F := F)).win 3).flush t = false := by
  rw [← Bool.not_eq_true]; exact fun hf => h ((flush3_iff t).mp hf)

/-! ## What the body finds in the input windows -/

theorem after1_0 (c : Dev nD) (t : Fin (cfgA (F := F)).N) : (dat1 V c).after 0 t = iblk1 V c 0 t := by dsimp only [dat1]; rfl
theorem after1_1 (c : Dev nD) (t : Fin (cfgA (F := F)).N) : (dat1 V c).after 1 t = iblk1 V c 1 t := by dsimp only [dat1]; rfl
theorem after1_2 (c : Dev nD) (t : Fin (cfgA (F := F)).N) : (dat1 V c).after 2 t = iblk1 V c 2 t := by dsimp only [dat1]; rfl
theorem after1_3 (c : Dev nD) (t : Fin (cfgA (F := F)).N) : (dat1 V c).after 3 t = outOf1 (scrAt1 V c (t.val + 1)) := by dsimp only [dat1]; rfl

/-- The query window's staging buffer holds the point's block, fetched there or not: an input is never idle and the
    body leaves its block in place. -/
theorem before1_0_of {c : Dev nD} (dat : Dat τ (Elt F) Unit ℕ (UR sig nD τ) ℕ (cfgA (F := F)) c) (hA : dat.A 0 = V c (Pipeline.arrRef spec1 0))
    (hafter : ∀ t, dat.after 0 t = iblk1 V c 0 t) (t : Fin (cfgA (F := F)).N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The key window's likewise. -/
theorem before1_1_of {c : Dev nD} (dat : Dat τ (Elt F) Unit ℕ (UR sig nD τ) ℕ (cfgA (F := F)) c) (hA : dat.A 1 = V c (Pipeline.arrRef spec1 1))
    (hafter : ∀ t, dat.after 1 t = iblk1 V c 1 t) (t : Fin (cfgA (F := F)).N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The value window's likewise. -/
theorem before1_2_of {c : Dev nD} (dat : Dat τ (Elt F) Unit ℕ (UR sig nD τ) ℕ (cfgA (F := F)) c) (hA : dat.A 2 = V c (Pipeline.arrRef spec1 2))
    (hafter : ∀ t, dat.after 2 t = iblk1 V c 2 t) (t : Fin (cfgA (F := F)).N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin (cfgA (F := F)).N) (d) : (dat1 V c).before 0 t d = iblk1 V c 0 t :=
  before1_0_of V (dat1 V c) (A_eq1 V c 0) (after1_0 V c) t d
theorem before1_1 (c : Dev nD) (t : Fin (cfgA (F := F)).N) (d) : (dat1 V c).before 1 t d = iblk1 V c 1 t :=
  before1_1_of V (dat1 V c) (A_eq1 V c 1) (after1_1 V c) t d
theorem before1_2 (c : Dev nD) (t : Fin (cfgA (F := F)).N) (d) : (dat1 V c).before 2 t d = iblk1 V c 2 t :=
  before1_2_of V (dat1 V c) (A_eq1 V c 2) (after1_2 V c) t d

/-! ## The invariant, opened -/

/-- What the invariant holds at scratch state `s`: the three scratch buffers at it, the tables, the untouched rest. -/
def inv1 (c : Dev nD) (s : Scr F) : sProp 𝕄 :=
  iprop(owns (c : Thread nD τ) (Memref.whole cc1_scratch0) fullShare s.m
    ∗ owns (c : Thread nD τ) (Memref.whole cc1_scratch1) fullShare s.l
    ∗ owns (c : Thread nD τ) (Memref.whole cc1_scratch2) fullShare s.a
    ∗ Pipeline.prefHeld (Ix := Unit) (Name := ℕ) (U := UR sig nD τ) (Lvl := ℕ) pre1 c (fun _ => fullShare) (tbl1 (F := F))
    ∗ rest1 c ∗ ∃ r, prngReg c r)

theorem Φ1_eq (c : Dev nD) (t : Fin ((cfgA (F := F)).N + 1)) :
    Φ1 V c t = iprop(∃ s : Scr F, ⌜t.val ≠ 0 → s = scrAt1 V c t.val⌝ ∗ inv1 c s) := by
  unfold Φ1 inv1; rfl

/-- Past the first point the invariant's state is the trajectory's. -/
theorem Φ1_of_pos (c : Dev nD) (t : Fin ((cfgA (F := F)).N + 1)) (h : t.val ≠ 0) : Φ1 V c t = inv1 c (scrAt1 V c t.val) := by
  rw [Φ1_eq]; exact exists_held h (scrAt1 V c t.val) (fun s => inv1 c s)

theorem Φ_at (c : Dev nD) (t : Fin ((cfgA (F := F)).N + 1)) : (dat1 V c).Φ t = Φ1 V c t := by dsimp only [dat1]

/-- The trajectory's step at point `t`. -/
theorem scrAt1_succ (c : Dev nD) (t : Fin (cfgA (F := F)).N) :
    scrAt1 V c (t.val + 1) = step1 (wq1 t) (wk1 t) (iblk1 V c 0 t) (iblk1 V c 1 t) (iblk1 V c 2 t)
      (if isFirst1 (wk1 (F := F) t) then reset1 else scrAt1 V c t.val) := by
  rw [scrAt1, dif_pos t.isLt]

theorem scrAt1_succ_first (c : Dev nD) (t : Fin (cfgA (F := F)).N) (h : isFirst1 (wk1 t)) :
    scrAt1 V c (t.val + 1) = step1 (wq1 t) (wk1 t) (iblk1 V c 0 t) (iblk1 V c 1 t) (iblk1 V c 2 t) reset1 := by
  rw [scrAt1_succ, if_pos h]

theorem scrAt1_succ_later (c : Dev nD) (t : Fin (cfgA (F := F)).N) (h : ¬ isFirst1 (wk1 t)) :
    scrAt1 V c (t.val + 1) = step1 (wq1 t) (wk1 t) (iblk1 V c 0 t) (iblk1 V c 1 t) (iblk1 V c 2 t) (scrAt1 V c t.val) := by
  rw [scrAt1_succ, if_neg h]

/-- The tables, one by one. -/
theorem prefHeld1_eq (c : Dev nD) (q : PosShare TreeShare) (tbl : pre1.Contents (Elt F)) :
    (Pipeline.prefHeld (Ix := Unit) (Name := ℕ) (U := UR sig nD τ) (Lvl := ℕ) pre1 c (fun _ => q) tbl : sProp 𝕄)
      = iprop((((c : Thread nD τ).loc (pre1.ref 0)) ↦{q} tbl 0) ∗ (((c : Thread nD τ).loc (pre1.ref 1)) ↦{q} tbl 1)) := by
  unfold Pipeline.prefHeld
  exact bigSep_univ_eq_bigSepL [(0 : Fin 2), (1 : Fin 2)] (by decide) (by decide) _

/-- The tables' full shares as a left half kept and the two right halves the body reads through. -/
theorem prefHeld1_halves (c : Dev nD) (tbl : pre1.Contents (Elt F)) :
    (Pipeline.prefHeld (Ix := Unit) (Name := ℕ) (U := UR sig nD τ) (Lvl := ℕ) pre1 c (fun _ => fullShare) tbl : sProp 𝕄)
      = iprop(Pipeline.prefHeld (Ix := Unit) (Name := ℕ) (U := UR sig nD τ) (Lvl := ℕ) pre1 c (fun _ => fullShare.left) tbl
          ∗ (((c : Thread nD τ).loc (pre1.ref 0)) ↦{fullShare.right} tbl 0) ∗ (((c : Thread nD τ).loc (pre1.ref 1)) ↦{fullShare.right} tbl 1)) := by
  rw [← prefHeld1_eq]
  exact BI.equiv_iff.mp ⟨(Pipeline.prefHeld_share pre1 c (PosShare.mem_left_op_right fullShare) tbl).mp,
    (Pipeline.prefHeld_share pre1 c (PosShare.mem_left_op_right fullShare) tbl).mpr⟩

/-! ## The body at a point -/

/-- The current staging memref of each window at point `t`. -/
abbrev st1_0 (t : Fin (cfgA (F := F)).N) := ((cfgA (F := F)).win 0).stage ((cfgA (F := F)).slots t 0)
abbrev st1_1 (t : Fin (cfgA (F := F)).N) := ((cfgA (F := F)).win 1).stage ((cfgA (F := F)).slots t 1)
abbrev st1_2 (t : Fin (cfgA (F := F)).N) := ((cfgA (F := F)).win 2).stage ((cfgA (F := F)).slots t 2)
abbrev st1_3 (t : Fin (cfgA (F := F)).N) := ((cfgA (F := F)).win 3).stage ((cfgA (F := F)).slots t 3)

/-- The kernel body at point `t`, on what the pipeline calls it with. -/
abbrev bodyAt1 (t : Fin (cfgA (F := F)).N) : Prog (TpuEff nD τ sig (Elt F) Λ₀ .tc) PUnit :=
  cc1__attn_kernel ((cfgA (F := F)).grid.coords t) (Memref.whole main_c) (Memref.isWhole_whole _) (Memref.whole main_c_0) (Memref.isWhole_whole _)
    (st1_0 t) (hstage1_0 (((cfgA (F := F)).slots t 0).cast nbuf1_0)) (st1_1 t) (hstage1_1 (((cfgA (F := F)).slots t 1).cast nbuf1_1))
    (st1_2 t) (hstage1_2 (((cfgA (F := F)).slots t 2).cast nbuf1_2)) (st1_3 t) (hstage1_3 (((cfgA (F := F)).slots t 3).cast nbuf1_3))
    (Memref.whole cc1_scratch0) (Memref.isWhole_whole _) (Memref.whole cc1_scratch1) (Memref.isWhole_whole _)
    (Memref.whole cc1_scratch2) (Memref.isWhole_whole _)

/-! ## One step of the body, over the invariant's resources

The four paths' triples have one shape: the three input buffers at their blocks, the output buffer at something
(`Y`), the tables' right halves and the scratch at a state go in; the same come out with the scratch at the stepped
state and the output buffer at something (`Y₁`, weakened here to `Y'`). Around any such triple the rest of the
invariant and a frame pass unchanged. -/

theorem step1_gen (c : Dev nD) (t : Fin (cfgA (F := F)).N) (s s1 : Scr F) (R Y Y₁ Y' : sProp 𝕄) (hY : Y₁ ⊢ Y')
    (T : ∀ K : PUnit → sProp 𝕄,
      iprop(owns (c : Thread nD τ) (st1_0 t) fullShare (iblk1 V c 0 t) ∗ owns (c : Thread nD τ) (st1_1 t) fullShare (iblk1 V c 1 t)
          ∗ owns (c : Thread nD τ) (st1_2 t) fullShare (iblk1 V c 2 t) ∗ Y
          ∗ ((c : Thread nD τ).loc (pre1.ref 0) ↦{fullShare.right} (tbl1 (F := F)) 0) ∗ ((c : Thread nD τ).loc (pre1.ref 1) ↦{fullShare.right} (tbl1 (F := F)) 1)
          ∗ owns (c : Thread nD τ) (Memref.whole cc1_scratch0) fullShare s.m ∗ owns (c : Thread nD τ) (Memref.whole cc1_scratch1) fullShare s.l
          ∗ owns (c : Thread nD τ) (Memref.whole cc1_scratch2) fullShare s.a
          ∗ (iprop(owns (c : Thread nD τ) (st1_0 t) fullShare (iblk1 V c 0 t) ∗ owns (c : Thread nD τ) (st1_1 t) fullShare (iblk1 V c 1 t)
              ∗ owns (c : Thread nD τ) (st1_2 t) fullShare (iblk1 V c 2 t) ∗ Y₁
              ∗ ((c : Thread nD τ).loc (pre1.ref 0) ↦{fullShare.right} (tbl1 (F := F)) 0) ∗ ((c : Thread nD τ).loc (pre1.ref 1) ↦{fullShare.right} (tbl1 (F := F)) 1)
              ∗ owns (c : Thread nD τ) (Memref.whole cc1_scratch0) fullShare s1.m ∗ owns (c : Thread nD τ) (Memref.whole cc1_scratch1) fullShare s1.l
              ∗ owns (c : Thread nD τ) (Memref.whole cc1_scratch2) fullShare s1.a) -∗ K ⟨⟩))
        ⊢ wp frame (wpE (defs₀ (F := F)) Variants.none c none) Set.univ (bodyAt1 t) K) :
    iprop(inv1 c s ∗ R ∗ owns (c : Thread nD τ) (st1_0 t) fullShare (iblk1 V c 0 t) ∗ owns (c : Thread nD τ) (st1_1 t) fullShare (iblk1 V c 1 t)
        ∗ owns (c : Thread nD τ) (st1_2 t) fullShare (iblk1 V c 2 t) ∗ Y)
      ⊢ wp frame (wpE (defs₀ (F := F)) Variants.none c none) Set.univ (bodyAt1 t) (fun _ =>
          iprop(inv1 c s1 ∗ R ∗ owns (c : Thread nD τ) (st1_0 t) fullShare (iblk1 V c 0 t) ∗ owns (c : Thread nD τ) (st1_1 t) fullShare (iblk1 V c 1 t)
            ∗ owns (c : Thread nD τ) (st1_2 t) fullShare (iblk1 V c 2 t) ∗ Y')) := by
  unfold inv1
  rw [prefHeld1_halves]
  iintro ⟨⟨Hm, Hl, Ha, ⟨HTl, HT0, HT1⟩, Hrest, Hp⟩, HR, H0, H1, H2, HY⟩
  iapply (T _)
  isplitl [H0]; · iexact H0
  isplitl [H1]; · iexact H1
  isplitl [H2]; · iexact H2
  isplitl [HY]; · iexact HY
  isplitl [HT0]; · iexact HT0
  isplitl [HT1]; · iexact HT1
  isplitl [Hm]; · iexact Hm
  isplitl [Hl]; · iexact Hl
  isplitl [Ha]; · iexact Ha
  iintro ⟨H0, H1, H2, HY, HT0, HT1, Hm, Hl, Ha⟩
  isplitl [Hm Hl Ha HTl HT0 HT1 Hrest Hp]
  · isplitl [Hm]; · iexact Hm
    isplitl [Hl]; · iexact Hl
    isplitl [Ha]; · iexact Ha
    isplitl [HTl HT0 HT1]
    · isplitl [HTl]; · iexact HTl
      isplitl [HT0]; · iexact HT0
      iexact HT1
    isplitl [Hrest]; · iexact Hrest
    iexact Hp
  isplitl [HR]; · iexact HR
  isplitl [H0]; · iexact H0
  isplitl [H1]; · iexact H1
  isplitl [H2]; · iexact H2
  iapply hY; iexact HY

/-! ## The body obligation at a point, path by path -/

/-- What the body is handed at point `t`. -/
def bodyPre1 (c : Dev nD) (t : Fin (cfgA (F := F)).N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it leaves at a diagonal point: the output buffer at the stored block. -/
def bodyPostD1 (c : Dev nD) (t : Fin (cfgA (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- What it leaves at an off-diagonal point: the output buffer as found. -/
def bodyPostO1 (c : Dev nD) (t : Fin (cfgA (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (∃ d, owns (c : Thread nD τ) (st1_3 t) fullShare ((dat1 V c).before 3 t d)))

/-- The point's obligation on path A, the first key block of its run at a diagonal pair. -/
theorem sound_body1_A (c : Dev nD) (t : Fin (cfgA (F := F)).N) (h1 : isFirst1 (wk1 t)) (h2 : isDiag1 (wq1 t) (wk1 t)) :
    bodyPre1 V c t ⊢ wp frame (wpE (defs₀ (F := F)) Variants.none c none) Set.univ (bodyAt1 t) (fun _ => bodyPostD1 V c t) := by
  unfold bodyPre1 bodyPostD1
  simp only [before1_0, before1_1, before1_2]
  rw [show (dat1 V c).owesAt () t.succ = (dat1 V c).owesAt () t.castSucc from rfl, after1_0, after1_1, after1_2, after1_3,
    Φ_at, Φ_at, Φ1_of_pos V c t.succ (Nat.succ_ne_zero _), show t.succ.val = t.val + 1 from rfl, scrAt1_succ_first V c t h1, Φ1_eq]
  iintro ⟨⟨%s, %hs, HI⟩, Ho, ⟨%d0, H0⟩, ⟨%d1, H1⟩, ⟨%d2, H2⟩, ⟨%d3, H3⟩⟩
  iapply (step1_gen V c t s (step1 (wq1 t) (wk1 t) (iblk1 V c 0 t) (iblk1 V c 1 t) (iblk1 V c 2 t) reset1)
    ((dat1 V c).owesAt () t.castSucc) iprop(∃ d, owns (c : Thread nD τ) (st1_3 t) fullShare d)
    (owns (c : Thread nD τ) (st1_3 t) fullShare (outOf1 (step1 (wq1 t) (wk1 t) (iblk1 V c 0 t) (iblk1 V c 1 t) (iblk1 V c 2 t) reset1)))
    (owns (c : Thread nD τ) (st1_3 t) fullShare (outOf1 (step1 (wq1 t) (wk1 t) (iblk1 V c 0 t) (iblk1 V c 1 t) (iblk1 V c 2 t) reset1))) .rfl
    (fun K => sound_kernel1_A c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) s K h1 h2))
  isplitl [HI]; · iexact HI
  isplitl [Ho]; · iexact Ho
  isplitl [H0]; · iexact H0
  isplitl [H1]; · iexact H1
  isplitl [H2]; · iexact H2
  iexists _; iexact H3

/-- The point's obligation on path B, the first key block of its run at an off-diagonal pair. -/
theorem sound_body1_B (c : Dev nD) (t : Fin (cfgA (F := F)).N) (h1 : isFirst1 (wk1 t)) (h2 : ¬ isDiag1 (wq1 t) (wk1 t)) :
    bodyPre1 V c t ⊢ wp frame (wpE (defs₀ (F := F)) Variants.none c none) Set.univ (bodyAt1 t) (fun _ => bodyPostO1 V c t) := by
  unfold bodyPre1 bodyPostO1
  simp only [before1_0, before1_1, before1_2]
  rw [show (dat1 V c).owesAt () t.succ = (dat1 V c).owesAt () t.castSucc from rfl, after1_0, after1_1, after1_2,
    Φ_at, Φ_at, Φ1_of_pos V c t.succ (Nat.succ_ne_zero _), show t.succ.val = t.val + 1 from rfl, scrAt1_succ_first V c t h1, Φ1_eq]
  iintro ⟨⟨%s, %hs, HI⟩, Ho, ⟨%d0, H0⟩, ⟨%d1, H1⟩, ⟨%d2, H2⟩, ⟨%d3, H3⟩⟩
  iapply (step1_gen V c t s (step1 (wq1 t) (wk1 t) (iblk1 V c 0 t) (iblk1 V c 1 t) (iblk1 V c 2 t) reset1)
    ((dat1 V c).owesAt () t.castSucc) (owns (c : Thread nD τ) (st1_3 t) fullShare ((dat1 V c).before 3 t d3))
    (owns (c : Thread nD τ) (st1_3 t) fullShare ((dat1 V c).before 3 t d3))
    iprop(∃ d, owns (c : Thread nD τ) (st1_3 t) fullShare ((dat1 V c).before 3 t d)) (by iintro H; iexists d3; iexact H)
    (fun K => sound_kernel1_B c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) s ((dat1 V c).before 3 t d3) K h1 h2))
  isplitl [HI]; · iexact HI
  isplitl [Ho]; · iexact Ho
  isplitl [H0]; · iexact H0
  isplitl [H1]; · iexact H1
  isplitl [H2]; · iexact H2
  iexact H3

/-- The point's obligation on path C, a later key block at a diagonal pair. -/
theorem sound_body1_C (c : Dev nD) (t : Fin (cfgA (F := F)).N) (h1 : ¬ isFirst1 (wk1 t)) (h2 : isDiag1 (wq1 t) (wk1 t)) :
    bodyPre1 V c t ⊢ wp frame (wpE (defs₀ (F := F)) Variants.none c none) Set.univ (bodyAt1 t) (fun _ => bodyPostD1 V c t) := by
  unfold bodyPre1 bodyPostD1
  simp only [before1_0, before1_1, before1_2]
  rw [show (dat1 V c).owesAt () t.succ = (dat1 V c).owesAt () t.castSucc from rfl, after1_0, after1_1, after1_2, after1_3,
    Φ_at, Φ_at, Φ1_of_pos V c t.succ (Nat.succ_ne_zero _), Φ1_of_pos V c t.castSucc (pos_of_not_first t h1), show t.succ.val = t.val + 1 from rfl, show t.castSucc.val = t.val from rfl, scrAt1_succ_later V c t h1]
  iintro ⟨HI, Ho, ⟨%d0, H0⟩, ⟨%d1, H1⟩, ⟨%d2, H2⟩, ⟨%d3, H3⟩⟩
  iapply (step1_gen V c t (scrAt1 V c t.val) (step1 (wq1 t) (wk1 t) (iblk1 V c 0 t) (iblk1 V c 1 t) (iblk1 V c 2 t) (scrAt1 V c t.val))
    ((dat1 V c).owesAt () t.castSucc) iprop(∃ d, owns (c : Thread nD τ) (st1_3 t) fullShare d)
    (owns (c : Thread nD τ) (st1_3 t) fullShare (outOf1 (step1 (wq1 t) (wk1 t) (iblk1 V c 0 t) (iblk1 V c 1 t) (iblk1 V c 2 t) (scrAt1 V c t.val))))
    (owns (c : Thread nD τ) (st1_3 t) fullShare (outOf1 (step1 (wq1 t) (wk1 t) (iblk1 V c 0 t) (iblk1 V c 1 t) (iblk1 V c 2 t) (scrAt1 V c t.val)))) .rfl
    (fun K => sound_kernel1_C c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) (scrAt1 V c t.val) K h1 h2))
  isplitl [HI]; · iexact HI
  isplitl [Ho]; · iexact Ho
  isplitl [H0]; · iexact H0
  isplitl [H1]; · iexact H1
  isplitl [H2]; · iexact H2
  iexists _; iexact H3

/-- The point's obligation on path D, a later key block at an off-diagonal pair. -/
theorem sound_body1_D (c : Dev nD) (t : Fin (cfgA (F := F)).N) (h1 : ¬ isFirst1 (wk1 t)) (h2 : ¬ isDiag1 (wq1 t) (wk1 t)) :
    bodyPre1 V c t ⊢ wp frame (wpE (defs₀ (F := F)) Variants.none c none) Set.univ (bodyAt1 t) (fun _ => bodyPostO1 V c t) := by
  unfold bodyPre1 bodyPostO1
  simp only [before1_0, before1_1, before1_2]
  rw [show (dat1 V c).owesAt () t.succ = (dat1 V c).owesAt () t.castSucc from rfl, after1_0, after1_1, after1_2,
    Φ_at, Φ_at, Φ1_of_pos V c t.succ (Nat.succ_ne_zero _), Φ1_of_pos V c t.castSucc (pos_of_not_first t h1), show t.succ.val = t.val + 1 from rfl, show t.castSucc.val = t.val from rfl, scrAt1_succ_later V c t h1]
  iintro ⟨HI, Ho, ⟨%d0, H0⟩, ⟨%d1, H1⟩, ⟨%d2, H2⟩, ⟨%d3, H3⟩⟩
  iapply (step1_gen V c t (scrAt1 V c t.val) (step1 (wq1 t) (wk1 t) (iblk1 V c 0 t) (iblk1 V c 1 t) (iblk1 V c 2 t) (scrAt1 V c t.val))
    ((dat1 V c).owesAt () t.castSucc) (owns (c : Thread nD τ) (st1_3 t) fullShare ((dat1 V c).before 3 t d3))
    (owns (c : Thread nD τ) (st1_3 t) fullShare ((dat1 V c).before 3 t d3))
    iprop(∃ d, owns (c : Thread nD τ) (st1_3 t) fullShare ((dat1 V c).before 3 t d)) (by iintro H; iexists d3; iexact H)
    (fun K => sound_kernel1_D c Set.univ ((cfgA (F := F)).grid.coords t) tbl1
      (st1_0 t) (hstage1_0 (((cfgA (F := F)).slots t 0).cast nbuf1_0)) (st1_1 t) (hstage1_1 (((cfgA (F := F)).slots t 1).cast nbuf1_1))
      (st1_2 t) (hstage1_2 (((cfgA (F := F)).slots t 2).cast nbuf1_2)) (st1_3 t) (hstage1_3 (((cfgA (F := F)).slots t 3).cast nbuf1_3))
      (iblk1 V c 0 t) (iblk1 V c 1 t) (iblk1 V c 2 t) (scrAt1 V c t.val) ((dat1 V c).before 3 t d3) K h1 h2))
  isplitl [HI]; · iexact HI
  isplitl [Ho]; · iexact Ho
  isplitl [H0]; · iexact H0
  isplitl [H1]; · iexact H1
  isplitl [H2]; · iexact H2
  iexact H3

/-! ## The body obligation at a point -/

/-- What the output window's buffer holds after the body at a diagonal point: the stored block. -/
theorem leaves3_diag (c : Dev nD) (t : Fin (cfgA (F := F)).N) (h : isDiag1 (wq1 t) (wk1 t)) :
    (dat1 V c).leavesExact 3 t = owns (c : Thread nD τ) (st1_3 t) fullShare ((dat1 V c).after 3 t) := by
  unfold Dat.leavesExact; rw [idle3_diag t h]

/-- At an off-diagonal point, idle for the window and not written back: what the body found. -/
theorem leaves3_off (c : Dev nD) (t : Fin (cfgA (F := F)).N) (h : ¬ isDiag1 (wq1 t) (wk1 t)) :
    (dat1 V c).leavesExact 3 t = iprop(∃ d, owns (c : Thread nD τ) (st1_3 t) fullShare ((dat1 V c).before 3 t d)) :=
  (dat1 V c).leavesExact_idle 3 t (idle3_off t h) (flush3_off t h)

/-- What the body leaves at point `t`, the output window's buffer by the cases of the obligation. -/
def bodyPost1 (c : Dev nD) (t : Fin (cfgA (F := F)).N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ (dat1 V c).leavesExact 3 t)

theorem sound_body1 (c : Dev nD) (t : Fin (cfgA (F := F)).N) :
    bodyPre1 V c t ⊢ wp frame (wpE (defs₀ (F := F)) Variants.none c none) Set.univ (bodyAt1 t) (fun _ => bodyPost1 V c t) := by
  unfold bodyPost1
  by_cases hD : isDiag1 (wq1 t) (wk1 t)
  · rw [leaves3_diag V c t hD]
    by_cases hF : isFirst1 (wk1 t)
    · exact sound_body1_A V c t hF hD
    · exact sound_body1_C V c t hF hD
  · rw [leaves3_off V c t hD]
    by_cases hF : isFirst1 (wk1 t)
    · exact sound_body1_B V c t hF hD
    · exact sound_body1_D V c t hF hD

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KSegDefs.lean ====
/-
  @main of the kernel between its items: the contents of the core's buffers at every boundary between two items, as a
  chain from the launch memory (a host stretch rewrites what its operations write; a call leaves its output array at what
  its pipeline's write-backs fold to), the tables' admissible contents per pipeline, and every pipeline's proof data at
  its call's entry contents.
-/
import proofs.«428345_j25692494364785_3_alg».proof.Proof.KRegion0
import proofs.«428345_j25692494364785_3_alg».proof.Proof.KRegion2
import proofs.«428345_j25692494364785_3_alg».proof.Proof.KRegion1Dat
import proofs.«428345_j25692494364785_3_alg».proof.Proof.Gen.Kernel.Regions
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The tables' admissible contents, per pipeline -/

/-- Calls 0 and 2 prefetch no table; call 1 runs at the two literal tables. -/
abbrev adm : (p : Fin 3) → (pcfgs (F := F) p).Adm
  | ⟨0, _⟩ => cfg0.toPCfg_adm
  | ⟨1, _⟩ => adm1
  | ⟨2, _⟩ => cfg2.toPCfg_adm
  | ⟨_ + 3, h⟩ => absurd h (Nat.not_lt.2 (Nat.le_add_left _ _))

variable (m : (ℓ : Loc nD τ sig) → Buf (Elt F) ℓ)

/-! ## The buffers' contents at each boundary -/

/-- After the first host stretch: call 0's entry. -/
def B1 (c : Dev nD) : Valuation τ sig (Elt F) := StableHlo.after hostOps0 (fun b => m (c, b))
/-- What call 0 leaves in its output array: its pipeline's write-backs folded over the entry contents. -/
def out0 (c : Dev nD) : Buf (Elt F) ((c : Thread nD τ).loc main_v5) := (dat0 (fun c b => B1 m c b) c).arrAt 2 cfg0.N
/-- After call 0. -/
def B2 (c : Dev nD) : Valuation τ sig (Elt F) := Function.update (B1 m c) main_v5 (out0 m c)
/-- After the reshape of the projection: call 1's entry. -/
def B3 (c : Dev nD) : Valuation τ sig (Elt F) := StableHlo.after hostOps1 (B2 m c)
/-- What call 1 leaves in its output array. -/
def out1 (c : Dev nD) : Buf (Elt F) ((c : Thread nD τ).loc main_v7) := (dat1 (fun c b => B3 m c b) c).arrAt 3 (cfgA (F := F)).N
/-- After call 1. -/
def B4 (c : Dev nD) : Valuation τ sig (Elt F) := Function.update (B3 m c) main_v7 (out1 m c)
/-- After the reshape of the attention output: call 2's entry. -/
def B5 (c : Dev nD) : Valuation τ sig (Elt F) := StableHlo.after hostOps2 (B4 m c)
/-- What call 2 leaves in its output array. -/
def out2 (c : Dev nD) : Buf (Elt F) ((c : Thread nD τ).loc main_v9) := (dat2 (fun c b => B5 m c b) c).arrAt 2 cfg2.N
/-- After call 2. -/
def B6 (c : Dev nD) : Valuation τ sig (Elt F) := Function.update (B5 m c) main_v9 (out2 m c)
/-- After the last reshape: the return. -/
def B7 (c : Dev nD) : Valuation τ sig (Elt F) := StableHlo.after hostOps3 (B6 m c)

/-- What the calls leave in their output arrays, as the generated boundary contents take it. -/
def outs : Outs (F := F) := fun _ r c =>
  if h : r = main_v5 then h ▸ out0 m c
  else if h : r = main_v7 then h ▸ out1 m c
  else if h : r = main_v9 then h ▸ out2 m c
  else m ((c : Thread nD τ).loc r)

theorem outs_v5 (J : ℕ) (c : Dev nD) : outs m J main_v5 c = out0 m c := by
  unfold outs; rw [dif_pos rfl]
theorem outs_v7 (J : ℕ) (c : Dev nD) : outs m J main_v7 c = out1 m c := by
  unfold outs; rw [dif_neg (by decide), dif_pos rfl]
theorem outs_v9 (J : ℕ) (c : Dev nD) : outs m J main_v9 c = out2 m c := by
  unfold outs; rw [dif_neg (by decide), dif_neg (by decide), dif_pos rfl]

/-- The generated boundary contents at these outputs are the chain's. -/
theorem V1_eq (c : Dev nD) : V1 m c = B1 m c := rfl
theorem V2_eq (c : Dev nD) : V2 m (outs m) c = B2 m c := by
  unfold V2 B2; rw [outs_v5, V1_eq]
theorem V3_eq (c : Dev nD) : V3 m (outs m) c = B3 m c := by
  unfold V3 B3; rw [V2_eq]
theorem V4_eq (c : Dev nD) : V4 m (outs m) c = B4 m c := by
  unfold V4 B4; rw [outs_v7, V3_eq]
theorem V5_eq (c : Dev nD) : V5 m (outs m) c = B5 m c := by
  unfold V5 B5; rw [V4_eq]
theorem V6_eq (c : Dev nD) : V6 m (outs m) c = B6 m c := by
  unfold V6 B6; rw [outs_v9, V5_eq]
theorem V7_eq (c : Dev nD) : V7 m (outs m) c = B7 m c := by
  unfold V7 B7; rw [V6_eq]

/-! ## The proof data family -/

/-- Every pipeline's proof data, each at its call's entry contents. -/
def pdats : (p : Fin 3) → (c : Dev nD) → Dat τ (Elt F) Unit ℕ (UR sig nD τ) ℕ (Pipeline.pin (pcfgs (F := F)) adm p) c
  | ⟨0, _⟩ => fun c => dat0 (fun c b => B1 m c b) c
  | ⟨1, _⟩ => fun c => dat1 (fun c b => B3 m c b) c
  | ⟨2, _⟩ => fun c => dat2 (fun c b => B5 m c b) c
  | ⟨_ + 3, h⟩ => absurd h (Nat.not_lt.2 (Nat.le_add_left _ _))

end Cert.Kernel.Hand

end
-- ==== Proof.KReg1InOut.lean ====
/-
  Call 1 of the kernel: what the region hands the pipeline's invariant at its first point and takes back at its last.
  The invariant holds the three scratch buffers at some state, the two tables, the scoped buffers the body never
  touches and the generator register. Of the core's thirteen scoped buffers that are no staging buffer of this call,
  three are the scratch buffers and ten are the untouched ones: entering, whatever the three hold is taken as the
  state (nothing is claimed of it before the first point); leaving, the state is forgotten.
-/
import proofs.«428345_j25692494364785_3_alg».proof.Proof.KRegion1Dat
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«428345_j25692494364785_3_alg».proof.Proof.KRegion1Defs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- ENTRY: the generator register, the tables and the thirteen scoped buffers make the invariant at the first point,
    the state being whatever the three scratch buffers hold. -/
theorem hin1 (c : Dev nD) :
    iprop((∃ r, prngReg c r) ∗ Pipeline.prefHeld (Ix := Unit) (Name := ℕ) (U := UR sig nD τ) (Lvl := ℕ) pre1 c (fun _ => fullShare) (tbl1 (F := F))
        ∗ Pipeline.scopedRest (Ix := Unit) (Name := ℕ) (U := UR sig nD τ) (Lvl := ℕ) (Val := Elt F) spec1 c)
      ⊢ (Φ1 V c 0 : sProp 𝕄) := by
  rw [scopedRest1_eq c]
  unfold Φ1 rest1
  simp only [owns_whole]
  iintro ⟨Hr, Hp, H1, H2, H3, H4, H5, ⟨%fm, Hm⟩, ⟨%fl, Hl⟩, ⟨%fa, Ha⟩, H9, H10, H11, H12, H13⟩
  iexists (⟨fm, fl, fa⟩ : Scr F)
  isplitr; · ipureintro; exact fun h => absurd rfl h
  isplitl [Hm]; · iexact Hm
  isplitl [Hl]; · iexact Hl
  isplitl [Ha]; · iexact Ha
  isplitl [Hp]; · iexact Hp
  isplitr [Hr]
  · isplitl [H1]; · iexact H1
    isplitl [H2]; · iexact H2
    isplitl [H3]; · iexact H3
    isplitl [H4]; · iexact H4
    isplitl [H5]; · iexact H5
    isplitl [H9]; · iexact H9
    isplitl [H10]; · iexact H10
    isplitl [H11]; · iexact H11
    isplitl [H12]; · iexact H12
    iexact H13
  iexact Hr

/-- EXIT: the invariant at the last point gives back the generator register, the tables, no semaphore, and the thirteen
    scoped buffers, the scratch buffers at whatever state they ended in. -/
theorem hout1 (c : Dev nD) :
    (Φ1 V c (Fin.last (cfgA (F := F)).N) : sProp 𝕄)
      ⊢ iprop(((∃ r, prngReg c r) ∗ Pipeline.prefHeld (Ix := Unit) (Name := ℕ) (U := UR sig nD τ) (Lvl := ℕ) pre1 c (fun _ => fullShare) (tbl1 (F := F)))
          ∗ Pipeline.ownSems0 (fun k : PEmpty => k.elim) c
          ∗ Pipeline.scopedRest (Ix := Unit) (Name := ℕ) (U := UR sig nD τ) (Lvl := ℕ) (Val := Elt F) spec1 c) := by
  rw [Pipeline.ownSems0_none, scopedRest1_eq c]
  unfold Φ1 rest1
  simp only [owns_whole]
  iintro ⟨%s, -, Hm, Hl, Ha, Hp, ⟨H1, H2, H3, H4, H5, H9, H10, H11, H12, H13⟩, Hr⟩
  isplitl [Hr Hp]
  · isplitl [Hr]; · iexact Hr
    iexact Hp
  isplitr; · iempintro
  isplitl [H1]; · iexact H1
  isplitl [H2]; · iexact H2
  isplitl [H3]; · iexact H3
  isplitl [H4]; · iexact H4
  isplitl [H5]; · iexact H5
  isplitl [Hm]; · iexists _; iexact Hm
  isplitl [Hl]; · iexists _; iexact Hl
  isplitl [Ha]; · iexists _; iexact Ha
  isplitl [H9]; · iexact H9
  isplitl [H10]; · iexact H10
  isplitl [H11]; · iexact H11
  isplitl [H12]; · iexact H12
  iexact H13

end Cert.Kernel.Hand

end
-- ==== Proof.KSegs.lean ====
/-
  @main of the kernel as the segments of one run: three host stretches' worth of reshapes and format changes around the
  three calls. Here: the contents of the core's buffers at every boundary between two items, as a chain from the launch
  memory (a host stretch rewrites what its operations write; a call leaves its output array at what its pipeline's
  write-backs fold to); every pipeline's proof data at its call's entry contents; each call as a segment record over the
  thread state "every unscoped buffer at the boundary's contents, the generator register at some state, nothing owed";
  and the run, whose final memory holds the result array at the last boundary's contents and every argument as launched.
-/
import proofs.«428345_j25692494364785_3_alg».proof.Proof.KSegDefs
import proofs.«428345_j25692494364785_3_alg».proof.Proof.KReg1InOut
import proofs.«428345_j25692494364785_3_alg».proof.Proof.KRegion0
import proofs.«428345_j25692494364785_3_alg».proof.Proof.KRegion2
import proofs.«428345_j25692494364785_3_alg».proof.Proof.KRegion1Dat
import proofs.«428345_j25692494364785_3_alg».proof.Proof.Gen.Kernel.Regions
import proofs.«428345_j25692494364785_3_alg».proof.Proof.Gen.Kernel.Launch
import proofs.«428345_j25692494364785_3_alg».proof.Proof.Gen.Kernel.Skeleton
import proofs.«428345_j25692494364785_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Frame
import Idealize.ShloMosaic.Lib.Pipeline.Regions
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The thread state -/

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, none. -/
abbrev R (c : Dev nD) : sProp 𝕄 := iprop((∃ r, prngReg c r) ∗ ∃ W, owes (c : Thread nD τ) (0 : CellTallies nD τ sig Unit) W)

/-- The boundary contents read at the TensorCore's references: what a call's proof data take. -/
abbrev BV1 : (c : Dev nD) → (b : Ref sig .tc) → Buf (Elt F) ((c : Thread nD τ).loc b) := fun c b => B1 m c b
abbrev BV2 : (c : Dev nD) → (b : Ref sig .tc) → Buf (Elt F) ((c : Thread nD τ).loc b) := fun c b => B2 m c b
abbrev BV3 : (c : Dev nD) → (b : Ref sig .tc) → Buf (Elt F) ((c : Thread nD τ).loc b) := fun c b => B3 m c b
abbrev BV4 : (c : Dev nD) → (b : Ref sig .tc) → Buf (Elt F) ((c : Thread nD τ).loc b) := fun c b => B4 m c b
abbrev BV5 : (c : Dev nD) → (b : Ref sig .tc) → Buf (Elt F) ((c : Thread nD τ).loc b) := fun c b => B5 m c b
abbrev BV6 : (c : Dev nD) → (b : Ref sig .tc) → Buf (Elt F) ((c : Thread nD τ).loc b) := fun c b => B6 m c b

/-! ## Calls 0 and 2: what their arrays hold at the exit -/

/-- At call 0's exit each input array holds what it held at entry (an input is never written back; the output's
    buffer is another) and the output array what the write-backs fold to. -/
theorem hF0 (c : Dev nD) : ∀ w : Fin cfg0.W, (pdats m 0 c).arrAt w cfg0.N = BV2 m c (Pipeline.arrRef spec0 w)
  | ⟨0, _⟩ => ((pdats m 0 c).arrAt_in 0 rfl _).trans ((A_eq0 (BV1 m) c 0).trans
      (Function.update_of_ne (StableHlo.devRef_ne_of_ne (by decide)) _ _).symm)
  | ⟨1, _⟩ => ((pdats m 0 c).arrAt_in 1 rfl _).trans ((A_eq0 (BV1 m) c 1).trans
      (Function.update_of_ne (StableHlo.devRef_ne_of_ne (by decide)) _ _).symm)
  | ⟨2, _⟩ => by
    show (pdats m 0 c).arrAt 2 cfg0.N = Function.update (B1 m c) (Proc.devRef .tc main_v5) (out0 m c) (Proc.devRef .tc main_v5)
    rw [Function.update_self]; rfl
  | ⟨_ + 3, h⟩ => absurd h (Nat.not_lt.2 (Nat.le_add_left _ _))
/-- Every buffer that is no array of call 0 holds at its exit what it held at entry. -/
theorem hrest0 (c : Dev nD) : ∀ b, b ∉ Finset.univ.image (Pipeline.arrRef spec0) → BV2 m c b = BV1 m c b :=
  fun b hb => Function.update_of_ne (StableHlo.devRef_ne_of_ne fun e =>
    hb (Finset.mem_image.mpr ⟨2, Finset.mem_univ _, e.symm⟩)) _ _

theorem hF2 (c : Dev nD) : ∀ w : Fin cfg2.W, (pdats m 2 c).arrAt w cfg2.N = BV6 m c (Pipeline.arrRef spec2 w)
  | ⟨0, _⟩ => ((pdats m 2 c).arrAt_in 0 rfl _).trans ((A_eq2 (BV5 m) c 0).trans
      (Function.update_of_ne (StableHlo.devRef_ne_of_ne (by decide)) _ _).symm)
  | ⟨1, _⟩ => ((pdats m 2 c).arrAt_in 1 rfl _).trans ((A_eq2 (BV5 m) c 1).trans
      (Function.update_of_ne (StableHlo.devRef_ne_of_ne (by decide)) _ _).symm)
  | ⟨2, _⟩ => by
    show (pdats m 2 c).arrAt 2 cfg2.N = Function.update (B5 m c) (Proc.devRef .tc main_v9) (out2 m c) (Proc.devRef .tc main_v9)
    rw [Function.update_self]; rfl
  | ⟨_ + 3, h⟩ => absurd h (Nat.not_lt.2 (Nat.le_add_left _ _))
theorem hrest2 (c : Dev nD) : ∀ b, b ∉ Finset.univ.image (Pipeline.arrRef spec2) → BV6 m c b = BV5 m c b :=
  fun b hb => Function.update_of_ne (StableHlo.devRef_ne_of_ne fun e =>
    hb (Finset.mem_image.mpr ⟨2, Finset.mem_univ _, e.symm⟩)) _ _

/-! ## Calls 0 and 2 as segments -/

set_option backward.isDefEq.respectTransparency.types false in
/-- Call 0 over the thread state: entered from every unscoped buffer at `B1`, left at `B2`. Its arrays are split out of
    the unscoped buffers and put back at the exit contents; the generator register goes into the class invariant and
    comes out; nothing is owed; the kernel has no semaphore of its own. -/
def reg0 : Pipeline.RegionSeg (pcfgs (F := F)) adm (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (BV1 m) c).loose
  hwaits := Pipeline.hwaits_of_owed_zero _ _ _ _ L lv 0 fun _ _ => rfl
  pre c := iprop(StableHlo.held (c : Thread nD τ) (Pipeline.ucRefs τ sig) (B1 m c) ∗ R c)
  post c := iprop(StableHlo.held (c : Thread nD τ) (Pipeline.ucRefs τ sig) (B2 m c) ∗ R c)
  X c := iprop(∃ r, prngReg c r)
  Y c := iprop(∃ r, prngReg c r)
  Z c := Pipeline.unscopedRest (Ix := Unit) (Name := ℕ) (U := UR sig nD τ) (Lvl := ℕ) spec0 c (BV1 m c)
  hentry c := by
    rw [Pipeline.ownSems0_none]
    have hsplit := Pipeline.arrays_of_unscopedBufs (p := 0) (pcfgs (F := F)) adm (pdats m) (launch0 (F := F)).win (launch0 (F := F)).arr_whole c
      ((pdats m 0 c).share_full fun _ => rfl) (BV1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      (launch0 (F := F)).win (launch0 (F := F)).arr_whole c (pdats m) ((pdats m 0 c).share_full fun _ => rfl)
      (BV1 m c) (BV2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Call 2 over the thread state: entered from every unscoped buffer at `B5`, left at `B6`, as call 0. -/
def reg2 : Pipeline.RegionSeg (pcfgs (F := F)) adm (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (BV5 m) c).loose
  hwaits := Pipeline.hwaits_of_owed_zero _ _ _ _ L lv 2 fun _ _ => rfl
  pre c := iprop(StableHlo.held (c : Thread nD τ) (Pipeline.ucRefs τ sig) (B5 m c) ∗ R c)
  post c := iprop(StableHlo.held (c : Thread nD τ) (Pipeline.ucRefs τ sig) (B6 m c) ∗ R c)
  X c := iprop(∃ r, prngReg c r)
  Y c := iprop(∃ r, prngReg c r)
  Z c := Pipeline.unscopedRest (Ix := Unit) (Name := ℕ) (U := UR sig nD τ) (Lvl := ℕ) spec2 c (BV5 m c)
  hentry c := by
    rw [Pipeline.ownSems0_none]
    have hsplit := Pipeline.arrays_of_unscopedBufs (p := 2) (pcfgs (F := F)) adm (pdats m) (launch2 (F := F)).win (launch2 (F := F)).arr_whole c
      ((pdats m 2 c).share_full fun _ => rfl) (BV5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      (launch2 (F := F)).win (launch2 (F := F)).arr_whole c (pdats m) ((pdats m 2 c).share_full fun _ => rfl)
      (BV5 m c) (BV6 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

/-- A host stretch as a segment: its operations over the unscoped references from the contents `W`, `R` riding along;
    it ends with those references at `StableHlo.after ops (W c)`, the next boundary's contents. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The arguments reach the last boundary as launched: no host stretch writes one, no call's output is one. -/
theorem B7_main_arg0 (c : Dev nD) : B7 m c main_arg0 = m ((c : Thread nD τ).loc main_arg0) :=
  (congrFun (V7_eq m c) _).symm.trans (V7_main_arg0 m (outs m) c)
theorem B7_main_arg1 (c : Dev nD) : B7 m c main_arg1 = m ((c : Thread nD τ).loc main_arg1) :=
  (congrFun (V7_eq m c) _).symm.trans (V7_main_arg1 m (outs m) c)
theorem B7_main_arg2 (c : Dev nD) : B7 m c main_arg2 = m ((c : Thread nD τ).loc main_arg2) :=
  (congrFun (V7_eq m c) _).symm.trans (V7_main_arg2 m (outs m) c)

section Run

variable (R1 : Pipeline.RegionSeg (pcfgs (F := F)) adm (pdats m) () defs₀ 𝒱₀ L lv 1)

/-- @main's seven segments in order, call 1's record a parameter. -/
abbrev segsOf : List (Pipeline.Seg (pcfgs (F := F)) adm (pdats m) () defs₀ 𝒱₀ L lv) :=
  [ .host (hseg hostOps0 hostOps0_sub hostOps0_fresh (fun c b => m (c, b))),
    .region (reg0 m),
    .host (hseg hostOps1 hostOps1_sub hostOps1_fresh (B2 m)),
    .region R1,
    .host (hseg hostOps2 hostOps2_sub hostOps2_fresh (B4 m)),
    .region (reg2 m),
    .host (hseg hostOps3 hostOps3_sub hostOps3_fresh (B6 m)) ]

/-- @main is the run of the segments. -/
theorem main_run (c : Dev nD) : main (F := F) c = Pipeline.Seg.run (segsOf m R1) :=
  main_segs adm (pdats m) () 𝒱₀ L lv _ _ _ _ (reg0 m) R1 (reg2 m) rfl rfl rfl rfl c

set_option backward.isDefEq.respectTransparency.types false in
/-- THE RUN, given call 1's record entered from the buffers at `B3` and left at `B4`: from any memory with zero
    counters every weakly fair execution of @main terminates, and every final memory holds the result array at the
    last boundary's contents and each argument as launched. -/
theorem run_cond (ρ : Dev nD → PrngReg)
    (hpre1 : ∀ c : Dev nD, iprop(StableHlo.held (c : Thread nD τ) (Pipeline.ucRefs τ sig) (B3 m c) ∗ R c) ⊢ R1.pre c)
    (hpost1 : ∀ c : Dev nD, R1.post c ⊢ iprop(StableHlo.held (c : Thread nD τ) (Pipeline.ucRefs τ sig) (B4 m c) ∗ R c)) :
    θ_run defs (onTc (τ := τ) (main (F := F))) ⟨m, fun _ => 0, ρ⟩ (fun r => ∀ c : Dev nD,
      r.2.mem ((c.tc : Thread nD τ).loc main_v10) = B7 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m) () (cellOf_inj adm) emb₁ defs₀ 𝒱₀ L lv m ρ main (segsOf m R1)
    (fun c Q => by rw [main_run m R1 c])
    (by simp only [segsOf, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (fun b => m (c, b)) ∗ R c))
    (Tₙ := fun c => iprop(StableHlo.held (c : Thread nD τ) (Pipeline.ucRefs τ sig) (B7 m c) ∗ ∃ r, prngReg c r))
    (hch := ⟨fun _ => .rfl, fun _ => .rfl, fun _ => .rfl, hpre1, hpost1, fun _ => .rfl, fun _ => .rfl, fun c => by
      show iprop(StableHlo.held (c : Thread nD τ) (Pipeline.ucRefs τ sig) (B7 m c)
        ∗ (∃ r, prngReg c r) ∗ ∃ W, owes (c : Thread nD τ) (0 : CellTallies nD τ sig Unit) W) ⊢ _
      iintro ⟨Hh, Hp, HO⟩
      isplitl [Hh Hp]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (fun b => m (c, b))
        from Pipeline.unscopedBufs_held c (fun b => m (c, b))]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B7 m c b)
    (hfin := fun c s' => by
      iintro ⟨⟨Hh, -⟩, HSI⟩
      unfold StableHlo.held
      imodintro
      iapply (pointsTo_read_all (Pipeline.ucRefs τ sig) (fun b => (((c : Thread nD τ)).1, b)) (B7 m c) s')
      isplitl [Hh] <;> iassumption)
    (hQ := fun s h c =>
      ⟨h c _ (mem_uc main_v10 (by decide)),
       (h c _ (mem_uc main_arg0 (by decide))).trans (B7_main_arg0 m c),
       (h c _ (mem_uc main_arg1 (by decide))).trans (B7_main_arg1 m c),
       (h c _ (mem_uc main_arg2 (by decide))).trans (B7_main_arg2 m c)⟩)

end Run

/-! ## Call 1: its arrays, tables and bypassed buffers carved out of the unscoped buffers -/

/-- The core's sixteen unscoped buffers, one by one, at contents `V`. -/
theorem unscopedBufs_eq (c : Dev nD) (V : (b : Ref sig .tc) → Buf (Elt F) ((c : Thread nD τ).loc b)) :
    (unscopedBufs (Ix := Unit) (Name := ℕ) (U := UR sig nD τ) (Lvl := ℕ) c V : sProp 𝕄)
      = iprop((((c : Thread nD τ).loc main_v6) ↦{fullShare} V main_v6) ∗ (((c : Thread nD τ).loc main_v7) ↦{fullShare} V main_v7)
        ∗ (((c : Thread nD τ).loc main_c) ↦{fullShare} V main_c) ∗ (((c : Thread nD τ).loc main_c_0) ↦{fullShare} V main_c_0)
        ∗ (((c : Thread nD τ).loc main_arg0) ↦{fullShare} V main_arg0) ∗ (((c : Thread nD τ).loc main_arg1) ↦{fullShare} V main_arg1)
        ∗ (((c : Thread nD τ).loc main_arg2) ↦{fullShare} V main_arg2) ∗ (((c : Thread nD τ).loc main_v0) ↦{fullShare} V main_v0)
        ∗ (((c : Thread nD τ).loc main_v1) ↦{fullShare} V main_v1) ∗ (((c : Thread nD τ).loc main_v2) ↦{fullShare} V main_v2)
        ∗ (((c : Thread nD τ).loc main_v3) ↦{fullShare} V main_v3) ∗ (((c : Thread nD τ).loc main_v4) ↦{fullShare} V main_v4)
        ∗ (((c : Thread nD τ).loc main_v5) ↦{fullShare} V main_v5) ∗ (((c : Thread nD τ).loc main_v8) ↦{fullShare} V main_v8)
        ∗ (((c : Thread nD τ).loc main_v9) ↦{fullShare} V main_v9) ∗ (((c : Thread nD τ).loc main_v10) ↦{fullShare} V main_v10)) := by
  unfold unscopedBufs
  exact bigSep_eq_bigSepL_of_eq [main_v6, main_v7, main_c, main_c_0, main_arg0, main_arg1, main_arg2, main_v0, main_v1, main_v2,
    main_v3, main_v4, main_v5, main_v8, main_v9, main_v10] (by decide) (by decide) _

/-- The two tables, one by one. -/
theorem prefHeld1_tables_eq (c : Dev nD) (q : PosShare TreeShare) (T : pre1.Contents (Elt F)) :
    (Pipeline.prefHeld (Ix := Unit) (Name := ℕ) (U := UR sig nD τ) (Lvl := ℕ) pre1 c (fun _ => q) T : sProp 𝕄)
      = iprop((((c : Thread nD τ).loc main_c) ↦{q} T 0) ∗ (((c : Thread nD τ).loc main_c_0) ↦{q} T 1)) := by
  unfold Pipeline.prefHeld
  exact bigSep_univ_eq_bigSepL [(0 : Fin 2), (1 : Fin 2)] (by decide) (by decide) _

/-- A window's array of call 1 is a whole buffer: its elements are all of the buffer's. -/
theorem arr_pt1 (c : Dev nD) (w : Fin (cfgA (F := F)).W) (q : PosShare TreeShare)
    (Fw : Buf (Elt F) (((cfgA (F := F)).win w).arr.view.loc (c : Thread nD τ))) :
    ((((cfgA (F := F)).win w).arr.view.loc (c : Thread nD τ)) ↦[((cfgA (F := F)).win w).arr.view.set]{q} Fw : sProp 𝕄)
      = ((((cfgA (F := F)).win w).arr.view.loc (c : Thread nD τ)) ↦{q} Fw) := by
  rw [Memref.IsWhole.set_eq_univ (m := ((cfgA (F := F)).win w).arr) (arr_whole1 w)]

variable (V : (c : Dev nD) → (b : Ref sig .tc) → Buf (Elt F) ((c : Thread nD τ).loc b)) in
/-- Call 1's arrays: the three input windows hold their one array, the packed projection, in thirds; the output window
    holds its array whole. -/
theorem arrays1_eq (c : Dev nD) (Fs : (w : Fin (cfgA (F := F)).W) → Buf (Elt F) (((cfgA (F := F)).win w).arr.view.loc (c : Thread nD τ))) :
    ((dat1 V c).arrays Fs : sProp 𝕄)
      = iprop((((c : Thread nD τ).loc main_v6) ↦{fullShare.left} Fs 0) ∗ (((c : Thread nD τ).loc main_v6) ↦{fullShare.right.left} Fs 1)
        ∗ (((c : Thread nD τ).loc main_v6) ↦{fullShare.right.right} Fs 2) ∗ (((c : Thread nD τ).loc main_v7) ↦{fullShare} Fs 3)) := by
  unfold Dat.arrays
  rw [bigSep_W1, arr_pt1, arr_pt1, arr_pt1, arr_pt1]
  rfl

/-! ## Call 1: the tables and the arrays at the boundaries -/

/-- The two tables reach call 1 as the first host stretch writes them: no later operation and no call writes one. -/
theorem B3_main_c (c : Dev nD) : B3 m c main_c = tbl1 (F := F) 0 := by
  have h3 : B3 m c main_c = B2 m c main_c := StableHlo.after_of_writes_sub hostOps1 _ hostOps1_writes (by decide)
  have h2 : B2 m c main_c = B1 m c main_c := Function.update_of_ne (StableHlo.devRef_ne_of_ne (by decide)) _ _
  rw [h3, h2]; unfold B1; after_results; rfl
theorem B3_main_c_0 (c : Dev nD) : B3 m c main_c_0 = tbl1 (F := F) 1 := by
  have h3 : B3 m c main_c_0 = B2 m c main_c_0 := StableHlo.after_of_writes_sub hostOps1 _ hostOps1_writes (by decide)
  have h2 : B2 m c main_c_0 = B1 m c main_c_0 := Function.update_of_ne (StableHlo.devRef_ne_of_ne (by decide)) _ _
  rw [h3, h2]; unfold B1; after_results; rfl

/-- Call 1 changes its output array only. -/
theorem B4_of_ne (c : Dev nD) (r : Ref sig .tc) (h : r ≠ main_v7) : B4 m c r = B3 m c r :=
  Function.update_of_ne (StableHlo.devRef_ne_of_ne h) _ _
theorem B4_main_v7 (c : Dev nD) : B4 m c main_v7 = out1 m c := by
  show Function.update (B3 m c) (Proc.devRef .tc main_v7) (out1 m c) (Proc.devRef .tc main_v7) = _
  rw [Function.update_self]

/-- At call 1's exit each input window's array holds what it held at entry, the output's what the write-backs fold to. -/
theorem hF1 (c : Dev nD) : ∀ w : Fin (cfgA (F := F)).W, (dat1 (BV3 m) c).arrAt w (cfgA (F := F)).N = BV4 m c (Pipeline.arrRef spec1 w)
  | ⟨0, _⟩ => ((dat1 (BV3 m) c).arrAt_in 0 rfl _).trans ((A_eq1 (BV3 m) c 0).trans (B4_of_ne m c main_v6 (by decide)).symm)
  | ⟨1, _⟩ => ((dat1 (BV3 m) c).arrAt_in 1 rfl _).trans ((A_eq1 (BV3 m) c 1).trans (B4_of_ne m c main_v6 (by decide)).symm)
  | ⟨2, _⟩ => ((dat1 (BV3 m) c).arrAt_in 2 rfl _).trans ((A_eq1 (BV3 m) c 2).trans (B4_of_ne m c main_v6 (by decide)).symm)
  | ⟨3, _⟩ => (B4_main_v7 m c).symm
  | ⟨_ + 4, h⟩ => absurd h (Nat.not_lt.2 (Nat.le_add_left _ _))

/-! ## Call 1: entry and exit -/

/-- ENTRY. The unscoped buffers at `B3` are: the packed projection, whose full share splits into the three windows'
    thirds, and the output array — together call 1's arrays at their entry contents —; the two tables at the literal
    contents; and the twelve buffers that bypass the call. The dues, none, are the pipeline's first tallies. -/
theorem hentry1 (c : Dev nD) :
    (iprop(StableHlo.held (c : Thread nD τ) (Pipeline.ucRefs τ sig) (B3 m c) ∗ R c) : sProp 𝕄)
      ⊢ iprop((dat1 (BV3 m) c).arrays ((dat1 (BV3 m) c).arrAt · 0)
          ∗ Pipeline.prefHeld (Ix := Unit) (Name := ℕ) (U := UR sig nD τ) (Lvl := ℕ) pre1 c (fun _ => fullShare) (tbl1 (F := F))
          ∗ (dat1 (BV3 m) c).owesAt () 0 ∗ (∃ r, prngReg c r)
          ∗ Pipeline.unscopedRestP (Ix := Unit) (Name := ℕ) (U := UR sig nD τ) (Lvl := ℕ) pre1 spec1 c (BV3 m c)) := by
  rw [← Pipeline.unscopedBufs_held (Ix := Unit) (Name := ℕ) (U := UR sig nD τ) (Lvl := ℕ) c (B3 m c), unscopedBufs_eq, arrays1_eq,
    prefHeld1_tables_eq, unscopedRestP1_eq, ← B3_main_c m c, ← B3_main_c_0 m c]
  iintro ⟨⟨H6, H7, Hc, Hc0, Ha0, Ha1, Ha2, H0, H1, H2, H3, H4, H5, H8, H9, H10⟩, Hp, HO⟩
  ihave H6' := (pointsTo_share (PosShare.mem_left_op_right fullShare)).1 $$ H6
  icases H6' with ⟨H6l, H6r⟩
  ihave H6r' := (pointsTo_share (PosShare.mem_left_op_right fullShare.right)).1 $$ H6r
  icases H6r' with ⟨H6rl, H6rr⟩
  isplitl [H6l H6rl H6rr H7]
  · isplitl [H6l]; · iexact H6l
    isplitl [H6rl]; · iexact H6rl
    isplitl [H6rr]; · iexact H6rr
    iexact H7
  isplitl [Hc Hc0]
  · isplitl [Hc]; · iexact Hc
    iexact Hc0
  isplitl [HO]
  · unfold Pipeline.Dat.owesAt Pipeline.owesWithin
    icases HO with ⟨%W, HO⟩; iexists W; isplitr; · ipureintro; exact fun _ _ => Or.inl trivial
    iexact HO
  isplitl [Hp]; · iexact Hp
  isplitl [Ha0]; · iexact Ha0
  isplitl [Ha1]; · iexact Ha1
  isplitl [Ha2]; · iexact Ha2
  isplitl [H0]; · iexact H0
  isplitl [H1]; · iexact H1
  isplitl [H2]; · iexact H2
  isplitl [H3]; · iexact H3
  isplitl [H4]; · iexact H4
  isplitl [H5]; · iexact H5
  isplitl [H8]; · iexact H8
  isplitl [H9]; · iexact H9
  iexact H10

/-- An input window's array of call 1 is never written back: it holds the packed projection as entered. -/
theorem arrAt1_in0 (c : Dev nD) (n : ℕ) : (dat1 (BV3 m) c).arrAt 0 n = B3 m c main_v6 :=
  ((dat1 (BV3 m) c).arrAt_in 0 rfl _).trans (A_eq1 (BV3 m) c 0)
theorem arrAt1_in1 (c : Dev nD) (n : ℕ) : (dat1 (BV3 m) c).arrAt 1 n = B3 m c main_v6 :=
  ((dat1 (BV3 m) c).arrAt_in 1 rfl _).trans (A_eq1 (BV3 m) c 1)
theorem arrAt1_in2 (c : Dev nD) (n : ℕ) : (dat1 (BV3 m) c).arrAt 2 n = B3 m c main_v6 :=
  ((dat1 (BV3 m) c).arrAt_in 2 rfl _).trans (A_eq1 (BV3 m) c 2)
theorem arrAt1_out (c : Dev nD) : (dat1 (BV3 m) c).arrAt 3 (cfgA (F := F)).N = out1 m c := rfl

/-- EXIT. The three thirds of the packed projection join back into its full share at the entry contents; with the
    output array at what the write-backs fold to, the two tables and the twelve bypassed buffers they are the unscoped
    buffers at `B4`, which differs from `B3` at the output array only. -/
theorem hexit1 (c : Dev nD) :
    (iprop((dat1 (BV3 m) c).arrays ((dat1 (BV3 m) c).arrAt · (cfgA (F := F)).N)
          ∗ (dat1 (BV3 m) c).owesAt () (Fin.last (cfgA (F := F)).N)
          ∗ ((∃ r, prngReg c r) ∗ Pipeline.prefHeld (Ix := Unit) (Name := ℕ) (U := UR sig nD τ) (Lvl := ℕ) pre1 c (fun _ => fullShare) (tbl1 (F := F)))
          ∗ Pipeline.unscopedRestP (Ix := Unit) (Name := ℕ) (U := UR sig nD τ) (Lvl := ℕ) pre1 spec1 c (BV3 m c)) : sProp 𝕄)
      ⊢ iprop(StableHlo.held (c : Thread nD τ) (Pipeline.ucRefs τ sig) (B4 m c) ∗ R c) := by
  rw [← Pipeline.unscopedBufs_held (Ix := Unit) (Name := ℕ) (U := UR sig nD τ) (Lvl := ℕ) c (B4 m c), unscopedBufs_eq, arrays1_eq,
    prefHeld1_tables_eq, unscopedRestP1_eq, arrAt1_in0, arrAt1_in1, arrAt1_in2, arrAt1_out,
    B4_main_v7, B4_of_ne m c main_v6 (by decide), B4_of_ne m c main_c (by decide), B4_of_ne m c main_c_0 (by decide),
    B4_of_ne m c main_arg0 (by decide), B4_of_ne m c main_arg1 (by decide), B4_of_ne m c main_arg2 (by decide),
    B4_of_ne m c main_v0 (by decide), B4_of_ne m c main_v1 (by decide), B4_of_ne m c main_v2 (by decide),
    B4_of_ne m c main_v3 (by decide), B4_of_ne m c main_v4 (by decide), B4_of_ne m c main_v5 (by decide),
    B4_of_ne m c main_v8 (by decide), B4_of_ne m c main_v9 (by decide), B4_of_ne m c main_v10 (by decide),
    ← B3_main_c m c, ← B3_main_c_0 m c]
  iintro ⟨⟨H6l, H6rl, H6rr, H7⟩, HO, ⟨Hp, Hc, Hc0⟩, Ha0, Ha1, Ha2, H0, H1, H2, H3, H4, H5, H8, H9, H10⟩
  ihave H6r := (pointsTo_share (PosShare.mem_left_op_right fullShare.right)).2 $$ [H6rl H6rr]
  · isplitl [H6rl]; · iexact H6rl
    iexact H6rr
  ihave H6 := (pointsTo_share (PosShare.mem_left_op_right fullShare)).2 $$ [H6l H6r]
  · isplitl [H6l]; · iexact H6l
    iexact H6r
  isplitr [Hp HO]
  · isplitl [H6]; · iexact H6
    isplitl [H7]; · iexact H7
    isplitl [Hc]; · iexact Hc
    isplitl [Hc0]; · iexact Hc0
    isplitl [Ha0]; · iexact Ha0
    isplitl [Ha1]; · iexact Ha1
    isplitl [Ha2]; · iexact Ha2
    isplitl [H0]; · iexact H0
    isplitl [H1]; · iexact H1
    isplitl [H2]; · iexact H2
    isplitl [H3]; · iexact H3
    isplitl [H4]; · iexact H4
    isplitl [H5]; · iexact H5
    isplitl [H8]; · iexact H8
    isplitl [H9]; · iexact H9
    iexact H10
  isplitl [Hp]; · iexact Hp
  unfold Pipeline.Dat.owesAt Pipeline.owesWithin
  icases HO with ⟨%W, -, HO⟩; iexists W; iexact HO

/-! ## Call 1 as a segment, and the run -/

set_option backward.isDefEq.respectTransparency.types false in
/-- Call 1 over the thread state: entered from every unscoped buffer at `B3`, left at `B4`. The generator register goes
    into the invariant and comes back beside the tables; the tables are held whole throughout; nothing is owed; the
    kernel has no semaphore of its own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (BV3 m) c).loose
  hwaits := Pipeline.hwaits_of_owed_zero _ _ _ _ L lv 1 fun _ _ => rfl
  pre c := iprop(StableHlo.held (c : Thread nD τ) (Pipeline.ucRefs τ sig) (B3 m c) ∗ R c)
  post c := iprop(StableHlo.held (c : Thread nD τ) (Pipeline.ucRefs τ sig) (B4 m c) ∗ R c)
  X c := iprop(∃ r, prngReg c r)
  Y c := iprop((∃ r, prngReg c r) ∗ Pipeline.prefHeld (Ix := Unit) (Name := ℕ) (U := UR sig nD τ) (Lvl := ℕ) pre1 c (fun _ => fullShare) (tbl1 (F := F)))
  Z c := Pipeline.unscopedRestP (Ix := Unit) (Name := ℕ) (U := UR sig nD τ) (Lvl := ℕ) pre1 spec1 c (BV3 m c)
  hentry c := by
    iintro ⟨Hpre, -, -⟩
    imodintro
    iapply (hentry1 m c)
    iexact Hpre
  hin c := hin1 (BV3 m) c
  hout c := hout1 (BV3 m) c
  hexit c := by
    iintro H
    imodintro
    iapply (hexit1 m c)
    iexact H

/-- THE RUN: from any memory with zero counters every weakly fair execution of @main terminates, and every final memory
    holds the result array at the last boundary's contents and each argument as launched. -/
theorem run_main (ρ : Dev nD → PrngReg) :
    θ_run defs (onTc (τ := τ) (main (F := F))) ⟨m, fun _ => 0, ρ⟩ (fun r => ∀ c : Dev nD,
      r.2.mem ((c.tc : Thread nD τ).loc main_v10) = B7 m c main_v10
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  run_cond m (reg1 m) ρ (fun _ => .rfl) (fun _ => .rfl)

end Cert.Kernel.Hand

end
-- ==== Proof.Softmax.lean ====
/-
  Online softmax against whole-row softmax, on the extended reals, for one row.
  A row's scores arrive in `n + 1` column blocks of `B` columns; a masked column carries the score ⊥ (−∞), whose
  exponential is 0. The whole-row form subtracts the row's maximum `M`, exponentiates, and averages the values with
  weights exp(s − M) / Σ exp(s − M). The online form visits the blocks in order keeping a running maximum m, a running
  sum l and a running weighted sum a: at a block with maximum m' = max m (max of the block) it rescales l and a by
  exp(m − m') and adds the block's exponentials exp(s − m') and their products with the values; at the end it divides
  a by l. Over the reals the rescalings telescope, exp(m − m')·exp(s − m) = exp(s − m'), and division by the positive
  finite l distributes over the finite sum; both need the unmasked scores and the values to be real numbers, and the
  running maximum to be real from the first block on (some column of block 0 unmasked).
-/
import Idealize.ShloMosaic.PureOps.Ideal

noncomputable section

namespace Cert.Softmax

open Idealize.ShloMosaic

/-- The whole-row form over an index type `ι`: Σ_i [exp(s i − M) / Σ_j exp(s j − M)] · v i with M the row's maximum. -/
def softAvg {ι : Type} [Fintype ι] (s v : ι → EReal) : EReal :=
  ∑ i, Ideal.div (Ideal.exp (s i - Finset.univ.sup s)) (∑ j, Ideal.exp (s j - Finset.univ.sup s)) * v i

/-- The online state: running maximum, running sum, running weighted sum. -/
structure St where
  m : EReal
  l : EReal
  a : EReal

/-- Before the first block: maximum −∞, sums zero. -/
def St.init : St := ⟨⊥, 0, 0⟩

/-- One block of `B` columns with scores `s` and values `v`. -/
def St.step {B : ℕ} (st : St) (s v : Fin B → EReal) : St :=
  let m' := max st.m (Finset.univ.sup s)
  ⟨m', Ideal.exp (st.m - m') * st.l + ∑ c, Ideal.exp (s c - m'), Ideal.exp (st.m - m') * st.a + ∑ c, Ideal.exp (s c - m') * v c⟩

/-- The state after blocks `0 … k − 1`. -/
def onl {n B : ℕ} (s v : Fin (n + 1) → Fin B → EReal) : (k : ℕ) → St
  | 0 => St.init
  | k + 1 => if h : k < n + 1 then (onl s v k).step (s ⟨k, h⟩) (v ⟨k, h⟩) else onl s v k

/-- The online result after all `n + 1` blocks. -/
def onlAvg {n B : ℕ} (s v : Fin (n + 1) → Fin B → EReal) : EReal :=
  Ideal.div (onl s v (n + 1)).a (onl s v (n + 1)).l

/-! ### Real weights -/

/-- The real weight exp(x − M) of a score x against a real M: 0 at −∞ (and, by convention, at +∞). -/
def ex (x : EReal) (M : ℝ) : ℝ :=
  match x with
  | ⊥ => 0
  | ⊤ => 0
  | (r : ℝ) => Real.exp (r - M)

theorem ex_bot (M : ℝ) : ex ⊥ M = 0 := rfl
theorem ex_top (M : ℝ) : ex ⊤ M = 0 := rfl
theorem ex_coe (r M : ℝ) : ex (r : EReal) M = Real.exp (r - M) := rfl

theorem ex_nonneg (x : EReal) (M : ℝ) : 0 ≤ ex x M := by
  induction x using EReal.rec with
  | bot => exact le_refl _
  | coe r => exact (Real.exp_pos _).le
  | top => exact le_refl _

theorem ex_self (M : ℝ) : ex (M : EReal) M = 1 := by rw [ex_coe, sub_self, Real.exp_zero]

/-- Changing the reference point: exp(M − M')·exp(x − M) = exp(x − M'). -/
theorem ex_rescale (x : EReal) (M M' : ℝ) : Real.exp (M - M') * ex x M = ex x M' := by
  induction x using EReal.rec with
  | bot => rw [ex_bot, ex_bot, mul_zero]
  | coe r => rw [ex_coe, ex_coe, ← Real.exp_add]; congr 1; ring
  | top => rw [ex_top, ex_top, mul_zero]

/-- Off +∞ the extended exponential of x − M is the coercion of the real weight. -/
theorem exp_sub_coe {x : EReal} (hx : x ≠ ⊤) (M : ℝ) : Ideal.exp (x - (M : EReal)) = ((ex x M : ℝ) : EReal) := by
  induction x using EReal.rec with
  | bot => rw [EReal.bot_sub, Ideal.exp_bot, ex_bot, EReal.coe_zero]
  | coe r => rw [← EReal.coe_sub, Ideal.exp_coe, ex_coe]
  | top => exact absurd rfl hx

/-- The coercion of a finite sum of reals is the sum of the coercions. -/
theorem coe_sum {ι : Type} (t : Finset ι) (f : ι → ℝ) : ((∑ i ∈ t, f i : ℝ) : EReal) = ∑ i ∈ t, (f i : EReal) :=
  map_sum (⟨⟨Real.toEReal, EReal.coe_zero⟩, EReal.coe_add⟩ : ℝ →+ EReal) f t

theorem ne_top_of {x : EReal} (h : x = ⊥ ∨ ∃ r : ℝ, x = (r : EReal)) : x ≠ ⊤ := by
  rcases h with h | ⟨r, h⟩ <;> rw [h]
  · exact bot_ne_top
  · exact EReal.coe_ne_top r

theorem bot_or_coe {x : EReal} (h : x ≠ ⊤) : x = ⊥ ∨ ∃ r : ℝ, x = (r : EReal) := by
  induction x using EReal.rec with
  | bot => exact Or.inl rfl
  | coe r => exact Or.inr ⟨r, rfl⟩
  | top => exact absurd rfl h

theorem sup_ne_top {ι : Type} (t : Finset ι) (f : ι → EReal) (hf : ∀ i ∈ t, f i ≠ ⊤) : t.sup f ≠ ⊤ :=
  ((Finset.sup_lt_iff bot_lt_top).2 fun i hi => lt_top_iff_ne_top.2 (hf i hi)).ne

theorem sup_ne_bot {ι : Type} (t : Finset ι) (f : ι → EReal) (h0 : ∃ i ∈ t, f i ≠ ⊥) : t.sup f ≠ ⊥ := by
  obtain ⟨i, hi, h⟩ := h0
  intro hb
  apply h
  apply le_bot_iff.1
  rw [← hb]
  exact Finset.le_sup hi

/-- A finite supremum of scores none of which is +∞ and one of which is not −∞ is a real number. -/
theorem sup_real {ι : Type} (t : Finset ι) (f : ι → EReal) (hf : ∀ i ∈ t, f i ≠ ⊤) (h0 : ∃ i ∈ t, f i ≠ ⊥) :
    ∃ M : ℝ, t.sup f = (M : EReal) :=
  ⟨(t.sup f).toReal, (EReal.coe_toReal (sup_ne_top t f hf) (sup_ne_bot t f h0)).symm⟩

/-- Against the row's real maximum M the weights sum to a positive real: the maximum is attained, with weight 1. -/
theorem sum_ex_pos {ι : Type} [Fintype ι] (s : ι → EReal) (M : ℝ) (hM : Finset.univ.sup s = (M : EReal)) :
    0 < ∑ j, ex (s j) M := by
  have hne : (Finset.univ : Finset ι).Nonempty := by
    rw [Finset.nonempty_iff_ne_empty]
    intro h
    rw [h, Finset.sup_empty] at hM
    exact EReal.coe_ne_bot M hM.symm
  obtain ⟨i, hi, h⟩ := Finset.exists_mem_eq_sup _ hne s
  refine Finset.sum_pos' (fun j _ => ex_nonneg _ _) ⟨i, hi, ?_⟩
  rw [← h, hM, ex_self]
  exact one_pos

/-- The whole-row form with real weights: each column's weight is the real exp(s i − M) / Σ_j exp(s j − M). -/
theorem softAvg_coe {ι : Type} [Fintype ι] (s v : ι → EReal) (M : ℝ) (hM : Finset.univ.sup s = (M : EReal))
    (hs : ∀ i, s i ≠ ⊤) :
    softAvg s v = ∑ i, ((ex (s i) M * (1 / ∑ j, ex (s j) M) : ℝ) : EReal) * v i := by
  have hL : (∑ j, ex (s j) M) ≠ 0 := (sum_ex_pos s M hM).ne'
  have hsum : (∑ j, Ideal.exp (s j - (M : EReal))) = ((∑ j, ex (s j) M : ℝ) : EReal) := by
    rw [coe_sum]
    exact Finset.sum_congr rfl fun j _ => exp_sub_coe (hs j) M
  unfold softAvg
  rw [hM]
  refine Finset.sum_congr rfl fun i _ => ?_
  rw [hsum, Ideal.div_coe hL, exp_sub_coe (hs i) M, ← EReal.coe_mul]

/-- The whole-row form with real weights and real values: a quotient of two real sums. -/
theorem softAvg_real {ι : Type} [Fintype ι] (s v : ι → EReal) (M : ℝ) (hM : Finset.univ.sup s = (M : EReal))
    (hs : ∀ i, s i ≠ ⊤) (vr : ι → ℝ) (hv : ∀ i, v i = (vr i : EReal)) :
    softAvg s v = (((∑ i, ex (s i) M * vr i) / (∑ j, ex (s j) M) : ℝ) : EReal) := by
  rw [softAvg_coe s v M hM hs, Finset.sum_div, coe_sum]
  refine Finset.sum_congr rfl fun i _ => ?_
  rw [hv i, ← EReal.coe_mul]
  congr 1
  ring

/-! ### The online recurrence -/

/-- The blocks before the k-th. -/
def seen (n k : ℕ) : Finset (Fin (n + 1)) := Finset.univ.filter fun j => j.val < k

theorem seen_zero (n : ℕ) : seen n 0 = ∅ := by
  ext j
  simp [seen]

theorem seen_succ (n k : ℕ) (h : k < n + 1) : seen n (k + 1) = insert ⟨k, h⟩ (seen n k) := by
  ext j
  simp only [seen, Finset.mem_filter, Finset.mem_univ, true_and, Finset.mem_insert, Fin.ext_iff]
  omega

theorem seen_last (n : ℕ) : seen n (n + 1) = Finset.univ := by
  ext j
  simp only [seen, Finset.mem_filter, Finset.mem_univ, true_and, iff_true]
  exact j.isLt

theorem not_mem_seen (n k : ℕ) (h : k < n + 1) : (⟨k, h⟩ : Fin (n + 1)) ∉ seen n k := by
  simp [seen]

/-- One block, in real terms: with the new maximum a real M', the rescaling factor and the block's exponentials are
    real weights against M'. -/
theorem step_real {B : ℕ} (st : St) (s v : Fin B → EReal) (vr : Fin B → ℝ) (hv : ∀ c, v c = (vr c : EReal))
    (hs : ∀ c, s c ≠ ⊤) (hm : st.m ≠ ⊤) (L A M' : ℝ) (hl : st.l = (L : EReal)) (ha : st.a = (A : EReal))
    (hM' : max st.m (Finset.univ.sup s) = (M' : EReal)) :
    (st.step s v).m = (M' : EReal) ∧
    (st.step s v).l = ((ex st.m M' * L + ∑ c, ex (s c) M' : ℝ) : EReal) ∧
    (st.step s v).a = ((ex st.m M' * A + ∑ c, ex (s c) M' * vr c : ℝ) : EReal) := by
  refine ⟨hM', ?_, ?_⟩
  · show Ideal.exp (st.m - max st.m (Finset.univ.sup s)) * st.l
        + ∑ c, Ideal.exp (s c - max st.m (Finset.univ.sup s)) = _
    rw [hM', hl, exp_sub_coe hm, EReal.coe_add, EReal.coe_mul, coe_sum]
    congr 1
    exact Finset.sum_congr rfl fun c _ => exp_sub_coe (hs c) M'
  · show Ideal.exp (st.m - max st.m (Finset.univ.sup s)) * st.a
        + ∑ c, Ideal.exp (s c - max st.m (Finset.univ.sup s)) * v c = _
    rw [hM', ha, exp_sub_coe hm, EReal.coe_add, EReal.coe_mul, coe_sum]
    congr 1
    refine Finset.sum_congr rfl fun c _ => ?_
    rw [exp_sub_coe (hs c) M', hv c, EReal.coe_mul]

/-- The invariant: after k blocks the running maximum is the maximum of the scores seen, the running sums are real, and
    once the maximum is a real M they are the sums of the real weights against M over the columns seen. -/
theorem onl_inv {n B : ℕ} (s v : Fin (n + 1) → Fin B → EReal) (vr : Fin (n + 1) → Fin B → ℝ)
    (hs : ∀ j c, s j c ≠ ⊤) (hv : ∀ j c, v j c = (vr j c : EReal)) (h0 : ∃ c, s 0 c ≠ ⊥) :
    ∀ k, k ≤ n + 1 → (onl s v k).m = (seen n k).sup (fun j => Finset.univ.sup (s j)) ∧
      ∃ L A : ℝ, (onl s v k).l = (L : EReal) ∧ (onl s v k).a = (A : EReal) ∧
        ∀ M : ℝ, (onl s v k).m = (M : EReal) →
          L = ∑ j ∈ seen n k, ∑ c, ex (s j c) M ∧ A = ∑ j ∈ seen n k, ∑ c, ex (s j c) M * vr j c := by
  intro k
  induction k with
  | zero =>
    intro _
    refine ⟨?_, 0, 0, EReal.coe_zero.symm, EReal.coe_zero.symm, ?_⟩
    · rw [seen_zero, Finset.sup_empty]; rfl
    · intro M hM
      exact absurd (show (M : EReal) = ⊥ from hM.symm) (EReal.coe_ne_bot M)
  | succ k ih =>
    intro hk
    have hk' : k < n + 1 := hk
    obtain ⟨hm, L, A, hl, ha, hLA⟩ := ih (Nat.le_of_lt hk')
    have honl : onl s v (k + 1) = (onl s v k).step (s ⟨k, hk'⟩) (v ⟨k, hk'⟩) := by
      rw [onl, dif_pos hk']
    have hmax : max (onl s v k).m (Finset.univ.sup (s ⟨k, hk'⟩))
        = (seen n (k + 1)).sup (fun j => Finset.univ.sup (s j)) := by
      rw [seen_succ n k hk', Finset.sup_insert, hm]
      exact max_comm _ _
    obtain ⟨M', hM'⟩ := sup_real (seen n (k + 1)) (fun j => Finset.univ.sup (s j))
      (fun j _ => sup_ne_top _ _ (fun c _ => hs j c))
      ⟨0, by simp [seen], sup_ne_bot _ _ (by obtain ⟨c, hc⟩ := h0; exact ⟨c, Finset.mem_univ c, hc⟩)⟩
    have hmne : (onl s v k).m ≠ ⊤ := by
      intro h
      have hle : (onl s v k).m ≤ (M' : EReal) := by
        rw [← hM', ← hmax]
        exact le_max_left _ _
      rw [h] at hle
      exact EReal.coe_ne_top M' (top_le_iff.1 hle)
    obtain ⟨e1, e2, e3⟩ := step_real (onl s v k) (s ⟨k, hk'⟩) (v ⟨k, hk'⟩) (vr ⟨k, hk'⟩) (hv _) (hs _) hmne L A M'
      hl ha (hmax.trans hM')
    rw [honl]
    refine ⟨e1.trans hM'.symm, _, _, e2, e3, ?_⟩
    intro M hMM
    have hMeq : M = M' := by
      have h : (M : EReal) = (M' : EReal) := hMM.symm.trans e1
      exact_mod_cast h
    subst hMeq
    have key : ex (onl s v k).m M * L = ∑ j ∈ seen n k, ∑ c, ex (s j c) M ∧
        ex (onl s v k).m M * A = ∑ j ∈ seen n k, ∑ c, ex (s j c) M * vr j c := by
      rcases bot_or_coe hmne with hb | ⟨r, hr⟩
      · have hz : ∀ j ∈ seen n k, ∀ c, s j c = ⊥ := by
          intro j hj c
          apply le_bot_iff.1
          calc s j c ≤ Finset.univ.sup (s j) := Finset.le_sup (Finset.mem_univ c)
            _ ≤ (seen n k).sup (fun j => Finset.univ.sup (s j)) :=
                Finset.le_sup (f := fun j => Finset.univ.sup (s j)) hj
            _ = ⊥ := hm.symm.trans hb
        rw [hb, ex_bot, zero_mul, zero_mul]
        constructor
        · exact (Finset.sum_eq_zero fun j hj => Finset.sum_eq_zero fun c _ => by rw [hz j hj c, ex_bot]).symm
        · exact (Finset.sum_eq_zero fun j hj => Finset.sum_eq_zero fun c _ => by
            rw [hz j hj c, ex_bot, zero_mul]).symm
      · obtain ⟨hL, hA⟩ := hLA r hr
        rw [hr, ex_coe, hL, hA, Finset.mul_sum, Finset.mul_sum]
        constructor
        · refine Finset.sum_congr rfl fun j _ => ?_
          rw [Finset.mul_sum]
          exact Finset.sum_congr rfl fun c _ => ex_rescale _ _ _
        · refine Finset.sum_congr rfl fun j _ => ?_
          rw [Finset.mul_sum]
          refine Finset.sum_congr rfl fun c _ => ?_
          rw [← mul_assoc, ex_rescale]
    rw [seen_succ n k hk', Finset.sum_insert (not_mem_seen n k hk'), Finset.sum_insert (not_mem_seen n k hk'),
      key.1, key.2]
    exact ⟨add_comm _ _, add_comm _ _⟩

/-- THE LAW: with every score −∞ or real, every value real, and block 0 holding an unmasked column, the online result
    over the blocks is the whole-row form over all their columns. -/
theorem onlAvg_eq_softAvg {n B : ℕ} (s v : Fin (n + 1) → Fin B → EReal)
    (hs : ∀ j c, s j c = ⊥ ∨ ∃ r : ℝ, s j c = (r : EReal)) (hv : ∀ j c, ∃ r : ℝ, v j c = (r : EReal))
    (h0 : ∃ c, s 0 c ≠ ⊥) :
    onlAvg s v = softAvg (ι := Fin (n + 1) × Fin B) (fun p => s p.1 p.2) (fun p => v p.1 p.2) := by
  have hst : ∀ j c, s j c ≠ ⊤ := fun j c => ne_top_of (hs j c)
  choose vr hvr using hv
  obtain ⟨hm, L, A, hl, ha, hLA⟩ := onl_inv s v vr hst hvr h0 (n + 1) le_rfl
  rw [seen_last] at hm hLA
  obtain ⟨M, hM⟩ := sup_real Finset.univ (fun j => Finset.univ.sup (s j))
    (fun j _ => sup_ne_top _ _ (fun c _ => hst j c))
    ⟨0, Finset.mem_univ 0, sup_ne_bot _ _ (by obtain ⟨c, hc⟩ := h0; exact ⟨c, Finset.mem_univ c, hc⟩)⟩
  obtain ⟨hL, hA⟩ := hLA M (hm.trans hM)
  have hsupP : Finset.univ.sup (fun p : Fin (n + 1) × Fin B => s p.1 p.2) = (M : EReal) := by
    rw [← hM, ← Finset.univ_product_univ, Finset.sup_product_left]
  have hSL : (∑ p : Fin (n + 1) × Fin B, ex (s p.1 p.2) M) = L := by
    rw [hL, Fintype.sum_prod_type]
  have hSA : (∑ p : Fin (n + 1) × Fin B, ex (s p.1 p.2) M * vr p.1 p.2) = A := by
    rw [hA, Fintype.sum_prod_type]
  have hpos : 0 < L := by
    rw [← hSL]
    exact sum_ex_pos _ M hsupP
  rw [softAvg_real (fun p : Fin (n + 1) × Fin B => s p.1 p.2) (fun p : Fin (n + 1) × Fin B => v p.1 p.2) M hsupP
    (fun p => hst p.1 p.2) (fun p => vr p.1 p.2) (fun p => hvr p.1 p.2), hSL, hSA]
  unfold onlAvg
  rw [hl, ha, Ideal.div_coe hpos.ne', ← EReal.coe_mul, mul_one_div]

/-- Columns that are all masked change nothing: over a sum type whose right part carries only −∞ scores, the whole-row
    form is the one over the left part (given a real score there, so that the maximum is real). -/
theorem softAvg_sum_masked {ι κ : Type} [Fintype ι] [Fintype κ] (s v : ι → EReal) (v' : κ → EReal)
    (hs : ∀ i, s i = ⊥ ∨ ∃ r : ℝ, s i = (r : EReal)) (h0 : ∃ i, s i ≠ ⊥) (hv' : ∀ k, ∃ r : ℝ, v' k = (r : EReal)) :
    softAvg (ι := ι ⊕ κ) (Sum.elim s fun _ => ⊥) (Sum.elim v v') = softAvg s v := by
  have hst : ∀ i, s i ≠ ⊤ := fun i => ne_top_of (hs i)
  obtain ⟨M, hM⟩ := sup_real Finset.univ s (fun i _ => hst i)
    (by obtain ⟨i, hi⟩ := h0; exact ⟨i, Finset.mem_univ i, hi⟩)
  have hsup : Finset.univ.sup (Sum.elim s fun _ : κ => (⊥ : EReal)) = (M : EReal) := by
    rw [← hM]
    apply le_antisymm
    · refine Finset.sup_le fun x _ => ?_
      cases x with
      | inl i => exact Finset.le_sup (f := s) (Finset.mem_univ i)
      | inr k => exact bot_le
    · exact Finset.sup_le fun i _ =>
        Finset.le_sup (f := Sum.elim s fun _ : κ => (⊥ : EReal)) (Finset.mem_univ (Sum.inl i))
  have hst' : ∀ x, (Sum.elim s fun _ : κ => (⊥ : EReal)) x ≠ ⊤ := by
    intro x
    cases x with
    | inl i => exact hst i
    | inr k => exact bot_ne_top
  rw [softAvg_coe _ _ M hsup hst', softAvg_coe s v M hM hst]
  simp only [Fintype.sum_sum_type, Sum.elim_inl, Sum.elim_inr, ex_bot, Finset.sum_const_zero, add_zero, zero_mul,
    EReal.coe_zero]

/-- Reindexing: the whole-row form does not depend on how the columns are named. -/
theorem softAvg_equiv {ι κ : Type} [Fintype ι] [Fintype κ] (e : ι ≃ κ) (s v : κ → EReal) :
    softAvg (fun i => s (e i)) (fun i => v (e i)) = softAvg s v := by
  have hsup : Finset.univ.sup (fun i => s (e i)) = Finset.univ.sup s := by
    apply le_antisymm
    · exact Finset.sup_le fun i _ => Finset.le_sup (f := s) (Finset.mem_univ (e i))
    · refine Finset.sup_le fun k _ => ?_
      have h := Finset.le_sup (f := fun i => s (e i)) (Finset.mem_univ (e.symm k))
      simpa using h
  unfold softAvg
  rw [hsup, Equiv.sum_comp e (fun j => Ideal.exp (s j - Finset.univ.sup s))]
  exact Equiv.sum_comp e
    (fun k => Ideal.div (Ideal.exp (s k - Finset.univ.sup s)) (∑ j, Ideal.exp (s j - Finset.univ.sup s)) * v k)

end Cert.Softmax

end
-- ==== Proof.RowJoin.lean ====
/-
  A row of 2048 columns visited in blocks of 512, of which only blocks 0 … nq are visited (nq < 4), every column from
  (nq+1)·512 on being masked (score −∞). The columns of the visited blocks together with the masked tail are a renaming
  of the 2048 columns: column m below (nq+1)·512 is the pair (m / 512, m % 512). The whole-row form over the visited
  blocks is therefore the one over the whole row (masked columns weigh 0, renaming changes nothing), and so is the
  online form over the visited blocks.
-/
import proofs.«428345_j25692494364785_3_alg».proof.Proof.Softmax

noncomputable section

namespace Cert.Softmax

/-- column j·512 + c of a row of 2048 -/
def col (nq : ℕ) (hnq : nq < 4) (p : Fin (nq + 1) × Fin 512) : Fin 2048 :=
  ⟨p.1.val * 512 + p.2.val, by have := p.1.isLt; have := p.2.isLt; omega⟩

/-- The masked tail: the columns from (nq+1)·512 on. -/
abbrev Tail (nq : ℕ) : Type := {m : Fin 2048 // (nq + 1) * 512 ≤ m.val}

/-- Column m as a column of a visited block, (m / 512, m % 512), or as a column of the tail. -/
def rowInv (nq : ℕ) (m : Fin 2048) : (Fin (nq + 1) × Fin 512) ⊕ Tail nq :=
  if h : m.val < (nq + 1) * 512 then Sum.inl (⟨m.val / 512, by omega⟩, ⟨m.val % 512, by omega⟩)
  else Sum.inr ⟨m, not_lt.1 h⟩

/-- The columns of blocks 0 … nq, followed by the tail, are all 2048 columns. -/
def rowEquiv (nq : ℕ) (hnq : nq < 4) : (Fin (nq + 1) × Fin 512) ⊕ Tail nq ≃ Fin 2048 where
  toFun := Sum.elim (col nq hnq) Subtype.val
  invFun := rowInv nq
  left_inv x := by
    cases x with
    | inl p =>
      have h1 := p.1.isLt
      have h2 := p.2.isLt
      have h : (col nq hnq p).val < (nq + 1) * 512 := by
        show p.1.val * 512 + p.2.val < _
        omega
      show rowInv nq (col nq hnq p) = Sum.inl p
      rw [rowInv, dif_pos h]
      congr 1
      apply Prod.ext
      · apply Fin.ext
        show (p.1.val * 512 + p.2.val) / 512 = p.1.val
        omega
      · apply Fin.ext
        show (p.1.val * 512 + p.2.val) % 512 = p.2.val
        omega
    | inr k =>
      show rowInv nq k.val = Sum.inr k
      rw [rowInv, dif_neg (not_lt.2 k.property)]
  right_inv m := by
    show Sum.elim (col nq hnq) Subtype.val (rowInv nq m) = m
    by_cases h : m.val < (nq + 1) * 512
    · rw [rowInv, dif_pos h, Sum.elim_inl]
      apply Fin.ext
      show m.val / 512 * 512 + m.val % 512 = m.val
      omega
    · rw [rowInv, dif_neg h, Sum.elim_inr]

theorem col_zero (nq : ℕ) (hnq : nq < 4) : col nq hnq (0, 0) = ⟨0, by omega⟩ := by
  apply Fin.ext
  show (0 : Fin (nq + 1)).val * 512 + (0 : Fin 512).val = 0
  simp

/-- The whole-row form over the visited blocks is the whole-row form over the row. -/
theorem softAvg_blocks (nq : ℕ) (hnq : nq < 4) (S V : Fin 2048 → EReal)
    (hS : ∀ m, S m = ⊥ ∨ ∃ r : ℝ, S m = (r : EReal)) (hV : ∀ m, ∃ r : ℝ, V m = (r : EReal))
    (hmask : ∀ m : Fin 2048, (nq + 1) * 512 ≤ m.val → S m = ⊥) (h0 : S ⟨0, by omega⟩ ≠ ⊥) :
    softAvg (ι := Fin (nq + 1) × Fin 512) (fun p => S (col nq hnq p)) (fun p => V (col nq hnq p)) = softAvg S V := by
  have hfs : (fun i => S (rowEquiv nq hnq i))
      = Sum.elim (fun p => S (col nq hnq p)) (fun _ : Tail nq => (⊥ : EReal)) := by
    funext x
    cases x with
    | inl p => rfl
    | inr k => exact hmask k.val k.property
  have hfv : (fun i => V (rowEquiv nq hnq i))
      = Sum.elim (fun p => V (col nq hnq p)) (fun k : Tail nq => V k.val) := by
    funext x
    cases x with
    | inl p => rfl
    | inr k => rfl
  have hm := softAvg_sum_masked (fun p => S (col nq hnq p)) (fun p => V (col nq hnq p)) (fun k : Tail nq => V k.val)
    (fun p => hS _) ⟨(0, 0), by rw [col_zero]; exact h0⟩ (fun k => hV _)
  rw [← hm, ← hfs, ← hfv]
  exact softAvg_equiv (rowEquiv nq hnq) S V

/-- The online form over the visited blocks is the whole-row form over the row. -/
theorem onlAvg_blocks (nq : ℕ) (hnq : nq < 4) (S V : Fin 2048 → EReal)
    (hS : ∀ m, S m = ⊥ ∨ ∃ r : ℝ, S m = (r : EReal)) (hV : ∀ m, ∃ r : ℝ, V m = (r : EReal))
    (hmask : ∀ m : Fin 2048, (nq + 1) * 512 ≤ m.val → S m = ⊥) (h0 : S ⟨0, by omega⟩ ≠ ⊥) :
    onlAvg (n := nq) (B := 512) (fun j c => S (col nq hnq (j, c))) (fun j c => V (col nq hnq (j, c)))
      = softAvg S V :=
  (onlAvg_eq_softAvg (n := nq) (B := 512) (fun j c => S (col nq hnq (j, c))) (fun j c => V (col nq hnq (j, c)))
    (fun _ _ => hS _) (fun _ _ => hV _) ⟨0, by rw [col_zero]; exact h0⟩).trans
    (softAvg_blocks nq hnq S V hS hV hmask h0)

end Cert.Softmax

end
-- ==== Proof.RefRow.lean ====
/-
  The reference's attention stage, read at one output element as a whole-row softmax average.
  Over the packed projection P[b, w, n] (queries in channels 0 … 767, keys in 768 … 1535, values in 1536 … 2303; head h
  owns channels h·256 … h·256 + 255 of each part) the reference forms, for batch b and head h, the scores
  S[q, m] = (Σ_k P[b, q, h·256 + k] · P[b, m, 768 + h·256 + k]) / 16, replaces them by −∞ above the diagonal (m > q),
  subtracts the row's maximum, exponentiates, divides by the row's sum and averages the value columns
  P[b, m, 1536 + h·256 + k'] with these weights. Each stage below is the corresponding operation of the reference read
  at an index; the last theorem chains them into the whole-row form.
-/
import proofs.«428345_j25692494364785_3_alg».proof.Proof.Gen.ReferenceIdeal.Read
import proofs.«428345_j25692494364785_3_alg».proof.Proof.Softmax
import Idealize.ShloMosaic.Lib.StableHlo.Predicate
import Idealize.ShloMosaic.PureOps.Ideal.Laws
import Idealize.ShloMosaic.PureOps.Reduce
import Idealize.ShloMosaic.Lib.ValueIdx

noncomputable section

namespace Cert.ReferenceIdeal.RefRow

open Cert.ReferenceIdeal Cert.ReferenceIdeal.Gen Cert.ReferenceIdeal.Read Idealize.ShloMosaic Idealize.ShloMosaic.TcCoe Idealize.SL.Sem Idealize.ShloMosaic.StableHlo

/-! ## The constants -/

/-- The pattern 0x41800000 denotes the real 16. -/
theorem ofBits_sixteen : Ideal.ofBits .f32 0x41800000#32 = ((16 : ℝ) : EReal) := by
  simp [Ideal.ofBits, Ideal.ieee, -EReal.coe_mul]; norm_num

/-- The pattern 0xFF800000 denotes −∞. -/
theorem ofBits_neg_inf : Ideal.ofBits .f32 0xFF800000#32 = ⊥ := by
  simp [Ideal.ofBits, Ideal.ieee]

/-! ## The definitions -/

/-- channel off + h·256 + k of the packed projection -/
def chan (off : ℕ) (hoff : off + 768 ≤ 2304) (h : Fin 3) (k : Fin 256) : Fin 2304 := ⟨off + h.val * 256 + k.val, by omega⟩

/-- row (b,h,q)'s masked scaled scores against every column m, over ANY packed array P -/
def rowScore (P : S4x2048x2304.Idx → EReal) (b : Fin 4) (h : Fin 3) (q : Fin 2048) : Fin 2048 → EReal :=
  fun m => if m.val ≤ q.val then Ideal.div (∑ k : Fin 256, P (ValueIdx.ix3 b q (chan 0 (by omega) h k)) * P (ValueIdx.ix3 b m (chan 768 (by omega) h k))) ((16 : ℝ) : EReal) else ⊥

/-- row (b,h)'s value column k' -/
def rowVal (P : S4x2048x2304.Idx → EReal) (b : Fin 4) (h : Fin 3) (k : Fin 256) : Fin 2048 → EReal :=
  fun m => P (ValueIdx.ix3 b m (chan 1536 (by omega) h k))

/-! ## The causal mask -/

/-- The mask word at row q, column m is set exactly when m ≤ q. -/
theorem mask_at (b : Fin 4) (h : Fin 3) (q m : Fin 2048) :
    val_main_call1_v1 (F := Ideal) (ValueIdx.ix4 b h q m) = if m.val ≤ q.val then 1#1 else 0#1 := by
  rw [val_main_call1_v1_apply, val_main_v15_apply, val_main_v14_apply, val_main_v13_apply, val_main_c_apply,
    val_main_call0_v5_apply, val_main_call0_c_0_apply, val_main_call0_v4_apply, val_main_call0_v2_apply,
    val_main_call0_v0_apply, val_main_call0_v1_apply, val_main_call0_c_apply, val_main_call0_v3_apply]
  show Scalar.select (IntOp.cmpi .sge (IntOp.addi (BitVec.ofNat 32 q.val) 0#32) (BitVec.ofNat 32 m.val)) 1#1 0#1 = _
  have hq : q.val < 2048 := q.isLt
  have hm : m.val < 2048 := m.isLt
  have e : IntOp.addi (BitVec.ofNat 32 q.val) 0#32 = BitVec.ofNat 32 q.val := by
    unfold IntOp.addi; exact BitVec.add_zero _
  rw [e]
  have hqn : (BitVec.ofNat 32 q.val).toNat = q.val := by rw [BitVec.toNat_ofNat]; omega
  have hmn : (BitVec.ofNat 32 m.val).toNat = m.val := by rw [BitVec.toNat_ofNat]; omega
  have hiff := Predicate.sge_iff_toNat (a := BitVec.ofNat 32 q.val) (b := BitVec.ofNat 32 m.val) (by omega) (by omega)
  rw [hqn, hmn] at hiff
  by_cases hle : m.val ≤ q.val
  · rw [if_pos hle, hiff.mpr hle, ValueIdx.select_one]
  · rw [if_neg hle, ValueIdx.eq_zero_of_ne_one (fun hc => hle (hiff.mp hc)), ValueIdx.select_zero]

/-! ## Queries, keys and values as channels of the packed projection -/

section Stages

variable (x0 : (⟨S4x2048x768, .f32⟩ : BufTy).Contents (Elt Ideal)) (x1 : (⟨S2304x768, .f32⟩ : BufTy).Contents (Elt Ideal))

/-- The query of head h at position q, component k, is channel h·256 + k of the packed projection's row q. -/
theorem query_at (b : Fin 4) (h : Fin 3) (q : Fin 2048) (k : Fin 256) :
    val_main_v5 (F := Ideal) x0 x1 (ValueIdx.ix4 b h q k)
      = val_main_v0 (F := Ideal) x0 x1 (ValueIdx.ix3 b q (chan 0 (by omega) h k)) := by
  rw [val_main_v5_apply, val_main_v4_apply, val_main_v1_apply]
  have hb := b.isLt; have hh := h.isLt; have hq := q.isLt; have hk := k.isLt
  refine congrArg _ (funext fun a => Fin.ext ?_)
  match a with
  | ⟨0, _⟩ => show (((b.val * 2048 + q.val) * 3 + h.val) * 256 + k.val) / 1572864 = b.val; omega
  | ⟨1, _⟩ => show (((b.val * 2048 + q.val) * 3 + h.val) * 256 + k.val) / 768 % 2048 = q.val; omega
  | ⟨2, _⟩ => show (((b.val * 2048 + q.val) * 3 + h.val) * 256 + k.val) % 768 = 0 + h.val * 256 + k.val; omega

/-- The key of head h at position m, component k, is channel 768 + h·256 + k of row m. -/
theorem key_at (b : Fin 4) (h : Fin 3) (m : Fin 2048) (k : Fin 256) :
    val_main_v7 (F := Ideal) x0 x1 (ValueIdx.ix4 b h m k)
      = val_main_v0 (F := Ideal) x0 x1 (ValueIdx.ix3 b m (chan 768 (by omega) h k)) := by
  rw [val_main_v7_apply, val_main_v6_apply, val_main_v2_apply]
  have hb := b.isLt; have hh := h.isLt; have hm := m.isLt; have hk := k.isLt
  refine congrArg _ (funext fun a => Fin.ext ?_)
  match a with
  | ⟨0, _⟩ => show (((b.val * 2048 + m.val) * 3 + h.val) * 256 + k.val) / 1572864 = b.val; omega
  | ⟨1, _⟩ => show (((b.val * 2048 + m.val) * 3 + h.val) * 256 + k.val) / 768 % 2048 = m.val; omega
  | ⟨2, _⟩ => show 768 + (((b.val * 2048 + m.val) * 3 + h.val) * 256 + k.val) % 768 = 768 + h.val * 256 + k.val; omega

/-- The value of head h at position m, component k, is channel 1536 + h·256 + k of row m. -/
theorem value_at (b : Fin 4) (h : Fin 3) (m : Fin 2048) (k : Fin 256) :
    val_main_v9 (F := Ideal) x0 x1 (ValueIdx.ix4 b h m k)
      = val_main_v0 (F := Ideal) x0 x1 (ValueIdx.ix3 b m (chan 1536 (by omega) h k)) := by
  rw [val_main_v9_apply, val_main_v8_apply, val_main_v3_apply]
  have hb := b.isLt; have hh := h.isLt; have hm := m.isLt; have hk := k.isLt
  refine congrArg _ (funext fun a => Fin.ext ?_)
  match a with
  | ⟨0, _⟩ => show (((b.val * 2048 + m.val) * 3 + h.val) * 256 + k.val) / 1572864 = b.val; omega
  | ⟨1, _⟩ => show (((b.val * 2048 + m.val) * 3 + h.val) * 256 + k.val) / 768 % 2048 = m.val; omega
  | ⟨2, _⟩ => show 1536 + (((b.val * 2048 + m.val) * 3 + h.val) * 256 + k.val) % 768 = 1536 + h.val * 256 + k.val; omega

/-! ## The masked scaled scores -/

/-- The masked scaled score at (b, h, q, m) is the row's score function at m. -/
theorem score_at (b : Fin 4) (h : Fin 3) (q m : Fin 2048) :
    val_main_v16 (F := Ideal) x0 x1 (ValueIdx.ix4 b h q m) = rowScore (val_main_v0 (F := Ideal) x0 x1) b h q m := by
  rw [val_main_v16_apply, mask_at, val_main_v12_apply, val_main_v10_apply, val_main_v11_apply, val_main_cst_apply,
    val_main_call1_v2_apply, val_main_call1_v0_apply, val_main_cst_0_apply]
  have hl : ∀ k : Fin 256, lidx_main_v10 (ValueIdx.ix4 b h q m) k = ValueIdx.ix4 b h q k := fun k =>
    funext fun a => Fin.ext (by match a with | ⟨0, _⟩ => rfl | ⟨1, _⟩ => rfl | ⟨2, _⟩ => rfl | ⟨3, _⟩ => rfl)
  have hr : ∀ k : Fin 256, ridx_main_v10 (ValueIdx.ix4 b h q m) k = ValueIdx.ix4 b h m k := fun k =>
    funext fun a => Fin.ext (by match a with | ⟨0, _⟩ => rfl | ⟨1, _⟩ => rfl | ⟨2, _⟩ => rfl | ⟨3, _⟩ => rfl)
  have hs : (∑ k : Fin 256, val_main_v5 (F := Ideal) x0 x1 (lidx_main_v10 (ValueIdx.ix4 b h q m) k)
        * val_main_v7 (F := Ideal) x0 x1 (ridx_main_v10 (ValueIdx.ix4 b h q m) k))
      = ∑ k : Fin 256, val_main_v0 (F := Ideal) x0 x1 (ValueIdx.ix3 b q (chan 0 (by omega) h k))
        * val_main_v0 (F := Ideal) x0 x1 (ValueIdx.ix3 b m (chan 768 (by omega) h k)) :=
    Finset.sum_congr rfl fun k _ => by rw [hl k, hr k, query_at, key_at]
  rw [hs]
  show Scalar.select _ (Ideal.div _ (Ideal.ofBits .f32 0x41800000#32)) (Ideal.ofBits .f32 0xFF800000#32) = _
  rw [ofBits_sixteen, ofBits_neg_inf]
  unfold rowScore
  by_cases hle : m.val ≤ q.val
  · rw [if_pos hle, if_pos hle, ValueIdx.select_one]
  · rw [if_neg hle, if_neg hle, ValueIdx.select_zero]

/-! ## The row maximum -/

/-- A reduction with the maximum over the last axis from an initial value −∞, read at an index j: at the extended reals
    a fold of the maximum from −∞ over the row's columns, in any order, is their supremum. -/
theorem hostReduce_max (x : FVec Ideal S4x3x2048x2048 .f32) (init : FVec Ideal S_ .f32)
    (hinit : init (Shape.Idx.first h_S_) = ⊥) (j : S4x3x2048.Idx) :
    Host.reduce (FloatOps.maximumf (F := Ideal) (φ := .f32)) x init reducesTo_S4x3x2048x2048_S4x3x2048_d3 h_S_ j
      = Finset.univ.sup (fun m : Fin 2048 => x (idx_main_v24 j m)) := by
  have hR : S4x3x2048x2048.Reduces [3] S4x3x2048 := by decide
  rw [Host.reduce_eq_fold_single (FloatOps.maximumf (F := Ideal) (φ := .f32)) x init reducesTo_S4x3x2048x2048_S4x3x2048_d3 hR h_S_ j, hinit]
  have e : (x ∘ hR.lift j) = fun m : Fin 2048 => x (idx_main_v24 j m) := funext fun m =>
    congrArg x (funext fun a => Fin.ext (by
      match a with | ⟨0, _⟩ => rfl | ⟨1, _⟩ => rfl | ⟨2, _⟩ => rfl | ⟨3, _⟩ => rfl))
  rw [e]
  rfl

/-- The reduction over the last axis, read at (b, h, q), is the supremum of the row's scores: at the extended reals a
    fold of the maximum from −∞ over the row's columns, in any order, is their supremum. -/
theorem rowMax_at (b : Fin 4) (h : Fin 3) (q : Fin 2048) :
    val_main_v17 (F := Ideal) x0 x1 (ValueIdx.ix3 b h q)
      = Finset.univ.sup (rowScore (val_main_v0 (F := Ideal) x0 x1) b h q) := by
  unfold val_main_v17
  have hi : val_main_cst_1 (F := Ideal) (Shape.Idx.first h_S_) = ⊥ := ofBits_neg_inf
  rw [hostReduce_max (val_main_v16 (F := Ideal) x0 x1) (val_main_cst_1 (F := Ideal)) hi]
  refine congrArg (Finset.univ.sup ·) (funext fun m => ?_)
  rw [← score_at]
  exact congrArg _ (funext fun a => Fin.ext (by
    match a with | ⟨0, _⟩ => rfl | ⟨1, _⟩ => rfl | ⟨2, _⟩ => rfl | ⟨3, _⟩ => rfl))

/-- The maximum the scores are shifted by: max(−∞, the row maximum) is the row maximum. -/
theorem shift_at (b : Fin 4) (h : Fin 3) (q m : Fin 2048) :
    val_main_v21 (F := Ideal) x0 x1 (ValueIdx.ix4 b h q m)
      = Finset.univ.sup (rowScore (val_main_v0 (F := Ideal) x0 x1) b h q) := by
  rw [val_main_v21_apply, val_main_v20_apply, val_main_v19_apply, val_main_v18_apply, val_main_cst_2_apply]
  have hj : idx_main_v20 (idx_main_v21 (ValueIdx.ix4 b h q m)) = ValueIdx.ix3 b h q :=
    funext fun a => Fin.ext (by match a with | ⟨0, _⟩ => rfl | ⟨1, _⟩ => rfl | ⟨2, _⟩ => rfl)
  rw [hj, rowMax_at]
  show max (Ideal.ofBits .f32 0xFF800000#32) _ = _
  rw [ofBits_neg_inf]
  exact max_bot_left _

/-! ## The exponentials, their sum and the weights -/

/-- The exponential of the shifted score. -/
theorem exp_at (b : Fin 4) (h : Fin 3) (q m : Fin 2048) :
    val_main_v23 (F := Ideal) x0 x1 (ValueIdx.ix4 b h q m)
      = Ideal.exp (rowScore (val_main_v0 (F := Ideal) x0 x1) b h q m
          - Finset.univ.sup (rowScore (val_main_v0 (F := Ideal) x0 x1) b h q)) := by
  rw [val_main_v23_apply, val_main_v22_apply, score_at, shift_at]
  rfl

/-- The row's sum of exponentials: the initial value 0 plus the sum over the columns. -/
theorem expSum_at (b : Fin 4) (h : Fin 3) (q : Fin 2048) :
    val_main_v24 (F := Ideal) x0 x1 (ValueIdx.ix3 b h q)
      = ∑ j : Fin 2048, Ideal.exp (rowScore (val_main_v0 (F := Ideal) x0 x1) b h q j
          - Finset.univ.sup (rowScore (val_main_v0 (F := Ideal) x0 x1) b h q)) := by
  rw [val_main_v24_apply, val_main_cst_3_apply]
  show Ideal.ofBits .f32 0x00000000#32 + _ = _
  rw [Ideal.ofBits_zero_f32, zero_add]
  refine Finset.sum_congr rfl fun j _ => ?_
  rw [← exp_at]
  exact congrArg _ (funext fun a => Fin.ext (by
    match a with | ⟨0, _⟩ => rfl | ⟨1, _⟩ => rfl | ⟨2, _⟩ => rfl | ⟨3, _⟩ => rfl))

/-- The weight of column m in row (b, h, q). -/
theorem weight_at (b : Fin 4) (h : Fin 3) (q m : Fin 2048) :
    val_main_v27 (F := Ideal) x0 x1 (ValueIdx.ix4 b h q m)
      = Ideal.div (Ideal.exp (rowScore (val_main_v0 (F := Ideal) x0 x1) b h q m
            - Finset.univ.sup (rowScore (val_main_v0 (F := Ideal) x0 x1) b h q)))
          (∑ j : Fin 2048, Ideal.exp (rowScore (val_main_v0 (F := Ideal) x0 x1) b h q j
            - Finset.univ.sup (rowScore (val_main_v0 (F := Ideal) x0 x1) b h q))) := by
  rw [val_main_v27_apply, val_main_v26_apply, val_main_v25_apply, exp_at]
  have hj : idx_main_v25 (idx_main_v26 (ValueIdx.ix4 b h q m)) = ValueIdx.ix3 b h q :=
    funext fun a => Fin.ext (by match a with | ⟨0, _⟩ => rfl | ⟨1, _⟩ => rfl | ⟨2, _⟩ => rfl)
  rw [hj, expSum_at]
  rfl

/-! ## The weighted average of the values -/

/-- The contraction of the weights with the value columns is the whole-row softmax average. -/
theorem avg_at (b : Fin 4) (h : Fin 3) (q : Fin 2048) (k : Fin 256) :
    val_main_v28 (F := Ideal) x0 x1 (ValueIdx.ix4 b h q k)
      = Cert.Softmax.softAvg (rowScore (val_main_v0 (F := Ideal) x0 x1) b h q)
          (rowVal (val_main_v0 (F := Ideal) x0 x1) b h k) := by
  rw [val_main_v28_apply]
  unfold Cert.Softmax.softAvg
  refine Finset.sum_congr rfl fun m _ => ?_
  have hl : lidx_main_v28 (ValueIdx.ix4 b h q k) m = ValueIdx.ix4 b h q m :=
    funext fun a => Fin.ext (by match a with | ⟨0, _⟩ => rfl | ⟨1, _⟩ => rfl | ⟨2, _⟩ => rfl | ⟨3, _⟩ => rfl)
  have hr : ridx_main_v28 (ValueIdx.ix4 b h q k) m = ValueIdx.ix4 b h m k :=
    funext fun a => Fin.ext (by match a with | ⟨0, _⟩ => rfl | ⟨1, _⟩ => rfl | ⟨2, _⟩ => rfl | ⟨3, _⟩ => rfl)
  rw [hl, hr, weight_at, value_at]
  rfl

end Stages

/-! ## The attention stage at an output element -/

/-- The reference's attention output at batch b, position q, channel h·256 + k is the softmax average, over the columns
    m of row (b, h, q), of the value column k of head h with the row's masked scaled scores. -/
theorem val_main_v30_at (x0 : (⟨S4x2048x768, .f32⟩ : BufTy).Contents (Elt Ideal)) (x1 : (⟨S2304x768, .f32⟩ : BufTy).Contents (Elt Ideal))
    (b : Fin 4) (q : Fin 2048) (h : Fin 3) (k : Fin 256) :
    val_main_v30 (F := Ideal) x0 x1 (ValueIdx.ix3 b q ⟨h.val * 256 + k.val, by omega⟩)
      = Cert.Softmax.softAvg (rowScore (val_main_v0 (F := Ideal) x0 x1) b h q) (rowVal (val_main_v0 (F := Ideal) x0 x1) b h k) := by
  rw [val_main_v30_apply, val_main_v29_apply, ← avg_at]
  have hb := b.isLt; have hh := h.isLt; have hq := q.isLt; have hk := k.isLt
  refine congrArg _ (funext fun a => Fin.ext ?_)
  match a with
  | ⟨0, _⟩ => show ((b.val * 2048 + q.val) * 768 + (h.val * 256 + k.val)) / 1572864 = b.val; omega
  | ⟨1, _⟩ => show ((b.val * 2048 + q.val) * 768 + (h.val * 256 + k.val)) / 256 % 3 = h.val; omega
  | ⟨2, _⟩ => show ((b.val * 2048 + q.val) * 768 + (h.val * 256 + k.val)) / 768 % 2048 = q.val; omega
  | ⟨3, _⟩ => show ((b.val * 2048 + q.val) * 768 + (h.val * 256 + k.val)) % 256 = k.val; omega

end Cert.ReferenceIdeal.RefRow

end
-- ==== Proof.StepRow.lean ====
/-
  One grid point's update of the attention call's scratch, read row by row. For a query row r and a value column d the
  three scratch entries (running maximum, running sum, running weighted sum) form the online-softmax state of that row;
  the grid point's arithmetic is one step of the online softmax over the block's 512 key columns, with the masked,
  scaled score of row r against column c as the score and the value block's entry (c, d) as the value.
-/
import proofs.«428345_j25692494364785_3_alg».proof.Proof.Region1Defs
import proofs.«428345_j25692494364785_3_alg».proof.Proof.Softmax
import Idealize.ShloMosaic.Lib.ValueIdx
import Idealize.ShloMosaic.Lib.ValueLayout
import Idealize.ShloMosaic.Lib.Pipeline.Value
import Idealize.ShloMosaic.Lib.StableHlo.Predicate
import Idealize.ShloMosaic.PureOps.Ideal.Laws
import Idealize.ShloMosaic.PureOps.IdealRules

noncomputable section

namespace Cert.KernelIdeal.HandValue

open Cert.KernelIdeal Cert.KernelIdeal.Gen Cert.KernelIdeal.Hand
open Idealize.ShloMosaic Idealize.SL.Sem Idealize.ShloMosaic.ValueIdx

/-! ## The constants the payloads spell -/

/-- The pattern of negative infinity denotes ⊥. -/
theorem ofBits_negInf : Ideal.ofBits .f32 0xFF800000#32 = ⊥ := by
  simp [Ideal.ofBits, Ideal.ieee]

/-- The scale's pattern denotes 1/16. -/
theorem ofBits_sixteenth : Ideal.ofBits .f32 0x3D800000#32 = (((1 / 16 : ℝ) : ℝ) : EReal) := by
  simp [Ideal.ofBits, Ideal.ieee, -EReal.coe_mul]; norm_num

/-- The mask's named constant denotes ⊥, by the certificate's table. -/
theorem neg_big : Named.named (F := Ideal) Cert.KernelIdeal.κ "neg_big" (φ := .f32) 0xFF333332#32 = (⊥ : EReal) :=
  IdealRules.named_const.ideal_named_scalar _ _ _ _ rfl

/-! ## Column forms of the layout operations -/

/-- A vector `[a]` cast to the column `[a, 1]` reads, at `(i, u)`, the vector at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ValueIdx.ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `(i, 0)`. -/
theorem broadcastTo_a1_ab_apply {α : Type} {a b : ℕ} (v : (⟨2, ![a, 1]⟩ : Shape).Idx → α) (h : (⟨2, ![a, 1]⟩ : Shape).Broadcasts ⟨2, ![a, b]⟩)
    (i : Fin a) (c : Fin b) : broadcastTo ⟨2, ![a, b]⟩ v h (ValueIdx.ix2 i c) = v (ValueIdx.ix2 i (0 : Fin 1)) := by
  refine broadcastTo_apply v h (ValueIdx.ix2 i c) (ValueIdx.ix2 i (0 : Fin 1)) fun ax => ?_
  match ax with
  | ⟨0, _⟩ =>
    show i.val = if a = 1 then 0 else i.val
    split
    · have := i.isLt; omega
    · rfl
  | ⟨1, _⟩ => rfl

/-! ## The reset values, the stored maxima and the output block at an index -/

/-- The reset maxima are ⊥ everywhere. -/
theorem pay5_apply (i : S512x1.Idx) : k1_pay5 (F := Ideal) i = (⊥ : EReal) := by
  unfold k1_pay5
  refine (congrFun (shapeCast_self _ _) i).trans ?_
  exact ofBits_negInf

/-- The reset sums are 0 everywhere. -/
theorem pay6_apply (i : S512x1.Idx) : k1_pay6 (F := Ideal) i = (0 : EReal) := by
  unfold k1_pay6
  refine (congrFun (shapeCast_self _ _) i).trans ?_
  exact Ideal.ofBits_zero_f32

/-- The reset weighted sums are 0 everywhere. -/
theorem pay7_apply (i : S512x256.Idx) : k1_pay7 (F := Ideal) i = (0 : EReal) := by
  unfold k1_pay7
  refine (congrFun (shapeCast_self _ _) i).trans ?_
  exact Ideal.ofBits_zero_f32

/-- The stored maxima are the new maxima. -/
theorem pay3_apply (m : FVec Ideal S512x1 .f32) (i : S512x1.Idx) : k1_pay3 (F := Ideal) m i = m i := by
  unfold k1_pay3
  exact congrFun (shapeCast_self _ _) i

/-- The state of row r, value column d. -/
def rowSt (s : Scr Ideal) (r : Fin 512) (d : Fin 256) : Cert.Softmax.St :=
  ⟨s.m (ValueIdx.ix2 r 0), s.l (ValueIdx.ix2 r 0), s.a (ValueIdx.ix2 r d)⟩

/-- After the reset every row's state is the initial one. -/
theorem rowSt_reset1 (r : Fin 512) (d : Fin 256) : rowSt (reset1 (F := Ideal)) r d = Cert.Softmax.St.init := by
  show Cert.Softmax.St.mk (k1_pay5 (F := Ideal) (ValueIdx.ix2 r 0)) (k1_pay6 (F := Ideal) (ValueIdx.ix2 r 0))
      (k1_pay7 (F := Ideal) (ValueIdx.ix2 r d)) = Cert.Softmax.St.mk ⊥ 0 0
  rw [pay5_apply, pay6_apply, pay7_apply]

/-- The output block at (0, r, d) is the weighted sum of row r, column d, over the row's sum. -/
theorem outOf1_apply (s : Scr Ideal) (r : Fin 512) (d : Fin 256) :
    outOf1 s (ValueIdx.ix3 0 r d) = Ideal.div (s.a (ValueIdx.ix2 r d)) (s.l (ValueIdx.ix2 r 0)) := by
  unfold outOf1 k1_pay4
  refine (shapeCast_ab_1ab_apply _ _ _ r d).trans ?_
  exact congrArg (Ideal.div (s.a (ValueIdx.ix2 r d))) (broadcastTo_a1_ab_apply _ _ r d)

/-! ## The scores: the query block against the transposed key block -/

-- The operand indices of the score product at output index i and contraction index p, axis by axis.
theorem qk_lhs0 (i : S512x512.Idx) (p : dot_S512x256_S256x512_S512x512_1_0_0_1_n_n.contr.Idx) : (dot_S512x256_S256x512_S512x512_1_0_0_1_n_n.lhsIdx i p 0).val = (i 0).val := by
  unfold DotDims.lhsIdx
  rw [dif_neg (show ¬(0 : Fin S512x256.rank) ∈ dot_S512x256_S256x512_S512x512_1_0_0_1_n_n.lhsBatch by decide), dif_pos (show (0 : Fin S512x256.rank) ∈ dot_S512x256_S256x512_S512x512_1_0_0_1_n_n.lhsNonContracting by decide)]
  rfl
theorem qk_lhs1 (i : S512x512.Idx) (p : dot_S512x256_S256x512_S512x512_1_0_0_1_n_n.contr.Idx) : (dot_S512x256_S256x512_S512x512_1_0_0_1_n_n.lhsIdx i p 1).val = (p ⟨0, by decide⟩).val :=
  dot_S512x256_S256x512_S512x512_1_0_0_1_n_n.lhsIdx_val_of_single rfl i p
theorem qk_rhs0 (i : S512x512.Idx) (p : dot_S512x256_S256x512_S512x512_1_0_0_1_n_n.contr.Idx) : (dot_S512x256_S256x512_S512x512_1_0_0_1_n_n.rhsIdx i p 0).val = (p ⟨0, by decide⟩).val :=
  dot_S512x256_S256x512_S512x512_1_0_0_1_n_n.rhsIdx_val_of_single rfl i p
theorem qk_rhs1 (i : S512x512.Idx) (p : dot_S512x256_S256x512_S512x512_1_0_0_1_n_n.contr.Idx) : (dot_S512x256_S256x512_S512x512_1_0_0_1_n_n.rhsIdx i p 1).val = (i 1).val := by
  unfold DotDims.rhsIdx
  rw [dif_neg (show ¬(1 : Fin S256x512.rank) ∈ dot_S512x256_S256x512_S512x512_1_0_0_1_n_n.rhsBatch by decide), dif_pos (show (1 : Fin S256x512.rank) ∈ dot_S512x256_S256x512_S512x512_1_0_0_1_n_n.rhsNonContracting by decide)]
  rfl

/-- The product of the query block with the transposed key block, at (r, c): the inner product of query row r and key row c. -/
theorem qk_apply (q k : Vec Ideal S1x512x256 .bf16) (r cc : Fin 512) :
    (matmul (F := Ideal) (φ₁ := .bf16) (φ₂ := .bf16) dot_S512x256_S256x512_S512x512_1_0_0_1_n_n none (shapeCast S512x256 q shapeCasts_S1x512x256_S512x256)
      (transpose S256x512 [1, 0] (shapeCast S512x256 k shapeCasts_S1x512x256_S512x256) transposes_S512x256_p1_0_S256x512)
      (constant S512x512 .f32 0x00000000#32) (ValueIdx.ix2 r cc) : EReal)
    = ∑ j : Fin 256, (q (ValueIdx.ix3 0 r j) * k (ValueIdx.ix3 0 cc j) : EReal) := by
  simp only [matmul]
  rw [Ideal.matmul_constant_zero_apply, ← Equiv.sum_comp (ValueIdx.contrEquiv1 dot_S512x256_S256x512_S512x512_1_0_0_1_n_n 256 rfl rfl).symm]
  refine Finset.sum_congr rfl fun j _ => ?_
  have hj := ValueIdx.contrEquiv1_symm_val dot_S512x256_S256x512_S512x512_1_0_0_1_n_n 256 rfl rfl j
  have el : dot_S512x256_S256x512_S512x512_1_0_0_1_n_n.lhsIdx (ValueIdx.ix2 r cc) ((ValueIdx.contrEquiv1 dot_S512x256_S256x512_S512x512_1_0_0_1_n_n 256 rfl rfl).symm j) = ValueIdx.ix2 r j :=
    funext fun a => Fin.ext (by
      match a with
      | ⟨0, _⟩ => exact qk_lhs0 _ _
      | ⟨1, _⟩ => exact (qk_lhs1 _ _).trans hj)
  have er : dot_S512x256_S256x512_S512x512_1_0_0_1_n_n.rhsIdx (ValueIdx.ix2 r cc) ((ValueIdx.contrEquiv1 dot_S512x256_S256x512_S512x512_1_0_0_1_n_n 256 rfl rfl).symm j) = ValueIdx.ix2 j cc :=
    funext fun a => Fin.ext (by
      match a with
      | ⟨0, _⟩ => exact (qk_rhs0 _ _).trans hj
      | ⟨1, _⟩ => exact qk_rhs1 _ _)
  rw [el, er]
  exact congr (congrArg HMul.hMul (shapeCast_1ab_ab_apply q _ r j))
    ((transpose_ix2_apply _ _ j cc).trans (shapeCast_1ab_ab_apply k _ cc j))

/-- The causal comparison of the two position words is the comparison of the positions. -/
theorem mask_iff (w1 w3 : BitVec 32) (hw1 : w1.toNat < 4) (hw3 : w3.toNat < 4) (r cc : Fin 512) :
    IntOp.cmpi .sle (IntOp.addi (Scalar.muli w3 512#32) (BitVec.ofNat 32 cc.val))
        (IntOp.addi (Scalar.muli w1 512#32) (BitVec.ofNat 32 r.val)) = 1#1
      ↔ w3.toNat * 512 + cc.val ≤ w1.toNat * 512 + r.val := by
  have hr := r.isLt
  have hc := cc.isLt
  have e3 : (IntOp.addi (Scalar.muli w3 512#32) (BitVec.ofNat 32 cc.val)).toNat = w3.toNat * 512 + cc.val := by
    simp only [IntOp.addi, Scalar.muli, IntOp.muli, BitVec.toNat_add, BitVec.toNat_mul, BitVec.toNat_ofNat]
    omega
  have e1 : (IntOp.addi (Scalar.muli w1 512#32) (BitVec.ofNat 32 r.val)).toNat = w1.toNat * 512 + r.val := by
    simp only [IntOp.addi, Scalar.muli, IntOp.muli, BitVec.toNat_add, BitVec.toNat_mul, BitVec.toNat_ofNat]
    omega
  rw [StableHlo.Predicate.sle_iff_toNat (by omega) (by omega), e3, e1]

/-- The block's masked scaled score of row r against column cc, from the blocks and the two words (block numbers). -/
def blkScore (w1 w3 : BitVec 32) (q k : Vec Ideal S1x512x256 .bf16) (r cc : Fin 512) : EReal :=
  if w3.toNat * 512 + cc.val ≤ w1.toNat * 512 + r.val then
    (∑ j : Fin 256, q (ValueIdx.ix3 0 r j) * k (ValueIdx.ix3 0 cc j)) * (((1 / 16 : ℝ) : ℝ) : EReal) else ⊥

/-- The masked scaled scores at (r, cc). -/
theorem pay9_apply (w1 w3 : BitVec 32) (hw1 : w1.toNat < 4) (hw3 : w3.toNat < 4) (q k : Vec Ideal S1x512x256 .bf16)
    (r cc : Fin 512) : k1_pay9 (F := Ideal) w1 w3 q k (ValueIdx.ix2 r cc) = blkScore w1 w3 q k r cc := by
  unfold k1_pay9
  show Scalar.select
      (IntOp.cmpi .sle
        (IntOp.addi (Scalar.muli w3 512#32) (iota .tc S512x512 32 [1] iota_S512x512_d1_w32 (ValueIdx.ix2 r cc)))
        (IntOp.addi (Scalar.muli w1 512#32) (iota .tc S512x512 32 [0] iota_S512x512_d0_w32 (ValueIdx.ix2 r cc))))
      (matmul dot_S512x256_S256x512_S512x512_1_0_0_1_n_n none (shapeCast S512x256 q shapeCasts_S1x512x256_S512x256)
          (transpose S256x512 [1, 0] (shapeCast S512x256 k shapeCasts_S1x512x256_S512x256) transposes_S512x256_p1_0_S256x512)
          (constant S512x512 .f32 0x00000000#32) (ValueIdx.ix2 r cc) * Ideal.ofBits .f32 0x3D800000#32)
      (Named.named (F := Ideal) Cert.KernelIdeal.κ "neg_big" (φ := .f32) 0xFF333332#32) = _
  rw [iota_single_apply, iota_single_apply, qk_apply, ofBits_sixteenth, neg_big]
  unfold blkScore Scalar.select
  by_cases h : w3.toNat * 512 + cc.val ≤ w1.toNat * 512 + r.val
  · exact (if_pos ((mask_iff w1 w3 hw1 hw3 r cc).2 h)).trans (if_pos h).symm
  · exact (if_neg (fun hc => h ((mask_iff w1 w3 hw1 hw3 r cc).1 hc))).trans (if_neg h).symm

/-! ## The row maximum, the rescaling factor and the exponentials -/

/-- Over row r of the scores, the index with column cc inserted is (r, cc). -/
theorem lift_row (r cc : Fin 512) : reduces_S512x512_S512.lift (ValueIdx.ix1 r) cc = ValueIdx.ix2 r cc :=
  funext fun a => Fin.ext (by
    match a with
    | ⟨0, _⟩ => rfl
    | ⟨1, _⟩ => rfl)

/-- A fold of max from ⊥ is the supremum. -/
theorem fold_max_bot_eq_sup {ι : Type} (s : Finset ι) (f : ι → EReal) : s.fold max ⊥ f = s.sup f := rfl

/-- The new maximum of row r: the old one against the largest score of the row in this block. -/
theorem pay10_apply (w1 w3 : BitVec 32) (hw1 : w1.toNat < 4) (hw3 : w3.toNat < 4) (q k : Vec Ideal S1x512x256 .bf16)
    (m : Vec Ideal S512x1 .f32) (r : Fin 512) :
    k1_pay10 (F := Ideal) w1 w3 q k m (ValueIdx.ix2 r 0)
      = max (m (ValueIdx.ix2 r 0)) (Finset.univ.sup fun cc : Fin 512 => blkScore w1 w3 q k r cc) := by
  unfold k1_pay10
  show max (m (ValueIdx.ix2 r 0))
      (shapeCast S512x1 (multiReduction .maximumf [1] S512 (k1_pay9 (F := Ideal) w1 w3 q k) 0xFF800000#32
          reduces_S512x512_S512 (.inl rfl) rfl) shapeCasts_S512_S512x1 (ValueIdx.ix2 r 0)) = _
  refine congrArg (max (m (ValueIdx.ix2 r 0))) ?_
  refine (shapeCast_a_a1_apply _ _ r 0).trans ?_
  refine (Ideal.multiReduction_maximumf_single _ _ _ _ _ _).trans ?_
  have hf : (k1_pay9 (F := Ideal) w1 w3 q k ∘ reduces_S512x512_S512.lift (ValueIdx.ix1 r))
      = fun cc : Fin 512 => blkScore w1 w3 q k r cc :=
    funext fun cc => (congrArg (k1_pay9 (F := Ideal) w1 w3 q k) (lift_row r cc)).trans (pay9_apply w1 w3 hw1 hw3 q k r cc)
  rw [hf]
  show Finset.univ.fold max (Ideal.ofBits .f32 0xFF800000#32) _ = _
  rw [ofBits_negInf]
  exact fold_max_bot_eq_sup _ _

/-- The rescaling factor of row r: the exponential of the old maximum minus the new one. -/
theorem pay11_apply (w1 w3 : BitVec 32) (hw1 : w1.toNat < 4) (hw3 : w3.toNat < 4) (q k : Vec Ideal S1x512x256 .bf16)
    (m : Vec Ideal S512x1 .f32) (r : Fin 512) :
    k1_pay11 (F := Ideal) w1 w3 q k m (ValueIdx.ix2 r 0)
      = Ideal.exp (m (ValueIdx.ix2 r 0)
          - max (m (ValueIdx.ix2 r 0)) (Finset.univ.sup fun cc : Fin 512 => blkScore w1 w3 q k r cc)) := by
  unfold k1_pay11
  show Ideal.exp (m (ValueIdx.ix2 r 0) - k1_pay10 (F := Ideal) w1 w3 q k m (ValueIdx.ix2 r 0)) = _
  rw [pay10_apply w1 w3 hw1 hw3]

/-- The block's exponentials at (r, cc): the exponential of the score minus the row's new maximum. -/
theorem pay12_apply (w1 w3 : BitVec 32) (hw1 : w1.toNat < 4) (hw3 : w3.toNat < 4) (q k : Vec Ideal S1x512x256 .bf16)
    (m : Vec Ideal S512x1 .f32) (r cc : Fin 512) :
    k1_pay12 (F := Ideal) w1 w3 q k m (ValueIdx.ix2 r cc)
      = Ideal.exp (blkScore w1 w3 q k r cc
          - max (m (ValueIdx.ix2 r 0)) (Finset.univ.sup fun c : Fin 512 => blkScore w1 w3 q k r c)) := by
  unfold k1_pay12
  show Ideal.exp (k1_pay9 (F := Ideal) w1 w3 q k (ValueIdx.ix2 r cc)
      - broadcastTo S512x512 (k1_pay10 (F := Ideal) w1 w3 q k m) broadcasts_S512x1_S512x512 (ValueIdx.ix2 r cc)) = _
  rw [broadcastTo_a1_ab_apply, pay9_apply w1 w3 hw1 hw3, pay10_apply w1 w3 hw1 hw3]

/-! ## The three updates -/

/-- The new sum of row r: the rescaled old sum plus the row's exponentials. -/
theorem pay1_apply (f : FVec Ideal S512x1 .f32) (p : FVec Ideal S512x512 .f32) (l : Vec Ideal S512x1 .f32) (r : Fin 512) :
    k1_pay1 (F := Ideal) f p l (ValueIdx.ix2 r 0)
      = f (ValueIdx.ix2 r 0) * l (ValueIdx.ix2 r 0) + ∑ cc : Fin 512, p (ValueIdx.ix2 r cc) := by
  unfold k1_pay1
  refine (congrFun (shapeCast_self _ _) _).trans ?_
  show f (ValueIdx.ix2 r 0) * l (ValueIdx.ix2 r 0)
      + shapeCast S512x1 (multiReduction .add [1] S512 p 0x00000000#32 reduces_S512x512_S512 (.inl rfl) rfl)
          shapeCasts_S512_S512x1 (ValueIdx.ix2 r 0) = _
  refine congrArg (f (ValueIdx.ix2 r 0) * l (ValueIdx.ix2 r 0) + ·) ?_
  refine (shapeCast_a_a1_apply _ _ r 0).trans ?_
  refine (Ideal.multiReduction_add_single _ _ _ _ _ _).trans ?_
  exact Finset.sum_congr rfl fun cc _ => congrArg p (lift_row r cc)

-- The operand indices of the value product at output index i and contraction index p, axis by axis.
theorem pv_lhs0 (i : S512x256.Idx) (p : dot_S512x512_S512x256_S512x256_1_0_0_1_n_n.contr.Idx) : (dot_S512x512_S512x256_S512x256_1_0_0_1_n_n.lhsIdx i p 0).val = (i 0).val := by
  unfold DotDims.lhsIdx
  rw [dif_neg (show ¬(0 : Fin S512x512.rank) ∈ dot_S512x512_S512x256_S512x256_1_0_0_1_n_n.lhsBatch by decide), dif_pos (show (0 : Fin S512x512.rank) ∈ dot_S512x512_S512x256_S512x256_1_0_0_1_n_n.lhsNonContracting by decide)]
  rfl
theorem pv_lhs1 (i : S512x256.Idx) (p : dot_S512x512_S512x256_S512x256_1_0_0_1_n_n.contr.Idx) : (dot_S512x512_S512x256_S512x256_1_0_0_1_n_n.lhsIdx i p 1).val = (p ⟨0, by decide⟩).val :=
  dot_S512x512_S512x256_S512x256_1_0_0_1_n_n.lhsIdx_val_of_single rfl i p
theorem pv_rhs0 (i : S512x256.Idx) (p : dot_S512x512_S512x256_S512x256_1_0_0_1_n_n.contr.Idx) : (dot_S512x512_S512x256_S512x256_1_0_0_1_n_n.rhsIdx i p 0).val = (p ⟨0, by decide⟩).val :=
  dot_S512x512_S512x256_S512x256_1_0_0_1_n_n.rhsIdx_val_of_single rfl i p
theorem pv_rhs1 (i : S512x256.Idx) (p : dot_S512x512_S512x256_S512x256_1_0_0_1_n_n.contr.Idx) : (dot_S512x512_S512x256_S512x256_1_0_0_1_n_n.rhsIdx i p 1).val = (i 1).val := by
  unfold DotDims.rhsIdx
  rw [dif_neg (show ¬(1 : Fin S512x256.rank) ∈ dot_S512x512_S512x256_S512x256_1_0_0_1_n_n.rhsBatch by decide), dif_pos (show (1 : Fin S512x256.rank) ∈ dot_S512x512_S512x256_S512x256_1_0_0_1_n_n.rhsNonContracting by decide)]
  rfl

/-- The product of the exponentials with the value block, at (r, d): the sum over the block's columns. -/
theorem pv_apply (p : FVec Ideal S512x512 .bf16) (vb : FVec Ideal S512x256 .bf16) (r : Fin 512) (d : Fin 256) :
    (matmul (F := Ideal) (φ₁ := .bf16) (φ₂ := .bf16) dot_S512x512_S512x256_S512x256_1_0_0_1_n_n none p vb (constant S512x256 .f32 0x00000000#32) (ValueIdx.ix2 r d) : EReal)
    = ∑ cc : Fin 512, (p (ValueIdx.ix2 r cc) * vb (ValueIdx.ix2 cc d) : EReal) := by
  simp only [matmul]
  rw [Ideal.matmul_constant_zero_apply, ← Equiv.sum_comp (ValueIdx.contrEquiv1 dot_S512x512_S512x256_S512x256_1_0_0_1_n_n 512 rfl rfl).symm]
  refine Finset.sum_congr rfl fun j _ => ?_
  have hj := ValueIdx.contrEquiv1_symm_val dot_S512x512_S512x256_S512x256_1_0_0_1_n_n 512 rfl rfl j
  have el : dot_S512x512_S512x256_S512x256_1_0_0_1_n_n.lhsIdx (ValueIdx.ix2 r d) ((ValueIdx.contrEquiv1 dot_S512x512_S512x256_S512x256_1_0_0_1_n_n 512 rfl rfl).symm j) = ValueIdx.ix2 r j :=
    funext fun a => Fin.ext (by
      match a with
      | ⟨0, _⟩ => exact pv_lhs0 _ _
      | ⟨1, _⟩ => exact (pv_lhs1 _ _).trans hj)
  have er : dot_S512x512_S512x256_S512x256_1_0_0_1_n_n.rhsIdx (ValueIdx.ix2 r d) ((ValueIdx.contrEquiv1 dot_S512x512_S512x256_S512x256_1_0_0_1_n_n 512 rfl rfl).symm j) = ValueIdx.ix2 j d :=
    funext fun a => Fin.ext (by
      match a with
      | ⟨0, _⟩ => exact (pv_rhs0 _ _).trans hj
      | ⟨1, _⟩ => exact pv_rhs1 _ _)
  rw [el, er]

/-- The new weighted sum of row r, value column d: the rescaled old one plus the exponentials against the value column. -/
theorem pay2_apply (vb : FVec Ideal S512x256 .bf16) (f : FVec Ideal S512x1 .f32) (p : FVec Ideal S512x512 .f32)
    (a : Vec Ideal S512x256 .f32) (r : Fin 512) (d : Fin 256) :
    k1_pay2 (F := Ideal) vb f p a (ValueIdx.ix2 r d)
      = f (ValueIdx.ix2 r 0) * a (ValueIdx.ix2 r d) + ∑ cc : Fin 512, p (ValueIdx.ix2 r cc) * vb (ValueIdx.ix2 cc d) := by
  unfold k1_pay2
  refine (congrFun (shapeCast_self _ _) _).trans ?_
  show broadcastTo S512x256 f broadcasts_S512x1_S512x256 (ValueIdx.ix2 r d) * a (ValueIdx.ix2 r d)
      + matmul dot_S512x512_S512x256_S512x256_1_0_0_1_n_n none (truncf .bf16 p bitsLt_bf16_f32) vb (constant S512x256 .f32 0x00000000#32) (ValueIdx.ix2 r d) = _
  rw [broadcastTo_a1_ab_apply, pv_apply]
  rfl

/-- The value block without its unit axis, at (cc, d). -/
theorem pay8_apply (v : Vec Ideal S1x512x256 .bf16) (cc : Fin 512) (d : Fin 256) :
    k1_pay8 (F := Ideal) v (ValueIdx.ix2 cc d) = v (ValueIdx.ix3 0 cc d) := by
  unfold k1_pay8
  exact shapeCast_1ab_ab_apply v _ cc d

/-! ## One grid point is one step of the online softmax, row by row -/

/-- One grid point's update of the scratch, read at row r and value column d, is the online-softmax step of that row's
    state over the block's 512 columns: the scores are the masked scaled scores of row r, the values the value block's
    column d. -/
theorem rowSt_step1 (w1 w3 : BitVec 32) (hw1 : w1.toNat < 4) (hw3 : w3.toNat < 4) (q k v : Vec Ideal S1x512x256 .bf16)
    (s : Scr Ideal) (r : Fin 512) (d : Fin 256) :
    rowSt (step1 w1 w3 q k v s) r d
      = (rowSt s r d).step (fun cc => blkScore w1 w3 q k r cc) (fun cc => v (ValueIdx.ix3 0 cc d)) := by
  have hm : (step1 w1 w3 q k v s).m (ValueIdx.ix2 r 0)
      = max (s.m (ValueIdx.ix2 r 0)) (Finset.univ.sup fun cc : Fin 512 => blkScore w1 w3 q k r cc) :=
    (pay3_apply _ _).trans (pay10_apply w1 w3 hw1 hw3 q k s.m r)
  have hl : (step1 w1 w3 q k v s).l (ValueIdx.ix2 r 0)
      = Ideal.exp (s.m (ValueIdx.ix2 r 0)
            - max (s.m (ValueIdx.ix2 r 0)) (Finset.univ.sup fun cc : Fin 512 => blkScore w1 w3 q k r cc))
          * s.l (ValueIdx.ix2 r 0)
        + ∑ c : Fin 512, Ideal.exp (blkScore w1 w3 q k r c
            - max (s.m (ValueIdx.ix2 r 0)) (Finset.univ.sup fun cc : Fin 512 => blkScore w1 w3 q k r cc)) := by
    refine (pay1_apply _ _ _ r).trans ?_
    rw [pay11_apply w1 w3 hw1 hw3]
    exact congrArg (_ + ·) (Finset.sum_congr rfl fun c _ => pay12_apply w1 w3 hw1 hw3 q k s.m r c)
  have ha : (step1 w1 w3 q k v s).a (ValueIdx.ix2 r d)
      = Ideal.exp (s.m (ValueIdx.ix2 r 0)
            - max (s.m (ValueIdx.ix2 r 0)) (Finset.univ.sup fun cc : Fin 512 => blkScore w1 w3 q k r cc))
          * s.a (ValueIdx.ix2 r d)
        + ∑ c : Fin 512, Ideal.exp (blkScore w1 w3 q k r c
            - max (s.m (ValueIdx.ix2 r 0)) (Finset.univ.sup fun cc : Fin 512 => blkScore w1 w3 q k r cc))
          * v (ValueIdx.ix3 0 c d) := by
    refine (pay2_apply _ _ _ _ r d).trans ?_
    rw [pay11_apply w1 w3 hw1 hw3]
    exact congrArg (_ + ·) (Finset.sum_congr rfl fun c _ =>
      congr (congrArg HMul.hMul (pay12_apply w1 w3 hw1 hw3 q k s.m r c)) (pay8_apply v c d))
  exact congr (congr (congrArg Cert.Softmax.St.mk hm) hl) ha

end Cert.KernelIdeal.HandValue

end
-- ==== Proof.Blk1.lean ====
/-
  Call 1 of the kernel (causal attention over the triangular pair axis) at the ideal values: where its grid points are
  and what its windows hold there. The grid is 12 (batch, head) pairs by 10 (query block, key block) pairs, the pair
  axis fastest; the two tables give pair p its query block and its key block; query block qb's pairs are the
  consecutive numbers qb (qb + 1) / 2 + kb for kb = 0 … qb, the first resetting the scratch and the last, the diagonal
  one, storing the output block.
-/
import proofs.«428345_j25692494364785_3_alg».proof.Proof.Region1Dat
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

/-! ## The grid's points -/

/-- The number of grid points of call 1. -/
abbrev NA : ℕ := (cfgA (F := Ideal)).N

/-- the pair number of key block kb in query block qb's run -/
def pairOf (qb kb : ℕ) : ℕ := qb * (qb + 1) / 2 + kb

/-- the grid point of (bh, pair p): points are numbered row-major, the pair axis fastest -/
def pt1 (bh : Fin 12) (p : Fin 10) : Fin NA :=
  ⟨bh.val * 10 + p.val, by
    have := bh.isLt; have := p.isLt
    show _ < (cfgA (F := Ideal)).N
    rw [show (cfgA (F := Ideal)).N = 120 from N_1]; omega⟩

/-- Its coordinates are bh and p. -/
theorem coords_pt1 (bh : Fin 12) (p : Fin 10) :
    ((cfgA (F := Ideal)).grid.coords (pt1 bh p) 0).val = bh.val ∧ ((cfgA (F := Ideal)).grid.coords (pt1 bh p) 1).val = p.val :=
  (by decide +kernel : ∀ (bh : Fin 12) (p : Fin 10),
    ((cfgA (F := Ideal)).grid.coords (pt1 bh p) 0).val = bh.val ∧ ((cfgA (F := Ideal)).grid.coords (pt1 bh p) 1).val = p.val) bh p

/-! ## The table words at a point -/

/-- The two table words at the point of pair p are the tables' entries at p. -/
theorem words_pt1 (bh : Fin 12) (p : Fin 10) :
    wq1 (F := Ideal) (pt1 bh p) = lit0 p ∧ wk1 (F := Ideal) (pt1 bh p) = lit1 p :=
  (by decide +kernel : ∀ (bh : Fin 12) (p : Fin 10),
    wq1 (F := Ideal) (pt1 bh p) = lit0 p ∧ wk1 (F := Ideal) (pt1 bh p) = lit1 p) bh p

/-- The tables along a query block's run: pair qb (qb + 1) / 2 + kb, for kb ≤ qb, has query block qb and key block kb. -/
theorem lit_pairOf (qb kb : Fin 4) (hk : kb.val ≤ qb.val) (hp : pairOf qb.val kb.val < 10) :
    lit0 ⟨pairOf qb.val kb.val, hp⟩ = BitVec.ofNat 32 qb.val ∧ lit1 ⟨pairOf qb.val kb.val, hp⟩ = BitVec.ofNat 32 kb.val :=
  (by decide +kernel : ∀ (qb kb : Fin 4) (hk : kb.val ≤ qb.val) (hp : pairOf qb.val kb.val < 10),
    lit0 ⟨pairOf qb.val kb.val, hp⟩ = BitVec.ofNat 32 qb.val ∧ lit1 ⟨pairOf qb.val kb.val, hp⟩ = BitVec.ofNat 32 kb.val) qb kb hk hp

/-- The query-block word at the point of key block kb in query block qb's run is qb, -/
theorem wq1_pt1_word (bh : Fin 12) (qb kb : Fin 4) (hk : kb.val ≤ qb.val) (hp : pairOf qb.val kb.val < 10) :
    wq1 (F := Ideal) (pt1 bh ⟨pairOf qb.val kb.val, hp⟩) = BitVec.ofNat 32 qb.val :=
  (words_pt1 bh _).1.trans (lit_pairOf qb kb hk hp).1
/-- and the key-block word is kb. -/
theorem wk1_pt1_word (bh : Fin 12) (qb kb : Fin 4) (hk : kb.val ≤ qb.val) (hp : pairOf qb.val kb.val < 10) :
    wk1 (F := Ideal) (pt1 bh ⟨pairOf qb.val kb.val, hp⟩) = BitVec.ofNat 32 kb.val :=
  (words_pt1 bh _).2.trans (lit_pairOf qb kb hk hp).2

theorem wq1_pt1 (bh : Fin 12) (qb kb : Fin 4) (hk : kb.val ≤ qb.val) (hp : pairOf qb.val kb.val < 10) :
    (wq1 (F := Ideal) (pt1 bh ⟨pairOf qb.val kb.val, hp⟩)).toNat = qb.val := by
  rw [wq1_pt1_word bh qb kb hk hp]
  exact (by decide : ∀ qb : Fin 4, (BitVec.ofNat 32 qb.val).toNat = qb.val) qb
theorem wk1_pt1 (bh : Fin 12) (qb kb : Fin 4) (hk : kb.val ≤ qb.val) (hp : pairOf qb.val kb.val < 10) :
    (wk1 (F := Ideal) (pt1 bh ⟨pairOf qb.val kb.val, hp⟩)).toNat = kb.val := by
  rw [wk1_pt1_word bh qb kb hk hp]
  exact (by decide : ∀ kb : Fin 4, (BitVec.ofNat 32 kb.val).toNat = kb.val) kb

/-- The body resets the scratch exactly at the first pair of a query block's run, -/
theorem isFirst1_pt1 (bh : Fin 12) (qb kb : Fin 4) (hk : kb.val ≤ qb.val) (hp : pairOf qb.val kb.val < 10) :
    isFirst1 (F := Ideal) (wk1 (F := Ideal) (pt1 bh ⟨pairOf qb.val kb.val, hp⟩)) ↔ kb.val = 0 := by
  rw [wk1_pt1_word bh qb kb hk hp]
  exact (by decide +kernel : ∀ kb : Fin 4, isFirst1 (F := Ideal) (BitVec.ofNat 32 kb.val) ↔ kb.val = 0) kb
/-- and stores the output block exactly at the last, the diagonal pair. -/
theorem isDiag1_pt1 (bh : Fin 12) (qb kb : Fin 4) (hk : kb.val ≤ qb.val) (hp : pairOf qb.val kb.val < 10) :
    isDiag1 (F := Ideal) (wq1 (F := Ideal) (pt1 bh ⟨pairOf qb.val kb.val, hp⟩)) (wk1 (F := Ideal) (pt1 bh ⟨pairOf qb.val kb.val, hp⟩)) ↔ kb.val = qb.val := by
  rw [wq1_pt1_word bh qb kb hk hp, wk1_pt1_word bh qb kb hk hp]
  exact (by decide +kernel : ∀ qb kb : Fin 4, isDiag1 (F := Ideal) (BitVec.ofNat 32 qb.val) (BitVec.ofNat 32 kb.val) ↔ kb.val = qb.val) qb kb

/-! ## The windows' block indices -/

variable (V : (c : Dev nD) → (b : Ref sig .tc) → Buf (Elt Ideal) ((c : Thread nD τ).loc b))

/-- The printed index maps at the literal tables, decided over the grid's points: in units of the (1, 512, 256) block,
    the query window is on (batch, the pair's query block, head), the key window on (batch, the pair's key block,
    3 + head), the value window on (batch, the pair's key block, 6 + head), the output window on (batch, the pair's query
    block, head), where batch = bh / 3 and head = bh % 3. -/
theorem idx_facts1 (bh : Fin 12) (p : Fin 10) :
    ((cfgA (F := Ideal)).win 0).index (pt1 bh p) (0 : Fin 3) = bh.val / 3
    ∧ ((cfgA (F := Ideal)).win 0).index (pt1 bh p) (1 : Fin 3) = (lit0 p).toNat
    ∧ ((cfgA (F := Ideal)).win 0).index (pt1 bh p) (2 : Fin 3) = bh.val % 3
    ∧ ((cfgA (F := Ideal)).win 1).index (pt1 bh p) (0 : Fin 3) = bh.val / 3
    ∧ ((cfgA (F := Ideal)).win 1).index (pt1 bh p) (1 : Fin 3) = (lit1 p).toNat
    ∧ ((cfgA (F := Ideal)).win 1).index (pt1 bh p) (2 : Fin 3) = 3 + bh.val % 3
    ∧ ((cfgA (F := Ideal)).win 2).index (pt1 bh p) (0 : Fin 3) = bh.val / 3
    ∧ ((cfgA (F := Ideal)).win 2).index (pt1 bh p) (1 : Fin 3) = (lit1 p).toNat
    ∧ ((cfgA (F := Ideal)).win 2).index (pt1 bh p) (2 : Fin 3) = 6 + bh.val % 3
    ∧ ((cfgA (F := Ideal)).win 3).index (pt1 bh p) (0 : Fin 3) = bh.val / 3
    ∧ ((cfgA (F := Ideal)).win 3).index (pt1 bh p) (1 : Fin 3) = (lit0 p).toNat
    ∧ ((cfgA (F := Ideal)).win 3).index (pt1 bh p) (2 : Fin 3) = bh.val % 3 :=
  (by decide +kernel : ∀ (bh : Fin 12) (p : Fin 10),
    ((cfgA (F := Ideal)).win 0).index (pt1 bh p) (0 : Fin 3) = bh.val / 3
    ∧ ((cfgA (F := Ideal)).win 0).index (pt1 bh p) (1 : Fin 3) = (lit0 p).toNat
    ∧ ((cfgA (F := Ideal)).win 0).index (pt1 bh p) (2 : Fin 3) = bh.val % 3
    ∧ ((cfgA (F := Ideal)).win 1).index (pt1 bh p) (0 : Fin 3) = bh.val / 3
    ∧ ((cfgA (F := Ideal)).win 1).index (pt1 bh p) (1 : Fin 3) = (lit1 p).toNat
    ∧ ((cfgA (F := Ideal)).win 1).index (pt1 bh p) (2 : Fin 3) = 3 + bh.val % 3
    ∧ ((cfgA (F := Ideal)).win 2).index (pt1 bh p) (0 : Fin 3) = bh.val / 3
    ∧ ((cfgA (F := Ideal)).win 2).index (pt1 bh p) (1 : Fin 3) = (lit1 p).toNat
    ∧ ((cfgA (F := Ideal)).win 2).index (pt1 bh p) (2 : Fin 3) = 6 + bh.val % 3
    ∧ ((cfgA (F := Ideal)).win 3).index (pt1 bh p) (0 : Fin 3) = bh.val / 3
    ∧ ((cfgA (F := Ideal)).win 3).index (pt1 bh p) (1 : Fin 3) = (lit0 p).toNat
    ∧ ((cfgA (F := Ideal)).win 3).index (pt1 bh p) (2 : Fin 3) = bh.val % 3) bh p

/-! ## The input blocks, read off the packed array -/

/-- The query window's block at the point of (bh, p), at row r and channel j: the packed array at batch bh / 3, row
    512 (query block of p) + r, channel 256 (bh % 3) + j. -/
theorem iblk1_0_apply (c : Dev nD) (bh : Fin 12) (p : Fin 10) (r : Fin 512) (j : Fin 256) (i : S4x2048x2304.Idx)
    (h0 : (i 0).val = bh.val / 3) (h1 : (i 1).val = (lit0 p).toNat * 512 + r.val) (h2 : (i 2).val = bh.val % 3 * 256 + j.val) :
    (iblk1 (F := Ideal) V c 0 (pt1 bh p) : Vec Ideal S1x512x256 .bf16) (ValueIdx.ix3 (0 : Fin 1) r j) = (V c main_v6 : S4x2048x2304.Idx → EReal) i := by
  obtain ⟨e0, e1, e2, -⟩ := idx_facts1 bh p
  show (V c main_v6 : S4x2048x2304.Idx → EReal) ((((cfgA (F := Ideal)).win 0).blk (pt1 bh p)).view.emb (ValueIdx.ix3 (0 : Fin 1) r j)) = _
  refine congrArg _ (funext fun a => Fin.ext ?_)
  match a with
  | ⟨0, _⟩ => show ((cfgA (F := Ideal)).win 0).index (pt1 bh p) (0 : Fin 3) * 1 + 1 * 0 = (i 0).val; omega
  | ⟨1, _⟩ => show ((cfgA (F := Ideal)).win 0).index (pt1 bh p) (1 : Fin 3) * 512 + 1 * r.val = (i 1).val; omega
  | ⟨2, _⟩ => show ((cfgA (F := Ideal)).win 0).index (pt1 bh p) (2 : Fin 3) * 256 + 1 * j.val = (i 2).val; omega

/-- The key window's block, at key row cc and channel j: the packed array at batch bh / 3, row 512 (key block of p) + cc,
    channel 768 + 256 (bh % 3) + j. -/
theorem iblk1_1_apply (c : Dev nD) (bh : Fin 12) (p : Fin 10) (cc : Fin 512) (j : Fin 256) (i : S4x2048x2304.Idx)
    (h0 : (i 0).val = bh.val / 3) (h1 : (i 1).val = (lit1 p).toNat * 512 + cc.val) (h2 : (i 2).val = 768 + bh.val % 3 * 256 + j.val) :
    (iblk1 (F := Ideal) V c 1 (pt1 bh p) : Vec Ideal S1x512x256 .bf16) (ValueIdx.ix3 (0 : Fin 1) cc j) = (V c main_v6 : S4x2048x2304.Idx → EReal) i := by
  obtain ⟨-, -, -, e0, e1, e2, -⟩ := idx_facts1 bh p
  show (V c main_v6 : S4x2048x2304.Idx → EReal) ((((cfgA (F := Ideal)).win 1).blk (pt1 bh p)).view.emb (ValueIdx.ix3 (0 : Fin 1) cc j)) = _
  refine congrArg _ (funext fun a => Fin.ext ?_)
  match a with
  | ⟨0, _⟩ => show ((cfgA (F := Ideal)).win 1).index (pt1 bh p) (0 : Fin 3) * 1 + 1 * 0 = (i 0).val; omega
  | ⟨1, _⟩ => show ((cfgA (F := Ideal)).win 1).index (pt1 bh p) (1 : Fin 3) * 512 + 1 * cc.val = (i 1).val; omega
  | ⟨2, _⟩ => show ((cfgA (F := Ideal)).win 1).index (pt1 bh p) (2 : Fin 3) * 256 + 1 * j.val = (i 2).val; omega

/-- The value window's block, at key row cc and channel d: the packed array at batch bh / 3, row 512 (key block of p) + cc,
    channel 1536 + 256 (bh % 3) + d. -/
theorem iblk1_2_apply (c : Dev nD) (bh : Fin 12) (p : Fin 10) (cc : Fin 512) (d : Fin 256) (i : S4x2048x2304.Idx)
    (h0 : (i 0).val = bh.val / 3) (h1 : (i 1).val = (lit1 p).toNat * 512 + cc.val) (h2 : (i 2).val = 1536 + bh.val % 3 * 256 + d.val) :
    (iblk1 (F := Ideal) V c 2 (pt1 bh p) : Vec Ideal S1x512x256 .bf16) (ValueIdx.ix3 (0 : Fin 1) cc d) = (V c main_v6 : S4x2048x2304.Idx → EReal) i := by
  obtain ⟨-, -, -, -, -, -, e0, e1, e2, -⟩ := idx_facts1 bh p
  show (V c main_v6 : S4x2048x2304.Idx → EReal) ((((cfgA (F := Ideal)).win 2).blk (pt1 bh p)).view.emb (ValueIdx.ix3 (0 : Fin 1) cc d)) = _
  refine congrArg _ (funext fun a => Fin.ext ?_)
  match a with
  | ⟨0, _⟩ => show ((cfgA (F := Ideal)).win 2).index (pt1 bh p) (0 : Fin 3) * 1 + 1 * 0 = (i 0).val; omega
  | ⟨1, _⟩ => show ((cfgA (F := Ideal)).win 2).index (pt1 bh p) (1 : Fin 3) * 512 + 1 * cc.val = (i 1).val; omega
  | ⟨2, _⟩ => show ((cfgA (F := Ideal)).win 2).index (pt1 bh p) (2 : Fin 3) * 256 + 1 * d.val = (i 2).val; omega

/-! ## The output window: where it is written back, and its blocks -/

/-- The output block is written back exactly at the diagonal pairs: there the next point is on another block or the
    grid ends. -/
theorem flush1_3 (bh : Fin 12) (p : Fin 10) : ((cfgA (F := Ideal)).win 3).flush (pt1 bh p) = true ↔ lit1 p = lit0 p :=
  (by decide +kernel : ∀ (bh : Fin 12) (p : Fin 10), ((cfgA (F := Ideal)).win 3).flush (pt1 bh p) = true ↔ lit1 p = lit0 p) bh p

/-- The output block's index (0, r, d) in the output array: batch bh / 3, row 512 (query block of p) + r, channel
    256 (bh % 3) + d. -/
theorem emb_blk1_3 (bh : Fin 12) (p : Fin 10) (r : Fin 512) (d : Fin 256) :
    (((((cfgA (F := Ideal)).win 3).blk (pt1 bh p)).view.emb (ValueIdx.ix3 (0 : Fin 1) r d) : S4x2048x768.Idx) 0).val = bh.val / 3
    ∧ (((((cfgA (F := Ideal)).win 3).blk (pt1 bh p)).view.emb (ValueIdx.ix3 (0 : Fin 1) r d) : S4x2048x768.Idx) 1).val = (lit0 p).toNat * 512 + r.val
    ∧ (((((cfgA (F := Ideal)).win 3).blk (pt1 bh p)).view.emb (ValueIdx.ix3 (0 : Fin 1) r d) : S4x2048x768.Idx) 2).val = bh.val % 3 * 256 + d.val := by
  obtain ⟨-, -, -, -, -, -, -, -, -, e0, e1, e2⟩ := idx_facts1 bh p
  refine ⟨?_, ?_, ?_⟩
  · show ((cfgA (F := Ideal)).win 3).index (pt1 bh p) (0 : Fin 3) * 1 + 1 * 0 = _; omega
  · show ((cfgA (F := Ideal)).win 3).index (pt1 bh p) (1 : Fin 3) * 512 + 1 * r.val = _; omega
  · show ((cfgA (F := Ideal)).win 3).index (pt1 bh p) (2 : Fin 3) * 256 + 1 * d.val = _; omega

/-- An index of the output array is in the block of the point of (bh, p) iff its batch is bh / 3, its row is in query
    block (query block of p) and its channel in head bh % 3. -/
theorem mem_blk1_3 (bh : Fin 12) (p : Fin 10) (i : S4x2048x768.Idx) :
    i ∈ (((cfgA (F := Ideal)).win 3).blk (pt1 bh p)).view.set ↔
      (i 0).val = bh.val / 3 ∧ (lit0 p).toNat * 512 ≤ (i 1).val ∧ (i 1).val < (lit0 p).toNat * 512 + 512
        ∧ bh.val % 3 * 256 ≤ (i 2).val ∧ (i 2).val < bh.val % 3 * 256 + 256 := by
  obtain ⟨-, -, -, -, -, -, -, -, -, e0, e1, e2⟩ := idx_facts1 bh p
  show i ∈ ((View.whole main_v7).slice (((cfgA (F := Ideal)).win 3).rect (pt1 bh p))).set ↔ _
  rw [View.set_slice_whole, Rect.mem_set_unit]
  constructor
  · intro h
    have b0 : ((cfgA (F := Ideal)).win 3).index (pt1 bh p) (0 : Fin 3) * 1 ≤ (i 0).val ∧ (i 0).val < ((cfgA (F := Ideal)).win 3).index (pt1 bh p) (0 : Fin 3) * 1 + 1 := h 0
    have b1 : ((cfgA (F := Ideal)).win 3).index (pt1 bh p) (1 : Fin 3) * 512 ≤ (i 1).val ∧ (i 1).val < ((cfgA (F := Ideal)).win 3).index (pt1 bh p) (1 : Fin 3) * 512 + 512 := h 1
    have b2 : ((cfgA (F := Ideal)).win 3).index (pt1 bh p) (2 : Fin 3) * 256 ≤ (i 2).val ∧ (i 2).val < ((cfgA (F := Ideal)).win 3).index (pt1 bh p) (2 : Fin 3) * 256 + 256 := h 2
    omega
  · intro h a
    match a with
    | ⟨0, _⟩ => show ((cfgA (F := Ideal)).win 3).index (pt1 bh p) (0 : Fin 3) * 1 ≤ (i 0).val ∧ (i 0).val < ((cfgA (F := Ideal)).win 3).index (pt1 bh p) (0 : Fin 3) * 1 + 1; omega
    | ⟨1, _⟩ => show ((cfgA (F := Ideal)).win 3).index (pt1 bh p) (1 : Fin 3) * 512 ≤ (i 1).val ∧ (i 1).val < ((cfgA (F := Ideal)).win 3).index (pt1 bh p) (1 : Fin 3) * 512 + 512; omega
    | ⟨2, _⟩ => show ((cfgA (F := Ideal)).win 3).index (pt1 bh p) (2 : Fin 3) * 256 ≤ (i 2).val ∧ (i 2).val < ((cfgA (F := Ideal)).win 3).index (pt1 bh p) (2 : Fin 3) * 256 + 256; omega

/-- The diagonal pair of query block qb is a pair, with query block and key block qb. -/
theorem diag_facts (qb : Fin 4) : ∃ hp : pairOf qb.val qb.val < 10,
    (lit0 ⟨pairOf qb.val qb.val, hp⟩).toNat = qb.val ∧ lit1 ⟨pairOf qb.val qb.val, hp⟩ = lit0 ⟨pairOf qb.val qb.val, hp⟩ :=
  (by decide +kernel : ∀ qb : Fin 4, ∃ hp : pairOf qb.val qb.val < 10,
    (lit0 ⟨pairOf qb.val qb.val, hp⟩).toNat = qb.val ∧ lit1 ⟨pairOf qb.val qb.val, hp⟩ = lit0 ⟨pairOf qb.val qb.val, hp⟩) qb

/-- Every index of the output array is in the block written back at the diagonal pair of its row's query block, at
    the (batch, head) pair its batch and its channel's head make. -/
theorem cover1_3 (i : S4x2048x768.Idx) : ∃ (bh : Fin 12) (qb : Fin 4) (hp : pairOf qb.val qb.val < 10),
    bh.val = (i 0).val * 3 + (i 2).val / 256 ∧ qb.val = (i 1).val / 512
      ∧ ((cfgA (F := Ideal)).win 3).flush (pt1 bh ⟨pairOf qb.val qb.val, hp⟩) = true
      ∧ i ∈ (((cfgA (F := Ideal)).win 3).blk (pt1 bh ⟨pairOf qb.val qb.val, hp⟩)).view.set := by
  have hi0 : (i 0).val < 4 := (i 0).isLt
  have hi1 : (i 1).val < 2048 := (i 1).isLt
  have hi2 : (i 2).val < 768 := (i 2).isLt
  obtain ⟨hp, hq, hd⟩ := diag_facts ⟨(i 1).val / 512, by omega⟩
  refine ⟨⟨(i 0).val * 3 + (i 2).val / 256, by omega⟩, ⟨(i 1).val / 512, by omega⟩, hp, rfl, rfl, (flush1_3 _ _).mpr hd, ?_⟩
  rw [mem_blk1_3]
  have hq' : (lit0 ⟨pairOf ((i 1).val / 512) ((i 1).val / 512), hp⟩).toNat = (i 1).val / 512 := hq
  show (i 0).val = ((i 0).val * 3 + (i 2).val / 256) / 3 ∧ (lit0 ⟨pairOf ((i 1).val / 512) ((i 1).val / 512), hp⟩).toNat * 512 ≤ (i 1).val
    ∧ (i 1).val < (lit0 ⟨pairOf ((i 1).val / 512) ((i 1).val / 512), hp⟩).toNat * 512 + 512
    ∧ ((i 0).val * 3 + (i 2).val / 256) % 3 * 256 ≤ (i 2).val ∧ (i 2).val < ((i 0).val * 3 + (i 2).val / 256) % 3 * 256 + 256
  rw [hq']
  omega

end Cert.KernelIdeal.HandValue

end
-- ==== Proof.Val1.lean ====
/-
  Call 1 of the kernel (causal attention over the triangular pair axis) at the ideal values: what it leaves in its output
  array after all 120 grid points, index by index, as the ONLINE average of rows of the packed projection.
  Query block qb's run is the consecutive pairs (qb, 0) … (qb, qb). Read at a query row r and a value column d, the
  three scratch entries are the online softmax's state of that row; the run's first point starts from the initial state
  and every point is one step over its key block's 512 columns, whose scores are the row's masked scaled scores against
  columns kb·512 … kb·512 + 511 of the sequence and whose values are the value channel d at those columns
  (blkScore_pt1, blkVal_pt1, rowSt_pt1). By induction along the run the state after key block kb is the online state
  after blocks 0 … kb (traj1). The diagonal point stores the quotient of the weighted sum by the sum, which is the online
  average over blocks 0 … qb; it is the only point of the run that writes the output block back, the written blocks tile
  the output array, and so the array ends holding, at batch b, row qb·512 + r, channel h·256 + k, the online average of
  row qb·512 + r of (b, h) at value column k (flushed1_eq, arrAt1, arrAt1_at). The packed array is never written
  (arrAt1_in).
-/
import proofs.«428345_j25692494364785_3_alg».proof.Proof.Region1Dat
import proofs.«428345_j25692494364785_3_alg».proof.Proof.Softmax
import proofs.«428345_j25692494364785_3_alg».proof.Proof.RowJoin
import proofs.«428345_j25692494364785_3_alg».proof.Proof.RefRow
import proofs.«428345_j25692494364785_3_alg».proof.Proof.StepRow
import proofs.«428345_j25692494364785_3_alg».proof.Proof.Blk1
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)
open Cert.ReferenceIdeal.RefRow (rowScore rowVal)

variable (V : (c : Dev nD) → (b : Ref sig .tc) → Buf (Elt Ideal) ((c : Thread nD τ).loc b))

/-! ## The pairs of a query block's run -/

/-- Every pair of a run has a number below 10. -/
theorem pairOf_lt {qb kb : ℕ} (hq : qb < 4) (hk : kb ≤ qb) : pairOf qb kb < 10 := by
  unfold pairOf
  have h : qb = 0 ∨ qb = 1 ∨ qb = 2 ∨ qb = 3 := by omega
  rcases h with h | h | h | h <;> subst h <;> omega

/-- The next key block's pair is the next pair. -/
theorem pairOf_succ (qb kb : ℕ) : pairOf qb (kb + 1) = pairOf qb kb + 1 := by
  unfold pairOf; omega

/-- The tables' entries at the pair of key block kb in query block qb's run, as numbers: qb -/
theorem lit0_pairOf (qb kb : Fin 4) (hk : kb.val ≤ qb.val) (hp : pairOf qb.val kb.val < 10) :
    (lit0 ⟨pairOf qb.val kb.val, hp⟩).toNat = qb.val :=
  (congrArg BitVec.toNat (words_pt1 (0 : Fin 12) ⟨pairOf qb.val kb.val, hp⟩).1).symm.trans (wq1_pt1 0 qb kb hk hp)
/-- and kb. -/
theorem lit1_pairOf (qb kb : Fin 4) (hk : kb.val ≤ qb.val) (hp : pairOf qb.val kb.val < 10) :
    (lit1 ⟨pairOf qb.val kb.val, hp⟩).toNat = kb.val :=
  (congrArg BitVec.toNat (words_pt1 (0 : Fin 12) ⟨pairOf qb.val kb.val, hp⟩).2).symm.trans (wk1_pt1 0 qb kb hk hp)

/-! ## The scratch along a query block's run -/

/-- The scratch after a point is one step from what the point's arithmetic starts from: the reset state at the first
    pair of a run, else the state the previous point left. -/
theorem scrAt1_succ (c : Dev nD) (t : Fin NA) :
    scrAt1 (F := Ideal) V c (t.val + 1)
      = step1 (wq1 (F := Ideal) t) (wk1 (F := Ideal) t) (iblk1 (F := Ideal) V c 0 t) (iblk1 (F := Ideal) V c 1 t) (iblk1 (F := Ideal) V c 2 t)
          (if isFirst1 (F := Ideal) (wk1 (F := Ideal) t) then reset1 else scrAt1 (F := Ideal) V c t.val) := by
  rw [scrAt1, dif_pos t.isLt]

/-- The batch of a (batch, head) number, -/
abbrev bOf (bh : Fin 12) : Fin 4 := ⟨bh.val / 3, by omega⟩
/-- its head, -/
abbrev hOf (bh : Fin 12) : Fin 3 := ⟨bh.val % 3, by omega⟩
/-- and row r of query block qb as a row of the sequence. -/
abbrev qOf (qb : Fin 4) (r : Fin 512) : Fin 2048 := ⟨qb.val * 512 + r.val, by omega⟩

/-- At the point of key block kb in query block qb's run, the block's masked scaled score of row r against column cc
    is the row's score against column kb·512 + cc of the sequence: the mask compares the same two positions, the
    products are those of the row's query channels with the column's key channels, and the scale 1/16 is the division
    by 16. -/
theorem blkScore_pt1 (c : Dev nD) (bh : Fin 12) (qb kb : Fin 4) (hk : kb.val ≤ qb.val) (hp : pairOf qb.val kb.val < 10)
    (r cc : Fin 512) :
    blkScore (wq1 (F := Ideal) (pt1 bh ⟨pairOf qb.val kb.val, hp⟩)) (wk1 (F := Ideal) (pt1 bh ⟨pairOf qb.val kb.val, hp⟩))
        (iblk1 (F := Ideal) V c 0 (pt1 bh ⟨pairOf qb.val kb.val, hp⟩)) (iblk1 (F := Ideal) V c 1 (pt1 bh ⟨pairOf qb.val kb.val, hp⟩)) r cc
      = rowScore (V c main_v6) (bOf bh) (hOf bh) (qOf qb r) (Cert.Softmax.col qb.val qb.isLt (⟨kb.val, by omega⟩, cc)) := by
  have e0 := lit0_pairOf qb kb hk hp
  have e1 := lit1_pairOf qb kb hk hp
  unfold blkScore rowScore
  rw [wq1_pt1 bh qb kb hk hp, wk1_pt1 bh qb kb hk hp]
  show (if kb.val * 512 + cc.val ≤ qb.val * 512 + r.val then _ else ⊥)
    = (if kb.val * 512 + cc.val ≤ qb.val * 512 + r.val then _ else ⊥)
  by_cases hle : kb.val * 512 + cc.val ≤ qb.val * 512 + r.val
  · rw [if_pos hle, if_pos hle, Ideal.div_coe (by norm_num : (16 : ℝ) ≠ 0)]
    refine congrArg (· * (((1 / 16 : ℝ) : ℝ) : EReal)) (Finset.sum_congr rfl fun j _ => ?_)
    refine congr (congrArg HMul.hMul (iblk1_0_apply V c bh _ r j _ ?_ ?_ ?_)) (iblk1_1_apply V c bh _ cc j _ ?_ ?_ ?_)
    · rfl
    · show qb.val * 512 + r.val = _; rw [e0]
    · show 0 + bh.val % 3 * 256 + j.val = _; omega
    · rfl
    · show kb.val * 512 + cc.val = _; rw [e1]
    · rfl
  · rw [if_neg hle, if_neg hle]

/-- and the value block's entry (cc, d) is the row's value column d at column kb·512 + cc. -/
theorem blkVal_pt1 (c : Dev nD) (bh : Fin 12) (qb kb : Fin 4) (hk : kb.val ≤ qb.val) (hp : pairOf qb.val kb.val < 10)
    (cc : Fin 512) (d : Fin 256) :
    (iblk1 (F := Ideal) V c 2 (pt1 bh ⟨pairOf qb.val kb.val, hp⟩) : Vec Ideal S1x512x256 .bf16) (ValueIdx.ix3 0 cc d)
      = rowVal (V c main_v6) (bOf bh) (hOf bh) d (Cert.Softmax.col qb.val qb.isLt (⟨kb.val, by omega⟩, cc)) := by
  have e1 := lit1_pairOf qb kb hk hp
  unfold rowVal
  refine iblk1_2_apply V c bh _ cc d _ ?_ ?_ ?_
  · rfl
  · show kb.val * 512 + cc.val = _; rw [e1]
  · rfl

/-- One point of a run, read at row r and value column d: one step of the online softmax over key block kb's columns,
    from the initial state at the run's first pair and from what the previous point left elsewhere. -/
theorem rowSt_pt1 (c : Dev nD) (bh : Fin 12) (qb kb : Fin 4) (hk : kb.val ≤ qb.val) (hp : pairOf qb.val kb.val < 10)
    (r : Fin 512) (d : Fin 256) :
    rowSt (scrAt1 (F := Ideal) V c ((pt1 bh ⟨pairOf qb.val kb.val, hp⟩).val + 1)) r d
      = (rowSt (if kb.val = 0 then reset1 else scrAt1 (F := Ideal) V c (pt1 bh ⟨pairOf qb.val kb.val, hp⟩).val) r d).step
          (fun cc => rowScore (V c main_v6) (bOf bh) (hOf bh) (qOf qb r) (Cert.Softmax.col qb.val qb.isLt (⟨kb.val, by omega⟩, cc)))
          (fun cc => rowVal (V c main_v6) (bOf bh) (hOf bh) d (Cert.Softmax.col qb.val qb.isLt (⟨kb.val, by omega⟩, cc))) := by
  have hw1 : (wq1 (F := Ideal) (pt1 bh ⟨pairOf qb.val kb.val, hp⟩)).toNat < 4 := by rw [wq1_pt1 bh qb kb hk hp]; exact qb.isLt
  have hw3 : (wk1 (F := Ideal) (pt1 bh ⟨pairOf qb.val kb.val, hp⟩)).toNat < 4 := by rw [wk1_pt1 bh qb kb hk hp]; exact kb.isLt
  have hs : (if isFirst1 (F := Ideal) (wk1 (F := Ideal) (pt1 bh ⟨pairOf qb.val kb.val, hp⟩)) then reset1
        else scrAt1 (F := Ideal) V c (pt1 bh ⟨pairOf qb.val kb.val, hp⟩).val)
      = (if kb.val = 0 then reset1 else scrAt1 (F := Ideal) V c (pt1 bh ⟨pairOf qb.val kb.val, hp⟩).val) := by
    by_cases h0 : kb.val = 0
    · rw [if_pos ((isFirst1_pt1 bh qb kb hk hp).mpr h0), if_pos h0]
    · rw [if_neg (fun h => h0 ((isFirst1_pt1 bh qb kb hk hp).mp h)), if_neg h0]
  rw [scrAt1_succ, hs]
  refine (rowSt_step1 _ _ hw1 hw3 _ _ _ _ r d).trans ?_
  exact congr (congrArg (Cert.Softmax.St.step _) (funext fun cc => blkScore_pt1 V c bh qb kb hk hp r cc))
    (funext fun cc => blkVal_pt1 V c bh qb kb hk hp cc d)

/-- THE TRAJECTORY. After the point of key block kb in query block qb's run, row r's state (at value column d) is the
    online softmax's state after blocks 0 … kb of the row's scores and values. -/
theorem traj1 (c : Dev nD) (bh : Fin 12) (qb : Fin 4) (r : Fin 512) (d : Fin 256) :
    ∀ (kb : ℕ) (hk : kb ≤ qb.val),
      rowSt (scrAt1 (F := Ideal) V c ((pt1 bh ⟨pairOf qb.val kb, pairOf_lt qb.isLt hk⟩).val + 1)) r d
        = Cert.Softmax.onl (n := qb.val) (B := 512)
            (fun j cc => rowScore (V c main_v6) (bOf bh) (hOf bh) (qOf qb r) (Cert.Softmax.col qb.val qb.isLt (j, cc)))
            (fun j cc => rowVal (V c main_v6) (bOf bh) (hOf bh) d (Cert.Softmax.col qb.val qb.isLt (j, cc))) (kb + 1) := by
  intro kb
  induction kb with
  | zero =>
    intro hk
    have h := rowSt_pt1 V c bh qb ⟨0, by omega⟩ hk (pairOf_lt qb.isLt hk) r d
    rw [Cert.Softmax.onl, dif_pos (by omega : 0 < qb.val + 1), Cert.Softmax.onl]
    refine h.trans ?_
    rw [if_pos rfl, rowSt_reset1]
  | succ kb ih =>
    intro hk
    have h := rowSt_pt1 V c bh qb ⟨kb + 1, by omega⟩ hk (pairOf_lt qb.isLt hk) r d
    rw [Cert.Softmax.onl, dif_pos (by omega : kb + 1 < qb.val + 1)]
    refine h.trans ?_
    rw [if_neg (Nat.succ_ne_zero kb)]
    have e : (pt1 bh ⟨pairOf qb.val (kb + 1), pairOf_lt qb.isLt hk⟩).val
        = (pt1 bh ⟨pairOf qb.val kb, pairOf_lt qb.isLt (by omega)⟩).val + 1 := by
      show bh.val * 10 + pairOf qb.val (kb + 1) = bh.val * 10 + pairOf qb.val kb + 1
      rw [pairOf_succ]; omega
    rw [e, ih (by omega)]

/-! ## The output array -/

/-- The online average of row q of (batch b, head h) at value column k, over key blocks 0 … nq of 512 columns. -/
def attn1 (P : S4x2048x2304.Idx → EReal) (b : Fin 4) (h : Fin 3) (q : Fin 2048) (k : Fin 256) (nq : ℕ) (hnq : nq < 4) : EReal :=
  Cert.Softmax.onlAvg (n := nq) (B := 512) (fun j cc => rowScore P b h q (Cert.Softmax.col nq hnq (j, cc)))
    (fun j cc => rowVal P b h k (Cert.Softmax.col nq hnq (j, cc)))

theorem attn1_congr (P : S4x2048x2304.Idx → EReal) {b b' : Fin 4} {h h' : Fin 3} {q q' : Fin 2048} {k k' : Fin 256} {n n' : ℕ}
    (hn : n < 4) (hn' : n' < 4) (eb : b = b') (eh : h = h') (eq : q = q') (ek : k = k') (en : n = n') :
    attn1 P b h q k n hn = attn1 P b' h' q' k' n' hn' := by
  subst eb eh eq ek en; rfl

/-- What call 1 leaves in its output array, as a function of the index (b, q, c): the online average of row q of batch b
    and head c / 256 at value column c % 256, over the key blocks up to the row's own. -/
def out1 (P : S4x2048x2304.Idx → EReal) : S4x2048x768.Idx → EReal := fun i =>
  attn1 P (i 0) ⟨(i 2).val / 256, by have h2 : (i 2).val < 768 := (i 2).isLt; omega⟩ (i 1)
    ⟨(i 2).val % 256, by omega⟩ ((i 1).val / 512) (by have h1 : (i 1).val < 2048 := (i 1).isLt; omega)

/-- At the index of batch b, row qb·512 + r, channel h·256 + k. -/
theorem out1_apply (P : S4x2048x2304.Idx → EReal) (i : S4x2048x768.Idx) (b : Fin 4) (h : Fin 3) (qb : Fin 4) (r : Fin 512)
    (k : Fin 256) (hq : qb.val * 512 + r.val < 2048)
    (h0 : (i 0).val = b.val) (h1 : (i 1).val = qb.val * 512 + r.val) (h2 : (i 2).val = h.val * 256 + k.val) :
    out1 P i = Cert.Softmax.onlAvg (n := qb.val) (B := 512)
        (fun j cc => rowScore P b h ⟨qb.val * 512 + r.val, hq⟩ (Cert.Softmax.col qb.val qb.isLt (j, cc)))
        (fun j cc => rowVal P b h k (Cert.Softmax.col qb.val qb.isLt (j, cc))) := by
  show out1 P i = attn1 P b h ⟨qb.val * 512 + r.val, hq⟩ k qb.val qb.isLt
  have hr := r.isLt
  have hk := k.isLt
  exact attn1_congr P _ qb.isLt (Fin.ext h0) (Fin.ext (by show (i 2).val / 256 = h.val; omega)) (Fin.ext h1)
    (Fin.ext (by show (i 2).val % 256 = k.val; omega)) (by show (i 1).val / 512 = qb.val; omega)

/-- Every grid point is the point of a (batch, head) number and a pair. -/
theorem pt1_surj (t : Fin NA) : ∃ (bh : Fin 12) (p : Fin 10), t = pt1 bh p := by
  have ht : t.val < 120 := lt_of_lt_of_eq t.isLt N_1
  exact ⟨⟨t.val / 10, by omega⟩, ⟨t.val % 10, by omega⟩, Fin.ext (by show t.val = t.val / 10 * 10 + t.val % 10; omega)⟩

/-- A pair whose two table entries agree is the diagonal pair of a query block. -/
theorem diag_of_lit : ∀ p : Fin 10, lit1 p = lit0 p → ∃ qb : Fin 4, p.val = pairOf qb.val qb.val := by
  decide +kernel

/-- What a diagonal point writes back is its block of `out1`: the stored quotient at (r, d) is the quotient of row r's
    state after the run's last block, which the trajectory gives as the online average over blocks 0 … qb. -/
theorem flushed1_eq (c : Dev nD) (t : Fin NA) (hf : ((cfgA (F := Ideal)).win 3).flush t = true) :
    (dat1 (F := Ideal) V c).flushed 3 t
      = (((cfgA (F := Ideal)).win 3).blk t).view.read (Elt Ideal) (out1 (V c main_v6)) := by
  obtain ⟨bh, p, rfl⟩ := pt1_surj t
  obtain ⟨qb, hq⟩ := diag_of_lit p ((flush1_3 bh p).mp hf)
  obtain rfl : p = ⟨pairOf qb.val qb.val, pairOf_lt qb.isLt le_rfl⟩ := Fin.ext hq
  funext j
  obtain ⟨r, d, rfl⟩ : ∃ (r : Fin 512) (d : Fin 256), j = ValueIdx.ix3 (0 : Fin 1) r d := by
    have hj0 : @Eq (Fin 1) (j 0) 0 := Subsingleton.elim _ _
    exact ⟨j 1, j 2, (ValueIdx.eq_ix3 (n0 := 1) (n1 := 512) (n2 := 256) j).trans
      (congrArg (fun z : Fin 1 => ValueIdx.ix3 z (j 1) (j 2)) hj0)⟩
  obtain ⟨e0, e1, e2⟩ := emb_blk1_3 bh ⟨pairOf qb.val qb.val, pairOf_lt qb.isLt le_rfl⟩ r d
  rw [lit0_pairOf qb qb le_rfl] at e1
  have hr := r.isLt
  have ht := traj1 V c bh qb r d qb.val le_rfl
  show outOf1 (scrAt1 (F := Ideal) V c ((pt1 bh ⟨pairOf qb.val qb.val, pairOf_lt qb.isLt le_rfl⟩).val + 1)) (ValueIdx.ix3 (0 : Fin 1) r d)
    = out1 (V c main_v6) ((((cfgA (F := Ideal)).win 3).blk (pt1 bh ⟨pairOf qb.val qb.val, pairOf_lt qb.isLt le_rfl⟩)).view.emb (ValueIdx.ix3 (0 : Fin 1) r d))
  rw [outOf1_apply, out1_apply (V c main_v6) _ (bOf bh) (hOf bh) qb r d (by omega) e0 e1 e2]
  exact congr (congrArg Ideal.div (congrArg Cert.Softmax.St.a ht)) (congrArg Cert.Softmax.St.l ht)

/-- THE OUTPUT ARRAY after all grid points. -/
theorem arrAt1 (c : Dev nD) : (dat1 (F := Ideal) V c).arrAt 3 NA = out1 (V c main_v6) :=
  (dat1 (F := Ideal) V c).arrAt_eq_of_cover 3 (out1 (V c main_v6)) (fun t hf => flushed1_eq V c t hf) (fun i => by
    obtain ⟨bh, qb, hp, -, -, hf, hm⟩ := cover1_3 i
    exact ⟨_, hf, hm⟩)

/-- Index by index: batch b, row qb·512 + r, head h, value column k holds the online average of that row over key
    blocks 0 … qb. -/
theorem arrAt1_at (c : Dev nD) (b : Fin 4) (qb : Fin 4) (r : Fin 512) (h : Fin 3) (k : Fin 256)
    (hq : qb.val * 512 + r.val < 2048) (hc : h.val * 256 + k.val < 768) :
    ((dat1 (F := Ideal) V c).arrAt 3 NA : S4x2048x768.Idx → EReal) (ValueIdx.ix3 b ⟨qb.val * 512 + r.val, hq⟩ ⟨h.val * 256 + k.val, hc⟩)
      = Cert.Softmax.onlAvg (n := qb.val) (B := 512)
          (fun j cc => Cert.ReferenceIdeal.RefRow.rowScore (V c main_v6) b h ⟨qb.val * 512 + r.val, hq⟩ (Cert.Softmax.col qb.val qb.isLt (j, cc)))
          (fun j cc => Cert.ReferenceIdeal.RefRow.rowVal (V c main_v6) b h k (Cert.Softmax.col qb.val qb.isLt (j, cc))) := by
  rw [arrAt1]
  exact out1_apply (V c main_v6) _ b h qb r k hq rfl rfl rfl

/-- The packed array is never written (the three input windows read it). -/
theorem arrAt1_in (c : Dev nD) : (dat1 (F := Ideal) V c).arrAt 0 NA = V c main_v6 :=
  ((dat1 (F := Ideal) V c).arrAt_in 0 rfl NA).trans (A_eq1 V c 0)

end Cert.KernelIdeal.HandValue

end
-- ==== Proof.HostAt.lean ====
/-
  The host operations around the three calls, read at an index (everything at the ideal instance, where a change of
  float format is the identity). The first stretch reshapes the input [4, 2048, 768] to rows [8192, 768] (row b·2048 + w)
  and transposes the two weights; between the calls the projection's rows [8192, 2304] are regrouped as [4, 2048, 2304],
  the attention output [4, 2048, 768] as rows [8192, 768], and the last product's rows as [4, 2048, 768]: every reshape
  keeps the row-major position, so entry (b, w, n) of the regrouped array is entry (b·2048 + w, n) of the rows.
-/
import proofs.«428345_j25692494364785_3_alg».proof.Proof.SegDefs
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.StableHlo

variable (m : (ℓ : Loc nD τ sig) → Buf (Elt Ideal) ℓ) (c : Dev nD)

/-- The three arguments as the launch memory holds them. -/
abbrev xin0 : S4x2048x768.Idx → EReal := m ((c : Thread nD τ).loc main_arg0)
abbrev xin1 : S2304x768.Idx → EReal := m ((c : Thread nD τ).loc main_arg1)
abbrev xin2 : S768x768.Idx → EReal := m ((c : Thread nD τ).loc main_arg2)

/-! ## The first stretch -/

theorem B1_v0 : (B1 (F := Ideal) m c main_v0 : S8192x768.Idx → EReal)
    = shapeCast S8192x768 (xin0 m c) shapeCasts_S4x2048x768_S8192x768 := by
  unfold B1
  show StableHlo.after hostOps0 (fun b => m (c, b)) (Proc.devRef .tc main_v0) = _
  after_results
  rfl

theorem B1_v2 : (B1 (F := Ideal) m c main_v2 : S768x2304.Idx → EReal)
    = truncf (F := Ideal) .bf16 (transpose S768x2304 [1, 0] (xin1 m c : FVec Ideal S2304x768 .f32) transposes_S2304x768_S768x2304_1_0) bitsLt_bf16_f32 := by
  unfold B1
  show StableHlo.after hostOps0 (fun b => m (c, b)) (Proc.devRef .tc main_v2) = _
  after_results

theorem B1_v4 : (B1 (F := Ideal) m c main_v4 : S768x768.Idx → EReal)
    = truncf (F := Ideal) .bf16 (transpose S768x768 [1, 0] (xin2 m c : FVec Ideal S768x768 .f32) transposes_S768x768_S768x768_1_0) bitsLt_bf16_f32 := by
  unfold B1
  show StableHlo.after hostOps0 (fun b => m (c, b)) (Proc.devRef .tc main_v4) = _
  after_results

/-- Row b·2048 + w of the input's rows is the input's row (b, w). -/
theorem B1_v0_at (ρ : Fin 8192) (k : Fin 768) (b : Fin 4) (w : Fin 2048) (hρ : ρ.val = b.val * 2048 + w.val) :
    (B1 (F := Ideal) m c main_v0 : S8192x768.Idx → EReal) (ValueIdx.ix2 ρ k) = xin0 m c (ValueIdx.ix3 b w k) := by
  rw [B1_v0]
  refine shapeCast_apply _ _ _ (ValueIdx.ix3 b w k) ?_
  rw [Shape.rowMajor_val_three, Shape.rowMajor_val_two]
  show (b.val * 2048 + w.val) * 768 + k.val = ρ.val * 768 + k.val
  rw [hρ]

/-- The transposed qkv weight: entry (k, n) is the weight's entry (n, k). -/
theorem B1_v2_at (k : Fin 768) (n : Fin 2304) :
    (B1 (F := Ideal) m c main_v2 : S768x2304.Idx → EReal) (ValueIdx.ix2 k n) = xin1 m c (ValueIdx.ix2 n k) := by
  rw [B1_v2]
  refine (ValueIdx.truncf_apply (φ := .f32) (ψ := .bf16) _ bitsLt_bf16_f32 _).trans ?_
  refine transpose_apply _ _ _ _ (ValueIdx.ix2 n k) (fun b => ?_)
  match b with
  | ⟨0, _⟩ => rfl
  | ⟨1, _⟩ => rfl

/-- The transposed projection weight: entry (k, d) is the weight's entry (d, k). -/
theorem B1_v4_at (k : Fin 768) (d : Fin 768) :
    (B1 (F := Ideal) m c main_v4 : S768x768.Idx → EReal) (ValueIdx.ix2 k d) = xin2 m c (ValueIdx.ix2 d k) := by
  rw [B1_v4]
  refine (ValueIdx.truncf_apply (φ := .f32) (ψ := .bf16) _ bitsLt_bf16_f32 _).trans ?_
  refine transpose_apply _ _ _ _ (ValueIdx.ix2 d k) (fun b => ?_)
  match b with
  | ⟨0, _⟩ => rfl
  | ⟨1, _⟩ => rfl

/-! ## Between the calls -/

/-- Call 1's packed array is call 0's output, its rows regrouped by batch. -/
theorem B3_v6 : (B3 (F := Ideal) m c main_v6 : S4x2048x2304.Idx → EReal)
    = shapeCast S4x2048x2304 (out0 (F := Ideal) m c : S8192x2304.Idx → EReal) shapeCasts_S8192x2304_S4x2048x2304 := by
  unfold B3
  show StableHlo.after hostOps1 (B2 m c) (Proc.devRef .tc main_v6) = _
  after_results
  unfold B2
  rw [Function.update_self]
  rfl

theorem B3_v6_at (b : Fin 4) (w : Fin 2048) (n : Fin 2304) (ρ : Fin 8192) (hρ : ρ.val = b.val * 2048 + w.val) :
    (B3 (F := Ideal) m c main_v6 : S4x2048x2304.Idx → EReal) (ValueIdx.ix3 b w n)
      = (out0 (F := Ideal) m c : S8192x2304.Idx → EReal) (ValueIdx.ix2 ρ n) := by
  rw [B3_v6]
  refine shapeCast_apply _ _ _ (ValueIdx.ix2 ρ n) ?_
  rw [Shape.rowMajor_val_three, Shape.rowMajor_val_two]
  show ρ.val * 2304 + n.val = (b.val * 2048 + w.val) * 2304 + n.val
  rw [hρ]

/-- Call 2's input rows are call 1's output, its batches laid end to end. -/
theorem B5_v8 : (B5 (F := Ideal) m c main_v8 : S8192x768.Idx → EReal)
    = shapeCast S8192x768 (out1 (F := Ideal) m c : S4x2048x768.Idx → EReal) shapeCasts_S4x2048x768_S8192x768 := by
  unfold B5
  show StableHlo.after hostOps2 (B4 m c) (Proc.devRef .tc main_v8) = _
  after_results
  unfold B4
  rw [Function.update_self]
  rfl

theorem B5_v8_at (ρ : Fin 8192) (k : Fin 768) (b : Fin 4) (w : Fin 2048) (hρ : ρ.val = b.val * 2048 + w.val) :
    (B5 (F := Ideal) m c main_v8 : S8192x768.Idx → EReal) (ValueIdx.ix2 ρ k)
      = (out1 (F := Ideal) m c : S4x2048x768.Idx → EReal) (ValueIdx.ix3 b w k) := by
  rw [B5_v8]
  refine shapeCast_apply _ _ _ (ValueIdx.ix3 b w k) ?_
  rw [Shape.rowMajor_val_three, Shape.rowMajor_val_two]
  show (b.val * 2048 + w.val) * 768 + k.val = ρ.val * 768 + k.val
  rw [hρ]

/-- The transposed projection weight reaches call 2 as the first stretch left it: nothing in between writes it. -/
theorem B5_v4 : (B5 (F := Ideal) m c main_v4 : S768x768.Idx → EReal) = (B1 (F := Ideal) m c main_v4 : S768x768.Idx → EReal) := by
  rw [← V5_eq, ← V1_eq]
  exact (V5_of m (outs m) c main_v4 (by decide)).trans <| (V4_of m (outs m) c main_v4 (by decide)).trans <|
    (V3_of m (outs m) c main_v4 (by decide)).trans (V2_of m (outs m) c main_v4 (by decide))

/-- The result is call 2's output, its rows regrouped by batch. -/
theorem B7_v10 : (B7 (F := Ideal) m c main_v10 : S4x2048x768.Idx → EReal)
    = shapeCast S4x2048x768 (out2 (F := Ideal) m c : S8192x768.Idx → EReal) shapeCasts_S8192x768_S4x2048x768 := by
  unfold B7
  show StableHlo.after hostOps3 (B6 m c) (Proc.devRef .tc main_v10) = _
  after_results
  unfold B6
  rw [Function.update_self]
  rfl

theorem B7_v10_at (b : Fin 4) (w : Fin 2048) (d : Fin 768) (ρ : Fin 8192) (hρ : ρ.val = b.val * 2048 + w.val) :
    (B7 (F := Ideal) m c main_v10 : S4x2048x768.Idx → EReal) (ValueIdx.ix3 b w d)
      = (out2 (F := Ideal) m c : S8192x768.Idx → EReal) (ValueIdx.ix2 ρ d) := by
  rw [B7_v10]
  refine shapeCast_apply _ _ _ (ValueIdx.ix2 ρ d) ?_
  rw [Shape.rowMajor_val_three, Shape.rowMajor_val_two]
  show ρ.val * 768 + d.val = (b.val * 2048 + w.val) * 768 + d.val
  rw [hρ]

end Cert.KernelIdeal.HandValue

end
-- ==== Proof.Val0.lean ====
/-
  Call 0 of the kernel at the ideal values (a float is an extended real, a change of format the identity): what the
  projection X · W, tiled over the row blocks of its grid, leaves in its output array after all grid points, index by
  index. The body's payload at an index is the sum over the contracted axis of the products of its two loaded blocks
  (pay0_apply); point t's X block is the t-th block of rows of X and its W block is all of W (iblk0_0_apply,
  iblk0_1_apply); so what point t writes back is block t of the one product prod0 of the two entry arrays (flushed0_eq);
  the output blocks tile the output array, a row lying in the block of the point that its number divided by the rows of
  a block names (cover0); hence the array ends holding prod0 (arrAt0). The two input arrays are never written
  (arrAt0_in0, arrAt0_in1).
-/
import proofs.«428345_j25692494364785_3_alg».proof.Proof.Region0
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

/-- the product the call computes, over the two entry arrays -/
def prod0 (X : S8192x768.Idx → EReal) (W : S768x2304.Idx → EReal) : S8192x2304.Idx → EReal :=
  fun i => ∑ k : Fin 768, X (ValueIdx.ix2 (i 0) k) * W (ValueIdx.ix2 k (i 1))

/-! ## The body's product at an index -/

/-- The left operand's index at output index i and contraction index q: its row is the output's row, -/
theorem lhs_dot0_0 (i : S512x2304.Idx) (q : dot_S512x768_S768x2304_S512x2304_1_0_0_1_n_n.contr.Idx) :
    (dot_S512x768_S768x2304_S512x2304_1_0_0_1_n_n.lhsIdx i q 0).val = (i 0).val := by
  unfold DotDims.lhsIdx
  rw [dif_neg (show ¬(0 : Fin S512x768.rank) ∈ dot_S512x768_S768x2304_S512x2304_1_0_0_1_n_n.lhsBatch by decide), dif_pos (show (0 : Fin S512x768.rank) ∈ dot_S512x768_S768x2304_S512x2304_1_0_0_1_n_n.lhsNonContracting by decide)]
  rfl
/-- its column the contraction index. -/
theorem lhs_dot0_1 (i : S512x2304.Idx) (q : dot_S512x768_S768x2304_S512x2304_1_0_0_1_n_n.contr.Idx) :
    (dot_S512x768_S768x2304_S512x2304_1_0_0_1_n_n.lhsIdx i q 1).val = (q ⟨0, by decide⟩).val :=
  dot_S512x768_S768x2304_S512x2304_1_0_0_1_n_n.lhsIdx_val_of_single rfl i q
/-- The right operand's index: its row is the contraction index, -/
theorem rhs_dot0_0 (i : S512x2304.Idx) (q : dot_S512x768_S768x2304_S512x2304_1_0_0_1_n_n.contr.Idx) :
    (dot_S512x768_S768x2304_S512x2304_1_0_0_1_n_n.rhsIdx i q 0).val = (q ⟨0, by decide⟩).val :=
  dot_S512x768_S768x2304_S512x2304_1_0_0_1_n_n.rhsIdx_val_of_single rfl i q
/-- its column the output's column. -/
theorem rhs_dot0_1 (i : S512x2304.Idx) (q : dot_S512x768_S768x2304_S512x2304_1_0_0_1_n_n.contr.Idx) :
    (dot_S512x768_S768x2304_S512x2304_1_0_0_1_n_n.rhsIdx i q 1).val = (i 1).val := by
  unfold DotDims.rhsIdx
  rw [dif_neg (show ¬(1 : Fin S768x2304.rank) ∈ dot_S512x768_S768x2304_S512x2304_1_0_0_1_n_n.rhsBatch by decide), dif_pos (show (1 : Fin S768x2304.rank) ∈ dot_S512x768_S768x2304_S512x2304_1_0_0_1_n_n.rhsNonContracting by decide)]
  rfl

/-- The body's payload at row p and column q: the changes of format and the casts to the same shape are the identity,
    and the product into the zero accumulator is the sum over the contracted axis. -/
theorem pay0_apply (x0 : Vec Ideal S512x768 .f32) (x1 : Vec Ideal S768x2304 .bf16) (p : Fin 512) (q : Fin 2304) :
    k0_pay1 (F := Ideal) x0 x1 (ValueIdx.ix2 p q) = ∑ k : Fin 768, x0 (ValueIdx.ix2 p k) * x1 (ValueIdx.ix2 k q) := by
  unfold k0_pay1
  refine (ValueIdx.truncf_apply (φ := .f32) (ψ := .bf16) _ bitsLt_bf16_f32 _).trans ?_
  refine (Ideal.matmul_constant_zero_apply _ none _ _ _).trans ?_
  rw [← Equiv.sum_comp (ValueIdx.contrEquiv1 dot_S512x768_S768x2304_S512x2304_1_0_0_1_n_n 768 rfl rfl).symm]
  refine Finset.sum_congr rfl fun k _ => ?_
  have hk := ValueIdx.contrEquiv1_symm_val dot_S512x768_S768x2304_S512x2304_1_0_0_1_n_n 768 rfl rfl k
  have el : dot_S512x768_S768x2304_S512x2304_1_0_0_1_n_n.lhsIdx (ValueIdx.ix2 p q) ((ValueIdx.contrEquiv1 dot_S512x768_S768x2304_S512x2304_1_0_0_1_n_n 768 rfl rfl).symm k) = ValueIdx.ix2 p k := funext fun a => Fin.ext (by
    match a with
    | ⟨0, _⟩ => exact lhs_dot0_0 _ _
    | ⟨1, _⟩ => exact (lhs_dot0_1 _ _).trans hk)
  have er : dot_S512x768_S768x2304_S512x2304_1_0_0_1_n_n.rhsIdx (ValueIdx.ix2 p q) ((ValueIdx.contrEquiv1 dot_S512x768_S768x2304_S512x2304_1_0_0_1_n_n 768 rfl rfl).symm k) = ValueIdx.ix2 k q := funext fun a => Fin.ext (by
    match a with
    | ⟨0, _⟩ => exact (rhs_dot0_0 _ _).trans hk
    | ⟨1, _⟩ => exact rhs_dot0_1 _ _)
  rw [el, er, ValueIdx.truncf_apply (φ := .f32) (ψ := .bf16), shapeCast_self, shapeCast_self]

/-! ## The input blocks, read off the entry arrays -/

variable (V : (c : Dev nD) → (b : Ref sig .tc) → Buf (Elt Ideal) ((c : Thread nD τ).loc b))

theorem hz0 : (![0, 0] : Fin 2 → Nat) = fun _ => 0 := funext fun a => by fin_cases a <;> rfl

/-- The printed index maps, decided over the grid: the X window and the output window are on row block t at point t,
    on column block 0; the W window never moves. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Point t's X block at row p is the row of X that many rows into its t-th block of rows. -/
theorem iblk0_0_apply (c : Dev nD) (t : Fin cfg0.N) (p : Fin 512) (k : Fin 768) (i : S8192x768.Idx)
    (hi0 : (i 0).val = t.val * 512 + p.val) (hi1 : (i 1).val = k.val) :
    (iblk0 (F := Ideal) V c 0 t : Vec Ideal S512x768 .f32) (ValueIdx.ix2 p k) = (V c main_v0 : S8192x768.Idx → EReal) i := by
  obtain ⟨e0, e1, -⟩ := idx_facts0 t
  show (V c main_v0 : S8192x768.Idx → EReal) (((cfg0.win 0).blk t).view.emb (ValueIdx.ix2 p k)) = _
  refine congrArg _ (funext fun a => Fin.ext ?_)
  match a with
  | ⟨0, _⟩ => show win0_0.index t (0 : Fin 2) * 512 + 1 * p.val = (i 0).val; omega
  | ⟨1, _⟩ => show win0_0.index t (1 : Fin 2) * 768 + 1 * k.val = (i 1).val; omega

/-- Point t's W block is all of W. -/
theorem iblk0_1_apply (c : Dev nD) (t : Fin cfg0.N) (k : Fin 768) (q : Fin 2304) :
    (iblk0 (F := Ideal) V c 1 t : Vec Ideal S768x2304 .bf16) (ValueIdx.ix2 k q) = (V c main_v2 : S768x2304.Idx → EReal) (ValueIdx.ix2 k q) := by
  obtain ⟨-, -, e0, e1, -⟩ := idx_facts0 t
  show (V c main_v2 : S768x2304.Idx → EReal) (((cfg0.win 1).blk t).view.emb (ValueIdx.ix2 k q)) = _
  refine congrArg _ (funext fun a => Fin.ext ?_)
  match a with
  | ⟨0, _⟩ => show win0_1.index t (0 : Fin 2) * 768 + 1 * k.val = k.val; omega
  | ⟨1, _⟩ => show win0_1.index t (1 : Fin 2) * 2304 + 1 * q.val = q.val; omega

/-! ## What a point writes back -/

/-- What point t writes back is block t of the product of the two entry arrays. -/
theorem flushed0_eq (c : Dev nD) (t : Fin cfg0.N) :
    (dat0 (F := Ideal) V c).flushed 2 t = ((cfg0.win 2).blk t).view.read (Elt Ideal) (prod0 (V c main_v0) (V c main_v2)) := by
  show (cfg0.win 2).cut (grid0.coords t) ((dat0 (F := Ideal) V c).after 2 t) = _
  rw [after0_2]
  unfold out0_2
  rw [View.canon_unit_zero hz0]
  simp only [View.ld_unit_zero (S := S512x768) hz0, View.ld_unit_zero (S := S768x2304) hz0]
  funext j
  obtain ⟨p, q, rfl⟩ : ∃ (p : Fin 512) (q : Fin 2304), j = ValueIdx.ix2 p q := ⟨j 0, j 1, ValueIdx.eq_ix2 j⟩
  obtain ⟨-, -, -, -, e0, e1⟩ := idx_facts0 t
  show k0_pay1 (F := Ideal) (iblk0 (F := Ideal) V c 0 t) (iblk0 (F := Ideal) V c 1 t) (ValueIdx.ix2 p q)
    = prod0 (V c main_v0) (V c main_v2) (((cfg0.win 2).blk t).view.emb (ValueIdx.ix2 p q))
  refine (pay0_apply (iblk0 (F := Ideal) V c 0 t) (iblk0 (F := Ideal) V c 1 t) p q).trans ?_
  unfold prod0
  refine Finset.sum_congr rfl fun k _ => ?_
  have h0 : ((((cfg0.win 2).blk t).view.emb (ValueIdx.ix2 p q)) 0).val = t.val * 512 + p.val := by
    show win0_2.index t (0 : Fin 2) * 512 + 1 * p.val = _; omega
  have h1 : ((((cfg0.win 2).blk t).view.emb (ValueIdx.ix2 p q)) 1) = q := Fin.ext (by
    show win0_2.index t (1 : Fin 2) * 2304 + 1 * q.val = _; omega)
  rw [iblk0_0_apply V c t p k (ValueIdx.ix2 ((((cfg0.win 2).blk t).view.emb (ValueIdx.ix2 p q)) 0) k) h0 rfl,
    iblk0_1_apply V c t k q, h1]

/-! ## The output blocks tile the output array -/

/-- An index of the output array is in point t's block iff each coordinate is in the block's range on its axis. -/
theorem mem_blk0 (t : Fin cfg0.N) (i : S8192x2304.Idx) :
    i ∈ ((cfg0.win 2).blk t).view.set ↔ ∀ a : Fin 2, win0_2.index t a * S512x2304.size a ≤ (i a).val ∧ (i a).val < win0_2.index t a * S512x2304.size a + S512x2304.size a := by
  show i ∈ ((View.whole main_v5).slice (win0_2.rect t)).set ↔ _
  rw [View.set_slice_whole, Rect.mem_set_unit]
  exact Iff.rfl

/-- Every index of the output array is in the block of the point its row divided by the block's rows names. -/
theorem cover0 (i : S8192x2304.Idx) : ∃ t : Fin cfg0.N, (cfg0.win 2).flush t = true ∧ i ∈ ((cfg0.win 2).blk t).view.set := by
  have hi0 : (i 0).val < 8192 := (i 0).isLt
  have hi1 : (i 1).val < 2304 := (i 1).isLt
  have ht : (i 0).val / 512 < cfg0.N := by rw [show cfg0.N = 16 from N_0]; omega
  obtain ⟨-, -, -, -, e0, e1⟩ := idx_facts0 ⟨(i 0).val / 512, ht⟩
  refine ⟨⟨(i 0).val / 512, ht⟩, flush0_2 _, ?_⟩
  rw [mem_blk0]
  intro a
  match a with
  | ⟨0, _⟩ =>
    show win0_2.index ⟨(i 0).val / 512, ht⟩ (0 : Fin 2) * 512 ≤ (i 0).val ∧ (i 0).val < win0_2.index ⟨(i 0).val / 512, ht⟩ (0 : Fin 2) * 512 + 512
    rw [e0]; show (i 0).val / 512 * 512 ≤ (i 0).val ∧ (i 0).val < (i 0).val / 512 * 512 + 512; omega
  | ⟨1, _⟩ =>
    show win0_2.index ⟨(i 0).val / 512, ht⟩ (1 : Fin 2) * 2304 ≤ (i 1).val ∧ (i 1).val < win0_2.index ⟨(i 0).val / 512, ht⟩ (1 : Fin 2) * 2304 + 2304
    rw [e1]; omega

/-! ## The arrays after the call -/

/-- The output array after all grid points: the product of the two entry arrays. -/
theorem arrAt0 (c : Dev nD) :
    (dat0 (F := Ideal) V c).arrAt 2 cfg0.N = prod0 (V c main_v0) (V c main_v2) :=
  (dat0 (F := Ideal) V c).arrAt_eq_of_cover 2 (prod0 (V c main_v0) (V c main_v2)) (fun t _ => flushed0_eq V c t) cover0

/-- The X array is never written. -/
theorem arrAt0_in0 (c : Dev nD) : (dat0 (F := Ideal) V c).arrAt 0 cfg0.N = V c main_v0 :=
  ((dat0 (F := Ideal) V c).arrAt_in 0 rfl cfg0.N).trans (A_eq0 V c 0)

/-- The W array is never written. -/
theorem arrAt0_in1 (c : Dev nD) : (dat0 (F := Ideal) V c).arrAt 1 cfg0.N = V c main_v2 :=
  ((dat0 (F := Ideal) V c).arrAt_in 1 rfl cfg0.N).trans (A_eq0 V c 1)

end Cert.KernelIdeal.HandValue

end
-- ==== Proof.Val2.lean ====
/-
  Call 2 of the kernel (the output projection, at the ideal values where a float is an extended real): the contents of
  its output array once all 8 grid points have run, read index by index.

  The argument runs in five steps. (1) At an index (p, q) of a block the body's payload is Σ_k x0 (p, k) · x1 (k, q):
  both casts keep the shape, so they are the identity, and the one product starts from a zero accumulator (call2_pay_apply);
  no change of format occurs anywhere in this call. (2) At point t the first loaded block is rows 1024 t … 1024 t + 1023
  of the attention-output array and the second is the whole weight (iblk2_0_apply, iblk2_1_apply). (3) Therefore the
  block written back at point t is the t-th row block of the single matrix prod2 = A · W formed from the two entry
  arrays (flushed2_eq). (4) A row r of the output array lies in the block of point r / 1024, so the 8 written blocks
  cover the array (cover2). (5) So the array ends equal to prod2 (arrAt2); neither input array is ever written
  (arrAt2_in0, arrAt2_in1).
-/
import proofs.«428345_j25692494364785_3_alg».proof.Proof.Region2
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.SL.Sem
open Idealize.ShloMosaic.Pipeline (Dat)

/-- The matrix product A · W of the two entry arrays: entry (r, s) is Σ_k A (r, k) · W (k, s). -/
def prod2 (X : S8192x768.Idx → EReal) (W : S768x768.Idx → EReal) : S8192x768.Idx → EReal :=
  fun i => ∑ k : Fin 768, X (ValueIdx.ix2 (i 0) k) * W (ValueIdx.ix2 k (i 1))

/-! ## Step 1: the payload at an index of the block -/

/-- Axis 0 of the left operand is free (not contracted, not batched): it carries the output's row. -/
theorem lhs_dot2_0 (i : S1024x768.Idx) (q : dot_S1024x768_S768x768_S1024x768_1_0_0_1_n_n.contr.Idx) : (dot_S1024x768_S768x768_S1024x768_1_0_0_1_n_n.lhsIdx i q 0).val = (i 0).val := by
  unfold DotDims.lhsIdx
  rw [dif_neg (show ¬(0 : Fin S1024x768.rank) ∈ dot_S1024x768_S768x768_S1024x768_1_0_0_1_n_n.lhsBatch by decide),
    dif_pos (show (0 : Fin S1024x768.rank) ∈ dot_S1024x768_S768x768_S1024x768_1_0_0_1_n_n.lhsNonContracting by decide)]
  rfl

/-- Axis 1 of the left operand is the contracted one: it carries the summation index. -/
theorem lhs_dot2_1 (i : S1024x768.Idx) (q : dot_S1024x768_S768x768_S1024x768_1_0_0_1_n_n.contr.Idx) : (dot_S1024x768_S768x768_S1024x768_1_0_0_1_n_n.lhsIdx i q 1).val = (q ⟨0, by decide⟩).val :=
  dot_S1024x768_S768x768_S1024x768_1_0_0_1_n_n.lhsIdx_val_of_single rfl i q

/-- Axis 0 of the right operand is the contracted one: it carries the summation index. -/
theorem rhs_dot2_0 (i : S1024x768.Idx) (q : dot_S1024x768_S768x768_S1024x768_1_0_0_1_n_n.contr.Idx) : (dot_S1024x768_S768x768_S1024x768_1_0_0_1_n_n.rhsIdx i q 0).val = (q ⟨0, by decide⟩).val :=
  dot_S1024x768_S768x768_S1024x768_1_0_0_1_n_n.rhsIdx_val_of_single rfl i q

/-- Axis 1 of the right operand is free: it carries the output's column. -/
theorem rhs_dot2_1 (i : S1024x768.Idx) (q : dot_S1024x768_S768x768_S1024x768_1_0_0_1_n_n.contr.Idx) : (dot_S1024x768_S768x768_S1024x768_1_0_0_1_n_n.rhsIdx i q 1).val = (i 1).val := by
  unfold DotDims.rhsIdx
  rw [dif_neg (show ¬(1 : Fin S768x768.rank) ∈ dot_S1024x768_S768x768_S1024x768_1_0_0_1_n_n.rhsBatch by decide),
    dif_pos (show (1 : Fin S768x768.rank) ∈ dot_S1024x768_S768x768_S1024x768_1_0_0_1_n_n.rhsNonContracting by decide)]
  rfl

/-- The payload at (p, q). The product into a zero accumulator is the sum over the contraction shape; that shape has
    one axis of extent 768, so the sum is re-indexed over Fin 768, and under the re-indexing the operands' indices are
    (p, k) and (k, q). The two casts to the same shape then drop out. -/
theorem call2_pay_apply (x0 : Vec Ideal S1024x768 .bf16) (x1 : Vec Ideal S768x768 .bf16) (p : Fin 1024) (q : Fin 768) :
    k2_pay1 (F := Ideal) x0 x1 (ValueIdx.ix2 p q) = ∑ k : Fin 768, x0 (ValueIdx.ix2 p k) * x1 (ValueIdx.ix2 k q) := by
  unfold k2_pay1
  refine (Ideal.matmul_constant_zero_apply _ none _ _ _).trans ?_
  rw [← Equiv.sum_comp (ValueIdx.contrEquiv1 dot_S1024x768_S768x768_S1024x768_1_0_0_1_n_n 768 rfl rfl).symm]
  refine Finset.sum_congr rfl fun k _ => ?_
  have hk := ValueIdx.contrEquiv1_symm_val dot_S1024x768_S768x768_S1024x768_1_0_0_1_n_n 768 rfl rfl k
  have eL : dot_S1024x768_S768x768_S1024x768_1_0_0_1_n_n.lhsIdx (ValueIdx.ix2 p q) ((ValueIdx.contrEquiv1 dot_S1024x768_S768x768_S1024x768_1_0_0_1_n_n 768 rfl rfl).symm k) = ValueIdx.ix2 p k :=
    funext fun a => Fin.ext (by
      match a with
      | ⟨0, _⟩ => exact lhs_dot2_0 _ _
      | ⟨1, _⟩ => exact (lhs_dot2_1 _ _).trans hk)
  have eR : dot_S1024x768_S768x768_S1024x768_1_0_0_1_n_n.rhsIdx (ValueIdx.ix2 p q) ((ValueIdx.contrEquiv1 dot_S1024x768_S768x768_S1024x768_1_0_0_1_n_n 768 rfl rfl).symm k) = ValueIdx.ix2 k q :=
    funext fun a => Fin.ext (by
      match a with
      | ⟨0, _⟩ => exact (rhs_dot2_0 _ _).trans hk
      | ⟨1, _⟩ => exact rhs_dot2_1 _ _)
  rw [eL, eR, shapeCast_self, shapeCast_self]

/-! ## Step 2: the loaded blocks as parts of the entry arrays -/

variable (V : (c : Dev nD) → (b : Ref sig .tc) → Buf (Elt Ideal) ((c : Thread nD τ).loc b))

/-- The all-zero offset of a whole-block access. -/
theorem hz2 : (![0, 0] : Fin 2 → Nat) = fun _ => 0 := funext fun a => by fin_cases a <;> rfl

/-- The block numbers of the three windows, checked at each of the 8 grid points: the attention-output window and the
    output window sit on row block t and column block 0, the weight window on block (0, 0) throughout. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Entry (p, k) of the first block at point t is entry (1024 t + p, k) of the attention-output array. -/
theorem iblk2_0_apply (c : Dev nD) (t : Fin cfg2.N) (p : Fin 1024) (k : Fin 768) (i : S8192x768.Idx)
    (hi0 : (i 0).val = t.val * 1024 + p.val) (hi1 : (i 1).val = k.val) :
    (iblk2 (F := Ideal) V c 0 t : Vec Ideal S1024x768 .bf16) (ValueIdx.ix2 p k) = (V c main_v8 : S8192x768.Idx → EReal) i := by
  obtain ⟨e0, e1, -⟩ := idx_facts2 t
  show (V c main_v8 : S8192x768.Idx → EReal) (((cfg2.win 0).blk t).view.emb (ValueIdx.ix2 p k)) = _
  refine congrArg _ (funext fun a => Fin.ext ?_)
  match a with
  | ⟨0, _⟩ => show win2_0.index t (0 : Fin 2) * 1024 + 1 * p.val = (i 0).val; omega
  | ⟨1, _⟩ => show win2_0.index t (1 : Fin 2) * 768 + 1 * k.val = (i 1).val; omega

/-- The second block at point t is the weight array itself, entry for entry. -/
theorem iblk2_1_apply (c : Dev nD) (t : Fin cfg2.N) (k : Fin 768) (q : Fin 768) :
    (iblk2 (F := Ideal) V c 1 t : Vec Ideal S768x768 .bf16) (ValueIdx.ix2 k q) = (V c main_v4 : S768x768.Idx → EReal) (ValueIdx.ix2 k q) := by
  obtain ⟨-, -, e0, e1, -⟩ := idx_facts2 t
  show (V c main_v4 : S768x768.Idx → EReal) (((cfg2.win 1).blk t).view.emb (ValueIdx.ix2 k q)) = _
  refine congrArg _ (funext fun a => Fin.ext ?_)
  match a with
  | ⟨0, _⟩ => show win2_1.index t (0 : Fin 2) * 768 + 1 * k.val = k.val; omega
  | ⟨1, _⟩ => show win2_1.index t (1 : Fin 2) * 768 + 1 * q.val = q.val; omega

/-! ## Step 3: the block written back at a point -/

/-- The block written back at point t is prod2 read through the output window's block t: at (p, q) the payload is
    Σ_k A (1024 t + p, k) · W (k, q), which is prod2 at (1024 t + p, q), the place (p, q) of block t lands on. -/
theorem flushed2_eq (c : Dev nD) (t : Fin cfg2.N) :
    (dat2 (F := Ideal) V c).flushed 2 t = ((cfg2.win 2).blk t).view.read (Elt Ideal) (prod2 (V c main_v8) (V c main_v4)) := by
  show (cfg2.win 2).cut (grid2.coords t) ((dat2 (F := Ideal) V c).after 2 t) = _
  rw [after2_2]
  unfold out2_2
  rw [View.canon_unit_zero hz2]
  simp only [View.ld_unit_zero (S := S1024x768) hz2, View.ld_unit_zero (S := S768x768) hz2]
  funext j
  obtain ⟨p, q, rfl⟩ : ∃ (p : Fin 1024) (q : Fin 768), j = ValueIdx.ix2 p q := ⟨j 0, j 1, ValueIdx.eq_ix2 j⟩
  obtain ⟨-, -, -, -, e0, e1⟩ := idx_facts2 t
  show k2_pay1 (F := Ideal) (iblk2 (F := Ideal) V c 0 t) (iblk2 (F := Ideal) V c 1 t) (ValueIdx.ix2 p q)
    = prod2 (V c main_v8) (V c main_v4) (((cfg2.win 2).blk t).view.emb (ValueIdx.ix2 p q))
  refine (call2_pay_apply (iblk2 (F := Ideal) V c 0 t) (iblk2 (F := Ideal) V c 1 t) p q).trans ?_
  unfold prod2
  refine Finset.sum_congr rfl fun k _ => ?_
  have hrow : ((((cfg2.win 2).blk t).view.emb (ValueIdx.ix2 p q)) 0).val = t.val * 1024 + p.val := by
    show win2_2.index t (0 : Fin 2) * 1024 + 1 * p.val = _; omega
  have hcol : ((((cfg2.win 2).blk t).view.emb (ValueIdx.ix2 p q)) 1) = q := Fin.ext (by
    show win2_2.index t (1 : Fin 2) * 768 + 1 * q.val = _; omega)
  rw [iblk2_0_apply V c t p k (ValueIdx.ix2 ((((cfg2.win 2).blk t).view.emb (ValueIdx.ix2 p q)) 0) k) hrow rfl,
    iblk2_1_apply V c t k q, hcol]

/-! ## Step 4: the written blocks cover the output array -/

/-- Membership in the output window's block t, axis by axis: coordinate a lies in the half-open range that starts at
    the block number times the block's extent and has the block's extent as its length. -/
theorem mem_blk2 (t : Fin cfg2.N) (i : S8192x768.Idx) :
    i ∈ ((cfg2.win 2).blk t).view.set ↔ ∀ a : Fin 2, win2_2.index t a * S1024x768.size a ≤ (i a).val ∧ (i a).val < win2_2.index t a * S1024x768.size a + S1024x768.size a := by
  show i ∈ ((View.whole main_v9).slice (win2_2.rect t)).set ↔ _
  rw [View.set_slice_whole, Rect.mem_set_unit]
  exact Iff.rfl

/-- Row r of the output array belongs to the block of point r / 1024 (below 8 since r < 8192), which is written back;
    every column belongs to column block 0, whose extent is the whole width. -/
theorem cover2 (i : S8192x768.Idx) : ∃ t : Fin cfg2.N, (cfg2.win 2).flush t = true ∧ i ∈ ((cfg2.win 2).blk t).view.set := by
  have hr : (i 0).val < 8192 := (i 0).isLt
  have hs : (i 1).val < 768 := (i 1).isLt
  have ht : (i 0).val / 1024 < cfg2.N := by rw [show cfg2.N = 8 from N_2]; omega
  obtain ⟨-, -, -, -, e0, e1⟩ := idx_facts2 ⟨(i 0).val / 1024, ht⟩
  refine ⟨⟨(i 0).val / 1024, ht⟩, flush2_2 _, ?_⟩
  rw [mem_blk2]
  intro a
  match a with
  | ⟨0, _⟩ =>
    show win2_2.index ⟨(i 0).val / 1024, ht⟩ (0 : Fin 2) * 1024 ≤ (i 0).val ∧ (i 0).val < win2_2.index ⟨(i 0).val / 1024, ht⟩ (0 : Fin 2) * 1024 + 1024
    rw [e0]; show (i 0).val / 1024 * 1024 ≤ (i 0).val ∧ (i 0).val < (i 0).val / 1024 * 1024 + 1024; omega
  | ⟨1, _⟩ =>
    show win2_2.index ⟨(i 0).val / 1024, ht⟩ (1 : Fin 2) * 768 ≤ (i 1).val ∧ (i 1).val < win2_2.index ⟨(i 0).val / 1024, ht⟩ (1 : Fin 2) * 768 + 768
    rw [e1]; omega

/-! ## Step 5: the three arrays after the call -/

/-- The output array after all 8 grid points is A · W: every written block is the matching block of prod2, and the
    written blocks cover the array. -/
theorem arrAt2 (c : Dev nD) :
    (dat2 (F := Ideal) V c).arrAt 2 cfg2.N = prod2 (V c main_v8) (V c main_v4) :=
  (dat2 (F := Ideal) V c).arrAt_eq_of_cover 2 (prod2 (V c main_v8) (V c main_v4)) (fun t _ => flushed2_eq V c t) cover2

/-- The attention-output array is an input window's array: it keeps its entry contents. -/
theorem arrAt2_in0 (c : Dev nD) : (dat2 (F := Ideal) V c).arrAt 0 cfg2.N = V c main_v8 :=
  ((dat2 (F := Ideal) V c).arrAt_in 0 rfl cfg2.N).trans (A_eq2 V c 0)

/-- So does the weight array. -/
theorem arrAt2_in1 (c : Dev nD) : (dat2 (F := Ideal) V c).arrAt 1 cfg2.N = V c main_v4 :=
  ((dat2 (F := Ideal) V c).arrAt_in 1 rfl cfg2.N).trans (A_eq2 V c 1)

end Cert.KernelIdeal.HandValue

end
-- ==== Proof.RowFacts.lean ====
/-
  The facts the online-softmax law needs of a row of the reference's attention stage, over a packed projection P all
  of whose entries are real numbers: a finite sum of products of reals is real; a row's masked scaled scores are real
  on and below the diagonal (a real sum divided by the real 16) and −∞ above it; the value columns are real; column 0
  is never masked. With these, the online form over the blocks 0 … qb of 512 columns of row qb·512 + r is the whole-row
  form over that row: every column from (qb+1)·512 on lies above the diagonal.
-/
import proofs.«428345_j25692494364785_3_alg».proof.Proof.RefRow
import proofs.«428345_j25692494364785_3_alg».proof.Proof.RowJoin

noncomputable section

namespace Cert.ReferenceIdeal.RefRow

open Cert.ReferenceIdeal Idealize.ShloMosaic

/-- A finite sum of products of real numbers is a real number. -/
theorem sum_mul_real {ι : Type} [Fintype ι] (x y : ι → EReal) (hx : ∀ i, ∃ r : ℝ, x i = (r : EReal))
    (hy : ∀ i, ∃ r : ℝ, y i = (r : EReal)) : ∃ r : ℝ, ∑ i, x i * y i = (r : EReal) := by
  choose xr hxr using hx
  choose yr hyr using hy
  refine ⟨∑ i, xr i * yr i, ?_⟩
  rw [Cert.Softmax.coe_sum]
  exact Finset.sum_congr rfl fun i _ => by rw [hxr i, hyr i, EReal.coe_mul]

variable {P : S4x2048x2304.Idx → EReal}

/-- On and below the diagonal a row's score is a real number: a real sum divided by the real 16. -/
theorem rowScore_real_of_le (hP : ∀ i, ∃ r : ℝ, P i = (r : EReal)) (b : Fin 4) (h : Fin 3) (q m : Fin 2048)
    (hle : m.val ≤ q.val) : ∃ r : ℝ, rowScore P b h q m = (r : EReal) := by
  obtain ⟨t, ht⟩ := sum_mul_real (fun k : Fin 256 => P (ValueIdx.ix3 b q (chan 0 (by omega) h k)))
    (fun k : Fin 256 => P (ValueIdx.ix3 b m (chan 768 (by omega) h k))) (fun _ => hP _) (fun _ => hP _)
  refine ⟨t * (1 / 16 : ℝ), ?_⟩
  show (if m.val ≤ q.val then Ideal.div (∑ k : Fin 256, P (ValueIdx.ix3 b q (chan 0 (by omega) h k))
    * P (ValueIdx.ix3 b m (chan 768 (by omega) h k))) ((16 : ℝ) : EReal) else ⊥) = _
  rw [if_pos hle, ht, Ideal.div_coe (by norm_num : (16 : ℝ) ≠ 0), EReal.coe_mul]

/-- Every score of a row is −∞ or a real number. -/
theorem rowScore_real_or_bot (hP : ∀ i, ∃ r : ℝ, P i = (r : EReal)) (b : Fin 4) (h : Fin 3) (q : Fin 2048) :
    ∀ m, rowScore P b h q m = ⊥ ∨ ∃ r : ℝ, rowScore P b h q m = (r : EReal) := by
  intro m
  by_cases hle : m.val ≤ q.val
  · exact Or.inr (rowScore_real_of_le hP b h q m hle)
  · left
    show (if m.val ≤ q.val then _ else ⊥) = ⊥
    rw [if_neg hle]

/-- Every entry of a value column is a real number. -/
theorem rowVal_real (hP : ∀ i, ∃ r : ℝ, P i = (r : EReal)) (b : Fin 4) (h : Fin 3) (k : Fin 256) :
    ∀ m, ∃ r : ℝ, rowVal P b h k m = (r : EReal) :=
  fun _ => hP _

/-- Above the diagonal the score is −∞. -/
theorem rowScore_masked (b : Fin 4) (h : Fin 3) (q m : Fin 2048) (hm : q.val < m.val) : rowScore P b h q m = ⊥ := by
  show (if m.val ≤ q.val then _ else ⊥) = ⊥
  rw [if_neg (by omega)]

/-- Column 0 is on or below the diagonal of every row: its score is not −∞. -/
theorem rowScore_zero_ne_bot (hP : ∀ i, ∃ r : ℝ, P i = (r : EReal)) (b : Fin 4) (h : Fin 3) (q : Fin 2048) :
    rowScore P b h q ⟨0, by omega⟩ ≠ ⊥ := by
  obtain ⟨r, hr⟩ := rowScore_real_of_le hP b h q ⟨0, by omega⟩ (Nat.zero_le _)
  rw [hr]
  exact EReal.coe_ne_bot r

/-- The online form over blocks 0 … qb of row qb·512 + r is the whole-row form over that row. -/
theorem onlAvg_row (hP : ∀ i, ∃ r : ℝ, P i = (r : EReal)) (b : Fin 4) (h : Fin 3) (qb : Fin 4) (r : Fin 512)
    (k : Fin 256) :
    Cert.Softmax.onlAvg (n := qb.val) (B := 512)
        (fun j cc => rowScore P b h ⟨qb.val * 512 + r.val, by omega⟩ (Cert.Softmax.col qb.val qb.isLt (j, cc)))
        (fun j cc => rowVal P b h k (Cert.Softmax.col qb.val qb.isLt (j, cc)))
      = Cert.Softmax.softAvg (rowScore P b h ⟨qb.val * 512 + r.val, by omega⟩) (rowVal P b h k) :=
  Cert.Softmax.onlAvg_blocks qb.val qb.isLt (rowScore P b h ⟨qb.val * 512 + r.val, by omega⟩) (rowVal P b h k)
    (rowScore_real_or_bot hP b h _) (rowVal_real hP b h k)
    (fun m hm => rowScore_masked b h _ m (by
      have h1 := r.isLt
      show qb.val * 512 + r.val < m.val
      omega))
    (rowScore_zero_ne_bot hP b h _)

end Cert.ReferenceIdeal.RefRow

end
-- ==== Proof.Finite.lean ====
/-
  From the precondition to real numbers. The printed precondition is the conjunction of three tests, one per argument
  array: every entry's absolute value is below +∞. On the extended reals |x| = max x (−x) < +∞ excludes both
  infinities, so every entry of every argument is a real number — which is what the algebra of the softmax needs
  (exponentials of differences multiply, and a division by a positive real sum distributes over a finite sum, only
  among reals).
-/
import proofs.«428345_j25692494364785_3_alg».proof.Pre_finite_inputs
import proofs.«428345_j25692494364785_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx
import Idealize.ShloMosaic.Lib.Affine
import Idealize.ShloMosaic.Lib.Pipeline.Value

noncomputable section

namespace Cert.Finite

open Idealize.ShloMosaic Cert.Pre_finite_inputs Cert.Pre_finite_inputs.Gen

instance : Subsingleton S_.Idx := ⟨fun a b => funext fun d => d.elim0⟩

/-- The pattern of +∞. -/
theorem ofBits_inf : Ideal.ofBits .f32 0x7F800000#32 = (⊤ : EReal) := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Every entry of the three argument arrays is a real number, given the printed precondition. -/
theorem real_of_pre (x0 : FVec Ideal S4x2048x768 .f32) (x1 : FVec Ideal S2304x768 .f32) (x2 : FVec Ideal S768x768 .f32)
    (h : Cert.Pre_finite_inputs.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have e := congrFun h ValueIdx.ix0
  dsimp only [Cert.Pre_finite_inputs.fn] at e
  obtain ⟨e01, e2⟩ := IntOp.andi_eq_one.1 e
  obtain ⟨e0, e1⟩ := IntOp.andi_eq_one.1 e01
  refine ⟨fun i => ?_, fun i => ?_, fun i => ?_⟩
  · have := Host.reduce_andi_all _ _ _ _ _ e0 i
    exact real_of_abs_lt (x0 i) this
  · have := Host.reduce_andi_all _ _ _ _ _ e1 i
    exact real_of_abs_lt (x1 i) this
  · have := Host.reduce_andi_all _ _ _ _ _ e2 i
    exact real_of_abs_lt (x2 i) this

end Cert.Finite

end
-- ==== Proof.Bridge.lean ====
/-
  The kernel's result is the reference's, stage by stage, at the ideal instance.
  Call 0's output, regrouped by batch, is the reference's packed projection P[b, w, n] = Σ_k x[b, w, k] · W_qkv[n, k]: both
  are that sum, the kernel's over the reshaped input's row b·2048 + w and the transposed weight. With real inputs P is
  real, so for every row the online average the attention call computes over the key blocks it visits is the
  whole-row softmax average, which is the reference's attention stage A[b, w, h·256 + k]. Call 2's output, regrouped,
  is Σ_c A[b, w, c] · W_proj[d, c], the reference's last product.
-/
import proofs.«428345_j25692494364785_3_alg».proof.Proof.HostAt
import proofs.«428345_j25692494364785_3_alg».proof.Proof.Val0
import proofs.«428345_j25692494364785_3_alg».proof.Proof.Val2
import proofs.«428345_j25692494364785_3_alg».proof.Proof.Blk1
import proofs.«428345_j25692494364785_3_alg».proof.Proof.RefRow
import proofs.«428345_j25692494364785_3_alg».proof.Proof.RowFacts
import proofs.«428345_j25692494364785_3_alg».proof.Proof.Finite

set_option maxRecDepth 16384

noncomputable section

namespace Cert.KernelIdeal.HandValue

open Cert.KernelIdeal Cert.KernelIdeal.Gen Cert.KernelIdeal.Hand
open Idealize.ShloMosaic Idealize.ShloMosaic.TcCoe Idealize.SL.Sem
open Cert.ReferenceIdeal.Read (val_main_v0 val_main_v30 val_main_v31 val_main_v0_apply val_main_v31_apply)
open Cert.ReferenceIdeal.RefRow (rowScore rowVal onlAvg_row val_main_v30_at sum_mul_real)

/-- An index of a [4, 2048, 768] array: batch, query block and row in it, head and channel in it. -/
theorem idx_decomp (i : S4x2048x768.Idx) : ∃ (b : Fin 4) (qb : Fin 4) (r : Fin 512) (h : Fin 3) (k : Fin 256)
    (hq : qb.val * 512 + r.val < 2048) (hc : h.val * 256 + k.val < 768),
    i = ValueIdx.ix3 b ⟨qb.val * 512 + r.val, hq⟩ ⟨h.val * 256 + k.val, hc⟩ := by
  have hi1 : (i 1).val < 2048 := (i 1).isLt
  have hi2 : (i 2).val < 768 := (i 2).isLt
  refine ⟨i 0, ⟨(i 1).val / 512, by omega⟩, ⟨(i 1).val % 512, by omega⟩, ⟨(i 2).val / 256, by omega⟩, ⟨(i 2).val % 256, by omega⟩,
    by show (i 1).val / 512 * 512 + (i 1).val % 512 < 2048; omega, by show (i 2).val / 256 * 256 + (i 2).val % 256 < 768; omega, ?_⟩
  funext a
  refine Fin.ext ?_
  match a with
  | ⟨0, _⟩ => rfl
  | ⟨1, _⟩ => show (i 1).val = (i 1).val / 512 * 512 + (i 1).val % 512; omega
  | ⟨2, _⟩ => show (i 2).val = (i 2).val / 256 * 256 + (i 2).val % 256; omega

/-- The two matrix products at an index, over arrays of literal types. -/
theorem prod0_apply (X : S8192x768.Idx → EReal) (W : S768x2304.Idx → EReal) (ρ : Fin 8192) (n : Fin 2304) :
    prod0 X W (ValueIdx.ix2 ρ n) = ∑ k : Fin 768, X (ValueIdx.ix2 ρ k) * W (ValueIdx.ix2 k n) := rfl
theorem prod2_apply (X : S8192x768.Idx → EReal) (W : S768x768.Idx → EReal) (ρ : Fin 8192) (d : Fin 768) :
    prod2 X W (ValueIdx.ix2 ρ d) = ∑ k : Fin 768, X (ValueIdx.ix2 ρ k) * W (ValueIdx.ix2 k d) := rfl

variable (m : (ℓ : Loc nD τ sig) → Buf (Elt Ideal) ℓ) (c : Dev nD)

/-! ## Call 0: the packed projection -/

/-- Entry (b, w, n) of the array call 1 reads is the reference's packed projection there. -/
theorem packed_at (b : Fin 4) (w : Fin 2048) (n : Fin 2304) :
    (B3 (F := Ideal) m c main_v6 : S4x2048x2304.Idx → EReal) (ValueIdx.ix3 b w n)
      = (val_main_v0 (F := Ideal) (xin0 m c) (xin1 m c) : S4x2048x2304.Idx → EReal) (ValueIdx.ix3 b w n) := by
  have hρ : b.val * 2048 + w.val < 8192 := by have := b.isLt; have := w.isLt; omega
  rw [B3_v6_at m c b w n ⟨b.val * 2048 + w.val, hρ⟩ rfl]
  rw [show (out0 (F := Ideal) m c : S8192x2304.Idx → EReal)
      = prod0 (B1 (F := Ideal) m c main_v0) (B1 (F := Ideal) m c main_v2) from arrAt0 (fun c b => B1 (F := Ideal) m c b) c]
  refine ((prod0_apply _ _ ⟨b.val * 2048 + w.val, hρ⟩ n).trans ?_).trans (val_main_v0_apply (xin0 m c) (xin1 m c) (ValueIdx.ix3 b w n)).symm
  refine Finset.sum_congr rfl fun k _ => ?_
  rw [B1_v0_at m c ⟨b.val * 2048 + w.val, hρ⟩ k b w rfl, B1_v2_at m c k n]
  exact congrArg₂ (· * ·)
    (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

/-- The array call 1 reads is the reference's packed projection of the two arguments. -/
theorem packed_eq : (B3 (F := Ideal) m c main_v6 : S4x2048x2304.Idx → EReal)
    = val_main_v0 (F := Ideal) (xin0 m c) (xin1 m c) := by
  funext i
  obtain ⟨b, w, n, rfl⟩ : ∃ (b : Fin 4) (w : Fin 2048) (n : Fin 2304), i = ValueIdx.ix3 b w n := ⟨i 0, i 1, i 2, ValueIdx.eq_ix3 i⟩
  exact packed_at m c b w n

/-- With real arguments the packed projection is real: a finite sum of products of reals. -/
theorem packed_real (h0 : ∀ i, ∃ r : ℝ, xin0 m c i = (r : EReal)) (h1 : ∀ i, ∃ r : ℝ, xin1 m c i = (r : EReal)) :
    ∀ i : S4x2048x2304.Idx, ∃ r : ℝ, (val_main_v0 (F := Ideal) (xin0 m c) (xin1 m c) : S4x2048x2304.Idx → EReal) i = (r : EReal) := fun i => by
  rw [val_main_v0_apply]
  exact sum_mul_real _ _ (fun k => h0 _) (fun k => h1 _)

/-! ## Call 1: the attention stage -/

section Attn

-- What call 1 leaves in its output array, entry by entry: the online average over the key blocks the row's query block
-- visits (the trajectory of the scratch along the pair axis; proved where the trajectory is).
variable (hA1 : ∀ (V : (c : Dev nD) → (b : Ref sig .tc) → Buf (Elt Ideal) ((c : Thread nD τ).loc b)) (c : Dev nD)
    (b : Fin 4) (qb : Fin 4) (r : Fin 512) (h : Fin 3) (k : Fin 256) (hq : qb.val * 512 + r.val < 2048) (hc : h.val * 256 + k.val < 768),
    ((dat1 (F := Ideal) V c).arrAt 3 NA : S4x2048x768.Idx → EReal) (ValueIdx.ix3 b ⟨qb.val * 512 + r.val, hq⟩ ⟨h.val * 256 + k.val, hc⟩)
      = Cert.Softmax.onlAvg (n := qb.val) (B := 512)
          (fun j cc => rowScore (V c main_v6) b h ⟨qb.val * 512 + r.val, hq⟩ (Cert.Softmax.col qb.val qb.isLt (j, cc)))
          (fun j cc => rowVal (V c main_v6) b h k (Cert.Softmax.col qb.val qb.isLt (j, cc))))

include hA1 in
/-- Call 1's output at an index is the reference's attention stage there. -/
theorem attn_at (h0 : ∀ i, ∃ r : ℝ, xin0 m c i = (r : EReal)) (h1 : ∀ i, ∃ r : ℝ, xin1 m c i = (r : EReal)) (i : S4x2048x768.Idx) :
    (out1 (F := Ideal) m c : S4x2048x768.Idx → EReal) i = (val_main_v30 (F := Ideal) (xin0 m c) (xin1 m c) : S4x2048x768.Idx → EReal) i := by
  obtain ⟨b, qb, r, h, k, hq, hc, rfl⟩ := idx_decomp i
  have e := hA1 (fun c b => B3 (F := Ideal) m c b) c b qb r h k hq hc
  refine Eq.trans (e : _) ?_
  rw [packed_eq m c]
  have hrow := onlAvg_row (packed_real m c h0 h1) b h qb r k
  refine Eq.trans (hrow : _) ?_
  exact (val_main_v30_at (xin0 m c) (xin1 m c) b ⟨qb.val * 512 + r.val, hq⟩ h k).symm

/-! ## Call 2: the result -/

include hA1 in
/-- Entry (b, w, d) of the array @main returns is the reference's result there. -/
theorem result_at (h0 : ∀ i, ∃ r : ℝ, xin0 m c i = (r : EReal)) (h1 : ∀ i, ∃ r : ℝ, xin1 m c i = (r : EReal))
    (b : Fin 4) (w : Fin 2048) (d : Fin 768) :
    (B7 (F := Ideal) m c main_v10 : S4x2048x768.Idx → EReal) (ValueIdx.ix3 b w d)
      = (val_main_v31 (F := Ideal) (xin0 m c) (xin1 m c) (xin2 m c) : S4x2048x768.Idx → EReal) (ValueIdx.ix3 b w d) := by
  have hρ : b.val * 2048 + w.val < 8192 := by have := b.isLt; have := w.isLt; omega
  rw [B7_v10_at m c b w d ⟨b.val * 2048 + w.val, hρ⟩ rfl]
  rw [show (out2 (F := Ideal) m c : S8192x768.Idx → EReal)
      = prod2 (B5 (F := Ideal) m c main_v8) (B5 (F := Ideal) m c main_v4) from arrAt2 (fun c b => B5 (F := Ideal) m c b) c]
  refine ((prod2_apply _ _ ⟨b.val * 2048 + w.val, hρ⟩ d).trans ?_).trans (val_main_v31_apply (xin0 m c) (xin1 m c) (xin2 m c) (ValueIdx.ix3 b w d)).symm
  refine Finset.sum_congr rfl fun k _ => ?_
  rw [B5_v8_at m c ⟨b.val * 2048 + w.val, hρ⟩ k b w rfl, attn_at m c hA1 h0 h1, B5_v4 m c, B1_v4_at m c k d]
  exact congrArg₂ (· * ·)
    (congrArg _ (funext fun a => Fin.ext (by match a with | ⟨0, _⟩ => rfl | ⟨1, _⟩ => rfl | ⟨2, _⟩ => rfl)))
    (congrArg _ (funext fun a => Fin.ext (by match a with | ⟨0, _⟩ => rfl | ⟨1, _⟩ => rfl)))

include hA1 in
/-- The array @main returns is the reference's result. -/
theorem result_eq (h0 : ∀ i, ∃ r : ℝ, xin0 m c i = (r : EReal)) (h1 : ∀ i, ∃ r : ℝ, xin1 m c i = (r : EReal)) :
    (B7 (F := Ideal) m c main_v10 : S4x2048x768.Idx → EReal) = val_main_v31 (F := Ideal) (xin0 m c) (xin1 m c) (xin2 m c) := by
  funext i
  obtain ⟨b, w, d, rfl⟩ : ∃ (b : Fin 4) (w : Fin 2048) (d : Fin 768), i = ValueIdx.ix3 b w d := ⟨i 0, i 1, i 2, ValueIdx.eq_ix3 i⟩
  exact result_at m c hA1 h0 h1 b w d

end Attn

end Cert.KernelIdeal.HandValue

end
-- ==== Proof.lean ====
/-
  The certificate of the causal-attention kernel against its reference.
  The kernel is three calls: the packed projection X · W_qkvᵀ, causal attention over the triangular (query block, key
  block) pair axis with an online softmax carried in scratch, and the output projection. Each call's frame is its
  pipeline's launch over proof data that name what every output block holds after the body (for the attention call: the
  scratch's trajectory along the pair axis in its invariant, the two literal block tables pinned, the output window idle off
  the diagonal); @main's host operations only regroup rows and transpose the weights.
  Over the extended reals the kernel's result is the reference's: the projection is the same sum; for real inputs the
  online average over the key blocks a query block visits is the whole-row softmax average (the rescalings
  exp(old maximum − new maximum) telescope, a masked column contributes exp(−∞) = 0, and division by the positive real row
  sum distributes over the finite sum) — the kernel's finite mask fill is named −∞, and its factor 1/16 is the
  reference's division by 16; the last product is the same sum again. The precondition (every input entry finite) is
  used exactly there: it makes every entry a real number.
-/
import proofs.«428345_j25692494364785_3_alg».proof.Defs
import proofs.«428345_j25692494364785_3_alg».proof.Proof.Gen.Kernel
import proofs.«428345_j25692494364785_3_alg».proof.Proof.Gen.Kernel.Skeleton
import proofs.«428345_j25692494364785_3_alg».proof.Proof.Gen.Kernel.Launch
import proofs.«428345_j25692494364785_3_alg».proof.Proof.Gen.Kernel.Regions
import proofs.«428345_j25692494364785_3_alg».proof.Proof.Gen.Kernel.Points
import proofs.«428345_j25692494364785_3_alg».proof.Proof.Gen.KernelIdeal
import proofs.«428345_j25692494364785_3_alg».proof.Proof.Gen.KernelIdeal.Skeleton
import proofs.«428345_j25692494364785_3_alg».proof.Proof.Gen.KernelIdeal.Launch
import proofs.«428345_j25692494364785_3_alg».proof.Proof.Gen.KernelIdeal.Regions
import proofs.«428345_j25692494364785_3_alg».proof.Proof.Gen.KernelIdeal.Points
import proofs.«428345_j25692494364785_3_alg».proof.Proof.Gen.ReferenceIdeal
import proofs.«428345_j25692494364785_3_alg».proof.Proof.Gen.ReferenceIdeal.Run
import proofs.«428345_j25692494364785_3_alg».proof.Proof.Gen.ReferenceIdeal.Read
import proofs.«428345_j25692494364785_3_alg».proof.Proof.Gen.Pre_finite_inputs
import proofs.«428345_j25692494364785_3_alg».proof.Proof.Segs
import proofs.«428345_j25692494364785_3_alg».proof.Proof.KSegs
import proofs.«428345_j25692494364785_3_alg».proof.Proof.Val1
import proofs.«428345_j25692494364785_3_alg».proof.Proof.Bridge
import proofs.«428345_j25692494364785_3_alg».proof.Proof.Finite
import Idealize.ShloMosaic.Adequacy
import Idealize.ShloMosaic.Init
import Idealize.ShloMosaic.PureOps.IdealRules

noncomputable section

namespace Cert.Proof

open Idealize.ShloMosaic Idealize.SL.Sem

/-- The bit-level kernel runs and leaves its arguments as launched: its run, the result forgotten. -/
theorem frame_k : Cert.frame_Kernel := fun m ρ _ =>
  (θ_run (Cert.Kernel.defs (F := Bits)) _ _).mono (fun _ h c => (h c).2) (Cert.Kernel.Hand.run_main (F := Bits) m ρ)

/-- The idealized kernel likewise. -/
theorem frame_ki : Cert.frame_KernelIdeal := fun m ρ _ =>
  (θ_run (Cert.KernelIdeal.defs (F := Ideal)) _ _).mono (fun _ h c => (h c).2) (Cert.KernelIdeal.Hand.run_main (F := Ideal) m ρ)

/-- The reference is host operations only: its run read back, the result forgotten. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The one rewrite of the ideal pass: the mask's finite fill is named −∞ by the certificate's table. -/
theorem preserves : Cert.preserves_Kernel_KernelIdeal :=
  IdealRules.named_const.statement Cert.KernelIdeal.κ "neg_big" .f32 0xFF333332#32 ⊥ rfl

/-- Both idealized programs end at the reference's last stage of the (agreeing) arguments. -/
theorem algebraic : Cert.algebraic_KernelIdeal_ReferenceIdeal := by
  intro m ρ m' ρ' hpre hagree
  refine ⟨fun c => Cert.ReferenceIdeal.Read.val_main_v31 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run (Cert.KernelIdeal.defs (F := Ideal)) _ _).mono (fun _ h c => ⟨(h c).1.trans ?_, (h c).2⟩)
      (Cert.KernelIdeal.Hand.run_main (F := Ideal) m ρ)
    obtain ⟨h0, h1, -⟩ := Cert.Finite.real_of_pre _ _ _ (hpre c)
    exact Cert.KernelIdeal.HandValue.result_eq m c (Cert.KernelIdeal.HandValue.arrAt1_at) h0 h1
  · refine (θ_run (Cert.ReferenceIdeal.defs (F := Ideal)) _ _).mono (fun _ h c => ⟨(h c).1.trans ?_, (h c).2⟩)
      (Cert.ReferenceIdeal.Value.run (F := Ideal) m' ρ')
    rw [Cert.ReferenceIdeal.Read.val_main_v31_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
